-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x1024 : Shape := ⟨3, ![2, 1, 1024]⟩
abbrev S1x2048 : Shape := ⟨2, ![1, 2048]⟩
abbrev S64x2048 : Shape := ⟨2, ![64, 2048]⟩
abbrev S50257x1024 : Shape := ⟨2, ![50257, 1024]⟩
abbrev S64x3072 : Shape := ⟨2, ![64, 3072]⟩
abbrev S64 : Shape := ⟨1, ![64]⟩
abbrev S1024x3072 : Shape := ⟨2, ![1024, 3072]⟩
abbrev S1024 : Shape := ⟨1, ![1024]⟩
abbrev S3072x1024 : Shape := ⟨2, ![3072, 1024]⟩
abbrev S3072 : Shape := ⟨1, ![3072]⟩
abbrev S50257x2048 : Shape := ⟨2, ![50257, 2048]⟩
abbrev S50257 : Shape := ⟨1, ![50257]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S64x3072 : S_.BroadcastsInDim S64x3072 (![] : Fin 0 → Fin S64x3072.rank)
  reducesTo_S64x3072_S_d0_1 : S64x3072.ReducesTo [0, 1] S_
  bcast_S_S64 : S_.BroadcastsInDim S64 (![] : Fin 0 → Fin S64.rank)
  reducesTo_S64_S_d0 : S64.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257x2048 : S_.BroadcastsInDim S50257x2048 (![] : Fin 0 → Fin S50257x2048.rank)
  reducesTo_S50257x2048_S_d0_1 : S50257x2048.ReducesTo [0, 1] S_
  bcast_S_S50257 : S_.BroadcastsInDim S50257 (![] : Fin 0 → Fin S50257.rank)
  reducesTo_S50257_S_d0 : S50257.ReducesTo [0] S_

variable [Facts]

def fn_part5 {F : FTy → Type} [FloatOps F] (main_v83 : IVec S_ 1) (main_v84 : FVec F S50257 .f32) (main_cst_32 : FVec F S_ .f32) : IVec S_ 1 :=
  let main_v85 : FVec F S50257 .f32 := broadcastInDim S50257 ![] bcast_S_S50257 main_cst_32
  let main_v86 : IVec S50257 1 := cmpf .olt main_v84 main_v85
  let main_c_33 : IVec S_ 1 := constantI S_ 1 1#1
  let main_v87 : IVec S_ 1 := (fun x v => Host.reduce IntOp.andi x v reducesTo_S50257_S_d0 h_S_) main_v86 main_c_33
  let main_v88 : IVec S_ 1 := andi main_v83 main_v87
  main_v88

def fn_part4 {F : FTy → Type} [FloatOps F] (main_arg15 : FVec F S3072 .f32) (main_arg16 : FVec F S3072 .f32) (main_arg17 : FVec F S50257x2048 .f32) (main_arg18 : FVec F S50257 .f32) (main_v63 : IVec S_ 1) (main_v67 : IVec S_ 1) : IVec S_ 1 :=
  let main_v68 : IVec S_ 1 := andi main_v63 main_v67
  let main_v69 : FVec F S3072 .f32 := Host.absf main_arg15
  let main_cst_26 : FVec F S_ .f32 := constant S_ .f32 0x7F800000#32
  let main_v70 : FVec F S3072 .f32 := broadcastInDim S3072 ![] bcast_S_S3072 main_cst_26
  let main_v71 : IVec S3072 1 := cmpf .olt main_v69 main_v70
  let main_c_27 : IVec S_ 1 := constantI S_ 1 1#1
  let main_v72 : IVec S_ 1 := (fun x v => Host.reduce IntOp.andi x v reducesTo_S3072_S_d0 h_S_) main_v71 main_c_27
  let main_v73 : IVec S_ 1 := andi main_v68 main_v72
  let main_v74 : FVec F S3072 .f32 := Host.absf main_arg16
  let main_cst_28 : FVec F S_ .f32 := constant S_ .f32 0x7F800000#32
  let main_v75 : FVec F S3072 .f32 := broadcastInDim S3072 ![] bcast_S_S3072 main_cst_28
  let main_v76 : IVec S3072 1 := cmpf .olt main_v74 main_v75
  let main_c_29 : IVec S_ 1 := constantI S_ 1 1#1
  let main_v77 : IVec S_ 1 := (fun x v => Host.reduce IntOp.andi x v reducesTo_S3072_S_d0 h_S_) main_v76 main_c_29
  let main_v78 : IVec S_ 1 := andi main_v73 main_v77
  let main_v79 : FVec F S50257x2048 .f32 := Host.absf main_arg17
  let main_cst_30 : FVec F S_ .f32 := constant S_ .f32 0x7F800000#32
  let main_v80 : FVec F S50257x2048 .f32 := broadcastInDim S50257x2048 ![] bcast_S_S50257x2048 main_cst_30
  let main_v81 : IVec S50257x2048 1 := cmpf .olt main_v79 main_v80
  let main_c_31 : IVec S_ 1 := constantI S_ 1 1#1
  let main_v82 : IVec S_ 1 := (fun x v => Host.reduce IntOp.andi x v reducesTo_S50257x2048_S_d0_1 h_S_) main_v81 main_c_31
  let main_v83 : IVec S_ 1 := andi main_v78 main_v82
  let main_v84 : FVec F S50257 .f32 := Host.absf main_arg18
  let main_cst_32 : FVec F S_ .f32 := constant S_ .f32 0x7F800000#32
  fn_part5 (F := F) main_v83 main_v84 main_cst_32

def fn_part3 {F : FTy → Type} [FloatOps F] (main_arg12 : FVec F S3072 .f32) (main_arg13 : FVec F S3072x1024 .f32) (main_arg14 : FVec F S3072x1024 .f32) (main_arg15 : FVec F S3072 .f32) (main_arg16 : FVec F S3072 .f32) (main_arg17 : FVec F S50257x2048 .f32) (main_arg18 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S3072 .f32 := Host.absf main_arg12
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  let main_v59 : FVec F S3072x1024 .f32 := Host.absf main_arg13
  let main_cst_22 : FVec F S_ .f32 := constant S_ .f32 0x7F800000#32
  let main_v60 : FVec F S3072x1024 .f32 := broadcastInDim S3072x1024 ![] bcast_S_S3072x1024 main_cst_22
  let main_v61 : IVec S3072x1024 1 := cmpf .olt main_v59 main_v60
  let main_c_23 : IVec S_ 1 := constantI S_ 1 1#1
  let main_v62 : IVec S_ 1 := (fun x v => Host.reduce IntOp.andi x v reducesTo_S3072x1024_S_d0_1 h_S_) main_v61 main_c_23
  let main_v63 : IVec S_ 1 := andi main_v58 main_v62
  let main_v64 : FVec F S3072x1024 .f32 := Host.absf main_arg14
  let main_cst_24 : FVec F S_ .f32 := constant S_ .f32 0x7F800000#32
  let main_v65 : FVec F S3072x1024 .f32 := broadcastInDim S3072x1024 ![] bcast_S_S3072x1024 main_cst_24
  let main_v66 : IVec S3072x1024 1 := cmpf .olt main_v64 main_v65
  let main_c_25 : IVec S_ 1 := constantI S_ 1 1#1
  let main_v67 : IVec S_ 1 := (fun x v => Host.reduce IntOp.andi x v reducesTo_S3072x1024_S_d0_1 h_S_) main_v66 main_c_25
  fn_part4 (F := F) main_arg15 main_arg16 main_arg17 main_arg18 main_v63 main_v67

def fn_part2 {F : FTy → Type} [FloatOps F] (main_arg8 : FVec F S1024 .f32) (main_arg9 : FVec F S3072x1024 .f32) (main_arg10 : FVec F S3072x1024 .f32) (main_arg11 : FVec F S3072 .f32) (main_arg12 : FVec F S3072 .f32) (main_arg13 : FVec F S3072x1024 .f32) (main_arg14 : FVec F S3072x1024 .f32) (main_arg15 : FVec F S3072 .f32) (main_arg16 : FVec F S3072 .f32) (main_arg17 : FVec F S50257x2048 .f32) (main_arg18 : FVec F S50257 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072x1024 .f32 := Host.absf main_arg10
  let main_cst_16 : FVec F S_ .f32 := constant S_ .f32 0x7F800000#32
  let main_v45 : FVec F S3072x1024 .f32 := broadcastInDim S3072x1024 ![] bcast_S_S3072x1024 main_cst_16
  let main_v46 : IVec S3072x1024 1 := cmpf .olt main_v44 main_v45
  let main_c_17 : IVec S_ 1 := constantI S_ 1 1#1
  let main_v47 : IVec S_ 1 := (fun x v => Host.reduce IntOp.andi x v reducesTo_S3072x1024_S_d0_1 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_arg14 main_arg15 main_arg16 main_arg17 main_arg18 main_v48 main_v49 main_v50

def fn_part1 {F : FTy → Type} [FloatOps F] (main_arg5 : FVec F S64x3072 .f32) (main_arg6 : FVec F S64 .f32) (main_arg7 : FVec F S1024x3072 .f32) (main_arg8 : FVec F S1024 .f32) (main_arg9 : FVec F S3072x1024 .f32) (main_arg10 : FVec F S3072x1024 .f32) (main_arg11 : FVec F S3072 .f32) (main_arg12 : FVec F S3072 .f32) (main_arg13 : FVec F S3072x1024 .f32) (main_arg14 : FVec F S3072x1024 .f32) (main_arg15 : FVec F S3072 .f32) (main_arg16 : FVec F S3072 .f32) (main_arg17 : FVec F S50257x2048 .f32) (main_arg18 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S64x3072 .f32 := Host.absf main_arg5
  let main_cst_6 : FVec F S_ .f32 := constant S_ .f32 0x7F800000#32
  let main_v20 : FVec F S64x3072 .f32 := broadcastInDim S64x3072 ![] bcast_S_S64x3072 main_cst_6
  let main_v21 : IVec S64x3072 1 := cmpf .olt main_v19 main_v20
  let main_c_7 : IVec S_ 1 := constantI S_ 1 1#1
  let main_v22 : IVec S_ 1 := (fun x v => Host.reduce IntOp.andi x v reducesTo_S64x3072_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1024x3072 .f32 := Host.absf main_arg7
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : IVec S1 32) (main_arg1 : FVec F S2x1x1024 .f32) (main_arg2 : FVec F S1x2048 .f32) (main_arg3 : FVec F S64x2048 .f32) (main_arg4 : FVec F S50257x1024 .f32) (main_arg5 : FVec F S64x3072 .f32) (main_arg6 : FVec F S64 .f32) (main_arg7 : FVec F S1024x3072 .f32) (main_arg8 : FVec F S1024 .f32) (main_arg9 : FVec F S3072x1024 .f32) (main_arg10 : FVec F S3072x1024 .f32) (main_arg11 : FVec F S3072 .f32) (main_arg12 : FVec F S3072 .f32) (main_arg13 : FVec F S3072x1024 .f32) (main_arg14 : FVec F S3072x1024 .f32) (main_arg15 : FVec F S3072 .f32) (main_arg16 : FVec F S3072 .f32) (main_arg17 : FVec F S50257x2048 .f32) (main_arg18 : FVec F S50257 .f32) : IVec S_ 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S64x2048 .f32 := Host.absf main_arg3
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S1 : Shape := ⟨1, ![1]⟩
abbrev S2x1x1024 : Shape := ⟨3, ![2, 1, 1024]⟩
abbrev S1x2048 : Shape := ⟨2, ![1, 2048]⟩
abbrev S64x2048 : Shape := ⟨2, ![64, 2048]⟩
abbrev S50257x1024 : Shape := ⟨2, ![50257, 1024]⟩
abbrev S64x3072 : Shape := ⟨2, ![64, 3072]⟩
abbrev S64 : Shape := ⟨1, ![64]⟩
abbrev S1024x3072 : Shape := ⟨2, ![1024, 3072]⟩
abbrev S1024 : Shape := ⟨1, ![1024]⟩
abbrev S3072x1024 : Shape := ⟨2, ![3072, 1024]⟩
abbrev S3072 : Shape := ⟨1, ![3072]⟩
abbrev S50257x2048 : Shape := ⟨2, ![50257, 2048]⟩
abbrev S50257 : Shape := ⟨1, ![50257]⟩
abbrev S1x1x1024 : Shape := ⟨3, ![1, 1, 1024]⟩
abbrev S1x1024 : Shape := ⟨2, ![1, 1024]⟩
abbrev S_ : Shape := ⟨0, ![]⟩
abbrev S1x1 : Shape := ⟨2, ![1, 1]⟩
abbrev S1x64 : Shape := ⟨2, ![1, 64]⟩
abbrev S1x3072 : Shape := ⟨2, ![1, 3072]⟩
abbrev S1x1x3072 : Shape := ⟨3, ![1, 1, 3072]⟩
abbrev S2x1x3072 : Shape := ⟨3, ![2, 1, 3072]⟩
abbrev S2 : Shape := ⟨1, ![2]⟩
abbrev S1x50257 : Shape := ⟨2, ![1, 50257]⟩
abbrev S1536x2048 : Shape := ⟨2, ![1536, 2048]⟩
abbrev S1x1536 : Shape := ⟨2, ![1, 1536]⟩

abbrev nBuf : Space → Nat
  | .hbm => 69
  | .vmem => 28
  | .smem => 0
  | _ => 0

abbrev bufTy : (tb : Table) → Fin (tcTables nBuf tb) → BufTy
  | .hbm, ⟨0, _⟩ => ⟨S1, .i32⟩
  | .hbm, ⟨1, _⟩ => ⟨S2x1x1024, .f32⟩
  | .hbm, ⟨2, _⟩ => ⟨S1x2048, .f32⟩
  | .hbm, ⟨3, _⟩ => ⟨S64x2048, .f32⟩
  | .hbm, ⟨4, _⟩ => ⟨S50257x1024, .f32⟩
  | .hbm, ⟨5, _⟩ => ⟨S64x3072, .f32⟩
  | .hbm, ⟨6, _⟩ => ⟨S64, .f32⟩
  | .hbm, ⟨7, _⟩ => ⟨S1024x3072, .f32⟩
  | .hbm, ⟨8, _⟩ => ⟨S1024, .f32⟩
  | .hbm, ⟨9, _⟩ => ⟨S3072x1024, .f32⟩
  | .hbm, ⟨10, _⟩ => ⟨S3072x1024, .f32⟩
  | .hbm, ⟨11, _⟩ => ⟨S3072, .f32⟩
  | .hbm, ⟨12, _⟩ => ⟨S3072, .f32⟩
  | .hbm, ⟨13, _⟩ => ⟨S3072x1024, .f32⟩
  | .hbm, ⟨14, _⟩ => ⟨S3072x1024, .f32⟩
  | .hbm, ⟨15, _⟩ => ⟨S3072, .f32⟩
  | .hbm, ⟨16, _⟩ => ⟨S3072, .f32⟩
  | .hbm, ⟨17, _⟩ => ⟨S50257x2048, .f32⟩
  | .hbm, ⟨18, _⟩ => ⟨S50257, .f32⟩
  | .hbm, ⟨19, _⟩ => ⟨S1x1x1024, .f32⟩
  | .hbm, ⟨20, _⟩ => ⟨S1x1024, .f32⟩
  | .hbm, ⟨21, _⟩ => ⟨S1x1x1024, .f32⟩
  | .hbm, ⟨22, _⟩ => ⟨S1x1024, .f32⟩
  | .hbm, ⟨23, _⟩ => ⟨S_, .i32⟩
  | .hbm, ⟨24, _⟩ => ⟨S1, .i32⟩
  | .hbm, ⟨25, _⟩ => ⟨S1, .i1⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S1, .i32⟩
  | .hbm, ⟨30, _⟩ => ⟨S1x1, .i32⟩
  | .hbm, ⟨31, _⟩ => ⟨S1x1024, .f32⟩
  | .hbm, ⟨32, _⟩ => ⟨S1x64, .f32⟩
  | .hbm, ⟨33, _⟩ => ⟨S1x1024, .f32⟩
  | .hbm, ⟨34, _⟩ => ⟨S1x64, .f32⟩
  | .hbm, ⟨35, _⟩ => ⟨S1x1024, .f32⟩
  | .hbm, ⟨36, _⟩ => ⟨S1x3072, .f32⟩
  | .hbm, ⟨37, _⟩ => ⟨S1x3072, .f32⟩
  | .hbm, ⟨38, _⟩ => ⟨S1x1x3072, .f32⟩
  | .hbm, ⟨39, _⟩ => ⟨S1x1x3072, .f32⟩
  | .hbm, ⟨40, _⟩ => ⟨S2x1x3072, .f32⟩
  | .hbm, ⟨41, _⟩ => ⟨S1x3072, .f32⟩
  | .hbm, ⟨42, _⟩ => ⟨S1x3072, .f32⟩
  | .hbm, ⟨43, _⟩ => ⟨S1x1x3072, .f32⟩
  | .hbm, ⟨44, _⟩ => ⟨S1x1x3072, .f32⟩
  | .hbm, ⟨45, _⟩ => ⟨S2x1x3072, .f32⟩
  | .hbm, ⟨46, _⟩ => ⟨S2x1x1024, .f32⟩
  | .hbm, ⟨47, _⟩ => ⟨S1x1x1024, .f32⟩
  | .hbm, ⟨48, _⟩ => ⟨S1x1024, .f32⟩
  | .hbm, ⟨49, _⟩ => ⟨S1x1x1024, .f32⟩
  | .hbm, ⟨50, _⟩ => ⟨S1x1024, .f32⟩
  | .hbm, ⟨51, _⟩ => ⟨S1x2048, .f32⟩
  | .hbm, ⟨52, _⟩ => ⟨S1x50257, .f32⟩
  | .hbm, ⟨53, _⟩ => ⟨S1x50257, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S1x50257, .f32⟩
  | .hbm, ⟨61, _⟩ => ⟨S1x50257, .f32⟩
  | .hbm, ⟨62, _⟩ => ⟨S1x50257, .f32⟩
  | .hbm, ⟨63, _⟩ => ⟨S_, .f32⟩
  | .hbm, ⟨64, _⟩ => ⟨S1, .f32⟩
  | .hbm, ⟨65, _⟩ => ⟨S1x1, .f32⟩
  | .hbm, ⟨66, _⟩ => ⟨S1x1, .f32⟩
  | .hbm, ⟨67, _⟩ => ⟨S1x50257, .f32⟩
  | .hbm, ⟨68, _⟩ => ⟨S1x50257, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S64x3072, .f32⟩
  | .local _ .vmem, ⟨4, _⟩ => ⟨S1x64, .f32⟩
  | .local _ .vmem, ⟨5, _⟩ => ⟨S64x2048, .f32⟩
  | .local _ .vmem, ⟨6, _⟩ => ⟨S1024x3072, .f32⟩
  | .local _ .vmem, ⟨7, _⟩ => ⟨S1x1024, .f32⟩
  | .local _ .vmem, ⟨8, _⟩ => ⟨S1x64, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x3072, .f32⟩
  | .local _ .vmem, ⟨14, _⟩ => ⟨S1x1x3072, .f32⟩
  | .local _ .vmem, ⟨15, _⟩ => ⟨S1x1x3072, .f32⟩
  | .local _ .vmem, ⟨16, _⟩ => ⟨S1x1x3072, .f32⟩
  | .local _ .vmem, ⟨17, _⟩ => ⟨S1x1x1024, .f32⟩
  | .local _ .vmem, ⟨18, _⟩ => ⟨S1x1x1024, .f32⟩
  | .local _ .vmem, ⟨19, _⟩ => ⟨S3072x1024, .f32⟩
  | .local _ .vmem, ⟨20, _⟩ => ⟨S3072x1024, .f32⟩
  | .local _ .vmem, ⟨21, _⟩ => ⟨S1x2048, .f32⟩
  | .local _ .vmem, ⟨22, _⟩ => ⟨S1536x2048, .f32⟩
  | .local _ .vmem, ⟨23, _⟩ => ⟨S1536x2048, .f32⟩
  | .local _ .vmem, ⟨24, _⟩ => ⟨S1x1536, .f32⟩
  | .local _ .vmem, ⟨25, _⟩ => ⟨S1x1536, .f32⟩
  | .local _ .vmem, ⟨26, _⟩ => ⟨S1x1536, .f32⟩
  | .local _ .vmem, ⟨27, _⟩ => ⟨S1x1536, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call0_cst : Ref sig .tc := ⟨.hbm, 54, rfl⟩
abbrev main_call0_v0 : Ref sig .tc := ⟨.hbm, 55, rfl⟩
abbrev main_call0_cst_0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_cst_1 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_v32 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![33], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1536x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1x1024_S1x1x1024_0_0_0 : S2x1x1024.Slices ![0, 0, 0] S1x1x1024
  shapeCasts_S1x1x1024_S1x1024 : S1x1x1024.ShapeCasts S1x1024
  slices_S2x1x1024_S1x1x1024_1_0_0 : S2x1x1024.Slices ![1, 0, 0] S1x1x1024
  bcast_S_S1 : S_.BroadcastsInDim S1 (![] : Fin 0 → Fin S1.rank)
  bcast_S1_S1x1_0 : S1.BroadcastsInDim S1x1 (![0] : Fin 1 → Fin S1x1.rank)
  shapeCasts_S64_S1x64 : S64.ShapeCasts S1x64
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x1024_S1x3072_d1 : Shape.Concatenates [S1x1024, S1x1024, S1x1024] S1x3072 1
  bitsLt_bf16_f32 : FTy.bits .bf16 < FTy.bits .f32
  inb_S64x3072_S64x3072_0_0 : ∀ a, (![0, 0] : Fin 2 → Nat) a + S64x3072.size a ≤ S64x3072.size a
  h_S64x3072 : 0 < S64x3072.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1x64_S1 : S1x64.Reduces [1] S1
  shapeCasts_S1_S1x1 : S1.ShapeCasts S1x1
  broadcasts_S1x1_S1x64 : S1x1.Broadcasts S1x64
  inb_S64x2048_S64x2048_0_0 : ∀ a, (![0, 0] : Fin 2 → Nat) a + S64x2048.size a ≤ S64x2048.size a
  h_S64x2048 : 0 < S64x2048.numel
  concatenates_S1x1024_S1x2048_S1x3072_d1 : Shape.Concatenates [S1x1024, S1x2048] S1x3072 1
  inb_S1024x3072_S1024x3072_0_0 : ∀ a, (![0, 0] : Fin 2 → Nat) a + S1024x3072.size a ≤ S1024x3072.size a
  h_S1024x3072 : 0 < S1024x3072.numel
  shapeCasts_S3072_S1x3072 : S3072.ShapeCasts S1x3072
  bcast_S1x3072_S1x1x3072_1_2 : S1x3072.BroadcastsInDim S1x1x3072 (![1, 2] : Fin 2 → Fin S1x1x3072.rank)
  concatenates_S1x1x3072_S1x1x3072_S2x1x3072_d0 : Shape.Concatenates [S1x1x3072, S1x1x3072] S2x1x3072 0
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1x1x1024_S1x1x1024_0_0_0 : ∀ a, (![0, 0, 0] : Fin 3 → Nat) a + S1x1x1024.size a ≤ S1x1x1024.size a
  h_S1x1x1024 : 0 < S1x1x1024.numel
  inb_S3072x1024_S3072x1024_0_0 : ∀ a, (![0, 0] : Fin 2 → Nat) a + S3072x1024.size a ≤ S3072x1024.size a
  h_S3072x1024 : 0 < S3072x1024.numel
  inb_S1x1x3072_S1x1x3072_0_0_0 : ∀ a, (![0, 0, 0] : Fin 3 → Nat) a + S1x1x3072.size a ≤ S1x1x3072.size a
  h_S1x1x3072 : 0 < S1x1x3072.numel
  shapeCasts_S1x1x3072_S1x3072 : S1x1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  shapeCasts_S1x1024_S1x1x1024 : S1x1024.ShapeCasts S1x1x1024
  concatenates_S1x1024_S1x1024_S1x2048_d1 : Shape.Concatenates [S1x1024, S1x1024] S1x2048 1
  shapeCasts_S50257_S1x50257 : S50257.ShapeCasts S1x50257
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1536x2048_S1536x2048_0_0 : ∀ a, (![0, 0] : Fin 2 → Nat) a + S1536x2048.size a ≤ S1536x2048.size a
  h_S1536x2048 : 0 < S1536x2048.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  gather_S50257x1024_S1x1_S1x1024_1_0_n_n_0_1_11024_wf : GatherDims.WF S50257x1024 S1x1 S1x1024 [1] [0] [] [0] [] 1 ![1, 1024]
  dot_S1x3072_S64x3072_S1x64_1_1_0_0_n_n_wf : DotDims.WF S1x3072 S64x3072 S1x64 [1] [1] [0] [0] [] []
  dot_S1x64_S64x2048_S1x2048_1_0_0_1_n_n_wf : DotDims.WF S1x64 S64x2048 S1x2048 [1] [0] [0] [1] [] []
  dot_S1x3072_S1024x3072_S1x1024_1_1_0_0_n_n_wf : DotDims.WF S1x3072 S1024x3072 S1x1024 [1] [1] [0] [0] [] []
  dot_S1x1024_S3072x1024_S1x3072_1_1_0_0_n_n_wf : DotDims.WF S1x1024 S3072x1024 S1x3072 [1] [1] [0] [0] [] []
  dot_S1x2048_S1536x2048_S1x1536_1_1_0_0_n_n_wf : DotDims.WF S1x2048 S1536x2048 S1x1536 [1] [1] [0] [0] [] []
  hcc1_scratch2 : 19 + S2.numel ≤ 28
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3072.size a ≤ S64x3072.size a
  hwx0_3 : ∀ i : grid0.Coords, EltTy.bits .f32 = 32 ∨ (Rect.block (s := S64x3072) S64x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .f32 = 32 ∨ (Rect.block (s := S64x2048) S64x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x3072.size a ≤ S1024x3072.size a
  hwx0_6 : ∀ i : grid0.Coords, EltTy.bits .f32 = 32 ∨ (Rect.block (s := S1024x3072) S1024x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S2x1x1024.size a
  hwx1_1 : ∀ i : grid1.Coords, EltTy.bits .f32 = 32 ∨ (Rect.block (s := S2x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_6 i = cc1_transform_6 i'
  hinb1_2 : ∀ (i : grid1.Coords) a, (cc1_transform_6 i a + 1) * S1x1x3072.size a ≤ S2x1x3072.size a
  hwx1_2 : ∀ i : grid1.Coords, EltTy.bits .f32 = 32 ∨ (Rect.block (s := S2x1x3072) S1x1x3072.size (cc1_transform_6 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_7 i = cc1_transform_7 i'
  hinb1_3 : ∀ (i : grid1.Coords) a, (cc1_transform_7 i a + 1) * S1x1x3072.size a ≤ S2x1x3072.size a
  hwx1_3 : ∀ i : grid1.Coords, EltTy.bits .f32 = 32 ∨ (Rect.block (s := S2x1x3072) S1x1x3072.size (cc1_transform_7 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_8 i = cc1_transform_8 i'
  hinb1_4 : ∀ (i : grid1.Coords) a, (cc1_transform_8 i a + 1) * S1x1x1024.size a ≤ S2x1x1024.size a
  hwx1_4 : ∀ i : grid1.Coords, EltTy.bits .f32 = 32 ∨ (Rect.block (s := S2x1x1024) S1x1x1024.size (cc1_transform_8 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1536x2048.size a < S50257x2048.size a
  hwx2_1 : ∀ i : grid2.Coords, EltTy.bits .f32 = 32 ∨ (Rect.unit (s := S50257x2048) (fun a => cc2_transform_1 i a * S1536x2048.size a) (fun a => (Pipeline.Clip.of (cc2_transform_1 i a) (S1536x2048.size a) (S50257x2048.size a)).extent (S1536x2048.size a)) fun a => Pipeline.Clip.inb (Pipeline.Clip.ok_of (hstart2_1 i a))).WholeWords (EltTy.packing .f32)
  hwxs2_1 : ∀ i : grid2.Coords, EltTy.bits .f32 = 32 ∨ (Rect.unit (s := S1536x2048) (fun _ => 0) (fun a => (Pipeline.Clip.of (cc2_transform_1 i a) (S1536x2048.size a) (S50257x2048.size a)).extent (S1536x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x1536.size a < S1x50257.size a
  hwx2_2 : ∀ i : grid2.Coords, EltTy.bits .f32 = 32 ∨ (Rect.unit (s := S1x50257) (fun a => cc2_transform_2 i a * S1x1536.size a) (fun a => (Pipeline.Clip.of (cc2_transform_2 i a) (S1x1536.size a) (S1x50257.size a)).extent (S1x1536.size a)) fun a => Pipeline.Clip.inb (Pipeline.Clip.ok_of (hstart2_2 i a))).WholeWords (EltTy.packing .f32)
  hwxs2_2 : ∀ i : grid2.Coords, EltTy.bits .f32 = 32 ∨ (Rect.unit (s := S1x1536) (fun _ => 0) (fun a => (Pipeline.Clip.of (cc2_transform_2 i a) (S1x1536.size a) (S1x50257.size a)).extent (S1x1536.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x1536.size a < S1x50257.size a
  hwx2_3 : ∀ i : grid2.Coords, EltTy.bits .f32 = 32 ∨ (Rect.unit (s := S1x50257) (fun a => cc2_transform_3 i a * S1x1536.size a) (fun a => (Pipeline.Clip.of (cc2_transform_3 i a) (S1x1536.size a) (S1x50257.size a)).extent (S1x1536.size a)) fun a => Pipeline.Clip.inb (Pipeline.Clip.ok_of (hstart2_3 i a))).WholeWords (EltTy.packing .f32)
  hwxs2_3 : ∀ i : grid2.Coords, EltTy.bits .f32 = 32 ∨ (Rect.unit (s := S1x1536) (fun _ => 0) (fun a => (Pipeline.Clip.of (cc2_transform_3 i a) (S1x1536.size a) (S1x50257.size a)).extent (S1x1536.size a)) fun a => (Nat.zero_add _).trans_le (Pipeline.Clip.extent_le (Pipeline.Clip.ok_of (hstart2_3 i a)))).WholeWords (EltTy.packing .f32)

variable [Facts₀]

abbrev cc1_scratch2 : DmaSems sig S2 := SemArray.consecutive 19 S2 hcc1_scratch2
def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x3072_S64x3072_S1x64_1_1_0_0_n_n : DotDims S1x3072 S64x3072 S1x64 where
  lhsContracting := [1]
  rhsContracting := [1]
  lhsNonContracting := [0]
  rhsNonContracting := [0]
  lhsBatch := []
  rhsBatch := []
  wf := dot_S1x3072_S64x3072_S1x64_1_1_0_0_n_n_wf
def dot_S1x64_S64x2048_S1x2048_1_0_0_1_n_n : DotDims S1x64 S64x2048 S1x2048 where
  lhsContracting := [1]
  rhsContracting := [0]
  lhsNonContracting := [0]
  rhsNonContracting := [1]
  lhsBatch := []
  rhsBatch := []
  wf := dot_S1x64_S64x2048_S1x2048_1_0_0_1_n_n_wf
def dot_S1x3072_S1024x3072_S1x1024_1_1_0_0_n_n : DotDims S1x3072 S1024x3072 S1x1024 where
  lhsContracting := [1]
  rhsContracting := [1]
  lhsNonContracting := [0]
  rhsNonContracting := [0]
  lhsBatch := []
  rhsBatch := []
  wf := dot_S1x3072_S1024x3072_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x2048_S1536x2048_S1x1536_1_1_0_0_n_n : DotDims S1x2048 S1536x2048 S1x1536 where
  lhsContracting := [1]
  rhsContracting := [1]
  lhsNonContracting := [0]
  rhsNonContracting := [0]
  lhsBatch := []
  rhsBatch := []
  wf := dot_S1x2048_S1536x2048_S1x1536_1_1_0_0_n_n_wf

abbrev win0_0 : Pipeline.Window sig grid0 :=
  Pipeline.Window.ofSpec (Memref.whole main_v10) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S1x64.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S1x1024.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13_1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1x3072.size cc1_transform_6 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1x3072.size cc1_transform_7 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1x1024.size cc1_transform_8 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg17) S1536x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v30) S1x1536.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v31) S1x1536.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S2x1x1024 : Shape := ⟨3, ![2, 1, 1024]⟩
abbrev S1x2048 : Shape := ⟨2, ![1, 2048]⟩
abbrev S64x2048 : Shape := ⟨2, ![64, 2048]⟩
abbrev S50257x1024 : Shape := ⟨2, ![50257, 1024]⟩
abbrev S64x3072 : Shape := ⟨2, ![64, 3072]⟩
abbrev S64 : Shape := ⟨1, ![64]⟩
abbrev S1024x3072 : Shape := ⟨2, ![1024, 3072]⟩
abbrev S1024 : Shape := ⟨1, ![1024]⟩
abbrev S3072x1024 : Shape := ⟨2, ![3072, 1024]⟩
abbrev S3072 : Shape := ⟨1, ![3072]⟩
abbrev S50257x2048 : Shape := ⟨2, ![50257, 2048]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x1x1024 : Shape := ⟨3, ![1, 1, 1024]⟩
abbrev S1x3072 : Shape := ⟨2, ![1, 3072]⟩
abbrev S3072x64 : Shape := ⟨2, ![3072, 64]⟩
abbrev S1x64 : Shape := ⟨2, ![1, 64]⟩
abbrev S2048x50257 : Shape := ⟨2, ![2048, 50257]⟩
abbrev S1x50257 : Shape := ⟨2, ![1, 50257]⟩

abbrev nBuf : Space → Nat
  | .hbm => 165
  | .vmem => 0
  | .smem => 0
  | _ => 0

abbrev hbmTy0_0 (i : Nat) : BufTy := match i % 128 with
  | 0 => ⟨S1, .i32⟩
  | 1 => ⟨S2x1x1024, .f32⟩
  | 2 => ⟨S1x2048, .f32⟩
  | 3 => ⟨S64x2048, .f32⟩
  | 4 => ⟨S50257x1024, .f32⟩
  | 5 => ⟨S64x3072, .f32⟩
  | 6 => ⟨S64, .f32⟩
  | 7 => ⟨S1024x3072, .f32⟩
  | 8 => ⟨S1024, .f32⟩
  | 9 => ⟨S3072x1024, .f32⟩
  | 10 => ⟨S3072x1024, .f32⟩
  | 11 => ⟨S3072, .f32⟩
  | 12 => ⟨S3072, .f32⟩
  | 13 => ⟨S3072x1024, .f32⟩
  | 14 => ⟨S3072x1024, .f32⟩
  | 15 => ⟨S3072, .f32⟩
  | 16 => ⟨S3072, .f32⟩
  | 17 => ⟨S50257x2048, .f32⟩
  | 18 => ⟨S50257, .f32⟩
  | 19 => ⟨S_, .i32⟩
  | 20 => ⟨S1, .i32⟩
  | 21 => ⟨S1, .i1⟩
  | 22 => ⟨S_, .i32⟩
  | 23 => ⟨S1, .i32⟩
  | 24 => ⟨S1, .i32⟩
  | 25 => ⟨S1, .i32⟩
  | 26 => ⟨S1x1, .i32⟩
  | 27 => ⟨S1x1024, .f32⟩
  | 28 => ⟨S1x1x1024, .f32⟩
  | 29 => ⟨S1x1024, .f32⟩
  | 30 => ⟨S1x1x1024, .f32⟩
  | 31 => ⟨S1x1024, .f32⟩
  | 32 => ⟨S1x3072, .f32⟩
  | 33 => ⟨S3072x64, .f32⟩
  | 34 => ⟨S1x64, .f32⟩
  | 35 => ⟨S1x64, .f32⟩
  | 36 => ⟨S1x64, .f32⟩
  | 37 => ⟨S_, .f32⟩
  | 38 => ⟨S1, .f32⟩
  | 39 => ⟨S_, .f32⟩
  | 40 => ⟨S1, .f32⟩
  | 41 => ⟨S1, .f32⟩
  | 42 => ⟨S1x1, .f32⟩
  | 43 => ⟨S1x64, .f32⟩
  | 44 => ⟨S1x64, .f32⟩
  | 45 => ⟨S1x64, .f32⟩
  | 46 => ⟨S_, .f32⟩
  | 47 => ⟨S1, .f32⟩
  | 48 => ⟨S1x1, .f32⟩
  | 49 => ⟨S1x64, .f32⟩
  | 50 => ⟨S1x64, .f32⟩
  | 51 => ⟨S1x2048, .f32⟩
  | 52 => ⟨S1x3072, .f32⟩
  | 53 => ⟨S3072x1024, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1024x3072, .f32⟩
  | 61 => ⟨S1x3072, .f32⟩
  | 62 => ⟨S1x3072, .f32⟩
  | 63 => ⟨S1x3072, .f32⟩
  | 64 => ⟨S1024x3072, .f32⟩
  | 65 => ⟨S1x3072, .f32⟩
  | 66 => ⟨S1x3072, .f32⟩
  | 67 => ⟨S1x3072, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1024x3072, .f32⟩
  | 102 => ⟨S1x3072, .f32⟩
  | 103 => ⟨S1x3072, .f32⟩
  | 104 => ⟨S1x3072, .f32⟩
  | 105 => ⟨S1024x3072, .f32⟩
  | 106 => ⟨S1x3072, .f32⟩
  | 107 => ⟨S1x3072, .f32⟩
  | 108 => ⟨S1x3072, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S_, .f32⟩
  | _ => ⟨S1, .i32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x2048, .f32⟩
  | 15 => ⟨S1x1x1024, .f32⟩
  | 16 => ⟨S1x1x1024, .f32⟩
  | 17 => ⟨S2x1x1024, .f32⟩
  | 18 => ⟨S2048x50257, .f32⟩
  | 19 => ⟨S1x50257, .f32⟩
  | 20 => ⟨S1x50257, .f32⟩
  | 21 => ⟨S1x50257, .f32⟩
  | 22 => ⟨S_, .f32⟩
  | 23 => ⟨S1, .f32⟩
  | 24 => ⟨S_, .f32⟩
  | 25 => ⟨S1, .f32⟩
  | 26 => ⟨S1, .f32⟩
  | 27 => ⟨S1x1, .f32⟩
  | 28 => ⟨S1x50257, .f32⟩
  | 29 => ⟨S1x50257, .f32⟩
  | 30 => ⟨S1x50257, .f32⟩
  | 31 => ⟨S_, .f32⟩
  | 32 => ⟨S1, .f32⟩
  | 33 => ⟨S1x1, .f32⟩
  | 34 => ⟨S1x1, .f32⟩
  | 35 => ⟨S1x50257, .f32⟩
  | 36 => ⟨S1x50257, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_3 : Ref sig .tc := ⟨.hbm, 77, rfl⟩
abbrev main_v51 : Ref sig .tc := ⟨.hbm, 78, rfl⟩
abbrev main_v52 : Ref sig .tc := ⟨.hbm, 79, rfl⟩
abbrev main_cst_4 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_8 : Ref sig .tc := ⟨.hbm, 118, rfl⟩
abbrev main_v87 : Ref sig .tc := ⟨.hbm, 119, rfl⟩
abbrev main_v88 : Ref sig .tc := ⟨.hbm, 120, rfl⟩
abbrev main_cst_9 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_10 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_12 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_call1_cst : Ref sig .tc := ⟨.hbm, 150, rfl⟩
abbrev main_call1_v0 : Ref sig .tc := ⟨.hbm, 151, rfl⟩
abbrev main_call1_cst_0 : Ref sig .tc := ⟨.hbm, 152, rfl⟩
abbrev main_call1_v1 : Ref sig .tc := ⟨.hbm, 153, rfl⟩
abbrev main_call1_v2 : Ref sig .tc := ⟨.hbm, 154, rfl⟩
abbrev main_call1_v3 : Ref sig .tc := ⟨.hbm, 155, rfl⟩
abbrev main_call1_v4 : Ref sig .tc := ⟨.hbm, 156, rfl⟩
abbrev main_call1_v5 : Ref sig .tc := ⟨.hbm, 157, rfl⟩
abbrev main_call1_v6 : Ref sig .tc := ⟨.hbm, 158, rfl⟩
abbrev main_call1_cst_1 : Ref sig .tc := ⟨.hbm, 159, rfl⟩
abbrev main_call1_v7 : Ref sig .tc := ⟨.hbm, 160, rfl⟩
abbrev main_call1_v8 : Ref sig .tc := ⟨.hbm, 161, rfl⟩
abbrev main_call1_v9 : Ref sig .tc := ⟨.hbm, 162, rfl⟩
abbrev main_call1_v10 : Ref sig .tc := ⟨.hbm, 163, rfl⟩
abbrev main_v114 : Ref sig .tc := ⟨.hbm, 164, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x1024_S1x1x1024_0_0_0 : S2x1x1024.Slices ![0, 0, 0] S1x1x1024
  shapeCasts_S1x1x1024_S1x1024 : S1x1x1024.ShapeCasts S1x1024
  slices_S2x1x1024_S1x1x1024_1_0_0 : S2x1x1024.Slices ![1, 0, 0] S1x1x1024
  concatenates_S1x1024_S1x1024_S1x1024_S1x3072_d1 : Shape.Concatenates [S1x1024, S1x1024, S1x1024] S1x3072 1
  transposes_S64x3072_S3072x64_1_0 : S64x3072.Transposes [1, 0] S3072x64
  bcast_S64_S1x64_1 : S64.BroadcastsInDim S1x64 (![1] : Fin 1 → Fin S1x64.rank)
  reducesTo_S1x64_S1_d1 : S1x64.ReducesTo [1] S1
  h_S_ : 0 < S_.numel
  bcast_S1x1_S1x64_0_1 : S1x1.BroadcastsInDim S1x64 (![0, 1] : Fin 2 → Fin S1x64.rank)
  concatenates_S1x1024_S1x2048_S1x3072_d1 : Shape.Concatenates [S1x1024, S1x2048] S1x3072 1
  transposes_S1024x3072_S3072x1024_1_0 : S1024x3072.Transposes [1, 0] S3072x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  concatenates_S1x1024_S1x1024_S1x2048_d1 : Shape.Concatenates [S1x1024, S1x1024] S1x2048 1
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  gather_S50257x1024_S1x1_S1x1024_1_0_n_n_0_1_11024_wf : GatherDims.WF S50257x1024 S1x1 S1x1024 [1] [0] [] [0] [] 1 ![1, 1024]
  dot_S1x3072_S3072x64_S1x64_1_0_0_1_n_n_wf : DotDims.WF S1x3072 S3072x64 S1x64 [1] [0] [0] [1] [] []
  dot_S1x64_S64x2048_S1x2048_1_0_0_1_n_n_wf : DotDims.WF S1x64 S64x2048 S1x2048 [1] [0] [0] [1] [] []
  dot_S1x3072_S3072x1024_S1x1024_1_0_0_1_n_n_wf : DotDims.WF S1x3072 S3072x1024 S1x1024 [1] [0] [0] [1] [] []
  dot_S1x1024_S1024x3072_S1x3072_1_0_0_1_n_n_wf : DotDims.WF S1x1024 S1024x3072 S1x3072 [1] [0] [0] [1] [] []
  dot_S1x2048_S2048x50257_S1x50257_1_0_0_1_n_n_wf : DotDims.WF S1x2048 S2048x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x3072_S3072x64_S1x64_1_0_0_1_n_n : DotDims S1x3072 S3072x64 S1x64 where
  lhsContracting := [1]
  rhsContracting := [0]
  lhsNonContracting := [0]
  rhsNonContracting := [1]
  lhsBatch := []
  rhsBatch := []
  wf := dot_S1x3072_S3072x64_S1x64_1_0_0_1_n_n_wf
def dot_S1x64_S64x2048_S1x2048_1_0_0_1_n_n : DotDims S1x64 S64x2048 S1x2048 where
  lhsContracting := [1]
  rhsContracting := [0]
  lhsNonContracting := [0]
  rhsNonContracting := [1]
  lhsBatch := []
  rhsBatch := []
  wf := dot_S1x64_S64x2048_S1x2048_1_0_0_1_n_n_wf
def dot_S1x3072_S3072x1024_S1x1024_1_0_0_1_n_n : DotDims S1x3072 S3072x1024 S1x1024 where
  lhsContracting := [1]
  rhsContracting := [0]
  lhsNonContracting := [0]
  rhsNonContracting := [1]
  lhsBatch := []
  rhsBatch := []
  wf := dot_S1x3072_S3072x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.RefStages.lean ====
/-
  The reference program read stage by stage. Its operation list is cut into consecutive chunks so that every
  concatenation of computed pieces starts a chunk; the buffers' contents after each chunk are a fold of that chunk
  alone over the contents after the chunk before. Chunk by chunk, each buffer a later chunk or a result reads holds
  the value its operation computes from the arguments, as one function of the arguments; a buffer no operation of a
  chunk writes is carried through it. At the end the three results hold their functions of the arguments and every
  argument holds its launch contents.
-/
import proofs.«412461_j6141803233582_3_alg».proof.Proof.RefRunP
import proofs.«412461_j6141803233582_3_alg».proof.Proof.RefRead

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- A value carried to an equal type and back is itself. -/
theorem cast_round {α β : Type} (h1 : β = α) (h2 : α = β) (v : α) : cast h1 (cast h2 v) = v := by
  subst h2; exact cast_eq _ _

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_app l l₂]

variable (m : (ℓ : Loc nD τ sig) → Buf (Elt F) ℓ) (d : Dev nD)

/-! ## The buffers' contents after each chunk -/

def U1 : Valuation τ sig (Elt F) := after opsC1 (launchContents m d)
def U2 : Valuation τ sig (Elt F) := after opsC2 (U1 m d)
def U3 : Valuation τ sig (Elt F) := after opsC3 (U2 m d)
def U4 : Valuation τ sig (Elt F) := after opsC4 (U3 m d)
def U5 : Valuation τ sig (Elt F) := after opsC5 (U4 m d)
def U6 : Valuation τ sig (Elt F) := after opsC6 (U5 m d)
def U7 : Valuation τ sig (Elt F) := after opsC7 (U6 m d)

/-- The fold of the whole list is the last stage. -/
theorem after_ops : after (ops : List (HloOp τ sig (Elt F))) (launchContents m d) = U7 m d := by
  rw [ops_eq, after_app, after_app, after_app, after_app, after_app, after_app]; rfl

/-! ## Stage by stage: what each buffer read later holds -/

/-! ### After chunk 1 -/

theorem U1_arg0 : U1 m d (Proc.devRef .tc main_arg0) = m ((d.tc : Thread nD τ).loc main_arg0) := by
  unfold U1
  after_results_simp <;> rfl

theorem U1_arg1 : U1 m d (Proc.devRef .tc main_arg1) = m ((d.tc : Thread nD τ).loc main_arg1) := by
  unfold U1
  after_results_simp <;> rfl

theorem U1_arg2 : U1 m d (Proc.devRef .tc main_arg2) = m ((d.tc : Thread nD τ).loc main_arg2) := by
  unfold U1
  after_results_simp <;> rfl

theorem U1_arg3 : U1 m d (Proc.devRef .tc main_arg3) = m ((d.tc : Thread nD τ).loc main_arg3) := by
  unfold U1
  after_results_simp <;> rfl

theorem U1_arg4 : U1 m d (Proc.devRef .tc main_arg4) = m ((d.tc : Thread nD τ).loc main_arg4) := by
  unfold U1
  after_results_simp <;> rfl

theorem U1_arg5 : U1 m d (Proc.devRef .tc main_arg5) = m ((d.tc : Thread nD τ).loc main_arg5) := by
  unfold U1
  after_results_simp <;> rfl

theorem U1_arg6 : U1 m d (Proc.devRef .tc main_arg6) = m ((d.tc : Thread nD τ).loc main_arg6) := by
  unfold U1
  after_results_simp <;> rfl

theorem U1_arg7 : U1 m d (Proc.devRef .tc main_arg7) = m ((d.tc : Thread nD τ).loc main_arg7) := by
  unfold U1
  after_results_simp <;> rfl

theorem U1_arg8 : U1 m d (Proc.devRef .tc main_arg8) = m ((d.tc : Thread nD τ).loc main_arg8) := by
  unfold U1
  after_results_simp <;> rfl

theorem U1_arg9 : U1 m d (Proc.devRef .tc main_arg9) = m ((d.tc : Thread nD τ).loc main_arg9) := by
  unfold U1
  after_results_simp <;> rfl

theorem U1_arg10 : U1 m d (Proc.devRef .tc main_arg10) = m ((d.tc : Thread nD τ).loc main_arg10) := by
  unfold U1
  after_results_simp <;> rfl

theorem U1_arg11 : U1 m d (Proc.devRef .tc main_arg11) = m ((d.tc : Thread nD τ).loc main_arg11) := by
  unfold U1
  after_results_simp <;> rfl

theorem U1_arg12 : U1 m d (Proc.devRef .tc main_arg12) = m ((d.tc : Thread nD τ).loc main_arg12) := by
  unfold U1
  after_results_simp <;> rfl

theorem U1_arg13 : U1 m d (Proc.devRef .tc main_arg13) = m ((d.tc : Thread nD τ).loc main_arg13) := by
  unfold U1
  after_results_simp <;> rfl

theorem U1_arg14 : U1 m d (Proc.devRef .tc main_arg14) = m ((d.tc : Thread nD τ).loc main_arg14) := by
  unfold U1
  after_results_simp <;> rfl

theorem U1_arg15 : U1 m d (Proc.devRef .tc main_arg15) = m ((d.tc : Thread nD τ).loc main_arg15) := by
  unfold U1
  after_results_simp <;> rfl

theorem U1_arg16 : U1 m d (Proc.devRef .tc main_arg16) = m ((d.tc : Thread nD τ).loc main_arg16) := by
  unfold U1
  after_results_simp <;> rfl

theorem U1_arg17 : U1 m d (Proc.devRef .tc main_arg17) = m ((d.tc : Thread nD τ).loc main_arg17) := by
  unfold U1
  after_results_simp <;> rfl

theorem U1_arg18 : U1 m d (Proc.devRef .tc main_arg18) = m ((d.tc : Thread nD τ).loc main_arg18) := by
  unfold U1
  after_results_simp <;> rfl

theorem U1_v6 : U1 m d (Proc.devRef .tc main_v6) = val_main_v6 (F := F) (m ((d.tc : Thread nD τ).loc main_arg0)) (m ((d.tc : Thread nD τ).loc main_arg4)) := by
  unfold U1
  after_results_simp
  rfl

theorem U1_v8 : U1 m d (Proc.devRef .tc main_v8) = val_main_v8 (F := F) (m ((d.tc : Thread nD τ).loc main_arg1)) := by
  unfold U1
  after_results_simp
  rfl

theorem U1_v10 : U1 m d (Proc.devRef .tc main_v10) = val_main_v10 (F := F) (m ((d.tc : Thread nD τ).loc main_arg1)) := by
  unfold U1
  after_results_simp
  rfl

/-! ### After chunk 2 -/

theorem U2_arg0 : U2 m d (Proc.devRef .tc main_arg0) = m ((d.tc : Thread nD τ).loc main_arg0) := by
  unfold U2
  after_results_simp
  exact U1_arg0 m d

theorem U2_arg1 : U2 m d (Proc.devRef .tc main_arg1) = m ((d.tc : Thread nD τ).loc main_arg1) := by
  unfold U2
  after_results_simp
  exact U1_arg1 m d

theorem U2_arg2 : U2 m d (Proc.devRef .tc main_arg2) = m ((d.tc : Thread nD τ).loc main_arg2) := by
  unfold U2
  after_results_simp
  exact U1_arg2 m d

theorem U2_arg3 : U2 m d (Proc.devRef .tc main_arg3) = m ((d.tc : Thread nD τ).loc main_arg3) := by
  unfold U2
  after_results_simp
  exact U1_arg3 m d

theorem U2_arg4 : U2 m d (Proc.devRef .tc main_arg4) = m ((d.tc : Thread nD τ).loc main_arg4) := by
  unfold U2
  after_results_simp
  exact U1_arg4 m d

theorem U2_arg5 : U2 m d (Proc.devRef .tc main_arg5) = m ((d.tc : Thread nD τ).loc main_arg5) := by
  unfold U2
  after_results_simp
  exact U1_arg5 m d

theorem U2_arg6 : U2 m d (Proc.devRef .tc main_arg6) = m ((d.tc : Thread nD τ).loc main_arg6) := by
  unfold U2
  after_results_simp
  exact U1_arg6 m d

theorem U2_arg7 : U2 m d (Proc.devRef .tc main_arg7) = m ((d.tc : Thread nD τ).loc main_arg7) := by
  unfold U2
  after_results_simp
  exact U1_arg7 m d

theorem U2_arg8 : U2 m d (Proc.devRef .tc main_arg8) = m ((d.tc : Thread nD τ).loc main_arg8) := by
  unfold U2
  after_results_simp
  exact U1_arg8 m d

theorem U2_arg9 : U2 m d (Proc.devRef .tc main_arg9) = m ((d.tc : Thread nD τ).loc main_arg9) := by
  unfold U2
  after_results_simp
  exact U1_arg9 m d

theorem U2_arg10 : U2 m d (Proc.devRef .tc main_arg10) = m ((d.tc : Thread nD τ).loc main_arg10) := by
  unfold U2
  after_results_simp
  exact U1_arg10 m d

theorem U2_arg11 : U2 m d (Proc.devRef .tc main_arg11) = m ((d.tc : Thread nD τ).loc main_arg11) := by
  unfold U2
  after_results_simp
  exact U1_arg11 m d

theorem U2_arg12 : U2 m d (Proc.devRef .tc main_arg12) = m ((d.tc : Thread nD τ).loc main_arg12) := by
  unfold U2
  after_results_simp
  exact U1_arg12 m d

theorem U2_arg13 : U2 m d (Proc.devRef .tc main_arg13) = m ((d.tc : Thread nD τ).loc main_arg13) := by
  unfold U2
  after_results_simp
  exact U1_arg13 m d

theorem U2_arg14 : U2 m d (Proc.devRef .tc main_arg14) = m ((d.tc : Thread nD τ).loc main_arg14) := by
  unfold U2
  after_results_simp
  exact U1_arg14 m d

theorem U2_arg15 : U2 m d (Proc.devRef .tc main_arg15) = m ((d.tc : Thread nD τ).loc main_arg15) := by
  unfold U2
  after_results_simp
  exact U1_arg15 m d

theorem U2_arg16 : U2 m d (Proc.devRef .tc main_arg16) = m ((d.tc : Thread nD τ).loc main_arg16) := by
  unfold U2
  after_results_simp
  exact U1_arg16 m d

theorem U2_arg17 : U2 m d (Proc.devRef .tc main_arg17) = m ((d.tc : Thread nD τ).loc main_arg17) := by
  unfold U2
  after_results_simp
  exact U1_arg17 m d

theorem U2_arg18 : U2 m d (Proc.devRef .tc main_arg18) = m ((d.tc : Thread nD τ).loc main_arg18) := by
  unfold U2
  after_results_simp
  exact U1_arg18 m d

theorem U2_v6 : U2 m d (Proc.devRef .tc main_v6) = val_main_v6 (F := F) (m ((d.tc : Thread nD τ).loc main_arg0)) (m ((d.tc : Thread nD τ).loc main_arg4)) := by
  unfold U2
  after_results_simp
  exact U1_v6 m d

theorem U2_v8 : U2 m d (Proc.devRef .tc main_v8) = val_main_v8 (F := F) (m ((d.tc : Thread nD τ).loc main_arg1)) := by
  unfold U2
  after_results_simp
  exact U1_v8 m d

theorem U2_v10 : U2 m d (Proc.devRef .tc main_v10) = val_main_v10 (F := F) (m ((d.tc : Thread nD τ).loc main_arg1)) := by
  unfold U2
  after_results_simp
  exact U1_v10 m d

theorem U2_v26 : U2 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U2
  after_results_simp
  dsimp only [Matrix.cons_val]
  rw [U1_v6 m d, U1_v8 m d, U1_v10 m d, U1_arg5 m d, U1_arg6 m d]
  rfl

theorem U2_v27 : U2 m d (Proc.devRef .tc main_v27) = val_main_v27 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) := by
  unfold U2
  after_results_simp
  dsimp only [Matrix.cons_val]
  rw [U1_v6 m d, U1_v8 m d, U1_v10 m d, U1_arg5 m d, U1_arg6 m d, U1_arg3 m d]
  rfl

/-! ### After chunk 3 -/

set_option maxHeartbeats 1000000 in
theorem U3_arg0 : U3 m d (Proc.devRef .tc main_arg0) = m ((d.tc : Thread nD τ).loc main_arg0) := by
  unfold U3
  after_results_simp
  exact U2_arg0 m d

set_option maxHeartbeats 1000000 in
theorem U3_arg1 : U3 m d (Proc.devRef .tc main_arg1) = m ((d.tc : Thread nD τ).loc main_arg1) := by
  unfold U3
  after_results_simp
  exact U2_arg1 m d

set_option maxHeartbeats 1000000 in
theorem U3_arg2 : U3 m d (Proc.devRef .tc main_arg2) = m ((d.tc : Thread nD τ).loc main_arg2) := by
  unfold U3
  after_results_simp
  exact U2_arg2 m d

set_option maxHeartbeats 1000000 in
theorem U3_arg3 : U3 m d (Proc.devRef .tc main_arg3) = m ((d.tc : Thread nD τ).loc main_arg3) := by
  unfold U3
  after_results_simp
  exact U2_arg3 m d

set_option maxHeartbeats 1000000 in
theorem U3_arg4 : U3 m d (Proc.devRef .tc main_arg4) = m ((d.tc : Thread nD τ).loc main_arg4) := by
  unfold U3
  after_results_simp
  exact U2_arg4 m d

set_option maxHeartbeats 1000000 in
theorem U3_arg5 : U3 m d (Proc.devRef .tc main_arg5) = m ((d.tc : Thread nD τ).loc main_arg5) := by
  unfold U3
  after_results_simp
  exact U2_arg5 m d

set_option maxHeartbeats 1000000 in
theorem U3_arg6 : U3 m d (Proc.devRef .tc main_arg6) = m ((d.tc : Thread nD τ).loc main_arg6) := by
  unfold U3
  after_results_simp
  exact U2_arg6 m d

set_option maxHeartbeats 1000000 in
theorem U3_arg7 : U3 m d (Proc.devRef .tc main_arg7) = m ((d.tc : Thread nD τ).loc main_arg7) := by
  unfold U3
  after_results_simp
  exact U2_arg7 m d

set_option maxHeartbeats 1000000 in
theorem U3_arg8 : U3 m d (Proc.devRef .tc main_arg8) = m ((d.tc : Thread nD τ).loc main_arg8) := by
  unfold U3
  after_results_simp
  exact U2_arg8 m d

set_option maxHeartbeats 1000000 in
theorem U3_arg9 : U3 m d (Proc.devRef .tc main_arg9) = m ((d.tc : Thread nD τ).loc main_arg9) := by
  unfold U3
  after_results_simp
  exact U2_arg9 m d

set_option maxHeartbeats 1000000 in
theorem U3_arg10 : U3 m d (Proc.devRef .tc main_arg10) = m ((d.tc : Thread nD τ).loc main_arg10) := by
  unfold U3
  after_results_simp
  exact U2_arg10 m d

set_option maxHeartbeats 1000000 in
theorem U3_arg11 : U3 m d (Proc.devRef .tc main_arg11) = m ((d.tc : Thread nD τ).loc main_arg11) := by
  unfold U3
  after_results_simp
  exact U2_arg11 m d

set_option maxHeartbeats 1000000 in
theorem U3_arg12 : U3 m d (Proc.devRef .tc main_arg12) = m ((d.tc : Thread nD τ).loc main_arg12) := by
  unfold U3
  after_results_simp
  exact U2_arg12 m d

set_option maxHeartbeats 1000000 in
theorem U3_arg13 : U3 m d (Proc.devRef .tc main_arg13) = m ((d.tc : Thread nD τ).loc main_arg13) := by
  unfold U3
  after_results_simp
  exact U2_arg13 m d

set_option maxHeartbeats 1000000 in
theorem U3_arg14 : U3 m d (Proc.devRef .tc main_arg14) = m ((d.tc : Thread nD τ).loc main_arg14) := by
  unfold U3
  after_results_simp
  exact U2_arg14 m d

set_option maxHeartbeats 1000000 in
theorem U3_arg15 : U3 m d (Proc.devRef .tc main_arg15) = m ((d.tc : Thread nD τ).loc main_arg15) := by
  unfold U3
  after_results_simp
  exact U2_arg15 m d

set_option maxHeartbeats 1000000 in
theorem U3_arg16 : U3 m d (Proc.devRef .tc main_arg16) = m ((d.tc : Thread nD τ).loc main_arg16) := by
  unfold U3
  after_results_simp
  exact U2_arg16 m d

set_option maxHeartbeats 1000000 in
theorem U3_arg17 : U3 m d (Proc.devRef .tc main_arg17) = m ((d.tc : Thread nD τ).loc main_arg17) := by
  unfold U3
  after_results_simp
  exact U2_arg17 m d

set_option maxHeartbeats 1000000 in
theorem U3_arg18 : U3 m d (Proc.devRef .tc main_arg18) = m ((d.tc : Thread nD τ).loc main_arg18) := by
  unfold U3
  after_results_simp
  exact U2_arg18 m d

set_option maxHeartbeats 1000000 in
theorem U3_v26 : U3 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U3
  after_results_simp
  exact U2_v26 m d

set_option maxHeartbeats 4000000 in
theorem U3_v69 : U3 m d (Proc.devRef .tc main_v69) = val_main_v69 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  unfold U3
  after_results_simp
  rw [U2_v6 m d, U2_v27 m d, U2_arg7 m d, U2_arg8 m d, U2_arg9 m d, U2_arg11 m d, U2_v8 m d, U2_arg10 m d, U2_arg12 m d]
  simp only [TRef.ofBuf, TRef.toBuf, cast_round]
  rfl

set_option maxHeartbeats 4000000 in
theorem U3_v105 : U3 m d (Proc.devRef .tc main_v105) = val_main_v105 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg13)) (m ((d.tc : Thread nD τ).loc main_arg14)) (m ((d.tc : Thread nD τ).loc main_arg15)) (m ((d.tc : Thread nD τ).loc main_arg16)) := by
  unfold U3
  after_results_simp
  rw [U2_v6 m d, U2_v27 m d, U2_arg7 m d, U2_arg8 m d, U2_arg13 m d, U2_arg15 m d, U2_v10 m d, U2_arg14 m d, U2_arg16 m d]
  simp only [TRef.ofBuf, TRef.toBuf, cast_round]
  rfl

/-! ### After chunk 4 -/

theorem U4_arg0 : U4 m d (Proc.devRef .tc main_arg0) = m ((d.tc : Thread nD τ).loc main_arg0) := by
  unfold U4
  after_results_simp
  exact U3_arg0 m d

theorem U4_arg1 : U4 m d (Proc.devRef .tc main_arg1) = m ((d.tc : Thread nD τ).loc main_arg1) := by
  unfold U4
  after_results_simp
  exact U3_arg1 m d

theorem U4_arg2 : U4 m d (Proc.devRef .tc main_arg2) = m ((d.tc : Thread nD τ).loc main_arg2) := by
  unfold U4
  after_results_simp
  exact U3_arg2 m d

theorem U4_arg3 : U4 m d (Proc.devRef .tc main_arg3) = m ((d.tc : Thread nD τ).loc main_arg3) := by
  unfold U4
  after_results_simp
  exact U3_arg3 m d

theorem U4_arg4 : U4 m d (Proc.devRef .tc main_arg4) = m ((d.tc : Thread nD τ).loc main_arg4) := by
  unfold U4
  after_results_simp
  exact U3_arg4 m d

theorem U4_arg5 : U4 m d (Proc.devRef .tc main_arg5) = m ((d.tc : Thread nD τ).loc main_arg5) := by
  unfold U4
  after_results_simp
  exact U3_arg5 m d

theorem U4_arg6 : U4 m d (Proc.devRef .tc main_arg6) = m ((d.tc : Thread nD τ).loc main_arg6) := by
  unfold U4
  after_results_simp
  exact U3_arg6 m d

theorem U4_arg7 : U4 m d (Proc.devRef .tc main_arg7) = m ((d.tc : Thread nD τ).loc main_arg7) := by
  unfold U4
  after_results_simp
  exact U3_arg7 m d

theorem U4_arg8 : U4 m d (Proc.devRef .tc main_arg8) = m ((d.tc : Thread nD τ).loc main_arg8) := by
  unfold U4
  after_results_simp
  exact U3_arg8 m d

theorem U4_arg9 : U4 m d (Proc.devRef .tc main_arg9) = m ((d.tc : Thread nD τ).loc main_arg9) := by
  unfold U4
  after_results_simp
  exact U3_arg9 m d

theorem U4_arg10 : U4 m d (Proc.devRef .tc main_arg10) = m ((d.tc : Thread nD τ).loc main_arg10) := by
  unfold U4
  after_results_simp
  exact U3_arg10 m d

theorem U4_arg11 : U4 m d (Proc.devRef .tc main_arg11) = m ((d.tc : Thread nD τ).loc main_arg11) := by
  unfold U4
  after_results_simp
  exact U3_arg11 m d

theorem U4_arg12 : U4 m d (Proc.devRef .tc main_arg12) = m ((d.tc : Thread nD τ).loc main_arg12) := by
  unfold U4
  after_results_simp
  exact U3_arg12 m d

theorem U4_arg13 : U4 m d (Proc.devRef .tc main_arg13) = m ((d.tc : Thread nD τ).loc main_arg13) := by
  unfold U4
  after_results_simp
  exact U3_arg13 m d

theorem U4_arg14 : U4 m d (Proc.devRef .tc main_arg14) = m ((d.tc : Thread nD τ).loc main_arg14) := by
  unfold U4
  after_results_simp
  exact U3_arg14 m d

theorem U4_arg15 : U4 m d (Proc.devRef .tc main_arg15) = m ((d.tc : Thread nD τ).loc main_arg15) := by
  unfold U4
  after_results_simp
  exact U3_arg15 m d

theorem U4_arg16 : U4 m d (Proc.devRef .tc main_arg16) = m ((d.tc : Thread nD τ).loc main_arg16) := by
  unfold U4
  after_results_simp
  exact U3_arg16 m d

theorem U4_arg17 : U4 m d (Proc.devRef .tc main_arg17) = m ((d.tc : Thread nD τ).loc main_arg17) := by
  unfold U4
  after_results_simp
  exact U3_arg17 m d

theorem U4_arg18 : U4 m d (Proc.devRef .tc main_arg18) = m ((d.tc : Thread nD τ).loc main_arg18) := by
  unfold U4
  after_results_simp
  exact U3_arg18 m d

theorem U4_v26 : U4 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U4
  after_results_simp
  exact U3_v26 m d

theorem U4_v69 : U4 m d (Proc.devRef .tc main_v69) = val_main_v69 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  unfold U4
  after_results_simp
  exact U3_v69 m d

theorem U4_v105 : U4 m d (Proc.devRef .tc main_v105) = val_main_v105 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg13)) (m ((d.tc : Thread nD τ).loc main_arg14)) (m ((d.tc : Thread nD τ).loc main_arg15)) (m ((d.tc : Thread nD τ).loc main_arg16)) := by
  unfold U4
  after_results_simp
  exact U3_v105 m d

theorem U4_v106 : U4 m d (Proc.devRef .tc main_v106) = val_main_v106 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  unfold U4
  after_results_simp
  rw [U3_v69 m d, U3_v105 m d]
  rfl

/-! ### After chunk 5 -/

theorem U5_arg0 : U5 m d (Proc.devRef .tc main_arg0) = m ((d.tc : Thread nD τ).loc main_arg0) := by
  unfold U5
  after_results_simp
  exact U4_arg0 m d

theorem U5_arg1 : U5 m d (Proc.devRef .tc main_arg1) = m ((d.tc : Thread nD τ).loc main_arg1) := by
  unfold U5
  after_results_simp
  exact U4_arg1 m d

theorem U5_arg2 : U5 m d (Proc.devRef .tc main_arg2) = m ((d.tc : Thread nD τ).loc main_arg2) := by
  unfold U5
  after_results_simp
  exact U4_arg2 m d

theorem U5_arg3 : U5 m d (Proc.devRef .tc main_arg3) = m ((d.tc : Thread nD τ).loc main_arg3) := by
  unfold U5
  after_results_simp
  exact U4_arg3 m d

theorem U5_arg4 : U5 m d (Proc.devRef .tc main_arg4) = m ((d.tc : Thread nD τ).loc main_arg4) := by
  unfold U5
  after_results_simp
  exact U4_arg4 m d

theorem U5_arg5 : U5 m d (Proc.devRef .tc main_arg5) = m ((d.tc : Thread nD τ).loc main_arg5) := by
  unfold U5
  after_results_simp
  exact U4_arg5 m d

theorem U5_arg6 : U5 m d (Proc.devRef .tc main_arg6) = m ((d.tc : Thread nD τ).loc main_arg6) := by
  unfold U5
  after_results_simp
  exact U4_arg6 m d

theorem U5_arg7 : U5 m d (Proc.devRef .tc main_arg7) = m ((d.tc : Thread nD τ).loc main_arg7) := by
  unfold U5
  after_results_simp
  exact U4_arg7 m d

theorem U5_arg8 : U5 m d (Proc.devRef .tc main_arg8) = m ((d.tc : Thread nD τ).loc main_arg8) := by
  unfold U5
  after_results_simp
  exact U4_arg8 m d

theorem U5_arg9 : U5 m d (Proc.devRef .tc main_arg9) = m ((d.tc : Thread nD τ).loc main_arg9) := by
  unfold U5
  after_results_simp
  exact U4_arg9 m d

theorem U5_arg10 : U5 m d (Proc.devRef .tc main_arg10) = m ((d.tc : Thread nD τ).loc main_arg10) := by
  unfold U5
  after_results_simp
  exact U4_arg10 m d

theorem U5_arg11 : U5 m d (Proc.devRef .tc main_arg11) = m ((d.tc : Thread nD τ).loc main_arg11) := by
  unfold U5
  after_results_simp
  exact U4_arg11 m d

theorem U5_arg12 : U5 m d (Proc.devRef .tc main_arg12) = m ((d.tc : Thread nD τ).loc main_arg12) := by
  unfold U5
  after_results_simp
  exact U4_arg12 m d

theorem U5_arg13 : U5 m d (Proc.devRef .tc main_arg13) = m ((d.tc : Thread nD τ).loc main_arg13) := by
  unfold U5
  after_results_simp
  exact U4_arg13 m d

theorem U5_arg14 : U5 m d (Proc.devRef .tc main_arg14) = m ((d.tc : Thread nD τ).loc main_arg14) := by
  unfold U5
  after_results_simp
  exact U4_arg14 m d

theorem U5_arg15 : U5 m d (Proc.devRef .tc main_arg15) = m ((d.tc : Thread nD τ).loc main_arg15) := by
  unfold U5
  after_results_simp
  exact U4_arg15 m d

theorem U5_arg16 : U5 m d (Proc.devRef .tc main_arg16) = m ((d.tc : Thread nD τ).loc main_arg16) := by
  unfold U5
  after_results_simp
  exact U4_arg16 m d

theorem U5_arg17 : U5 m d (Proc.devRef .tc main_arg17) = m ((d.tc : Thread nD τ).loc main_arg17) := by
  unfold U5
  after_results_simp
  exact U4_arg17 m d

theorem U5_arg18 : U5 m d (Proc.devRef .tc main_arg18) = m ((d.tc : Thread nD τ).loc main_arg18) := by
  unfold U5
  after_results_simp
  exact U4_arg18 m d

theorem U5_v26 : U5 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U5
  after_results_simp
  exact U4_v26 m d

theorem U5_v106 : U5 m d (Proc.devRef .tc main_v106) = val_main_v106 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  unfold U5
  after_results_simp
  exact U4_v106 m d

theorem U5_v107 : U5 m d (Proc.devRef .tc main_v107) = val_main_v107 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  unfold U5
  after_results_simp
  rw [U4_v69 m d]
  rfl

theorem U5_v108 : U5 m d (Proc.devRef .tc main_v108) = val_main_v108 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg13)) (m ((d.tc : Thread nD τ).loc main_arg14)) (m ((d.tc : Thread nD τ).loc main_arg15)) (m ((d.tc : Thread nD τ).loc main_arg16)) := by
  unfold U5
  after_results_simp
  rw [U4_v105 m d]
  rfl

/-! ### After chunk 6 -/

theorem U6_arg0 : U6 m d (Proc.devRef .tc main_arg0) = m ((d.tc : Thread nD τ).loc main_arg0) := by
  unfold U6
  after_results_simp
  exact U5_arg0 m d

theorem U6_arg1 : U6 m d (Proc.devRef .tc main_arg1) = m ((d.tc : Thread nD τ).loc main_arg1) := by
  unfold U6
  after_results_simp
  exact U5_arg1 m d

theorem U6_arg2 : U6 m d (Proc.devRef .tc main_arg2) = m ((d.tc : Thread nD τ).loc main_arg2) := by
  unfold U6
  after_results_simp
  exact U5_arg2 m d

theorem U6_arg3 : U6 m d (Proc.devRef .tc main_arg3) = m ((d.tc : Thread nD τ).loc main_arg3) := by
  unfold U6
  after_results_simp
  exact U5_arg3 m d

theorem U6_arg4 : U6 m d (Proc.devRef .tc main_arg4) = m ((d.tc : Thread nD τ).loc main_arg4) := by
  unfold U6
  after_results_simp
  exact U5_arg4 m d

theorem U6_arg5 : U6 m d (Proc.devRef .tc main_arg5) = m ((d.tc : Thread nD τ).loc main_arg5) := by
  unfold U6
  after_results_simp
  exact U5_arg5 m d

theorem U6_arg6 : U6 m d (Proc.devRef .tc main_arg6) = m ((d.tc : Thread nD τ).loc main_arg6) := by
  unfold U6
  after_results_simp
  exact U5_arg6 m d

theorem U6_arg7 : U6 m d (Proc.devRef .tc main_arg7) = m ((d.tc : Thread nD τ).loc main_arg7) := by
  unfold U6
  after_results_simp
  exact U5_arg7 m d

theorem U6_arg8 : U6 m d (Proc.devRef .tc main_arg8) = m ((d.tc : Thread nD τ).loc main_arg8) := by
  unfold U6
  after_results_simp
  exact U5_arg8 m d

theorem U6_arg9 : U6 m d (Proc.devRef .tc main_arg9) = m ((d.tc : Thread nD τ).loc main_arg9) := by
  unfold U6
  after_results_simp
  exact U5_arg9 m d

theorem U6_arg10 : U6 m d (Proc.devRef .tc main_arg10) = m ((d.tc : Thread nD τ).loc main_arg10) := by
  unfold U6
  after_results_simp
  exact U5_arg10 m d

theorem U6_arg11 : U6 m d (Proc.devRef .tc main_arg11) = m ((d.tc : Thread nD τ).loc main_arg11) := by
  unfold U6
  after_results_simp
  exact U5_arg11 m d

theorem U6_arg12 : U6 m d (Proc.devRef .tc main_arg12) = m ((d.tc : Thread nD τ).loc main_arg12) := by
  unfold U6
  after_results_simp
  exact U5_arg12 m d

theorem U6_arg13 : U6 m d (Proc.devRef .tc main_arg13) = m ((d.tc : Thread nD τ).loc main_arg13) := by
  unfold U6
  after_results_simp
  exact U5_arg13 m d

theorem U6_arg14 : U6 m d (Proc.devRef .tc main_arg14) = m ((d.tc : Thread nD τ).loc main_arg14) := by
  unfold U6
  after_results_simp
  exact U5_arg14 m d

theorem U6_arg15 : U6 m d (Proc.devRef .tc main_arg15) = m ((d.tc : Thread nD τ).loc main_arg15) := by
  unfold U6
  after_results_simp
  exact U5_arg15 m d

theorem U6_arg16 : U6 m d (Proc.devRef .tc main_arg16) = m ((d.tc : Thread nD τ).loc main_arg16) := by
  unfold U6
  after_results_simp
  exact U5_arg16 m d

theorem U6_arg17 : U6 m d (Proc.devRef .tc main_arg17) = m ((d.tc : Thread nD τ).loc main_arg17) := by
  unfold U6
  after_results_simp
  exact U5_arg17 m d

theorem U6_arg18 : U6 m d (Proc.devRef .tc main_arg18) = m ((d.tc : Thread nD τ).loc main_arg18) := by
  unfold U6
  after_results_simp
  exact U5_arg18 m d

theorem U6_v26 : U6 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U6
  after_results_simp
  exact U5_v26 m d

theorem U6_v106 : U6 m d (Proc.devRef .tc main_v106) = val_main_v106 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  unfold U6
  after_results_simp
  exact U5_v106 m d

theorem U6_v109 : U6 m d (Proc.devRef .tc main_v109) = val_main_v109 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  unfold U6
  after_results_simp
  rw [U5_v107 m d, U5_v108 m d]
  rfl

/-! ### After chunk 7 -/

theorem U7_arg0 : U7 m d (Proc.devRef .tc main_arg0) = m ((d.tc : Thread nD τ).loc main_arg0) := by
  unfold U7
  after_results_simp
  exact U6_arg0 m d

theorem U7_arg1 : U7 m d (Proc.devRef .tc main_arg1) = m ((d.tc : Thread nD τ).loc main_arg1) := by
  unfold U7
  after_results_simp
  exact U6_arg1 m d

theorem U7_arg2 : U7 m d (Proc.devRef .tc main_arg2) = m ((d.tc : Thread nD τ).loc main_arg2) := by
  unfold U7
  after_results_simp
  exact U6_arg2 m d

theorem U7_arg3 : U7 m d (Proc.devRef .tc main_arg3) = m ((d.tc : Thread nD τ).loc main_arg3) := by
  unfold U7
  after_results_simp
  exact U6_arg3 m d

theorem U7_arg4 : U7 m d (Proc.devRef .tc main_arg4) = m ((d.tc : Thread nD τ).loc main_arg4) := by
  unfold U7
  after_results_simp
  exact U6_arg4 m d

theorem U7_arg5 : U7 m d (Proc.devRef .tc main_arg5) = m ((d.tc : Thread nD τ).loc main_arg5) := by
  unfold U7
  after_results_simp
  exact U6_arg5 m d

theorem U7_arg6 : U7 m d (Proc.devRef .tc main_arg6) = m ((d.tc : Thread nD τ).loc main_arg6) := by
  unfold U7
  after_results_simp
  exact U6_arg6 m d

theorem U7_arg7 : U7 m d (Proc.devRef .tc main_arg7) = m ((d.tc : Thread nD τ).loc main_arg7) := by
  unfold U7
  after_results_simp
  exact U6_arg7 m d

theorem U7_arg8 : U7 m d (Proc.devRef .tc main_arg8) = m ((d.tc : Thread nD τ).loc main_arg8) := by
  unfold U7
  after_results_simp
  exact U6_arg8 m d

theorem U7_arg9 : U7 m d (Proc.devRef .tc main_arg9) = m ((d.tc : Thread nD τ).loc main_arg9) := by
  unfold U7
  after_results_simp
  exact U6_arg9 m d

theorem U7_arg10 : U7 m d (Proc.devRef .tc main_arg10) = m ((d.tc : Thread nD τ).loc main_arg10) := by
  unfold U7
  after_results_simp
  exact U6_arg10 m d

theorem U7_arg11 : U7 m d (Proc.devRef .tc main_arg11) = m ((d.tc : Thread nD τ).loc main_arg11) := by
  unfold U7
  after_results_simp
  exact U6_arg11 m d

theorem U7_arg12 : U7 m d (Proc.devRef .tc main_arg12) = m ((d.tc : Thread nD τ).loc main_arg12) := by
  unfold U7
  after_results_simp
  exact U6_arg12 m d

theorem U7_arg13 : U7 m d (Proc.devRef .tc main_arg13) = m ((d.tc : Thread nD τ).loc main_arg13) := by
  unfold U7
  after_results_simp
  exact U6_arg13 m d

theorem U7_arg14 : U7 m d (Proc.devRef .tc main_arg14) = m ((d.tc : Thread nD τ).loc main_arg14) := by
  unfold U7
  after_results_simp
  exact U6_arg14 m d

theorem U7_arg15 : U7 m d (Proc.devRef .tc main_arg15) = m ((d.tc : Thread nD τ).loc main_arg15) := by
  unfold U7
  after_results_simp
  exact U6_arg15 m d

theorem U7_arg16 : U7 m d (Proc.devRef .tc main_arg16) = m ((d.tc : Thread nD τ).loc main_arg16) := by
  unfold U7
  after_results_simp
  exact U6_arg16 m d

theorem U7_arg17 : U7 m d (Proc.devRef .tc main_arg17) = m ((d.tc : Thread nD τ).loc main_arg17) := by
  unfold U7
  after_results_simp
  exact U6_arg17 m d

theorem U7_arg18 : U7 m d (Proc.devRef .tc main_arg18) = m ((d.tc : Thread nD τ).loc main_arg18) := by
  unfold U7
  after_results_simp
  exact U6_arg18 m d

theorem U7_v26 : U7 m d (Proc.devRef .tc main_v26) = val_main_v26 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) := by
  unfold U7
  after_results_simp
  exact U6_v26 m d

theorem U7_v109 : U7 m d (Proc.devRef .tc main_v109) = val_main_v109 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  unfold U7
  after_results_simp
  exact U6_v109 m d

theorem U7_v114 : U7 m d (Proc.devRef .tc main_v114) = val_main_v114 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  unfold U7
  after_results_simp
  rw [U6_v106 m d, U6_arg17 m d, U6_arg18 m d]
  simp only [TRef.ofBuf, TRef.toBuf, cast_round]
  rfl

/-! ## The run -/

variable (ρ : Dev nD → PrngReg) in
/-- From any memory with zero counters every weakly fair execution of the reference program terminates with each
    result at its function of the arguments' launch contents and every argument unchanged. -/
theorem ref_run : θ_run defs (onTc (τ := τ) (main (F := F))) ⟨m, fun _ => 0, ρ⟩ fun r => ∀ c : Dev nD,
      r.2.mem ((c.tc : Thread nD τ).loc main_v114) = Cert.ReferenceIdeal.Read.val_main_v114 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v109) = Cert.ReferenceIdeal.Read.val_main_v109 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v26) = Cert.ReferenceIdeal.Read.val_main_v26 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v114).trans ((congrFun (after_ops m c) _).trans (U7_v114 m c)),
      (h c main_v109).trans ((congrFun (after_ops m c) _).trans (U7_v109 m c)),
      (h c main_v26).trans ((congrFun (after_ops m c) _).trans (U7_v26 m c)),
      (h c main_arg0).trans ((congrFun (after_ops m c) _).trans (U7_arg0 m c)),
      (h c main_arg1).trans ((congrFun (after_ops m c) _).trans (U7_arg1 m c)),
      (h c main_arg2).trans ((congrFun (after_ops m c) _).trans (U7_arg2 m c)),
      (h c main_arg3).trans ((congrFun (after_ops m c) _).trans (U7_arg3 m c)),
      (h c main_arg4).trans ((congrFun (after_ops m c) _).trans (U7_arg4 m c)),
      (h c main_arg5).trans ((congrFun (after_ops m c) _).trans (U7_arg5 m c)),
      (h c main_arg6).trans ((congrFun (after_ops m c) _).trans (U7_arg6 m c)),
      (h c main_arg7).trans ((congrFun (after_ops m c) _).trans (U7_arg7 m c)),
      (h c main_arg8).trans ((congrFun (after_ops m c) _).trans (U7_arg8 m c)),
      (h c main_arg9).trans ((congrFun (after_ops m c) _).trans (U7_arg9 m c)),
      (h c main_arg10).trans ((congrFun (after_ops m c) _).trans (U7_arg10 m c)),
      (h c main_arg11).trans ((congrFun (after_ops m c) _).trans (U7_arg11 m c)),
      (h c main_arg12).trans ((congrFun (after_ops m c) _).trans (U7_arg12 m c)),
      (h c main_arg13).trans ((congrFun (after_ops m c) _).trans (U7_arg13 m c)),
      (h c main_arg14).trans ((congrFun (after_ops m c) _).trans (U7_arg14 m c)),
      (h c main_arg15).trans ((congrFun (after_ops m c) _).trans (U7_arg15 m c)),
      (h c main_arg16).trans ((congrFun (after_ops m c) _).trans (U7_arg16 m c)),
      (h c main_arg17).trans ((congrFun (after_ops m c) _).trans (U7_arg17 m c)),
      (h c main_arg18).trans ((congrFun (after_ops m c) _).trans (U7_arg18 m c))⟩)
    (run_bufs m ρ)

end Cert.ReferenceIdeal.ValueP

end
-- ==== Proof.K.Dats.lean ====
/-
  The three pallas_calls of the decoder step as proof data, at any float instance.
  Region 0 (one grid point): from the embedding row, the two hidden rows, the attention weights and bias, the
  encoder outputs, the combine weights and bias, it leaves the attention distribution (1×64) and the combined,
  rectified input row (1×1024).
  Region 1 (two grid points, one per GRU direction): each point copies its direction's two weight matrices from HBM
  into the two scratch buffers, waits for both copies, and leaves that direction's new hidden row.
  Region 2 (33 grid points over the vocabulary, the last block cut at the array's end) is stated apart.
  Each output buffer is written as ONE pure term of the blocks the body loads: the body's arithmetic as the
  generated skeleton names it, applied to the whole loaded blocks.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import Idealize.ShloMosaic.Lib.Pipeline.FrameBody
import Idealize.ShloMosaic.Lib.Pipeline.Frame
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A valuation of every core's TensorCore buffers: what a region finds when it is entered. -/
abbrev Valn (F : FTy → Type) [FloatOps F] : Type :=
  (c : Dev nD) → (b : Ref sig .tc) → Buf (Elt F) ((c : Thread nD τ).loc b)

variable (V : Valn F)

/-! ## The windows' blocks, read off the arrays as a region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What each body leaves in its output buffers, as pure terms of the loaded blocks -/

/-- The attention distribution: softmax over the 64 positions of (embedding ‖ h0 ‖ h1)·attn_Wᵀ + attn_b. -/
def attnOut (e h0 h1 : Vec F S1x1024 .f32) (aw : Vec F S64x3072 .f32) (ab : Vec F S1x64 .f32) : Vec F S1x64 .f32 :=
  k0_pay2 e h0 h1 aw ab
/-- The GRU's input row: relu((embedding ‖ attention·encoder)·comb_Wᵀ + comb_b). -/
def combOut (e h0 h1 : Vec F S1x1024 .f32) (aw : Vec F S64x3072 .f32) (ab : Vec F S1x64 .f32)
    (enc : Vec F S64x2048 .f32) (cw : Vec F S1024x3072 .f32) (cb : Vec F S1x1024 .f32) : Vec F S1x1024 .f32 :=
  k0_pay1 (k0_pay3 e h0 h1 aw ab enc e cw) cb
/-- One GRU cell: the new hidden row from the input row, the old hidden row, the two weight matrices and biases. -/
def gruOut (x : Vec F S1x1024 .f32) (h : Vec F S1x1x1024 .f32) (wih whh : Vec F S3072x1024 .f32)
    (bih bhh : Vec F S1x1x3072 .f32) : Vec F S1x1x1024 .f32 :=
  k1_pay1 (k1_pay3 h whh bhh) (k1_pay4 x wih bih) (k1_pay5 x wih bih) (k1_pay6 x wih bih) (k1_pay7 h whh bhh) h
/-- One vocabulary tile of the output projection: g·Wᵀ + b on a 1536-row tile of out_W. -/
def projOut (g : Vec F S1x2048 .f32) (w : Vec F S1536x2048 .f32) (b : Vec F S1x1536 .f32) : Vec F S1x1536 .f32 :=
  k2_pay1 g w b

/-! ## Region 1's own transfers -/

/-- The two DMA semaphores of region 1's scratch semaphore array. -/
abbrev osem1 : Fin 2 → SemLoc sig := fun j => (![SemLoc.dma 19, SemLoc.dma 20] : Fin 2 → SemLoc sig) j
/-- The four weight matrices region 1 receives left in HBM and only reads. -/
def H1 : Finset (Ref sig .tc) := {main_arg9, main_arg10, main_arg13, main_arg14}

/-- The input-to-hidden weights the body copies into scratch at point `t`: the forward direction's at point 0, the
    backward direction's at point 1. -/
def wihAt (c : Dev nD) (t : Fin cfg1.N) : Vec F S3072x1024 .f32 :=
  if t.val = 0 then (V c main_arg9 : Vec F S3072x1024 .f32) else (V c main_arg13 : Vec F S3072x1024 .f32)
/-- The hidden-to-hidden weights likewise. -/
def whhAt (c : Dev nD) (t : Fin cfg1.N) : Vec F S3072x1024 .f32 :=
  if t.val = 0 then (V c main_arg10 : Vec F S3072x1024 .f32) else (V c main_arg14 : Vec F S3072x1024 .f32)

/-! ## The proof data of regions 0 and 1 -/

/-- Region 0 on core `c`: the arrays as found; after the body each input buffer holds its block, the two output
    buffers `attnOut` and `combOut` of the input blocks; the scoped rest and the generator register untouched. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => attnOut (iblk0 V c 0 t) (iblk0 V c 1 t) (iblk0 V c 2 t) (iblk0 V c 3 t) (iblk0 V c 4 t)
    | ⟨9, _⟩ => combOut (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = attnOut (iblk0 V c 0 t) (iblk0 V c 1 t) (iblk0 V c 2 t) (iblk0 V c 3 t) (iblk0 V c 4 t) := by dsimp only [dat0]
theorem after0_9 (c : Dev nD) (t : Fin cfg0.N) : (dat0 V c).after 9 t
    = combOut (iblk0 V c 0 t) (iblk0 V c 1 t) (iblk0 V c 2 t) (iblk0 V c 3 t) (iblk0 V c 4 t) (iblk0 V c 5 t) (iblk0 V c 6 t) (iblk0 V c 7 t) := by
  dsimp only [dat0]

/-- Region 1 on core `c`: the arrays as found; after the body at point `t` each input buffer holds its block and the
    output buffer that direction's new hidden row, from the weights of the direction the point copies; the invariant
    is the one of a body with transfers of its own within the point (scoped rest, generator register, the two own
    semaphores at zero, the four HBM matrices whole at the contents found). -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => gruOut (iblk1 V c 0 t) (iblk1 V c 1 t) (wihAt V c t) (whhAt V c t) (iblk1 V c 2 t) (iblk1 V c 3 t)
  Φ _ := Pipeline.ΦD osem1 spec1 H1 V c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = gruOut (iblk1 V c 0 t) (iblk1 V c 1 t) (wihAt V c t) (whhAt V c t) (iblk1 V c 2 t) (iblk1 V c 3 t) := by dsimp only [dat1]

/-! ## Region 2: the output projection over 33 vocabulary tiles, the last one cut at the array's end -/

/-- The tile of out_W the fetch at point `t` reads, its part inside the array (1536 rows, 1105 at the last point). -/
def wblk (c : Dev nD) (t : Fin cfg2.N) : (win2_1.xblock (grid2.coords t)).Idx → Elt F .f32 :=
  (win2_1.blk t).view.read (Elt F) (V c main_arg17)
/-- The matching lanes of the bias row. -/
def bblk (c : Dev nD) (t : Fin cfg2.N) : (win2_2.xblock (grid2.coords t)).Idx → Elt F .f32 :=
  (win2_2.blk t).view.read (Elt F) (V c main_v30)
/-- Those blocks filled out to the full tile with the zero word past the array's end: nothing reads the filler. -/
def wfill (c : Dev nD) (t : Fin cfg2.N) : Vec F S1536x2048 .f32 :=
  win2_1.fill (grid2.coords t) (fun _ => Scalar.ofBits .f32 0#32) (wblk V c t)
def bfill (c : Dev nD) (t : Fin cfg2.N) : Vec F S1x1536 .f32 :=
  win2_2.fill (grid2.coords t) (fun _ => Scalar.ofBits .f32 0#32) (bblk V c t)

/-- Region 2 on core `c`: the arrays as found; after the body at point `t` the row buffer holds the GRU output row,
    the weight and bias buffers their tiles (stated on the rows and lanes inside the arrays; zero-filled here), the
    output buffer the projection of those. Only the lanes inside the array are ever written back. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => wfill V c t
    | ⟨2, _⟩ => bfill V c t
    | ⟨3, _⟩ => projOut (iblk2 V c 0 t) (wfill V c t) (bfill V c t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wfill V c t := by dsimp only [dat2]
theorem after2_2 (c : Dev nD) (t : Fin cfg2.N) : (dat2 V c).after 2 t = bfill V c t := by dsimp only [dat2]
theorem after2_3 (c : Dev nD) (t : Fin cfg2.N) : (dat2 V c).after 3 t = projOut (iblk2 V c 0 t) (wfill V c t) (bfill V c t) := by
  dsimp only [dat2]

/-- The window region 2's bit-level frame says nothing of: its output. -/
abbrev fgt2 : Fin cfg2.W → Bool := fun w => w.val == 3

end Cert.Kernel.Hand

end
-- ==== Proof.K.Fold.lean ====
/-
  What every TensorCore buffer holds at each boundary of the program, as a fold from the launch memory: a stretch of
  host operations rewrites the buffers it writes; a pallas_call leaves each of its windows' arrays at what the
  pipeline's write-backs leave there (the input arrays as entered) and every other buffer as entered.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Dats
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : Valn F := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : Valn F := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : Valn F := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : Valn F := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : Valn F := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : Valn F := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: what the program returns from. -/
abbrev W7 : Dev nD → Valuation τ sig (Elt F) := fun c => StableHlo.after hostOps3 (W6 m c)

end Cert.Kernel.Hand

end
-- ==== Proof.K.Reg0.lean ====
/-
  Region 0's body at its one grid point: eight whole-block loads, the attention softmax, the two matrix products and
  the rectified combine, and one whole store into each of the two output buffers. The obligation: entered with every
  input buffer at its block, the body leaves them in place and the outputs at `attnOut` / `combOut` of those blocks.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Dats
import Idealize.ShloMosaic.Lib.Pipeline.FrameBody
import Idealize.ShloMosaic.Lib.Pipeline.Value
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

variable (V : Valn F)

/-! ## Each input's staging buffer holds its block

An input window is uncut and never idle, and the body leaves its block in place: so at every point, fetched there or
not, its current staging buffer holds the block read off the array as the region found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's accesses: every load and store is through the whole buffer, the unit rectangle at zero offsets -/

/-- The offsets of every access are zero. -/
theorem zeros2 : (![0, 0] : Fin 2 → Nat) = fun _ => 0 := by
  funext i; fin_cases i <;> rfl

abbrev r0_a : Rect S1x1024 := Rect.unit (s := S1x1024) ![0, 0] S1x1024.size inb_S1x1024_S1x1024_0_0
abbrev r0_b : Rect S1x64 := Rect.unit (s := S1x64) ![0, 0] S1x64.size inb_S1x64_S1x64_0_0
abbrev r0_c : Rect S64x3072 := Rect.unit (s := S64x3072) ![0, 0] S64x3072.size inb_S64x3072_S64x3072_0_0
abbrev r0_d : Rect S64x2048 := Rect.unit (s := S64x2048) ![0, 0] S64x2048.size inb_S64x2048_S64x2048_0_0
abbrev r0_e : Rect S1024x3072 := Rect.unit (s := S1024x3072) ![0, 0] S1024x3072.size inb_S1024x3072_S1024x3072_0_0

/-! ## What the body leaves in each output buffer, as its one store over the loads -/

/-- The attention buffer after the body: its one store, the softmax payload of the five loaded blocks. -/
def out0_8 (x0 x1 x2 : Vec F S1x1024 .f32) (x3 : Vec F S64x3072 .f32) (x4 : Vec F S1x64 .f32) : Vec F S1x64 .f32 :=
  View.canon [⟨r0_b, k0_pay2 (View.ld x0 r0_a) (View.ld x1 r0_a) (View.ld x2 r0_a) (View.ld x3 r0_c) (View.ld x4 r0_b)⟩]

/-- The combine buffer after the body: its one store, the rectified affine payload of the eight loaded blocks. -/
def out0_9 (x0 x1 x2 : Vec F S1x1024 .f32) (x3 : Vec F S64x3072 .f32) (x4 : Vec F S1x64 .f32)
    (x5 : Vec F S64x2048 .f32) (x6 : Vec F S1024x3072 .f32) (x7 : Vec F S1x1024 .f32) : Vec F S1x1024 .f32 :=
  View.canon [⟨r0_a, k0_pay1 (k0_pay3 (View.ld x0 r0_a) (View.ld x1 r0_a) (View.ld x2 r0_a) (View.ld x3 r0_c) (View.ld x4 r0_b)
    (View.ld x5 r0_d) (View.ld x0 r0_a) (View.ld x6 r0_e)) (View.ld x7 r0_a)⟩]

/-- A load through the whole buffer reads the block and one whole store leaves its payload: the attention buffer
    holds `attnOut` of the blocks. -/
theorem out0_8_eq (x0 x1 x2 : Vec F S1x1024 .f32) (x3 : Vec F S64x3072 .f32) (x4 : Vec F S1x64 .f32) :
    out0_8 x0 x1 x2 x3 x4 = attnOut x0 x1 x2 x3 x4 := by
  unfold out0_8 attnOut
  rw [View.canon_unit_zero zeros2]
  simp only [View.ld_unit_zero (S := S1x1024) zeros2, View.ld_unit_zero (S := S64x3072) zeros2,
    View.ld_unit_zero (S := S1x64) zeros2]

/-- Likewise the combine buffer holds `combOut` of the blocks. -/
theorem out0_9_eq (x0 x1 x2 : Vec F S1x1024 .f32) (x3 : Vec F S64x3072 .f32) (x4 : Vec F S1x64 .f32)
    (x5 : Vec F S64x2048 .f32) (x6 : Vec F S1024x3072 .f32) (x7 : Vec F S1x1024 .f32) :
    out0_9 x0 x1 x2 x3 x4 x5 x6 x7 = combOut x0 x1 x2 x3 x4 x5 x6 x7 := by
  unfold out0_9 combOut
  rw [View.canon_unit_zero zeros2]
  simp only [View.ld_unit_zero (S := S1x1024) zeros2, View.ld_unit_zero (S := S64x3072) zeros2,
    View.ld_unit_zero (S := S1x64) zeros2, View.ld_unit_zero (S := S64x2048) zeros2,
    View.ld_unit_zero (S := S1024x3072) zeros2]

/-- The one store of each output is through the whole buffer, so it covers it. -/
theorem cover0_8 (p0 : Vec F S1x64 .f32) (y : S1x64.Idx) :
    ∃ pc ∈ ([⟨r0_b, p0⟩] : List (View.Piece (Elt F) S1x64 .f32)), y ∈ pc.1.set :=
  ⟨_, List.mem_singleton_self _, View.mem_set_unit_zero zeros2 inb_S1x64_S1x64_0_0 y⟩
theorem cover0_9 (p0 : Vec F S1x1024 .f32) (y : S1x1024.Idx) :
    ∃ pc ∈ ([⟨r0_a, p0⟩] : List (View.Piece (Elt F) S1x1024 .f32)), y ∈ pc.1.set :=
  ⟨_, List.mem_singleton_self _, View.mem_set_unit_zero zeros2 inb_S1x1024_S1x1024_0_0 y⟩

/-! ## The body's triple -/

set_option maxHeartbeats 4000000 in
/-- The body on whole staging memrefs, the inputs' at read contents `xW` and the outputs' at anything, runs to the
    continuation holding the inputs' as they were, the attention buffer at `out0_8` and the combine buffer at
    `out0_9` of the inputs': the loads read the contents, the arithmetic is pure, each store is one whole piece. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S64x3072 .f32) (harg4 : arg4.IsWhole) (arg5 : Memref sig .tc .vmem S1x64 .f32) (harg5 : arg5.IsWhole) (arg6 : Memref sig .tc .vmem S64x2048 .f32) (harg6 : arg6.IsWhole) (arg7 : Memref sig .tc .vmem S1024x3072 .f32) (harg7 : arg7.IsWhole) (arg8 : Memref sig .tc .vmem S1x1024 .f32) (harg8 : arg8.IsWhole) (arg9 : Memref sig .tc .vmem S1x64 .f32) (harg9 : arg9.IsWhole) (arg10 : Memref sig .tc .vmem S1x1024 .f32) (harg10 : arg10.IsWhole)
    (x0 x1 x2 : Vec F S1x1024 .f32) (x3 : Vec F S64x3072 .f32) (x4 : Vec F S1x64 .f32)
    (x5 : Vec F S64x2048 .f32) (x6 : Vec F S1024x3072 .f32) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4)
            ∗ owns (c : Thread nD τ) arg10 fullShare (out0_9 x0 x1 x2 x3 x4 x5 x6 x7)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9 arg10 harg10) K := by
  simp only [cc0__attn_comb_kernel_eq_skeleton]; unfold cc0__attn_comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The body obligation, at a generic point -/

/-- What the body is called with at point `t`: the invariant, the core's `owes`, and the ten windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies at the blocks; the
    invariant and the core's `owes` pass through unread; the outputs' contents are `attnOut` / `combOut` of the
    blocks since every access is through the whole buffer. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9,
    ← out0_8_eq, ← out0_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 0, at every point, for the proof data `dat0 V c`. -/
theorem body_obligation0 (V : Valn F) (c : Dev nD) :
    BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1's body at each of its two grid points: under the point's guard it starts the two copies of its
  direction's weight matrices from HBM into the two scratch buffers, each on its own DMA semaphore; it waits for
  both (the waits name the forward matrices at either point: a wait only takes the copy's amount off the semaphore);
  then two matrix products, the gate arithmetic, and one whole store of the new hidden row. Every copy is waited for
  before the scratch is read and nothing stays in flight past the point.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Dats
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

/-- The two own semaphores are scoped DMA semaphores and none is a window's. -/
theorem ownSemFacts1 : Pipeline.OwnSemFacts spec1 osem1 := by decide
/-- The four HBM matrices are unscoped and no window's array. -/
theorem H1_sub : H1 ⊆ Pipeline.restRefs sig spec1 := by decide

/-- The two scratch buffers, whole, and the four HBM matrices, whole. -/
abbrev r1_scA : Memref sig .tc .vmem S3072x1024 .f32 := Memref.whole cc1_scratch0
abbrev r1_scB : Memref sig .tc .vmem S3072x1024 .f32 := Memref.whole cc1_scratch1
abbrev r1_hb9 : Memref sig .tc .hbm S3072x1024 .f32 := Memref.whole main_arg9
abbrev r1_hb10 : Memref sig .tc .hbm S3072x1024 .f32 := Memref.whole main_arg10
abbrev r1_hb13 : Memref sig .tc .hbm S3072x1024 .f32 := Memref.whole main_arg13
abbrev r1_hb14 : Memref sig .tc .hbm S3072x1024 .f32 := Memref.whole main_arg14
/-- A memref's buffer on core `c`: its contents type, and the buffer held whole at `f`. -/
abbrev r1_HbBuf (c : Dev nD) {sp : Space} {S : Shape} {e : EltTy} (M : Memref sig .tc sp S e) : Type := Buf (Elt F) (M.view.loc (c : Thread nD τ))
abbrev r1_hbPt (c : Dev nD) {sp : Space} {S : Shape} {e : EltTy} (M : Memref sig .tc sp S e) (f : r1_HbBuf (F := F) c M) : sProp 𝕄 :=
  M.view.loc (c : Thread nD τ) ↦{fullShare} f

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A load through the whole-shape rectangle at zero offsets, of a buffer one whole write covered, reads that write's payload. -/
theorem r1_readCov_whole {sg : RefSig} {κ : Kind} {sp : Space} {S : Shape} {e : EltTy} (v : View sg κ sp S e) {off : Fin S.rank → Nat}
    (hz : off = fun _ => 0) (inb : ∀ a, off a + S.size a ≤ S.size a) (w : S.Idx → Elt F e) :
    v.readCov [(⟨Rect.whole S, w⟩ : View.Piece (Elt F) S e)] (Rect.unit off S.size inb).toLoadRect = w := by
  subst hz; exact View.readCov_unit_zero v rfl inb w

set_option maxHeartbeats 1000000 in
/-- The body at grid coordinate 0, on whole staging memrefs — the inputs' at their blocks, the output's and the two scratch
    buffers at anything, the two own cells at zero, the four HBM matrices at their contents, the core's `owes`: the forward
    matrices are copied into the scratch buffers and waited for, so the loads of the scratch read them, and the body runs
    to the continuation holding everything as it was but the output's buffer, at the new hidden row of the loaded blocks
    and the forward matrices, the scratch at some contents and the two waits recorded. -/
theorem run1_A (c : Dev nD) (i : grid1.Coords) (hi : (i 0).val = 0)
    (arg1 : Memref sig .tc .vmem S1x1024 .f32) (harg1 : arg1.IsWhole) (arg2 : Memref sig .tc .vmem S1x1x1024 .f32) (harg2 : arg2.IsWhole)
    (arg7 : Memref sig .tc .vmem S1x1x3072 .f32) (harg7 : arg7.IsWhole) (arg8 : Memref sig .tc .vmem S1x1x3072 .f32) (harg8 : arg8.IsWhole)
    (arg9 : Memref sig .tc .vmem S1x1x1024 .f32) (harg9 : arg9.IsWhole)
    (x : Vec F S1x1024 .f32) (h : Vec F S1x1x1024 .f32) (bih bhh : Vec F S1x1x3072 .f32)
    (f9 : r1_HbBuf (F := F) c r1_hb9) (f10 : r1_HbBuf (F := F) c r1_hb10) (f13 : r1_HbBuf (F := F) c r1_hb13) (f14 : r1_HbBuf (F := F) c r1_hb14)
    (W : Waits sig Unit) (K : PUnit → sProp 𝕄) :
    iprop(owns (c : Thread nD τ) arg1 fullShare x ∗ owns (c : Thread nD τ) arg2 fullShare h ∗ owns (c : Thread nD τ) arg7 fullShare bih ∗ owns (c : Thread nD τ) arg8 fullShare bhh
        ∗ (∃ d, owns (c : Thread nD τ) arg9 fullShare d) ∗ (∃ d, owns (c : Thread nD τ) r1_scA fullShare d) ∗ (∃ d, owns (c : Thread nD τ) r1_scB fullShare d)
        ∗ semVal ((c : Thread nD τ), SemLoc.dma 19) 0 ∗ semVal ((c : Thread nD τ), SemLoc.dma 20) 0
        ∗ r1_hbPt c r1_hb9 f9 ∗ r1_hbPt c r1_hb10 f10 ∗ r1_hbPt c r1_hb13 f13 ∗ r1_hbPt c r1_hb14 f14 ∗ owes (c : Thread nD τ) 0 W
        ∗ (iprop(owns (c : Thread nD τ) arg1 fullShare x ∗ owns (c : Thread nD τ) arg2 fullShare h ∗ owns (c : Thread nD τ) arg7 fullShare bih ∗ owns (c : Thread nD τ) arg8 fullShare bhh
            ∗ owns (c : Thread nD τ) arg9 fullShare (gruOut x h (f9 : Vec F S3072x1024 .f32) (f10 : Vec F S3072x1024 .f32) bih bhh)
            ∗ (∃ d, owns (c : Thread nD τ) r1_scA fullShare d) ∗ (∃ d, owns (c : Thread nD τ) r1_scB fullShare d)
            ∗ semVal ((c : Thread nD τ), SemLoc.dma 19) 0 ∗ semVal ((c : Thread nD τ), SemLoc.dma 20) 0
            ∗ r1_hbPt c r1_hb9 f9 ∗ r1_hbPt c r1_hb10 f10 ∗ r1_hbPt c r1_hb13 f13 ∗ r1_hbPt c r1_hb14 f14 ∗ (∃ W', owes (c : Thread nD τ) 0 W')) -∗ K ⟨⟩))
      ⊢ wp frame (wpE (defs₀ (F := F)) Variants.none c none) Set.univ
          (cc1__gru_fused_kernel i arg1 harg1 arg2 harg2 r1_hb9 (Memref.isWhole_whole _) r1_hb10 (Memref.isWhole_whole _) r1_hb13 (Memref.isWhole_whole _) r1_hb14 (Memref.isWhole_whole _) arg7 harg7 arg8 harg8 arg9 harg9 r1_scA (Memref.isWhole_whole _) r1_scB (Memref.isWhole_whole _) cc1_scratch2) K := by
  simp only [cc1__gru_fused_kernel_eq_skeleton]; unfold cc1__gru_fused_kernel_skel
  simp only [k1_part1_eq_skeleton]; unfold k1_part1_skel
  simp only [hi]
  unfold owns
  iintro ⟨⟨%f1, %hf1, H1⟩, ⟨%f2, %hf2, H2⟩, ⟨%f7, %hf7, H7⟩, ⟨%f8, %hf8, H8⟩, ⟨%d9, %g9, -, H9⟩, ⟨%dA, %gA, -, HA⟩, ⟨%dB, %gB, -, HB⟩, Hq0, Hq1, Hh9, Hh10, Hh13, Hh14, HW, Hk⟩
  obtain rfl := harg1.eq_unread hf1
  obtain rfl := harg2.eq_unread hf2
  obtain rfl := harg7.eq_unread hf7
  obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_eq_canon _ _ _ (fun y => ⟨_, List.mem_singleton_self _, View.mem_set_unit_zero r1_hz3 inb_S1x1x1024_S1x1x1024_0_0_0 y⟩), View.canon_unit_zero r1_hz3]
    sl_unfold_run_names
    simp only [View.readAt_eq_ld, Memref.IsWhole.read_unread, View.ld_unit_zero (S := S1x1024) r1_hz2, View.ld_unit_zero (S := S1x1x1024) r1_hz3,
      View.ld_unit_zero (S := S1x1x3072) r1_hz3, r1_readCov_whole (S := S3072x1024) _ r1_hz2, Memref.view_whole, View.read_whole]
    unfold gruOut
    with_reducible rfl
  isplitl [HA]
  · iexists _, _; isplitr; swap; · iexact HA
    ipureintro; rfl
  isplitl [HB]
  · iexists _, _; isplitr; swap; · iexact HB
    ipureintro; rfl
  isplitl [Hq0]; · iexact Hq0
  isplitl [Hq1]; · iexact Hq1
  isplitl [Hh9]; · iexact Hh9
  isplitl [Hh10]; · iexact Hh10
  isplitl [Hh13]; · iexact Hh13
  isplitl [Hh14]; · iexact Hh14
  iexists _; iexact HW

set_option maxHeartbeats 1000000 in
/-- The body at grid coordinate 1: as at coordinate 0 with the backward matrices copied. The two waits name the forward
    matrices, which are of the same shape: each takes the amount of the copy in flight on its cell, and hands back the
    scratch buffer as that copy delivered it and the backward matrix it was lent. -/
theorem run1_B (c : Dev nD) (i : grid1.Coords) (hi : (i 0).val = 1)
    (arg1 : Memref sig .tc .vmem S1x1024 .f32) (harg1 : arg1.IsWhole) (arg2 : Memref sig .tc .vmem S1x1x1024 .f32) (harg2 : arg2.IsWhole)
    (arg7 : Memref sig .tc .vmem S1x1x3072 .f32) (harg7 : arg7.IsWhole) (arg8 : Memref sig .tc .vmem S1x1x3072 .f32) (harg8 : arg8.IsWhole)
    (arg9 : Memref sig .tc .vmem S1x1x1024 .f32) (harg9 : arg9.IsWhole)
    (x : Vec F S1x1024 .f32) (h : Vec F S1x1x1024 .f32) (bih bhh : Vec F S1x1x3072 .f32)
    (f9 : r1_HbBuf (F := F) c r1_hb9) (f10 : r1_HbBuf (F := F) c r1_hb10) (f13 : r1_HbBuf (F := F) c r1_hb13) (f14 : r1_HbBuf (F := F) c r1_hb14)
    (W : Waits sig Unit) (K : PUnit → sProp 𝕄) :
    iprop(owns (c : Thread nD τ) arg1 fullShare x ∗ owns (c : Thread nD τ) arg2 fullShare h ∗ owns (c : Thread nD τ) arg7 fullShare bih ∗ owns (c : Thread nD τ) arg8 fullShare bhh
        ∗ (∃ d, owns (c : Thread nD τ) arg9 fullShare d) ∗ (∃ d, owns (c : Thread nD τ) r1_scA fullShare d) ∗ (∃ d, owns (c : Thread nD τ) r1_scB fullShare d)
        ∗ semVal ((c : Thread nD τ), SemLoc.dma 19) 0 ∗ semVal ((c : Thread nD τ), SemLoc.dma 20) 0
        ∗ r1_hbPt c r1_hb9 f9 ∗ r1_hbPt c r1_hb10 f10 ∗ r1_hbPt c r1_hb13 f13 ∗ r1_hbPt c r1_hb14 f14 ∗ owes (c : Thread nD τ) 0 W
        ∗ (iprop(owns (c : Thread nD τ) arg1 fullShare x ∗ owns (c : Thread nD τ) arg2 fullShare h ∗ owns (c : Thread nD τ) arg7 fullShare bih ∗ owns (c : Thread nD τ) arg8 fullShare bhh
            ∗ owns (c : Thread nD τ) arg9 fullShare (gruOut x h (f13 : Vec F S3072x1024 .f32) (f14 : Vec F S3072x1024 .f32) bih bhh)
            ∗ (∃ d, owns (c : Thread nD τ) r1_scA fullShare d) ∗ (∃ d, owns (c : Thread nD τ) r1_scB fullShare d)
            ∗ semVal ((c : Thread nD τ), SemLoc.dma 19) 0 ∗ semVal ((c : Thread nD τ), SemLoc.dma 20) 0
            ∗ r1_hbPt c r1_hb9 f9 ∗ r1_hbPt c r1_hb10 f10 ∗ r1_hbPt c r1_hb13 f13 ∗ r1_hbPt c r1_hb14 f14 ∗ (∃ W', owes (c : Thread nD τ) 0 W')) -∗ K ⟨⟩))
      ⊢ wp frame (wpE (defs₀ (F := F)) Variants.none c none) Set.univ
          (cc1__gru_fused_kernel i arg1 harg1 arg2 harg2 r1_hb9 (Memref.isWhole_whole _) r1_hb10 (Memref.isWhole_whole _) r1_hb13 (Memref.isWhole_whole _) r1_hb14 (Memref.isWhole_whole _) arg7 harg7 arg8 harg8 arg9 harg9 r1_scA (Memref.isWhole_whole _) r1_scB (Memref.isWhole_whole _) cc1_scratch2) K := by
  simp only [cc1__gru_fused_kernel_eq_skeleton]; unfold cc1__gru_fused_kernel_skel
  simp only [k1_part1_eq_skeleton]; unfold k1_part1_skel
  simp only [hi]
  unfold owns
  iintro ⟨⟨%f1, %hf1, H1⟩, ⟨%f2, %hf2, H2⟩, ⟨%f7, %hf7, H7⟩, ⟨%f8, %hf8, H8⟩, ⟨%d9, %g9, -, H9⟩, ⟨%dA, %gA, -, HA⟩, ⟨%dB, %gB, -, HB⟩, Hq0, Hq1, Hh9, Hh10, Hh13, Hh14, HW, Hk⟩
  obtain rfl := harg1.eq_unread hf1
  obtain rfl := harg2.eq_unread hf2
  obtain rfl := harg7.eq_unread hf7
  obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_eq_canon _ _ _ (fun y => ⟨_, List.mem_singleton_self _, View.mem_set_unit_zero r1_hz3 inb_S1x1x1024_S1x1x1024_0_0_0 y⟩), View.canon_unit_zero r1_hz3]
    sl_unfold_run_names
    simp only [View.readAt_eq_ld, Memref.IsWhole.read_unread, View.ld_unit_zero (S := S1x1024) r1_hz2, View.ld_unit_zero (S := S1x1x1024) r1_hz3,
      View.ld_unit_zero (S := S1x1x3072) r1_hz3, r1_readCov_whole (S := S3072x1024) _ r1_hz2, Memref.view_whole, View.read_whole]
    unfold gruOut
    with_reducible rfl
  isplitl [HA]
  · iexists _, _; isplitr; swap; · iexact HA
    ipureintro; rfl
  isplitl [HB]
  · iexists _, _; isplitr; swap; · iexact HB
    ipureintro; rfl
  isplitl [Hq0]; · iexact Hq0
  isplitl [Hq1]; · iexact Hq1
  isplitl [Hh9]; · iexact Hh9
  isplitl [Hh10]; · iexact Hh10
  isplitl [Hh13]; · iexact Hh13
  isplitl [Hh14]; · iexact Hh14
  iexists _; iexact HW

variable (V : Valn F)

/-- The two own cells at zero, listed. -/
theorem r1_ownSems_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 19) 0 ∗ semVal ((c : Thread nD τ), SemLoc.dma 20) 0) := by
  rw [Pipeline.ownSems0_eq_of_list c osem1 [0, 1] (by decide) (by decide)]; rfl

/-- The four HBM matrices' points-tos at the contents found, listed. -/
theorem r1_hbmPts_eq (c : Dev nD) :
    (bigSep H1 (fun b => ((c : Thread nD τ).loc b) ↦{fullShare} V c b) : sProp 𝕄)
      = iprop(r1_hbPt c r1_hb9 (V c main_arg9) ∗ r1_hbPt c r1_hb10 (V c main_arg10) ∗ r1_hbPt c r1_hb13 (V c main_arg13) ∗ r1_hbPt c r1_hb14 (V c main_arg14)) := by
  rw [BI.bigSep_eq_bigSepL_of_eq [main_arg9, main_arg10, main_arg13, main_arg14] (by decide) (by decide)]; rfl

/-- Each input window's current staging buffer holds its block at every point, fetched there or not: unfetched, the
    block index has not moved and the body left the block in place. -/
theorem r1_before0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem r1_before1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem r1_before2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem r1_before3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The matrices each point copies: the forward direction's at point 0, the backward direction's at point 1. -/
theorem r1_wih0 (c : Dev nD) : wihAt V c t1_0 = (V c main_arg9 : Vec F S3072x1024 .f32) := if_pos rfl
theorem r1_whh0 (c : Dev nD) : whhAt V c t1_0 = (V c main_arg10 : Vec F S3072x1024 .f32) := if_pos rfl
theorem r1_wih1 (c : Dev nD) : wihAt V c t1_1 = (V c main_arg13 : Vec F S3072x1024 .f32) := if_neg (by decide)
theorem r1_whh1 (c : Dev nD) : whhAt V c t1_1 = (V c main_arg14 : Vec F S3072x1024 .f32) := if_neg (by decide)

/-- Each window's current staging memref at point `t`, as the pipeline passes it to the body. -/
abbrev r1_ms0 (t : Fin cfg1.N) : Memref sig .tc .vmem S1x1024 .f32 := win1_0.stage (cfg1.slots t 0)
abbrev r1_ms1 (t : Fin cfg1.N) : Memref sig .tc .vmem S1x1x1024 .f32 := win1_1.stage (cfg1.slots t 1)
abbrev r1_ms2 (t : Fin cfg1.N) : Memref sig .tc .vmem S1x1x3072 .f32 := win1_2.stage (cfg1.slots t 2)
abbrev r1_ms3 (t : Fin cfg1.N) : Memref sig .tc .vmem S1x1x3072 .f32 := win1_3.stage (cfg1.slots t 3)
abbrev r1_ms4 (t : Fin cfg1.N) : Memref sig .tc .vmem S1x1x1024 .f32 := win1_4.stage (cfg1.slots t 4)

set_option maxHeartbeats 1000000 in
/-- The body at either point: the input buffers hold their blocks, so the point's run applies; the invariant hands the
    body the two scratch buffers, the two own cells at zero and the four HBM matrices and takes them back as they were
    (the other scoped buffers and the generator register ride through); what the core owes goes in at whatever the
    points before recorded and comes back with this point's two waits, within the next point's bound. -/
theorem r1_sound_body (c : Dev nD) (t : Fin cfg1.N) :
    iprop((dat1 V c).Φ t.castSucc ∗ (dat1 V c).owesAt () t.castSucc
        ∗ (∃ d, owns (c : Thread nD τ) (r1_ms0 t) fullShare ((dat1 V c).before 0 t d))
        ∗ (∃ d, owns (c : Thread nD τ) (r1_ms1 t) fullShare ((dat1 V c).before 1 t d))
        ∗ (∃ d, owns (c : Thread nD τ) (r1_ms2 t) fullShare ((dat1 V c).before 2 t d))
        ∗ (∃ d, owns (c : Thread nD τ) (r1_ms3 t) fullShare ((dat1 V c).before 3 t d))
        ∗ (∃ d, owns (c : Thread nD τ) (r1_ms4 t) fullShare ((dat1 V c).before 4 t d)))
      ⊢ wp frame (wpE (defs₀ (F := F)) Variants.none c none) Set.univ (bodyAt1 t) (fun _ =>
          iprop((dat1 V c).Φ t.succ ∗ (dat1 V c).owesAt () t.succ
            ∗ owns (c : Thread nD τ) (r1_ms0 t) fullShare ((dat1 V c).after 0 t)
            ∗ owns (c : Thread nD τ) (r1_ms1 t) fullShare ((dat1 V c).after 1 t)
            ∗ owns (c : Thread nD τ) (r1_ms2 t) fullShare ((dat1 V c).after 2 t)
            ∗ owns (c : Thread nD τ) (r1_ms3 t) fullShare ((dat1 V c).after 3 t)
            ∗ owns (c : Thread nD τ) (r1_ms4 t) fullShare ((dat1 V c).after 4 t))) := by
  unfold bodyAt1
  simp only [r1_before0, r1_before1, r1_before2, r1_before3]
  rw [show (dat1 V c).Φ t.succ = (dat1 V c).Φ t.castSucc from rfl, after1_0, after1_1, after1_2, after1_3, after1_4]
  rw [show (dat1 V c).Φ t.castSucc = Pipeline.ΦD osem1 spec1 H1 V c from rfl, Pipeline.ΦD_eq, scopedRest1_eq, r1_ownSems_eq, r1_hbmPts_eq]
  unfold Dat.owesAt Pipeline.owesWithin
  rw [show (dat1 V c).owed t.castSucc = 0 from rfl, show (dat1 V c).owed t.succ = 0 from rfl]
  rcases fin_N1 t with rfl | rfl
  · -- point 0: the forward direction's matrices

    rw [r1_wih0, r1_whh0]
    iintro ⟨⟨⟨R1, R2, R3, R4, R5, R6, R7, R8, R9, R10, HSA, HSB, R13, R14, R15, R16, R17, R18, R19⟩, Hg, ⟨Hq0, Hq1⟩, ⟨Hh9, Hh10, Hh13, Hh14⟩⟩, ⟨%W, -, HW⟩, ⟨%d0, H0⟩, ⟨%d1, H1⟩, ⟨%d2, H2⟩, ⟨%d3, H3⟩, ⟨%d4, H4⟩⟩
    iapply (run1_A c (grid1.coords t1_0) (by decide) _ _ _ _ _ _ _ _ _ _ (iblk1 V c 0 t1_0) (iblk1 V c 1 t1_0) (iblk1 V c 2 t1_0) (iblk1 V c 3 t1_0)
      (V c main_arg9) (V c main_arg10) (V c main_arg13) (V c main_arg14) W _)
    isplitl [H0]; · iexact H0
    isplitl [H1]; · iexact H1
    isplitl [H2]; · iexact H2
    isplitl [H3]; · iexact H3
    isplitl [H4]; · iexists _; iexact H4
    isplitl [HSA]
    · icases HSA with ⟨%fA, HSA⟩; iexists fA
      iapply (Entails.of_eq (owns_whole (c : Thread nD τ) cc1_scratch0 fullShare fA).symm); iexact HSA
    isplitl [HSB]
    · icases HSB with ⟨%fB, HSB⟩; iexists fB
      iapply (Entails.of_eq (owns_whole (c : Thread nD τ) cc1_scratch1 fullShare fB).symm); iexact HSB
    isplitl [Hq0]; · iexact Hq0
    isplitl [Hq1]; · iexact Hq1
    isplitl [Hh9]; · iexact Hh9
    isplitl [Hh10]; · iexact Hh10
    isplitl [Hh13]; · iexact Hh13
    isplitl [Hh14]; · iexact Hh14
    isplitl [HW]; · iexact HW
    iintro ⟨H0, H1, H2, H3, H4, HSA, HSB, Hq0, Hq1, Hh9, Hh10, Hh13, Hh14, ⟨%W', HW'⟩⟩
    isplitl [R1 R2 R3 R4 R5 R6 R7 R8 R9 R10 HSA HSB R13 R14 R15 R16 R17 R18 R19 Hg Hq0 Hq1 Hh9 Hh10 Hh13 Hh14]
    · isplitl [R1 R2 R3 R4 R5 R6 R7 R8 R9 R10 HSA HSB R13 R14 R15 R16 R17 R18 R19]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HSA]
        · icases HSA with ⟨%dA, HSA⟩; iexists dA
          iapply (Entails.of_eq (owns_whole (c : Thread nD τ) cc1_scratch0 fullShare dA)); iexact HSA
        isplitl [HSB]
        · icases HSB with ⟨%dB, HSB⟩; iexists dB
          iapply (Entails.of_eq (owns_whole (c : Thread nD τ) cc1_scratch1 fullShare dB)); iexact HSB
        isplitl [R13]; · iexact R13
        isplitl [R14]; · iexact R14
        isplitl [R15]; · iexact R15
        isplitl [R16]; · iexact R16
        isplitl [R17]; · iexact R17
        isplitl [R18]; · iexact R18
        iexact R19
      isplitl [Hg]; · iexact Hg
      isplitl [Hq0 Hq1]
      · isplitl [Hq0]; · iexact Hq0
        iexact Hq1
      isplitl [Hh9]; · iexact Hh9
      isplitl [Hh10]; · iexact Hh10
      isplitl [Hh13]; · iexact Hh13
      iexact Hh14
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · -- point 1: the backward direction's matrices

    rw [r1_wih1, r1_whh1]
    iintro ⟨⟨⟨R1, R2, R3, R4, R5, R6, R7, R8, R9, R10, HSA, HSB, R13, R14, R15, R16, R17, R18, R19⟩, Hg, ⟨Hq0, Hq1⟩, ⟨Hh9, Hh10, Hh13, Hh14⟩⟩, ⟨%W, -, HW⟩, ⟨%d0, H0⟩, ⟨%d1, H1⟩, ⟨%d2, H2⟩, ⟨%d3, H3⟩, ⟨%d4, H4⟩⟩
    iapply (run1_B c (grid1.coords t1_1) (by decide) _ _ _ _ _ _ _ _ _ _ (iblk1 V c 0 t1_1) (iblk1 V c 1 t1_1) (iblk1 V c 2 t1_1) (iblk1 V c 3 t1_1)
      (V c main_arg9) (V c main_arg10) (V c main_arg13) (V c main_arg14) W _)
    isplitl [H0]; · iexact H0
    isplitl [H1]; · iexact H1
    isplitl [H2]; · iexact H2
    isplitl [H3]; · iexact H3
    isplitl [H4]; · iexists _; iexact H4
    isplitl [HSA]
    · icases HSA with ⟨%fA, HSA⟩; iexists fA
      iapply (Entails.of_eq (owns_whole (c : Thread nD τ) cc1_scratch0 fullShare fA).symm); iexact HSA
    isplitl [HSB]
    · icases HSB with ⟨%fB, HSB⟩; iexists fB
      iapply (Entails.of_eq (owns_whole (c : Thread nD τ) cc1_scratch1 fullShare fB).symm); iexact HSB
    isplitl [Hq0]; · iexact Hq0
    isplitl [Hq1]; · iexact Hq1
    isplitl [Hh9]; · iexact Hh9
    isplitl [Hh10]; · iexact Hh10
    isplitl [Hh13]; · iexact Hh13
    isplitl [Hh14]; · iexact Hh14
    isplitl [HW]; · iexact HW
    iintro ⟨H0, H1, H2, H3, H4, HSA, HSB, Hq0, Hq1, Hh9, Hh10, Hh13, Hh14, ⟨%W', HW'⟩⟩
    isplitl [R1 R2 R3 R4 R5 R6 R7 R8 R9 R10 HSA HSB R13 R14 R15 R16 R17 R18 R19 Hg Hq0 Hq1 Hh9 Hh10 Hh13 Hh14]
    · isplitl [R1 R2 R3 R4 R5 R6 R7 R8 R9 R10 HSA HSB R13 R14 R15 R16 R17 R18 R19]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HSA]
        · icases HSA with ⟨%dA, HSA⟩; iexists dA
          iapply (Entails.of_eq (owns_whole (c : Thread nD τ) cc1_scratch0 fullShare dA)); iexact HSA
        isplitl [HSB]
        · icases HSB with ⟨%dB, HSB⟩; iexists dB
          iapply (Entails.of_eq (owns_whole (c : Thread nD τ) cc1_scratch1 fullShare dB)); iexact HSB
        isplitl [R13]; · iexact R13
        isplitl [R14]; · iexact R14
        isplitl [R15]; · iexact R15
        isplitl [R16]; · iexact R16
        isplitl [R17]; · iexact R17
        isplitl [R18]; · iexact R18
        iexact R19
      isplitl [Hg]; · iexact Hg
      isplitl [Hq0 Hq1]
      · isplitl [Hq0]; · iexact Hq0
        iexact Hq1
      isplitl [Hh9]; · iexact Hh9
      isplitl [Hh10]; · iexact Hh10
      isplitl [Hh13]; · iexact Hh13
      iexact Hh14
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

/-- The library's body obligation for region 1, at both points, for the proof data `dat1 V c`. -/
theorem body_obligation1 (V : Valn F) (c : Dev nD) :
    BodyObligation (dat1 (F := F) V c) (defs₀ (F := F)) Variants.none () Set.univ := fun t => by
  rw [bigSep_W1, bigSep_W1]
  exact r1_sound_body V c t

end Cert.Kernel.Hand

end
-- ==== Proof.K.Reg2F.lean ====
/-
  Region 2's body at any of its 33 grid points, at any float instance, saying nothing of the output buffer: three
  whole-block loads, one matrix product, the bias sum, one whole store. The weight and bias tiles arrive holding
  their blocks on the rows and lanes inside the arrays and anything past them (the last tile overhangs the
  vocabulary); they are left as they were. What the output buffer then holds is not stated.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Dats
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

/-- The row buffer holds the GRU output row at every point, fetched there or not: it is only read, and where it is
    not fetched its block index has not moved. -/
theorem before2F_0 (V : Valn F) (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight buffer just fetched: the tile's part inside the array on the rows the fetch fills, `d` past them. -/
theorem before2F_1 (V : Valn F) (c : Dev nD) (t : Fin cfg2.N) (d) :
    (dat2 V c).before 1 t d = win2_1.fill (grid2.coords t) d (wblk V c t) := by
  unfold Dat.before; rw [if_pos (fetch2_1 t)]
  unfold Dat.fetched Dat.blockOf wblk; rw [A_eq2]

/-- The bias buffer likewise, on the lanes the fetch fills. -/
theorem before2F_2 (V : Valn F) (c : Dev nD) (t : Fin cfg2.N) (d) :
    (dat2 V c).before 2 t d = win2_2.fill (grid2.coords t) d (bblk V c t) := by
  unfold Dat.before; rw [if_pos (fetch2_2 t)]
  unfold Dat.fetched Dat.blockOf bblk; rw [A_eq2]

/-- What the obligation asks of the weight buffer after the body: the zero-filled tile cut back to the rows inside
    the array is the tile's part there (a fill cut back is what was filled in), so the buffer as fetched answers it. -/
theorem kept2F_1 (V : Valn F) (c : Dev nD) (t : Fin cfg2.N) (d) :
    (win2 1).fill (grid2.coords t) d ((win2 1).cut (grid2.coords t) ((dat2 V c).after 1 t))
      = win2_1.fill (grid2.coords t) d (wblk V c t) := by
  rw [after2_1]; unfold wfill
  exact congrArg (win2_1.fill (grid2.coords t) d) (win2_1.cut_fill _ _ _)

/-- The bias buffer likewise. -/
theorem kept2F_2 (V : Valn F) (c : Dev nD) (t : Fin cfg2.N) (d) :
    (win2 2).fill (grid2.coords t) d ((win2 2).cut (grid2.coords t) ((dat2 V c).after 2 t))
      = win2_2.fill (grid2.coords t) d (bblk V c t) := by
  rw [after2_2]; unfold bfill
  exact congrArg (win2_2.fill (grid2.coords t) d) (win2_2.cut_fill _ _ _)

set_option maxHeartbeats 1000000 in
/-- The body on whole staging memrefs, whichever of a window's buffers each is: the loads of the row, the tile and the
    bias lanes, the product and the sum, the dead load, one whole store. The three input buffers are left as found;
    the output buffer, found at any contents, ends at some contents. -/
theorem sound_kernel2F (c : Dev nD) (E : Set ℕ) (i : grid2.Coords)
    (arg1 : Memref sig .tc .vmem S1x2048 .f32) (harg1 : arg1.IsWhole)
    (arg2 : Memref sig .tc .vmem S1536x2048 .f32) (harg2 : arg2.IsWhole)
    (arg3 : Memref sig .tc .vmem S1x1536 .f32) (harg3 : arg3.IsWhole)
    (arg4 : Memref sig .tc .vmem S1x1536 .f32) (harg4 : arg4.IsWhole)
    (x1 : Vec F S1x2048 .f32) (x2 : Vec F S1536x2048 .f32) (x3 : Vec F S1x1536 .f32) (K : PUnit → sProp 𝕄) :
    iprop(owns (c : Thread nD τ) arg1 fullShare x1 ∗ owns (c : Thread nD τ) arg2 fullShare x2
        ∗ owns (c : Thread nD τ) arg3 fullShare x3 ∗ (∃ X, owns (c : Thread nD τ) arg4 fullShare X)
        ∗ (iprop(owns (c : Thread nD τ) arg1 fullShare x1 ∗ owns (c : Thread nD τ) arg2 fullShare x2
            ∗ owns (c : Thread nD τ) arg3 fullShare x3 ∗ (∃ X, owns (c : Thread nD τ) arg4 fullShare X)) -∗ K ⟨⟩))
      ⊢ wp frame (wpE (defs₀ (F := F)) Variants.none c none) E
          (cc2__out_kernel i arg1 harg1 arg2 harg2 arg3 harg3 arg4 harg4) K := by
  simp only [cc2__out_kernel_eq_skeleton]; unfold cc2__out_kernel_skel
  unfold owns
  iintro ⟨⟨%f1, %hf1, H1⟩, ⟨%f2, %hf2, H2⟩, ⟨%f3, %hf3, H3⟩, ⟨%X4, %f4, -, H4⟩, Hk⟩
  sl_exec
  sl_step
  iapply Hk
  -- the loads changed nothing: each input buffer reads what it read
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  -- the output buffer reads whatever the store left
  iexists _; iexists _; isplitr
  swap; · iexact H4
  ipureintro; rfl

/-- The loose body obligation of region 2 with its output window forgotten. -/
theorem body_obligation2F (V : Valn F) (c : Dev nD) :
    BodyObligationLoose (dat2 (F := F) V c) (defs₀ (F := F)) Variants.none () Set.univ fgt2 := fun t => by
  rw [bigSep_W2, bigSep_W2]
  -- windows 0, 1, 2 are stated, window 3 is forgotten; no point is idle; windows 1 and 2 are stated on the part
  -- inside the arrays only, window 0 whole
  have g0 : fgt2 (0 : Fin 4) = false := rfl
  have g1 : fgt2 (1 : Fin 4) = false := rfl
  have g2 : fgt2 (2 : Fin 4) = false := rfl
  have g3 : fgt2 (3 : Fin 4) = true := rfl
  simp only [g0, g1, g2, g3]
  -- the invariant and what is owed are the same at either position
  rw [show (dat2 V c).Φ t.succ = (dat2 V c).Φ t.castSucc from rfl,
    show (dat2 V c).owesAt () t.succ = (dat2 V c).owesAt () t.castSucc from rfl]
  -- what the body finds in the three input buffers, and what window 0 is left at
  simp only [before2F_0, before2F_1, before2F_2, after2_0]
  change _ ⊢ wp _ _ _ (bodyAt2 (F := F) t) _
  iintro ⟨HΦ, Ho, ⟨%d0, H0⟩, ⟨%d1, H1⟩, ⟨%d2, H2⟩, H3⟩
  iapply (sound_kernel2F (F := F) c Set.univ (grid2.coords t) _ _ _ _ _ _ _ _ (iblk2 V c 0 t)
    (win2_1.fill (grid2.coords t) d1 (wblk V c t)) (win2_2.fill (grid2.coords t) d2 (bblk V c t)) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  -- the weight and bias buffers come back as fetched: on the part inside the arrays, the zero-filled tiles' part
  isplitl [H1]
  · iexists d1; rw [kept2F_1 V c t d1]; iexact H1
  isplitl [H2]
  · iexists d2; rw [kept2F_2 V c t d2]; iexact H2
  iexact H3

end Cert.Kernel.Hand

end
-- ==== Proof.K.RSegs.lean ====
/-
  The three pallas_calls as kernel regions over RELATIONAL proof data, for the run of the whole program that says
  nothing of region 2's output window: regions 0 and 1 at their exact data read relationally, region 2 at its exact
  data with the output window forgotten. Region 2 is left with every unscoped buffer as entered except its output
  array, which holds contents not named before the run.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Fold
import proofs.«412461_j6141803233582_3_alg».proof.Proof.K.Reg0
import proofs.«412461_j6141803233582_3_alg».proof.Proof.K.Reg1
import proofs.«412461_j6141803233582_3_alg».proof.Proof.K.Reg2F
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand.FrameAll

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

variable (m : (ℓ : Loc nD τ sig) → Buf (Elt F) ℓ)

/-! ## The proof data family and what rides beside the buffers -/

/-- The prefetched tables' admissible contents: no pipeline has a table. -/
abbrev adm : (p : Fin 3) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- Every pipeline's exact proof data, each at its region's entry contents in the fold. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
/-- The same read relationally, region 2's output window forgotten: what its body leaves there is not said. -/
def rdats : (p : Fin 3) → (c : Dev nD) → Pipeline.RDat τ (Elt F) Unit ℕ (Pipeline.UD sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt2

/-! ## Region 2's exit contents: its output array at contents not named -/

/-- Core `c`'s buffers at region 2's exit when its output array holds `x`: every other buffer, the input windows'
    arrays included, as at its entry. -/
def W6x (c : Dev nD) (x : Buf (Elt F) ((c : Thread nD τ).loc main_v31)) : Valuation τ sig (Elt F) :=
  Function.update (W5 m c) main_v31 x
theorem W6x_v31 (c : Dev nD) (x : Buf (Elt F) ((c : Thread nD τ).loc main_v31)) :
    W6x m c x (Proc.devRef .tc main_v31) = x := by
  unfold W6x; exact Function.update_self _ _ _
theorem W6x_of_ne (c : Dev nD) (x : Buf (Elt F) ((c : Thread nD τ).loc main_v31)) (b : Ref sig .tc) (hb : b ≠ main_v31) :
    W6x m c x (Proc.devRef .tc b) = W5 m c (Proc.devRef .tc b) := by
  unfold W6x
  exact Function.update_of_ne (StableHlo.devRef_ne_of_ne hb : (Proc.devRef .tc b : DevRef τ sig) ≠ Proc.devRef .tc main_v31) _ _

/-! ## The regions as segments -/

set_option backward.isDefEq.respectTransparency.types false in
/-- REGION 0 over the thread state, its exact data read relationally: entered from every unscoped buffer at `W1`,
    left at `W2`. Its arrays are split out of the unscoped buffers and put back at the exit contents (what an array
    may hold after every write-back is what the exact data names); the generator register goes into the invariant
    and comes out; nothing owed; no semaphore of its own. -/
def rreg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    have harr : (rdats m 0 c).arraysAt (Pipeline.pin (pcfgs (F := F)) adm 0).N
        = ((pdats m 0 c).arrays ((pdats m 0 c).arrAt · cfg0.N) : sProp 𝕄) := (dat0 (V1 m) c).toR_arraysAt_eq cfg0.N
    refine (sep_mono (Entails.of_eq harr) .rfl).trans ?_
    iintro ⟨Ha', HO, HY, Hrest⟩
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state, its exact data read relationally: entered from every unscoped buffer at `W3`, left
    at `W4`. Besides its arrays, the four weight matrices it reads from HBM are split out of the unscoped rest and
    handed to its invariant whole at the contents found, with the generator register and its two semaphores at
    zero; they come back unchanged and are joined to the bypassing rest before the arrays are put back. Nothing owed. -/
def rreg1 : Pipeline.RDat.RegionSeg (pcfgs (F := F)) adm (rdats m) () defs₀ 𝒱₀ L lv 1 where
  win := launch1.win.to₀
  block_pos := launch1.block_pos
  stage_whole := launch1.stage_whole
  K := Fin 2
  osem := osem1
  ho := ownSemFacts1
  hbody c := (body_obligation1 (V3 m) c).loose.toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ bigSep H1 fun b => ((c : Thread nD τ).loc b) ↦{fullShare} V3 m c b)
  Y c := iprop((∃ r, prngReg c r) ∗ bigSep H1 fun b => ((c : Thread nD τ).loc b) ↦{fullShare} V3 m c b)
  Z c := bigSep (Pipeline.restRefs sig spec1 \ H1) fun b => ((c : Thread nD τ).loc b) ↦{fullShare} V3 m c b
  hentry c := by
    have hsplit := Pipeline.RDat.arrays_of_unscopedBufs (p := 1) (pcfgs (F := F)) adm (rdats m) launch1.win launch1.arr_whole c
      ((pdats m 1 c).share_full fun _ => rfl) (V3 m c) fun _ => rfl
    rw [Pipeline.unscopedBufs_held] at hsplit
    have hsd := Pipeline.unscopedRest_sdiff (Val := Elt F) spec1 H1 H1_sub c (V3 m c)
    iintro ⟨⟨Hub, Hp, HO⟩, Ho, -⟩
    ihave H := hsplit $$ Hub
    icases H with ⟨Ha, Hrest⟩
    ihave Hrest' := (Entails.of_eq hsd) $$ Hrest
    icases Hrest' with ⟨HH, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr [HZ]
    · isplitl [Hp]; · iexact Hp
      isplitl [Ho]; · iexact Ho
      iexact HH
    iexact HZ
  hin c := by
    rw [show (rdats m 1 c).Φ 0 = Pipeline.ΦD osem1 spec1 H1 (V3 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (rdats m 1 c).Φ (Fin.last _) = Pipeline.ΦD osem1 spec1 H1 (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    have hsd := Pipeline.unscopedRest_sdiff (Val := Elt F) spec1 H1 H1_sub c (V3 m c)
    have harr : (rdats m 1 c).arraysAt (Pipeline.pin (pcfgs (F := F)) adm 1).N
        = ((pdats m 1 c).arrays ((pdats m 1 c).arrAt · cfg1.N) : sProp 𝕄) := (dat1 (V3 m) c).toR_arraysAt_eq cfg1.N
    refine (sep_mono (Entails.of_eq harr) .rfl).trans ?_
    iintro ⟨Ha', HO, ⟨Hp, HH⟩, HZ⟩
    ihave Hrest := (Entails.of_eq hsd.symm) $$ [HH HZ]
    · isplitl [HH] <;> iassumption
    imodintro
    isplitl [Ha' Hrest]
    · iapply hjoin; isplitl [Ha'] <;> iassumption
    isplitl [Hp]; · iexact Hp
    unfold Pipeline.RDat.owesAt Pipeline.owesWithin
    icases HO with ⟨%W, -, HO⟩; iexists W; iexact HO

set_option backward.isDefEq.respectTransparency.types false in
/-- An input window's array of region 2 holds after every write-back what it held at entry. -/
theorem arr2_in (c : Dev nD) (w : Fin cfg2.W) (hw : (cfg2.win w).isOut = false)
    (G : Buf (Elt F) ((cfg2.win w).arr.view.loc (c.tc : Thread nD τ))) (hG : (rdats m 2 c).ArrAt w cfg2.N G) :
    G = V5 m c (Pipeline.arrRef spec2 w) :=
  Eq.mp (congrFun ((rdats m 2 c).ArrAt_in w hw cfg2.N) G) hG

set_option backward.isDefEq.respectTransparency.types false in
/-- The arrays after every write-back, opened: each at SOME contents it may then hold. -/
theorem arrays2_open (c : Dev nD) : ((rdats m 2 c).arraysAt cfg2.N : sProp 𝕄)
    ⊢ iprop(∃ A : (w : Fin cfg2.W) → Buf (Elt F) ((cfg2.win w).arr.view.loc (c.tc : Thread nD τ)),
        ⌜∀ w, (rdats m 2 c).ArrAt w cfg2.N (A w)⌝ ∗ (pdats m 2 c).arrays A) := by
  unfold Pipeline.RDat.arraysAt
  iintro Ha
  ihave Ha' := (BI.bigSep_exists_pi Finset.univ (fun w F => iprop(⌜(rdats m 2 c).ArrAt w cfg2.N F⌝
      ∗ (cfg2.win w).arr.view.loc (c.tc : Thread nD τ) ↦[(cfg2.win w).arr.view.set]{(rdats m 2 c).share w} F))) $$ Ha
  icases Ha' with ⟨%A, Ha⟩
  ihave Ha2 := (BI.bigSep_pure_sep Finset.univ (fun w => (rdats m 2 c).ArrAt w cfg2.N (A w))
      (fun w => (cfg2.win w).arr.view.loc (c.tc : Thread nD τ) ↦[(cfg2.win w).arr.view.set]{(rdats m 2 c).share w} A w)) $$ Ha
  icases Ha2 with ⟨%hA', Ha⟩
  iexists A; isplitr; · ipureintro; exact fun w => hA' w (Finset.mem_univ w)
  iapply (show (bigSep Finset.univ fun w : Fin cfg2.W => ((cfg2.win w).arr.view.loc (c.tc : Thread nD τ) ↦[(cfg2.win w).arr.view.set]{(rdats m 2 c).share w} A w : sProp 𝕄))
    ⊢ (pdats m 2 c).arrays A from .rfl)
  iexact Ha

set_option backward.isDefEq.respectTransparency.types false in
/-- The arrays at such contents are, with the bypassing buffers, every unscoped buffer at the entry contents but for
    the output array, which holds window 3's contents. -/
theorem arrays2_join (c : Dev nD) (A : (w : Fin cfg2.W) → Buf (Elt F) ((cfg2.win w).arr.view.loc (c.tc : Thread nD τ)))
    (hA : ∀ w, (rdats m 2 c).ArrAt w cfg2.N (A w)) :
    iprop((pdats m 2 c).arrays A ∗ Pipeline.unscopedRest (Ix := Unit) (Name := ℕ) (U := Pipeline.UD sig nD τ) (Lvl := ℕ) spec2 c (V5 m c))
      ⊢ (StableHlo.held (c : Thread nD τ) (Pipeline.ucRefs τ sig) (W6x m c (A 3)) : sProp 𝕄) := by
  have hjoin := Pipeline.unscopedBufs_of_arrays (p := 2) (pcfgs (F := F)) adm (Ix := Unit) (Name := ℕ) (U := Pipeline.UD sig nD τ) (Lvl := ℕ)
    launch2.win launch2.arr_whole c (pdats m) ((pdats m 2 c).share_full fun _ => rfl)
    (V5 m c) (fun b => W6x m c (A 3) (Proc.devRef .tc b)) A
    (fun w => by
      match w with
      | ⟨0, _⟩ => exact (arr2_in m c 0 rfl _ (hA 0)).trans (W6x_of_ne m c (A 3) _ (by decide)).symm
      | ⟨1, _⟩ => exact (arr2_in m c 1 rfl _ (hA 1)).trans (W6x_of_ne m c (A 3) _ (by decide)).symm
      | ⟨2, _⟩ => exact (arr2_in m c 2 rfl _ (hA 2)).trans (W6x_of_ne m c (A 3) _ (by decide)).symm
      | ⟨3, _⟩ => exact (W6x_v31 m c (A 3)).symm)
    (fun b hb => W6x_of_ne m c (A 3) b fun e => hb (Finset.mem_image.mpr ⟨3, Finset.mem_univ _, e.symm⟩))
  rw [Pipeline.unscopedBufs_held] at hjoin
  exact hjoin

set_option backward.isDefEq.respectTransparency.types false in
/-- REGION 2 over the thread state, its exact data read relationally with the output window forgotten: entered from every unscoped buffer at `W5`,
    left at `W6x` of some contents `x` of its output array. Its arrays are split out of the unscoped buffers and put back:
    the three input arrays as entered, the output array at what it may hold after every write-back, which is not named; the generator register goes into the invariant
    and comes out; nothing owed; no semaphore of its own. -/
def rreg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2F (V5 m) c).toRForget
  hwaits := Pipeline.RDat.hwaits_of_owed_zero _ _ _ _ L lv 2 fun _ _ => rfl
  pre c := iprop(StableHlo.held (c : Thread nD τ) (Pipeline.ucRefs τ sig) (W5 m c) ∗ R c)
  post c := iprop(∃ x, StableHlo.held (c : Thread nD τ) (Pipeline.ucRefs τ sig) (W6x m c x) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arrays2_open m c) $$ Ha
    icases Ha' with ⟨%A, %hA, Ha⟩
    imodintro
    iexists (A 3)
    isplitl [Ha Hrest]
    · iapply (arrays2_join m c A hA); isplitl [Ha] <;> iassumption
    isplitl [HY]; · iexact HY
    unfold Pipeline.RDat.owesAt Pipeline.owesWithin
    icases HO with ⟨%W, -, HO⟩; iexists W; iexact HO

/-! ## The thread states the regions are entered from and left at, by name -/

theorem rreg0_pre (c : Dev nD) : (rreg0 m).pre c = iprop(StableHlo.held (c : Thread nD τ) (Pipeline.ucRefs τ sig) (W1 m c) ∗ R c) := rfl
theorem rreg0_post (c : Dev nD) : (rreg0 m).post c = iprop(StableHlo.held (c : Thread nD τ) (Pipeline.ucRefs τ sig) (W2 m c) ∗ R c) := rfl
theorem rreg1_pre (c : Dev nD) : (rreg1 m).pre c = iprop(StableHlo.held (c : Thread nD τ) (Pipeline.ucRefs τ sig) (W3 m c) ∗ R c) := rfl
theorem rreg1_post (c : Dev nD) : (rreg1 m).post c = iprop(StableHlo.held (c : Thread nD τ) (Pipeline.ucRefs τ sig) (W4 m c) ∗ R c) := rfl
theorem rreg2_pre (c : Dev nD) : (rreg2 m).pre c = iprop(StableHlo.held (c : Thread nD τ) (Pipeline.ucRefs τ sig) (W5 m c) ∗ R c) := rfl
theorem rreg2_post (c : Dev nD) :
    (rreg2 m).post c = iprop(∃ x, StableHlo.held (c : Thread nD τ) (Pipeline.ucRefs τ sig) (W6x m c x) ∗ R c) := rfl

end Cert.Kernel.Hand.FrameAll

end
-- ==== Proof.K.RunB.lean ====
/-
  The frame of the whole program at ANY float instance, with region 2's output left unnamed. At the bit level the
  last vocabulary tile's staging rows past the array's end are words nothing names, and the matrix product there is
  one opaque function of the whole tile, so what region 2 writes into the logits array cannot be named before the
  run. Nothing that runs afterwards needs it: the last host stretch only computes from the logits, takes no branch
  and no address from them. So the three pallas_calls are run over their exact proof data read relationally, region
  2's output window forgotten; after region 2 the logits array holds SOME contents, the last host stretch runs from
  that state, and every argument array is read back unchanged whatever those contents are.
-/
import proofs.«412461_j6141803233582_3_alg».proof.Proof.Gen.Kernel.Launch
import proofs.«412461_j6141803233582_3_alg».proof.Proof.Gen.Kernel.Skeleton
import proofs.«412461_j6141803233582_3_alg».proof.Proof.Gen.Kernel.Points
import proofs.«412461_j6141803233582_3_alg».proof.Proof.K.Fold
import proofs.«412461_j6141803233582_3_alg».proof.Proof.Gen.Kernel.Regions
import proofs.«412461_j6141803233582_3_alg».proof.Proof.K.Reg0
import proofs.«412461_j6141803233582_3_alg».proof.Proof.K.Reg1
import proofs.«412461_j6141803233582_3_alg».proof.Proof.K.Reg2F
import proofs.«412461_j6141803233582_3_alg».proof.Proof.K.RSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

variable (m : (ℓ : Loc nD τ sig) → Buf (Elt F) ℓ)

namespace FrameAll

/-! ## The host stretches as segments -/

/-- A host stretch as a segment: its operations over the unscoped references from the contents W, the rest riding
    along; it is left with those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The last host stretch, run from region 2's exit state whatever the logits array holds: the same line of
    operations from the unscoped buffers at W6x x, for the x the state holds. -/
def hlast : Pipeline.HostSeg (Name := ℕ) (U := Pipeline.UD sig nD τ) (pcfgs (F := F)) defs₀ 𝒱₀ L lv where
  prog := StableHlo.seq hostOps3
  pre c := iprop(∃ x, StableHlo.held (c : Thread nD τ) (Pipeline.ucRefs τ sig) (W6x m c x) ∗ R c)
  post c := iprop(∃ x, StableHlo.held (c : Thread nD τ) (Pipeline.ucRefs τ sig) (StableHlo.after hostOps3 (W6x m c x)) ∗ R c)
  run c {β} k K := by
    iintro ⟨Hk, Hbd, ⟨%x, Hh, HR⟩, -⟩
    have hseq := StableHlo.wp_seq (defs := Pipeline.defs (pcfgs (F := F)) defs₀) (Variants.lift 𝒱₀) none Set.univ c (Pipeline.ucRefs τ sig) k (K := K) hostOps3
      (fun op h => Pipeline.sub_ucRefs op ((List.forall_iff_forall_mem.mp hostOps3_sub) op h))
      (fun op h => (List.forall_iff_forall_mem.mp hostOps3_fresh) op h) (W6x m c x)
    iapply hseq $$ [Hbd Hh]
    · isplitl [Hbd] <;> iassumption
    iintro ⟨Hbd, Hh⟩
    iapply Hk
    isplitl [Hbd]; · iexact Hbd
    iexists x
    isplitl [Hh] <;> iassumption

/-- The program's 7 segments in order. -/
abbrev segsB : List (Pipeline.RDat.Seg (pcfgs (F := F)) adm (rdats m) () defs₀ 𝒱₀ L lv) :=
  [ .host (hseg hostOps0 hostOps0_sub hostOps0_fresh (W0 m)),
    .region (rreg0 m),
    .host (hseg hostOps1 hostOps1_sub hostOps1_fresh (W2 m)),
    .region (rreg1 m),
    .host (hseg hostOps2 hostOps2_sub hostOps2_fresh (W4 m)),
    .region (rreg2 m),
    .host (hlast m) ]

/-- The last thread state beside the core owing nothing: every unscoped buffer at the contents after the last
    stretch, from W6x x for some x; the generator register at some state. -/
abbrev Tlast (c : Dev nD) : sProp 𝕄 :=
  iprop(∃ x, StableHlo.held (c : Thread nD τ) (Pipeline.ucRefs τ sig) (StableHlo.after hostOps3 (W6x m c x)) ∗ ∃ r, prngReg c r)

/-! ## The arguments end as launched, whatever the logits array holds -/

/-- A host stretch leaves a buffer it does not write as it found it. -/
theorem W5_back (c : Dev nD) (r : Ref sig .tc) (h : r ∉ hostOps2_W) :
    W5 m c (Proc.devRef .tc r) = W4 m c (Proc.devRef .tc r) :=
  StableHlo.after_of_writes_sub hostOps2 _ hostOps2_writes h
theorem W3_back (c : Dev nD) (r : Ref sig .tc) (h : r ∉ hostOps1_W) :
    W3 m c (Proc.devRef .tc r) = W2 m c (Proc.devRef .tc r) :=
  StableHlo.after_of_writes_sub hostOps1 _ hostOps1_writes h
theorem W1_back (c : Dev nD) (r : Ref sig .tc) (h : r ∉ hostOps0_W) :
    W1 m c (Proc.devRef .tc r) = W0 m c (Proc.devRef .tc r) :=
  StableHlo.after_of_writes_sub hostOps0 _ hostOps0_writes h
/-- A region leaves an input window's array as entered: the pipeline never writes it back. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

theorem back_main_arg0 (c : Dev nD) (x : Buf (Elt F) ((c : Thread nD τ).loc main_v31)) :
    StableHlo.after hostOps3 (W6x m c x) (Proc.devRef .tc main_arg0) = m ((c : Thread nD τ).loc main_arg0) :=
  calc StableHlo.after hostOps3 (W6x m c x) (Proc.devRef .tc main_arg0)
    _ = W6x m c x (Proc.devRef .tc main_arg0) := StableHlo.after_of_writes_sub hostOps3 _ hostOps3_writes (by decide)
    _ = W5 m c (Proc.devRef .tc main_arg0) := W6x_of_ne m c x main_arg0 (by decide)
    _ = W4 m c (Proc.devRef .tc main_arg0) := W5_back m c main_arg0 (by decide)
    _ = W3 m c (Proc.devRef .tc main_arg0) := W4_of_ne m c main_arg0 (by decide)
    _ = W2 m c (Proc.devRef .tc main_arg0) := W3_back m c main_arg0 (by decide)
    _ = W1 m c (Proc.devRef .tc main_arg0) := W2_of_ne m c main_arg0 (by decide)
    _ = W0 m c (Proc.devRef .tc main_arg0) := W1_back m c main_arg0 (by decide)
    _ = m ((c : Thread nD τ).loc main_arg0) := rfl

theorem back_main_arg1 (c : Dev nD) (x : Buf (Elt F) ((c : Thread nD τ).loc main_v31)) :
    StableHlo.after hostOps3 (W6x m c x) (Proc.devRef .tc main_arg1) = m ((c : Thread nD τ).loc main_arg1) :=
  calc StableHlo.after hostOps3 (W6x m c x) (Proc.devRef .tc main_arg1)
    _ = W6x m c x (Proc.devRef .tc main_arg1) := StableHlo.after_of_writes_sub hostOps3 _ hostOps3_writes (by decide)
    _ = W5 m c (Proc.devRef .tc main_arg1) := W6x_of_ne m c x main_arg1 (by decide)
    _ = W4 m c (Proc.devRef .tc main_arg1) := W5_back m c main_arg1 (by decide)
    _ = W3 m c (Proc.devRef .tc main_arg1) := W4_in m c 1 rfl
    _ = W2 m c (Proc.devRef .tc main_arg1) := W3_back m c main_arg1 (by decide)
    _ = W1 m c (Proc.devRef .tc main_arg1) := W2_of_ne m c main_arg1 (by decide)
    _ = W0 m c (Proc.devRef .tc main_arg1) := W1_back m c main_arg1 (by decide)
    _ = m ((c : Thread nD τ).loc main_arg1) := rfl

theorem back_main_arg2 (c : Dev nD) (x : Buf (Elt F) ((c : Thread nD τ).loc main_v31)) :
    StableHlo.after hostOps3 (W6x m c x) (Proc.devRef .tc main_arg2) = m ((c : Thread nD τ).loc main_arg2) :=
  calc StableHlo.after hostOps3 (W6x m c x) (Proc.devRef .tc main_arg2)
    _ = W6x m c x (Proc.devRef .tc main_arg2) := StableHlo.after_of_writes_sub hostOps3 _ hostOps3_writes (by decide)
    _ = W5 m c (Proc.devRef .tc main_arg2) := W6x_of_ne m c x main_arg2 (by decide)
    _ = W4 m c (Proc.devRef .tc main_arg2) := W5_back m c main_arg2 (by decide)
    _ = W3 m c (Proc.devRef .tc main_arg2) := W4_of_ne m c main_arg2 (by decide)
    _ = W2 m c (Proc.devRef .tc main_arg2) := W3_back m c main_arg2 (by decide)
    _ = W1 m c (Proc.devRef .tc main_arg2) := W2_of_ne m c main_arg2 (by decide)
    _ = W0 m c (Proc.devRef .tc main_arg2) := W1_back m c main_arg2 (by decide)
    _ = m ((c : Thread nD τ).loc main_arg2) := rfl

theorem back_main_arg3 (c : Dev nD) (x : Buf (Elt F) ((c : Thread nD τ).loc main_v31)) :
    StableHlo.after hostOps3 (W6x m c x) (Proc.devRef .tc main_arg3) = m ((c : Thread nD τ).loc main_arg3) :=
  calc StableHlo.after hostOps3 (W6x m c x) (Proc.devRef .tc main_arg3)
    _ = W6x m c x (Proc.devRef .tc main_arg3) := StableHlo.after_of_writes_sub hostOps3 _ hostOps3_writes (by decide)
    _ = W5 m c (Proc.devRef .tc main_arg3) := W6x_of_ne m c x main_arg3 (by decide)
    _ = W4 m c (Proc.devRef .tc main_arg3) := W5_back m c main_arg3 (by decide)
    _ = W3 m c (Proc.devRef .tc main_arg3) := W4_of_ne m c main_arg3 (by decide)
    _ = W2 m c (Proc.devRef .tc main_arg3) := W3_back m c main_arg3 (by decide)
    _ = W1 m c (Proc.devRef .tc main_arg3) := W2_in m c 5 rfl
    _ = W0 m c (Proc.devRef .tc main_arg3) := W1_back m c main_arg3 (by decide)
    _ = m ((c : Thread nD τ).loc main_arg3) := rfl

theorem back_main_arg4 (c : Dev nD) (x : Buf (Elt F) ((c : Thread nD τ).loc main_v31)) :
    StableHlo.after hostOps3 (W6x m c x) (Proc.devRef .tc main_arg4) = m ((c : Thread nD τ).loc main_arg4) :=
  calc StableHlo.after hostOps3 (W6x m c x) (Proc.devRef .tc main_arg4)
    _ = W6x m c x (Proc.devRef .tc main_arg4) := StableHlo.after_of_writes_sub hostOps3 _ hostOps3_writes (by decide)
    _ = W5 m c (Proc.devRef .tc main_arg4) := W6x_of_ne m c x main_arg4 (by decide)
    _ = W4 m c (Proc.devRef .tc main_arg4) := W5_back m c main_arg4 (by decide)
    _ = W3 m c (Proc.devRef .tc main_arg4) := W4_of_ne m c main_arg4 (by decide)
    _ = W2 m c (Proc.devRef .tc main_arg4) := W3_back m c main_arg4 (by decide)
    _ = W1 m c (Proc.devRef .tc main_arg4) := W2_of_ne m c main_arg4 (by decide)
    _ = W0 m c (Proc.devRef .tc main_arg4) := W1_back m c main_arg4 (by decide)
    _ = m ((c : Thread nD τ).loc main_arg4) := rfl

theorem back_main_arg5 (c : Dev nD) (x : Buf (Elt F) ((c : Thread nD τ).loc main_v31)) :
    StableHlo.after hostOps3 (W6x m c x) (Proc.devRef .tc main_arg5) = m ((c : Thread nD τ).loc main_arg5) :=
  calc StableHlo.after hostOps3 (W6x m c x) (Proc.devRef .tc main_arg5)
    _ = W6x m c x (Proc.devRef .tc main_arg5) := StableHlo.after_of_writes_sub hostOps3 _ hostOps3_writes (by decide)
    _ = W5 m c (Proc.devRef .tc main_arg5) := W6x_of_ne m c x main_arg5 (by decide)
    _ = W4 m c (Proc.devRef .tc main_arg5) := W5_back m c main_arg5 (by decide)
    _ = W3 m c (Proc.devRef .tc main_arg5) := W4_of_ne m c main_arg5 (by decide)
    _ = W2 m c (Proc.devRef .tc main_arg5) := W3_back m c main_arg5 (by decide)
    _ = W1 m c (Proc.devRef .tc main_arg5) := W2_in m c 3 rfl
    _ = W0 m c (Proc.devRef .tc main_arg5) := W1_back m c main_arg5 (by decide)
    _ = m ((c : Thread nD τ).loc main_arg5) := rfl

theorem back_main_arg6 (c : Dev nD) (x : Buf (Elt F) ((c : Thread nD τ).loc main_v31)) :
    StableHlo.after hostOps3 (W6x m c x) (Proc.devRef .tc main_arg6) = m ((c : Thread nD τ).loc main_arg6) :=
  calc StableHlo.after hostOps3 (W6x m c x) (Proc.devRef .tc main_arg6)
    _ = W6x m c x (Proc.devRef .tc main_arg6) := StableHlo.after_of_writes_sub hostOps3 _ hostOps3_writes (by decide)
    _ = W5 m c (Proc.devRef .tc main_arg6) := W6x_of_ne m c x main_arg6 (by decide)
    _ = W4 m c (Proc.devRef .tc main_arg6) := W5_back m c main_arg6 (by decide)
    _ = W3 m c (Proc.devRef .tc main_arg6) := W4_of_ne m c main_arg6 (by decide)
    _ = W2 m c (Proc.devRef .tc main_arg6) := W3_back m c main_arg6 (by decide)
    _ = W1 m c (Proc.devRef .tc main_arg6) := W2_of_ne m c main_arg6 (by decide)
    _ = W0 m c (Proc.devRef .tc main_arg6) := W1_back m c main_arg6 (by decide)
    _ = m ((c : Thread nD τ).loc main_arg6) := rfl

theorem back_main_arg7 (c : Dev nD) (x : Buf (Elt F) ((c : Thread nD τ).loc main_v31)) :
    StableHlo.after hostOps3 (W6x m c x) (Proc.devRef .tc main_arg7) = m ((c : Thread nD τ).loc main_arg7) :=
  calc StableHlo.after hostOps3 (W6x m c x) (Proc.devRef .tc main_arg7)
    _ = W6x m c x (Proc.devRef .tc main_arg7) := StableHlo.after_of_writes_sub hostOps3 _ hostOps3_writes (by decide)
    _ = W5 m c (Proc.devRef .tc main_arg7) := W6x_of_ne m c x main_arg7 (by decide)
    _ = W4 m c (Proc.devRef .tc main_arg7) := W5_back m c main_arg7 (by decide)
    _ = W3 m c (Proc.devRef .tc main_arg7) := W4_of_ne m c main_arg7 (by decide)
    _ = W2 m c (Proc.devRef .tc main_arg7) := W3_back m c main_arg7 (by decide)
    _ = W1 m c (Proc.devRef .tc main_arg7) := W2_in m c 6 rfl
    _ = W0 m c (Proc.devRef .tc main_arg7) := W1_back m c main_arg7 (by decide)
    _ = m ((c : Thread nD τ).loc main_arg7) := rfl

theorem back_main_arg8 (c : Dev nD) (x : Buf (Elt F) ((c : Thread nD τ).loc main_v31)) :
    StableHlo.after hostOps3 (W6x m c x) (Proc.devRef .tc main_arg8) = m ((c : Thread nD τ).loc main_arg8) :=
  calc StableHlo.after hostOps3 (W6x m c x) (Proc.devRef .tc main_arg8)
    _ = W6x m c x (Proc.devRef .tc main_arg8) := StableHlo.after_of_writes_sub hostOps3 _ hostOps3_writes (by decide)
    _ = W5 m c (Proc.devRef .tc main_arg8) := W6x_of_ne m c x main_arg8 (by decide)
    _ = W4 m c (Proc.devRef .tc main_arg8) := W5_back m c main_arg8 (by decide)
    _ = W3 m c (Proc.devRef .tc main_arg8) := W4_of_ne m c main_arg8 (by decide)
    _ = W2 m c (Proc.devRef .tc main_arg8) := W3_back m c main_arg8 (by decide)
    _ = W1 m c (Proc.devRef .tc main_arg8) := W2_of_ne m c main_arg8 (by decide)
    _ = W0 m c (Proc.devRef .tc main_arg8) := W1_back m c main_arg8 (by decide)
    _ = m ((c : Thread nD τ).loc main_arg8) := rfl

theorem back_main_arg9 (c : Dev nD) (x : Buf (Elt F) ((c : Thread nD τ).loc main_v31)) :
    StableHlo.after hostOps3 (W6x m c x) (Proc.devRef .tc main_arg9) = m ((c : Thread nD τ).loc main_arg9) :=
  calc StableHlo.after hostOps3 (W6x m c x) (Proc.devRef .tc main_arg9)
    _ = W6x m c x (Proc.devRef .tc main_arg9) := StableHlo.after_of_writes_sub hostOps3 _ hostOps3_writes (by decide)
    _ = W5 m c (Proc.devRef .tc main_arg9) := W6x_of_ne m c x main_arg9 (by decide)
    _ = W4 m c (Proc.devRef .tc main_arg9) := W5_back m c main_arg9 (by decide)
    _ = W3 m c (Proc.devRef .tc main_arg9) := W4_of_ne m c main_arg9 (by decide)
    _ = W2 m c (Proc.devRef .tc main_arg9) := W3_back m c main_arg9 (by decide)
    _ = W1 m c (Proc.devRef .tc main_arg9) := W2_of_ne m c main_arg9 (by decide)
    _ = W0 m c (Proc.devRef .tc main_arg9) := W1_back m c main_arg9 (by decide)
    _ = m ((c : Thread nD τ).loc main_arg9) := rfl

theorem back_main_arg10 (c : Dev nD) (x : Buf (Elt F) ((c : Thread nD τ).loc main_v31)) :
    StableHlo.after hostOps3 (W6x m c x) (Proc.devRef .tc main_arg10) = m ((c : Thread nD τ).loc main_arg10) :=
  calc StableHlo.after hostOps3 (W6x m c x) (Proc.devRef .tc main_arg10)
    _ = W6x m c x (Proc.devRef .tc main_arg10) := StableHlo.after_of_writes_sub hostOps3 _ hostOps3_writes (by decide)
    _ = W5 m c (Proc.devRef .tc main_arg10) := W6x_of_ne m c x main_arg10 (by decide)
    _ = W4 m c (Proc.devRef .tc main_arg10) := W5_back m c main_arg10 (by decide)
    _ = W3 m c (Proc.devRef .tc main_arg10) := W4_of_ne m c main_arg10 (by decide)
    _ = W2 m c (Proc.devRef .tc main_arg10) := W3_back m c main_arg10 (by decide)
    _ = W1 m c (Proc.devRef .tc main_arg10) := W2_of_ne m c main_arg10 (by decide)
    _ = W0 m c (Proc.devRef .tc main_arg10) := W1_back m c main_arg10 (by decide)
    _ = m ((c : Thread nD τ).loc main_arg10) := rfl

theorem back_main_arg11 (c : Dev nD) (x : Buf (Elt F) ((c : Thread nD τ).loc main_v31)) :
    StableHlo.after hostOps3 (W6x m c x) (Proc.devRef .tc main_arg11) = m ((c : Thread nD τ).loc main_arg11) :=
  calc StableHlo.after hostOps3 (W6x m c x) (Proc.devRef .tc main_arg11)
    _ = W6x m c x (Proc.devRef .tc main_arg11) := StableHlo.after_of_writes_sub hostOps3 _ hostOps3_writes (by decide)
    _ = W5 m c (Proc.devRef .tc main_arg11) := W6x_of_ne m c x main_arg11 (by decide)
    _ = W4 m c (Proc.devRef .tc main_arg11) := W5_back m c main_arg11 (by decide)
    _ = W3 m c (Proc.devRef .tc main_arg11) := W4_of_ne m c main_arg11 (by decide)
    _ = W2 m c (Proc.devRef .tc main_arg11) := W3_back m c main_arg11 (by decide)
    _ = W1 m c (Proc.devRef .tc main_arg11) := W2_of_ne m c main_arg11 (by decide)
    _ = W0 m c (Proc.devRef .tc main_arg11) := W1_back m c main_arg11 (by decide)
    _ = m ((c : Thread nD τ).loc main_arg11) := rfl

theorem back_main_arg12 (c : Dev nD) (x : Buf (Elt F) ((c : Thread nD τ).loc main_v31)) :
    StableHlo.after hostOps3 (W6x m c x) (Proc.devRef .tc main_arg12) = m ((c : Thread nD τ).loc main_arg12) :=
  calc StableHlo.after hostOps3 (W6x m c x) (Proc.devRef .tc main_arg12)
    _ = W6x m c x (Proc.devRef .tc main_arg12) := StableHlo.after_of_writes_sub hostOps3 _ hostOps3_writes (by decide)
    _ = W5 m c (Proc.devRef .tc main_arg12) := W6x_of_ne m c x main_arg12 (by decide)
    _ = W4 m c (Proc.devRef .tc main_arg12) := W5_back m c main_arg12 (by decide)
    _ = W3 m c (Proc.devRef .tc main_arg12) := W4_of_ne m c main_arg12 (by decide)
    _ = W2 m c (Proc.devRef .tc main_arg12) := W3_back m c main_arg12 (by decide)
    _ = W1 m c (Proc.devRef .tc main_arg12) := W2_of_ne m c main_arg12 (by decide)
    _ = W0 m c (Proc.devRef .tc main_arg12) := W1_back m c main_arg12 (by decide)
    _ = m ((c : Thread nD τ).loc main_arg12) := rfl

theorem back_main_arg13 (c : Dev nD) (x : Buf (Elt F) ((c : Thread nD τ).loc main_v31)) :
    StableHlo.after hostOps3 (W6x m c x) (Proc.devRef .tc main_arg13) = m ((c : Thread nD τ).loc main_arg13) :=
  calc StableHlo.after hostOps3 (W6x m c x) (Proc.devRef .tc main_arg13)
    _ = W6x m c x (Proc.devRef .tc main_arg13) := StableHlo.after_of_writes_sub hostOps3 _ hostOps3_writes (by decide)
    _ = W5 m c (Proc.devRef .tc main_arg13) := W6x_of_ne m c x main_arg13 (by decide)
    _ = W4 m c (Proc.devRef .tc main_arg13) := W5_back m c main_arg13 (by decide)
    _ = W3 m c (Proc.devRef .tc main_arg13) := W4_of_ne m c main_arg13 (by decide)
    _ = W2 m c (Proc.devRef .tc main_arg13) := W3_back m c main_arg13 (by decide)
    _ = W1 m c (Proc.devRef .tc main_arg13) := W2_of_ne m c main_arg13 (by decide)
    _ = W0 m c (Proc.devRef .tc main_arg13) := W1_back m c main_arg13 (by decide)
    _ = m ((c : Thread nD τ).loc main_arg13) := rfl

theorem back_main_arg14 (c : Dev nD) (x : Buf (Elt F) ((c : Thread nD τ).loc main_v31)) :
    StableHlo.after hostOps3 (W6x m c x) (Proc.devRef .tc main_arg14) = m ((c : Thread nD τ).loc main_arg14) :=
  calc StableHlo.after hostOps3 (W6x m c x) (Proc.devRef .tc main_arg14)
    _ = W6x m c x (Proc.devRef .tc main_arg14) := StableHlo.after_of_writes_sub hostOps3 _ hostOps3_writes (by decide)
    _ = W5 m c (Proc.devRef .tc main_arg14) := W6x_of_ne m c x main_arg14 (by decide)
    _ = W4 m c (Proc.devRef .tc main_arg14) := W5_back m c main_arg14 (by decide)
    _ = W3 m c (Proc.devRef .tc main_arg14) := W4_of_ne m c main_arg14 (by decide)
    _ = W2 m c (Proc.devRef .tc main_arg14) := W3_back m c main_arg14 (by decide)
    _ = W1 m c (Proc.devRef .tc main_arg14) := W2_of_ne m c main_arg14 (by decide)
    _ = W0 m c (Proc.devRef .tc main_arg14) := W1_back m c main_arg14 (by decide)
    _ = m ((c : Thread nD τ).loc main_arg14) := rfl

theorem back_main_arg15 (c : Dev nD) (x : Buf (Elt F) ((c : Thread nD τ).loc main_v31)) :
    StableHlo.after hostOps3 (W6x m c x) (Proc.devRef .tc main_arg15) = m ((c : Thread nD τ).loc main_arg15) :=
  calc StableHlo.after hostOps3 (W6x m c x) (Proc.devRef .tc main_arg15)
    _ = W6x m c x (Proc.devRef .tc main_arg15) := StableHlo.after_of_writes_sub hostOps3 _ hostOps3_writes (by decide)
    _ = W5 m c (Proc.devRef .tc main_arg15) := W6x_of_ne m c x main_arg15 (by decide)
    _ = W4 m c (Proc.devRef .tc main_arg15) := W5_back m c main_arg15 (by decide)
    _ = W3 m c (Proc.devRef .tc main_arg15) := W4_of_ne m c main_arg15 (by decide)
    _ = W2 m c (Proc.devRef .tc main_arg15) := W3_back m c main_arg15 (by decide)
    _ = W1 m c (Proc.devRef .tc main_arg15) := W2_of_ne m c main_arg15 (by decide)
    _ = W0 m c (Proc.devRef .tc main_arg15) := W1_back m c main_arg15 (by decide)
    _ = m ((c : Thread nD τ).loc main_arg15) := rfl

theorem back_main_arg16 (c : Dev nD) (x : Buf (Elt F) ((c : Thread nD τ).loc main_v31)) :
    StableHlo.after hostOps3 (W6x m c x) (Proc.devRef .tc main_arg16) = m ((c : Thread nD τ).loc main_arg16) :=
  calc StableHlo.after hostOps3 (W6x m c x) (Proc.devRef .tc main_arg16)
    _ = W6x m c x (Proc.devRef .tc main_arg16) := StableHlo.after_of_writes_sub hostOps3 _ hostOps3_writes (by decide)
    _ = W5 m c (Proc.devRef .tc main_arg16) := W6x_of_ne m c x main_arg16 (by decide)
    _ = W4 m c (Proc.devRef .tc main_arg16) := W5_back m c main_arg16 (by decide)
    _ = W3 m c (Proc.devRef .tc main_arg16) := W4_of_ne m c main_arg16 (by decide)
    _ = W2 m c (Proc.devRef .tc main_arg16) := W3_back m c main_arg16 (by decide)
    _ = W1 m c (Proc.devRef .tc main_arg16) := W2_of_ne m c main_arg16 (by decide)
    _ = W0 m c (Proc.devRef .tc main_arg16) := W1_back m c main_arg16 (by decide)
    _ = m ((c : Thread nD τ).loc main_arg16) := rfl

theorem back_main_arg17 (c : Dev nD) (x : Buf (Elt F) ((c : Thread nD τ).loc main_v31)) :
    StableHlo.after hostOps3 (W6x m c x) (Proc.devRef .tc main_arg17) = m ((c : Thread nD τ).loc main_arg17) :=
  calc StableHlo.after hostOps3 (W6x m c x) (Proc.devRef .tc main_arg17)
    _ = W6x m c x (Proc.devRef .tc main_arg17) := StableHlo.after_of_writes_sub hostOps3 _ hostOps3_writes (by decide)
    _ = W5 m c (Proc.devRef .tc main_arg17) := W6x_of_ne m c x main_arg17 (by decide)
    _ = W4 m c (Proc.devRef .tc main_arg17) := W5_back m c main_arg17 (by decide)
    _ = W3 m c (Proc.devRef .tc main_arg17) := W4_of_ne m c main_arg17 (by decide)
    _ = W2 m c (Proc.devRef .tc main_arg17) := W3_back m c main_arg17 (by decide)
    _ = W1 m c (Proc.devRef .tc main_arg17) := W2_of_ne m c main_arg17 (by decide)
    _ = W0 m c (Proc.devRef .tc main_arg17) := W1_back m c main_arg17 (by decide)
    _ = m ((c : Thread nD τ).loc main_arg17) := rfl

theorem back_main_arg18 (c : Dev nD) (x : Buf (Elt F) ((c : Thread nD τ).loc main_v31)) :
    StableHlo.after hostOps3 (W6x m c x) (Proc.devRef .tc main_arg18) = m ((c : Thread nD τ).loc main_arg18) :=
  calc StableHlo.after hostOps3 (W6x m c x) (Proc.devRef .tc main_arg18)
    _ = W6x m c x (Proc.devRef .tc main_arg18) := StableHlo.after_of_writes_sub hostOps3 _ hostOps3_writes (by decide)
    _ = W5 m c (Proc.devRef .tc main_arg18) := W6x_of_ne m c x main_arg18 (by decide)
    _ = W4 m c (Proc.devRef .tc main_arg18) := W5_back m c main_arg18 (by decide)
    _ = W3 m c (Proc.devRef .tc main_arg18) := W4_of_ne m c main_arg18 (by decide)
    _ = W2 m c (Proc.devRef .tc main_arg18) := W3_back m c main_arg18 (by decide)
    _ = W1 m c (Proc.devRef .tc main_arg18) := W2_of_ne m c main_arg18 (by decide)
    _ = W0 m c (Proc.devRef .tc main_arg18) := W1_back m c main_arg18 (by decide)
    _ = m ((c : Thread nD τ).loc main_arg18) := rfl

end FrameAll

open FrameAll in
set_option backward.isDefEq.respectTransparency.types false in
variable (ρ : Dev nD → PrngReg) in
/-- THE FRAME at any float instance: from any memory with zero counters every weakly fair execution of the program
    terminates, nothing faulting, and every argument array ends as launched. -/
theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.RDat.θ_run_regions_kit (pcfgs (F := F)) FrameAll.adm (rdats m) () cellOf_inj embL defs₀ 𝒱₀ L lv m ρ main (segsB m)
    (fun c Q => by
      rewrite [main_chain c, Pipeline.RDat.Seg.run_eq_chain,
        show (segsB m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segsB, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?hu)
    (T₀ := fun c => iprop(StableHlo.held (c : Thread nD τ) (Pipeline.ucRefs τ sig) (W0 m c) ∗ R c)) (Tₙ := Tlast m)
    (hch := ?hch)
    (hinit := ?hinit)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18))
    (hfin := fun c s' => ?hfin)
    (hQ := fun _ h => h)
  case hu =>
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hch =>
    refine ⟨fun _ => .rfl, fun _ => .rfl, fun _ => .rfl, fun _ => .rfl, fun _ => .rfl, fun _ => .rfl, fun _ => .rfl, fun c => ?_⟩
    show iprop(∃ x, StableHlo.held (c : Thread nD τ) (Pipeline.ucRefs τ sig) (StableHlo.after hostOps3 (W6x m c x)) ∗ R c)
      ⊢ iprop(Tlast m c ∗ ∃ W, owes (c : Thread nD τ) (0 : CellTallies nD τ sig Unit) W)
    iintro ⟨%x, Hh, Hp, HO⟩
    isplitr [HO]
    · iexists x
      isplitl [Hh]; · iexact Hh
      iexact Hp
    iexact HO
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case hfin =>
    iintro ⟨⟨%x, Hh, -⟩, HSI⟩
    unfold StableHlo.held
    ihave Hr := (pointsTo_read_all (Pipeline.ucRefs τ sig) (fun b => (((c : Thread nD τ)).1, b)) (StableHlo.after hostOps3 (W6x m c x)) s') $$ [Hh HSI]
    · isplitl [Hh] <;> iassumption
    icases Hr with ⟨%h, HSI⟩
    imodintro
    isplitr
    · ipureintro
      exact ⟨(h _ (mem_uc main_arg0 (by decide))).trans (back_main_arg0 m c x),
        (h _ (mem_uc main_arg1 (by decide))).trans (back_main_arg1 m c x),
        (h _ (mem_uc main_arg2 (by decide))).trans (back_main_arg2 m c x),
        (h _ (mem_uc main_arg3 (by decide))).trans (back_main_arg3 m c x),
        (h _ (mem_uc main_arg4 (by decide))).trans (back_main_arg4 m c x),
        (h _ (mem_uc main_arg5 (by decide))).trans (back_main_arg5 m c x),
        (h _ (mem_uc main_arg6 (by decide))).trans (back_main_arg6 m c x),
        (h _ (mem_uc main_arg7 (by decide))).trans (back_main_arg7 m c x),
        (h _ (mem_uc main_arg8 (by decide))).trans (back_main_arg8 m c x),
        (h _ (mem_uc main_arg9 (by decide))).trans (back_main_arg9 m c x),
        (h _ (mem_uc main_arg10 (by decide))).trans (back_main_arg10 m c x),
        (h _ (mem_uc main_arg11 (by decide))).trans (back_main_arg11 m c x),
        (h _ (mem_uc main_arg12 (by decide))).trans (back_main_arg12 m c x),
        (h _ (mem_uc main_arg13 (by decide))).trans (back_main_arg13 m c x),
        (h _ (mem_uc main_arg14 (by decide))).trans (back_main_arg14 m c x),
        (h _ (mem_uc main_arg15 (by decide))).trans (back_main_arg15 m c x),
        (h _ (mem_uc main_arg16 (by decide))).trans (back_main_arg16 m c x),
        (h _ (mem_uc main_arg17 (by decide))).trans (back_main_arg17 m c x),
        (h _ (mem_uc main_arg18 (by decide))).trans (back_main_arg18 m c x)⟩
    · iexact HSI

end Cert.Kernel.Hand

end
-- ==== Proof.KI.Dats.lean ====
/-
  The three pallas_calls of the decoder step as proof data, at any float instance.
  Region 0 (one grid point): from the embedding row, the two hidden rows, the attention weights and bias, the
  encoder outputs, the combine weights and bias, it leaves the attention distribution (1×64) and the combined,
  rectified input row (1×1024).
  Region 1 (two grid points, one per GRU direction): each point copies its direction's two weight matrices from HBM
  into the two scratch buffers, waits for both copies, and leaves that direction's new hidden row.
  Region 2 (33 grid points over the vocabulary, the last block cut at the array's end) is stated apart.
  Each output buffer is written as ONE pure term of the blocks the body loads: the body's arithmetic as the
  generated skeleton names it, applied to the whole loaded blocks.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import Idealize.ShloMosaic.Lib.Pipeline.FrameBody
import Idealize.ShloMosaic.Lib.Pipeline.Frame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A valuation of every core's TensorCore buffers: what a region finds when it is entered. -/
abbrev Valn (F : FTy → Type) [FloatOps F] : Type :=
  (c : Dev nD) → (b : Ref sig .tc) → Buf (Elt F) ((c : Thread nD τ).loc b)

variable (V : Valn F)

/-! ## The windows' blocks, read off the arrays as a region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What each body leaves in its output buffers, as pure terms of the loaded blocks -/

/-- The attention distribution: softmax over the 64 positions of (embedding ‖ h0 ‖ h1)·attn_Wᵀ + attn_b. -/
def attnOut (e h0 h1 : Vec F S1x1024 .f32) (aw : Vec F S64x3072 .f32) (ab : Vec F S1x64 .f32) : Vec F S1x64 .f32 :=
  k0_pay2 e h0 h1 aw ab
/-- The GRU's input row: relu((embedding ‖ attention·encoder)·comb_Wᵀ + comb_b). -/
def combOut (e h0 h1 : Vec F S1x1024 .f32) (aw : Vec F S64x3072 .f32) (ab : Vec F S1x64 .f32)
    (enc : Vec F S64x2048 .f32) (cw : Vec F S1024x3072 .f32) (cb : Vec F S1x1024 .f32) : Vec F S1x1024 .f32 :=
  k0_pay1 (k0_pay3 e h0 h1 aw ab enc e cw) cb
/-- One GRU cell: the new hidden row from the input row, the old hidden row, the two weight matrices and biases. -/
def gruOut (x : Vec F S1x1024 .f32) (h : Vec F S1x1x1024 .f32) (wih whh : Vec F S3072x1024 .f32)
    (bih bhh : Vec F S1x1x3072 .f32) : Vec F S1x1x1024 .f32 :=
  k1_pay1 (k1_pay3 h whh bhh) (k1_pay4 x wih bih) (k1_pay5 x wih bih) (k1_pay6 x wih bih) (k1_pay7 h whh bhh) h
/-- One vocabulary tile of the output projection: g·Wᵀ + b on a 1536-row tile of out_W. -/
def projOut (g : Vec F S1x2048 .f32) (w : Vec F S1536x2048 .f32) (b : Vec F S1x1536 .f32) : Vec F S1x1536 .f32 :=
  k2_pay1 g w b

/-! ## Region 1's own transfers -/

/-- The two DMA semaphores of region 1's scratch semaphore array. -/
abbrev osem1 : Fin 2 → SemLoc sig := fun j => (![SemLoc.dma 19, SemLoc.dma 20] : Fin 2 → SemLoc sig) j
/-- The four weight matrices region 1 receives left in HBM and only reads. -/
def H1 : Finset (Ref sig .tc) := {main_arg9, main_arg10, main_arg13, main_arg14}

/-- The input-to-hidden weights the body copies into scratch at point `t`: the forward direction's at point 0, the
    backward direction's at point 1. -/
def wihAt (c : Dev nD) (t : Fin cfg1.N) : Vec F S3072x1024 .f32 :=
  if t.val = 0 then (V c main_arg9 : Vec F S3072x1024 .f32) else (V c main_arg13 : Vec F S3072x1024 .f32)
/-- The hidden-to-hidden weights likewise. -/
def whhAt (c : Dev nD) (t : Fin cfg1.N) : Vec F S3072x1024 .f32 :=
  if t.val = 0 then (V c main_arg10 : Vec F S3072x1024 .f32) else (V c main_arg14 : Vec F S3072x1024 .f32)

/-! ## The proof data of regions 0 and 1 -/

/-- Region 0 on core `c`: the arrays as found; after the body each input buffer holds its block, the two output
    buffers `attnOut` and `combOut` of the input blocks; the scoped rest and the generator register untouched. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => attnOut (iblk0 V c 0 t) (iblk0 V c 1 t) (iblk0 V c 2 t) (iblk0 V c 3 t) (iblk0 V c 4 t)
    | ⟨9, _⟩ => combOut (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = attnOut (iblk0 V c 0 t) (iblk0 V c 1 t) (iblk0 V c 2 t) (iblk0 V c 3 t) (iblk0 V c 4 t) := by dsimp only [dat0]
theorem after0_9 (c : Dev nD) (t : Fin cfg0.N) : (dat0 V c).after 9 t
    = combOut (iblk0 V c 0 t) (iblk0 V c 1 t) (iblk0 V c 2 t) (iblk0 V c 3 t) (iblk0 V c 4 t) (iblk0 V c 5 t) (iblk0 V c 6 t) (iblk0 V c 7 t) := by
  dsimp only [dat0]

/-- Region 1 on core `c`: the arrays as found; after the body at point `t` each input buffer holds its block and the
    output buffer that direction's new hidden row, from the weights of the direction the point copies; the invariant
    is the one of a body with transfers of its own within the point (scoped rest, generator register, the two own
    semaphores at zero, the four HBM matrices whole at the contents found). -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => gruOut (iblk1 V c 0 t) (iblk1 V c 1 t) (wihAt V c t) (whhAt V c t) (iblk1 V c 2 t) (iblk1 V c 3 t)
  Φ _ := Pipeline.ΦD osem1 spec1 H1 V c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = gruOut (iblk1 V c 0 t) (iblk1 V c 1 t) (wihAt V c t) (whhAt V c t) (iblk1 V c 2 t) (iblk1 V c 3 t) := by dsimp only [dat1]

/-! ## Region 2: the output projection over 33 vocabulary tiles, the last one cut at the array's end -/

/-- The tile of out_W the fetch at point `t` reads, its part inside the array (1536 rows, 1105 at the last point). -/
def wblk (c : Dev nD) (t : Fin cfg2.N) : (win2_1.xblock (grid2.coords t)).Idx → Elt F .f32 :=
  (win2_1.blk t).view.read (Elt F) (V c main_arg17)
/-- The matching lanes of the bias row. -/
def bblk (c : Dev nD) (t : Fin cfg2.N) : (win2_2.xblock (grid2.coords t)).Idx → Elt F .f32 :=
  (win2_2.blk t).view.read (Elt F) (V c main_v30)
/-- Those blocks filled out to the full tile with the zero word past the array's end: nothing reads the filler. -/
def wfill (c : Dev nD) (t : Fin cfg2.N) : Vec F S1536x2048 .f32 :=
  win2_1.fill (grid2.coords t) (fun _ => Scalar.ofBits .f32 0#32) (wblk V c t)
def bfill (c : Dev nD) (t : Fin cfg2.N) : Vec F S1x1536 .f32 :=
  win2_2.fill (grid2.coords t) (fun _ => Scalar.ofBits .f32 0#32) (bblk V c t)

/-- Region 2 on core `c`: the arrays as found; after the body at point `t` the row buffer holds the GRU output row,
    the weight and bias buffers their tiles (stated on the rows and lanes inside the arrays; zero-filled here), the
    output buffer the projection of those. Only the lanes inside the array are ever written back. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => wfill V c t
    | ⟨2, _⟩ => bfill V c t
    | ⟨3, _⟩ => projOut (iblk2 V c 0 t) (wfill V c t) (bfill V c t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = wfill V c t := by dsimp only [dat2]
theorem after2_2 (c : Dev nD) (t : Fin cfg2.N) : (dat2 V c).after 2 t = bfill V c t := by dsimp only [dat2]
theorem after2_3 (c : Dev nD) (t : Fin cfg2.N) : (dat2 V c).after 3 t = projOut (iblk2 V c 0 t) (wfill V c t) (bfill V c t) := by
  dsimp only [dat2]

/-- The window region 2's bit-level frame says nothing of: its output. -/
abbrev fgt2 : Fin cfg2.W → Bool := fun w => w.val == 3

end Cert.KernelIdeal.Hand

end
-- ==== Proof.KI.Fold.lean ====
/-
  What every TensorCore buffer holds at each boundary of the program, as a fold from the launch memory: a stretch of
  host operations rewrites the buffers it writes; a pallas_call leaves each of its windows' arrays at what the
  pipeline's write-backs leave there (the input arrays as entered) and every other buffer as entered.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : Valn F := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : Valn F := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : Valn F := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : Valn F := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : Valn F := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : Valn F := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: what the program returns from. -/
abbrev W7 : Dev nD → Valuation τ sig (Elt F) := fun c => StableHlo.after hostOps3 (W6 m c)

end Cert.KernelIdeal.Hand

end
-- ==== Proof.KI.Reg0.lean ====
/-
  Region 0's body at its one grid point: eight whole-block loads, the attention softmax, the two matrix products and
  the rectified combine, and one whole store into each of the two output buffers. The obligation: entered with every
  input buffer at its block, the body leaves them in place and the outputs at `attnOut` / `combOut` of those blocks.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.FrameBody
import Idealize.ShloMosaic.Lib.Pipeline.Value
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

variable (V : Valn F)

/-! ## Each input's staging buffer holds its block

An input window is uncut and never idle, and the body leaves its block in place: so at every point, fetched there or
not, its current staging buffer holds the block read off the array as the region found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's accesses: every load and store is through the whole buffer, the unit rectangle at zero offsets -/

/-- The offsets of every access are zero. -/
theorem zeros2 : (![0, 0] : Fin 2 → Nat) = fun _ => 0 := by
  funext i; fin_cases i <;> rfl

abbrev r0_a : Rect S1x1024 := Rect.unit (s := S1x1024) ![0, 0] S1x1024.size inb_S1x1024_S1x1024_0_0
abbrev r0_b : Rect S1x64 := Rect.unit (s := S1x64) ![0, 0] S1x64.size inb_S1x64_S1x64_0_0
abbrev r0_c : Rect S64x3072 := Rect.unit (s := S64x3072) ![0, 0] S64x3072.size inb_S64x3072_S64x3072_0_0
abbrev r0_d : Rect S64x2048 := Rect.unit (s := S64x2048) ![0, 0] S64x2048.size inb_S64x2048_S64x2048_0_0
abbrev r0_e : Rect S1024x3072 := Rect.unit (s := S1024x3072) ![0, 0] S1024x3072.size inb_S1024x3072_S1024x3072_0_0

/-! ## What the body leaves in each output buffer, as its one store over the loads -/

/-- The attention buffer after the body: its one store, the softmax payload of the five loaded blocks. -/
def out0_8 (x0 x1 x2 : Vec F S1x1024 .f32) (x3 : Vec F S64x3072 .f32) (x4 : Vec F S1x64 .f32) : Vec F S1x64 .f32 :=
  View.canon [⟨r0_b, k0_pay2 (View.ld x0 r0_a) (View.ld x1 r0_a) (View.ld x2 r0_a) (View.ld x3 r0_c) (View.ld x4 r0_b)⟩]

/-- The combine buffer after the body: its one store, the rectified affine payload of the eight loaded blocks. -/
def out0_9 (x0 x1 x2 : Vec F S1x1024 .f32) (x3 : Vec F S64x3072 .f32) (x4 : Vec F S1x64 .f32)
    (x5 : Vec F S64x2048 .f32) (x6 : Vec F S1024x3072 .f32) (x7 : Vec F S1x1024 .f32) : Vec F S1x1024 .f32 :=
  View.canon [⟨r0_a, k0_pay1 (k0_pay3 (View.ld x0 r0_a) (View.ld x1 r0_a) (View.ld x2 r0_a) (View.ld x3 r0_c) (View.ld x4 r0_b)
    (View.ld x5 r0_d) (View.ld x0 r0_a) (View.ld x6 r0_e)) (View.ld x7 r0_a)⟩]

/-- A load through the whole buffer reads the block and one whole store leaves its payload: the attention buffer
    holds `attnOut` of the blocks. -/
theorem out0_8_eq (x0 x1 x2 : Vec F S1x1024 .f32) (x3 : Vec F S64x3072 .f32) (x4 : Vec F S1x64 .f32) :
    out0_8 x0 x1 x2 x3 x4 = attnOut x0 x1 x2 x3 x4 := by
  unfold out0_8 attnOut
  rw [View.canon_unit_zero zeros2]
  simp only [View.ld_unit_zero (S := S1x1024) zeros2, View.ld_unit_zero (S := S64x3072) zeros2,
    View.ld_unit_zero (S := S1x64) zeros2]

/-- Likewise the combine buffer holds `combOut` of the blocks. -/
theorem out0_9_eq (x0 x1 x2 : Vec F S1x1024 .f32) (x3 : Vec F S64x3072 .f32) (x4 : Vec F S1x64 .f32)
    (x5 : Vec F S64x2048 .f32) (x6 : Vec F S1024x3072 .f32) (x7 : Vec F S1x1024 .f32) :
    out0_9 x0 x1 x2 x3 x4 x5 x6 x7 = combOut x0 x1 x2 x3 x4 x5 x6 x7 := by
  unfold out0_9 combOut
  rw [View.canon_unit_zero zeros2]
  simp only [View.ld_unit_zero (S := S1x1024) zeros2, View.ld_unit_zero (S := S64x3072) zeros2,
    View.ld_unit_zero (S := S1x64) zeros2, View.ld_unit_zero (S := S64x2048) zeros2,
    View.ld_unit_zero (S := S1024x3072) zeros2]

/-- The one store of each output is through the whole buffer, so it covers it. -/
theorem cover0_8 (p0 : Vec F S1x64 .f32) (y : S1x64.Idx) :
    ∃ pc ∈ ([⟨r0_b, p0⟩] : List (View.Piece (Elt F) S1x64 .f32)), y ∈ pc.1.set :=
  ⟨_, List.mem_singleton_self _, View.mem_set_unit_zero zeros2 inb_S1x64_S1x64_0_0 y⟩
theorem cover0_9 (p0 : Vec F S1x1024 .f32) (y : S1x1024.Idx) :
    ∃ pc ∈ ([⟨r0_a, p0⟩] : List (View.Piece (Elt F) S1x1024 .f32)), y ∈ pc.1.set :=
  ⟨_, List.mem_singleton_self _, View.mem_set_unit_zero zeros2 inb_S1x1024_S1x1024_0_0 y⟩

/-! ## The body's triple -/

set_option maxHeartbeats 4000000 in
/-- The body on whole staging memrefs, the inputs' at read contents `xW` and the outputs' at anything, runs to the
    continuation holding the inputs' as they were, the attention buffer at `out0_8` and the combine buffer at
    `out0_9` of the inputs': the loads read the contents, the arithmetic is pure, each store is one whole piece. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S64x3072 .f32) (harg4 : arg4.IsWhole) (arg5 : Memref sig .tc .vmem S1x64 .f32) (harg5 : arg5.IsWhole) (arg6 : Memref sig .tc .vmem S64x2048 .f32) (harg6 : arg6.IsWhole) (arg7 : Memref sig .tc .vmem S1024x3072 .f32) (harg7 : arg7.IsWhole) (arg8 : Memref sig .tc .vmem S1x1024 .f32) (harg8 : arg8.IsWhole) (arg9 : Memref sig .tc .vmem S1x64 .f32) (harg9 : arg9.IsWhole) (arg10 : Memref sig .tc .vmem S1x1024 .f32) (harg10 : arg10.IsWhole)
    (x0 x1 x2 : Vec F S1x1024 .f32) (x3 : Vec F S64x3072 .f32) (x4 : Vec F S1x64 .f32)
    (x5 : Vec F S64x2048 .f32) (x6 : Vec F S1024x3072 .f32) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4)
            ∗ owns (c : Thread nD τ) arg10 fullShare (out0_9 x0 x1 x2 x3 x4 x5 x6 x7)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9 arg10 harg10) K := by
  simp only [cc0__attn_comb_kernel_eq_skeleton]; unfold cc0__attn_comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The body obligation, at a generic point -/

/-- What the body is called with at point `t`: the invariant, the core's `owes`, and the ten windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies at the blocks; the
    invariant and the core's `owes` pass through unread; the outputs' contents are `attnOut` / `combOut` of the
    blocks since every access is through the whole buffer. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9,
    ← out0_8_eq, ← out0_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 0, at every point, for the proof data `dat0 V c`. -/
theorem body_obligation0 (V : Valn F) (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1's body at each of its two grid points: under the point's guard it starts the two copies of its
  direction's weight matrices from HBM into the two scratch buffers, each on its own DMA semaphore; it waits for
  both (the waits name the forward matrices at either point: a wait only takes the copy's amount off the semaphore);
  then two matrix products, the gate arithmetic, and one whole store of the new hidden row. Every copy is waited for
  before the scratch is read and nothing stays in flight past the point.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

/-- The two own semaphores are scoped DMA semaphores and none is a window's. -/
theorem ownSemFacts1 : Pipeline.OwnSemFacts spec1 osem1 := by decide
/-- The four HBM matrices are unscoped and no window's array. -/
theorem H1_sub : H1 ⊆ Pipeline.restRefs sig spec1 := by decide

/-- The two scratch buffers, whole, and the four HBM matrices, whole. -/
abbrev r1_scA : Memref sig .tc .vmem S3072x1024 .f32 := Memref.whole cc1_scratch0
abbrev r1_scB : Memref sig .tc .vmem S3072x1024 .f32 := Memref.whole cc1_scratch1
abbrev r1_hb9 : Memref sig .tc .hbm S3072x1024 .f32 := Memref.whole main_arg9
abbrev r1_hb10 : Memref sig .tc .hbm S3072x1024 .f32 := Memref.whole main_arg10
abbrev r1_hb13 : Memref sig .tc .hbm S3072x1024 .f32 := Memref.whole main_arg13
abbrev r1_hb14 : Memref sig .tc .hbm S3072x1024 .f32 := Memref.whole main_arg14
/-- A memref's buffer on core `c`: its contents type, and the buffer held whole at `f`. -/
abbrev r1_HbBuf (c : Dev nD) {sp : Space} {S : Shape} {e : EltTy} (M : Memref sig .tc sp S e) : Type := Buf (Elt F) (M.view.loc (c : Thread nD τ))
abbrev r1_hbPt (c : Dev nD) {sp : Space} {S : Shape} {e : EltTy} (M : Memref sig .tc sp S e) (f : r1_HbBuf (F := F) c M) : sProp 𝕄 :=
  M.view.loc (c : Thread nD τ) ↦{fullShare} f

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A load through the whole-shape rectangle at zero offsets, of a buffer one whole write covered, reads that write's payload. -/
theorem r1_readCov_whole {sg : RefSig} {κ : Kind} {sp : Space} {S : Shape} {e : EltTy} (v : View sg κ sp S e) {off : Fin S.rank → Nat}
    (hz : off = fun _ => 0) (inb : ∀ a, off a + S.size a ≤ S.size a) (w : S.Idx → Elt F e) :
    v.readCov [(⟨Rect.whole S, w⟩ : View.Piece (Elt F) S e)] (Rect.unit off S.size inb).toLoadRect = w := by
  subst hz; exact View.readCov_unit_zero v rfl inb w

set_option maxHeartbeats 1000000 in
/-- The body at grid coordinate 0, on whole staging memrefs — the inputs' at their blocks, the output's and the two scratch
    buffers at anything, the two own cells at zero, the four HBM matrices at their contents, the core's `owes`: the forward
    matrices are copied into the scratch buffers and waited for, so the loads of the scratch read them, and the body runs
    to the continuation holding everything as it was but the output's buffer, at the new hidden row of the loaded blocks
    and the forward matrices, the scratch at some contents and the two waits recorded. -/
theorem run1_A (c : Dev nD) (i : grid1.Coords) (hi : (i 0).val = 0)
    (arg1 : Memref sig .tc .vmem S1x1024 .f32) (harg1 : arg1.IsWhole) (arg2 : Memref sig .tc .vmem S1x1x1024 .f32) (harg2 : arg2.IsWhole)
    (arg7 : Memref sig .tc .vmem S1x1x3072 .f32) (harg7 : arg7.IsWhole) (arg8 : Memref sig .tc .vmem S1x1x3072 .f32) (harg8 : arg8.IsWhole)
    (arg9 : Memref sig .tc .vmem S1x1x1024 .f32) (harg9 : arg9.IsWhole)
    (x : Vec F S1x1024 .f32) (h : Vec F S1x1x1024 .f32) (bih bhh : Vec F S1x1x3072 .f32)
    (f9 : r1_HbBuf (F := F) c r1_hb9) (f10 : r1_HbBuf (F := F) c r1_hb10) (f13 : r1_HbBuf (F := F) c r1_hb13) (f14 : r1_HbBuf (F := F) c r1_hb14)
    (W : Waits sig Unit) (K : PUnit → sProp 𝕄) :
    iprop(owns (c : Thread nD τ) arg1 fullShare x ∗ owns (c : Thread nD τ) arg2 fullShare h ∗ owns (c : Thread nD τ) arg7 fullShare bih ∗ owns (c : Thread nD τ) arg8 fullShare bhh
        ∗ (∃ d, owns (c : Thread nD τ) arg9 fullShare d) ∗ (∃ d, owns (c : Thread nD τ) r1_scA fullShare d) ∗ (∃ d, owns (c : Thread nD τ) r1_scB fullShare d)
        ∗ semVal ((c : Thread nD τ), SemLoc.dma 19) 0 ∗ semVal ((c : Thread nD τ), SemLoc.dma 20) 0
        ∗ r1_hbPt c r1_hb9 f9 ∗ r1_hbPt c r1_hb10 f10 ∗ r1_hbPt c r1_hb13 f13 ∗ r1_hbPt c r1_hb14 f14 ∗ owes (c : Thread nD τ) 0 W
        ∗ (iprop(owns (c : Thread nD τ) arg1 fullShare x ∗ owns (c : Thread nD τ) arg2 fullShare h ∗ owns (c : Thread nD τ) arg7 fullShare bih ∗ owns (c : Thread nD τ) arg8 fullShare bhh
            ∗ owns (c : Thread nD τ) arg9 fullShare (gruOut x h (f9 : Vec F S3072x1024 .f32) (f10 : Vec F S3072x1024 .f32) bih bhh)
            ∗ (∃ d, owns (c : Thread nD τ) r1_scA fullShare d) ∗ (∃ d, owns (c : Thread nD τ) r1_scB fullShare d)
            ∗ semVal ((c : Thread nD τ), SemLoc.dma 19) 0 ∗ semVal ((c : Thread nD τ), SemLoc.dma 20) 0
            ∗ r1_hbPt c r1_hb9 f9 ∗ r1_hbPt c r1_hb10 f10 ∗ r1_hbPt c r1_hb13 f13 ∗ r1_hbPt c r1_hb14 f14 ∗ (∃ W', owes (c : Thread nD τ) 0 W')) -∗ K ⟨⟩))
      ⊢ wp frame (wpE (defs₀ (F := F)) Variants.none c none) Set.univ
          (cc1__gru_fused_kernel i arg1 harg1 arg2 harg2 r1_hb9 (Memref.isWhole_whole _) r1_hb10 (Memref.isWhole_whole _) r1_hb13 (Memref.isWhole_whole _) r1_hb14 (Memref.isWhole_whole _) arg7 harg7 arg8 harg8 arg9 harg9 r1_scA (Memref.isWhole_whole _) r1_scB (Memref.isWhole_whole _) cc1_scratch2) K := by
  simp only [cc1__gru_fused_kernel_eq_skeleton]; unfold cc1__gru_fused_kernel_skel
  simp only [k1_part1_eq_skeleton]; unfold k1_part1_skel
  simp only [hi]
  unfold owns
  iintro ⟨⟨%f1, %hf1, H1⟩, ⟨%f2, %hf2, H2⟩, ⟨%f7, %hf7, H7⟩, ⟨%f8, %hf8, H8⟩, ⟨%d9, %g9, -, H9⟩, ⟨%dA, %gA, -, HA⟩, ⟨%dB, %gB, -, HB⟩, Hq0, Hq1, Hh9, Hh10, Hh13, Hh14, HW, Hk⟩
  obtain rfl := harg1.eq_unread hf1
  obtain rfl := harg2.eq_unread hf2
  obtain rfl := harg7.eq_unread hf7
  obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_eq_canon _ _ _ (fun y => ⟨_, List.mem_singleton_self _, View.mem_set_unit_zero r1_hz3 inb_S1x1x1024_S1x1x1024_0_0_0 y⟩), View.canon_unit_zero r1_hz3]
    sl_unfold_run_names
    simp only [View.readAt_eq_ld, Memref.IsWhole.read_unread, View.ld_unit_zero (S := S1x1024) r1_hz2, View.ld_unit_zero (S := S1x1x1024) r1_hz3,
      View.ld_unit_zero (S := S1x1x3072) r1_hz3, r1_readCov_whole (S := S3072x1024) _ r1_hz2, Memref.view_whole, View.read_whole]
    unfold gruOut
    with_reducible rfl
  isplitl [HA]
  · iexists _, _; isplitr; swap; · iexact HA
    ipureintro; rfl
  isplitl [HB]
  · iexists _, _; isplitr; swap; · iexact HB
    ipureintro; rfl
  isplitl [Hq0]; · iexact Hq0
  isplitl [Hq1]; · iexact Hq1
  isplitl [Hh9]; · iexact Hh9
  isplitl [Hh10]; · iexact Hh10
  isplitl [Hh13]; · iexact Hh13
  isplitl [Hh14]; · iexact Hh14
  iexists _; iexact HW

set_option maxHeartbeats 1000000 in
/-- The body at grid coordinate 1: as at coordinate 0 with the backward matrices copied. The two waits name the forward
    matrices, which are of the same shape: each takes the amount of the copy in flight on its cell, and hands back the
    scratch buffer as that copy delivered it and the backward matrix it was lent. -/
theorem run1_B (c : Dev nD) (i : grid1.Coords) (hi : (i 0).val = 1)
    (arg1 : Memref sig .tc .vmem S1x1024 .f32) (harg1 : arg1.IsWhole) (arg2 : Memref sig .tc .vmem S1x1x1024 .f32) (harg2 : arg2.IsWhole)
    (arg7 : Memref sig .tc .vmem S1x1x3072 .f32) (harg7 : arg7.IsWhole) (arg8 : Memref sig .tc .vmem S1x1x3072 .f32) (harg8 : arg8.IsWhole)
    (arg9 : Memref sig .tc .vmem S1x1x1024 .f32) (harg9 : arg9.IsWhole)
    (x : Vec F S1x1024 .f32) (h : Vec F S1x1x1024 .f32) (bih bhh : Vec F S1x1x3072 .f32)
    (f9 : r1_HbBuf (F := F) c r1_hb9) (f10 : r1_HbBuf (F := F) c r1_hb10) (f13 : r1_HbBuf (F := F) c r1_hb13) (f14 : r1_HbBuf (F := F) c r1_hb14)
    (W : Waits sig Unit) (K : PUnit → sProp 𝕄) :
    iprop(owns (c : Thread nD τ) arg1 fullShare x ∗ owns (c : Thread nD τ) arg2 fullShare h ∗ owns (c : Thread nD τ) arg7 fullShare bih ∗ owns (c : Thread nD τ) arg8 fullShare bhh
        ∗ (∃ d, owns (c : Thread nD τ) arg9 fullShare d) ∗ (∃ d, owns (c : Thread nD τ) r1_scA fullShare d) ∗ (∃ d, owns (c : Thread nD τ) r1_scB fullShare d)
        ∗ semVal ((c : Thread nD τ), SemLoc.dma 19) 0 ∗ semVal ((c : Thread nD τ), SemLoc.dma 20) 0
        ∗ r1_hbPt c r1_hb9 f9 ∗ r1_hbPt c r1_hb10 f10 ∗ r1_hbPt c r1_hb13 f13 ∗ r1_hbPt c r1_hb14 f14 ∗ owes (c : Thread nD τ) 0 W
        ∗ (iprop(owns (c : Thread nD τ) arg1 fullShare x ∗ owns (c : Thread nD τ) arg2 fullShare h ∗ owns (c : Thread nD τ) arg7 fullShare bih ∗ owns (c : Thread nD τ) arg8 fullShare bhh
            ∗ owns (c : Thread nD τ) arg9 fullShare (gruOut x h (f13 : Vec F S3072x1024 .f32) (f14 : Vec F S3072x1024 .f32) bih bhh)
            ∗ (∃ d, owns (c : Thread nD τ) r1_scA fullShare d) ∗ (∃ d, owns (c : Thread nD τ) r1_scB fullShare d)
            ∗ semVal ((c : Thread nD τ), SemLoc.dma 19) 0 ∗ semVal ((c : Thread nD τ), SemLoc.dma 20) 0
            ∗ r1_hbPt c r1_hb9 f9 ∗ r1_hbPt c r1_hb10 f10 ∗ r1_hbPt c r1_hb13 f13 ∗ r1_hbPt c r1_hb14 f14 ∗ (∃ W', owes (c : Thread nD τ) 0 W')) -∗ K ⟨⟩))
      ⊢ wp frame (wpE (defs₀ (F := F)) Variants.none c none) Set.univ
          (cc1__gru_fused_kernel i arg1 harg1 arg2 harg2 r1_hb9 (Memref.isWhole_whole _) r1_hb10 (Memref.isWhole_whole _) r1_hb13 (Memref.isWhole_whole _) r1_hb14 (Memref.isWhole_whole _) arg7 harg7 arg8 harg8 arg9 harg9 r1_scA (Memref.isWhole_whole _) r1_scB (Memref.isWhole_whole _) cc1_scratch2) K := by
  simp only [cc1__gru_fused_kernel_eq_skeleton]; unfold cc1__gru_fused_kernel_skel
  simp only [k1_part1_eq_skeleton]; unfold k1_part1_skel
  simp only [hi]
  unfold owns
  iintro ⟨⟨%f1, %hf1, H1⟩, ⟨%f2, %hf2, H2⟩, ⟨%f7, %hf7, H7⟩, ⟨%f8, %hf8, H8⟩, ⟨%d9, %g9, -, H9⟩, ⟨%dA, %gA, -, HA⟩, ⟨%dB, %gB, -, HB⟩, Hq0, Hq1, Hh9, Hh10, Hh13, Hh14, HW, Hk⟩
  obtain rfl := harg1.eq_unread hf1
  obtain rfl := harg2.eq_unread hf2
  obtain rfl := harg7.eq_unread hf7
  obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_eq_canon _ _ _ (fun y => ⟨_, List.mem_singleton_self _, View.mem_set_unit_zero r1_hz3 inb_S1x1x1024_S1x1x1024_0_0_0 y⟩), View.canon_unit_zero r1_hz3]
    sl_unfold_run_names
    simp only [View.readAt_eq_ld, Memref.IsWhole.read_unread, View.ld_unit_zero (S := S1x1024) r1_hz2, View.ld_unit_zero (S := S1x1x1024) r1_hz3,
      View.ld_unit_zero (S := S1x1x3072) r1_hz3, r1_readCov_whole (S := S3072x1024) _ r1_hz2, Memref.view_whole, View.read_whole]
    unfold gruOut
    with_reducible rfl
  isplitl [HA]
  · iexists _, _; isplitr; swap; · iexact HA
    ipureintro; rfl
  isplitl [HB]
  · iexists _, _; isplitr; swap; · iexact HB
    ipureintro; rfl
  isplitl [Hq0]; · iexact Hq0
  isplitl [Hq1]; · iexact Hq1
  isplitl [Hh9]; · iexact Hh9
  isplitl [Hh10]; · iexact Hh10
  isplitl [Hh13]; · iexact Hh13
  isplitl [Hh14]; · iexact Hh14
  iexists _; iexact HW

variable (V : Valn F)

/-- The two own cells at zero, listed. -/
theorem r1_ownSems_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 19) 0 ∗ semVal ((c : Thread nD τ), SemLoc.dma 20) 0) := by
  rw [Pipeline.ownSems0_eq_of_list c osem1 [0, 1] (by decide) (by decide)]; rfl

/-- The four HBM matrices' points-tos at the contents found, listed. -/
theorem r1_hbmPts_eq (c : Dev nD) :
    (bigSep H1 (fun b => ((c : Thread nD τ).loc b) ↦{fullShare} V c b) : sProp 𝕄)
      = iprop(r1_hbPt c r1_hb9 (V c main_arg9) ∗ r1_hbPt c r1_hb10 (V c main_arg10) ∗ r1_hbPt c r1_hb13 (V c main_arg13) ∗ r1_hbPt c r1_hb14 (V c main_arg14)) := by
  rw [BI.bigSep_eq_bigSepL_of_eq [main_arg9, main_arg10, main_arg13, main_arg14] (by decide) (by decide)]; rfl

/-- Each input window's current staging buffer holds its block at every point, fetched there or not: unfetched, the
    block index has not moved and the body left the block in place. -/
theorem r1_before0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem r1_before1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem r1_before2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem r1_before3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The matrices each point copies: the forward direction's at point 0, the backward direction's at point 1. -/
theorem r1_wih0 (c : Dev nD) : wihAt V c t1_0 = (V c main_arg9 : Vec F S3072x1024 .f32) := if_pos rfl
theorem r1_whh0 (c : Dev nD) : whhAt V c t1_0 = (V c main_arg10 : Vec F S3072x1024 .f32) := if_pos rfl
theorem r1_wih1 (c : Dev nD) : wihAt V c t1_1 = (V c main_arg13 : Vec F S3072x1024 .f32) := if_neg (by decide)
theorem r1_whh1 (c : Dev nD) : whhAt V c t1_1 = (V c main_arg14 : Vec F S3072x1024 .f32) := if_neg (by decide)

/-- Each window's current staging memref at point `t`, as the pipeline passes it to the body. -/
abbrev r1_ms0 (t : Fin cfg1.N) : Memref sig .tc .vmem S1x1024 .f32 := win1_0.stage (cfg1.slots t 0)
abbrev r1_ms1 (t : Fin cfg1.N) : Memref sig .tc .vmem S1x1x1024 .f32 := win1_1.stage (cfg1.slots t 1)
abbrev r1_ms2 (t : Fin cfg1.N) : Memref sig .tc .vmem S1x1x3072 .f32 := win1_2.stage (cfg1.slots t 2)
abbrev r1_ms3 (t : Fin cfg1.N) : Memref sig .tc .vmem S1x1x3072 .f32 := win1_3.stage (cfg1.slots t 3)
abbrev r1_ms4 (t : Fin cfg1.N) : Memref sig .tc .vmem S1x1x1024 .f32 := win1_4.stage (cfg1.slots t 4)

set_option maxHeartbeats 1000000 in
/-- The body at either point: the input buffers hold their blocks, so the point's run applies; the invariant hands the
    body the two scratch buffers, the two own cells at zero and the four HBM matrices and takes them back as they were
    (the other scoped buffers and the generator register ride through); what the core owes goes in at whatever the
    points before recorded and comes back with this point's two waits, within the next point's bound. -/
theorem r1_sound_body (c : Dev nD) (t : Fin cfg1.N) :
    iprop((dat1 V c).Φ t.castSucc ∗ (dat1 V c).owesAt () t.castSucc
        ∗ (∃ d, owns (c : Thread nD τ) (r1_ms0 t) fullShare ((dat1 V c).before 0 t d))
        ∗ (∃ d, owns (c : Thread nD τ) (r1_ms1 t) fullShare ((dat1 V c).before 1 t d))
        ∗ (∃ d, owns (c : Thread nD τ) (r1_ms2 t) fullShare ((dat1 V c).before 2 t d))
        ∗ (∃ d, owns (c : Thread nD τ) (r1_ms3 t) fullShare ((dat1 V c).before 3 t d))
        ∗ (∃ d, owns (c : Thread nD τ) (r1_ms4 t) fullShare ((dat1 V c).before 4 t d)))
      ⊢ wp frame (wpE (defs₀ (F := F)) Variants.none c none) Set.univ (bodyAt1 t) (fun _ =>
          iprop((dat1 V c).Φ t.succ ∗ (dat1 V c).owesAt () t.succ
            ∗ owns (c : Thread nD τ) (r1_ms0 t) fullShare ((dat1 V c).after 0 t)
            ∗ owns (c : Thread nD τ) (r1_ms1 t) fullShare ((dat1 V c).after 1 t)
            ∗ owns (c : Thread nD τ) (r1_ms2 t) fullShare ((dat1 V c).after 2 t)
            ∗ owns (c : Thread nD τ) (r1_ms3 t) fullShare ((dat1 V c).after 3 t)
            ∗ owns (c : Thread nD τ) (r1_ms4 t) fullShare ((dat1 V c).after 4 t))) := by
  unfold bodyAt1
  simp only [r1_before0, r1_before1, r1_before2, r1_before3]
  rw [show (dat1 V c).Φ t.succ = (dat1 V c).Φ t.castSucc from rfl, after1_0, after1_1, after1_2, after1_3, after1_4]
  rw [show (dat1 V c).Φ t.castSucc = Pipeline.ΦD osem1 spec1 H1 V c from rfl, Pipeline.ΦD_eq, scopedRest1_eq, r1_ownSems_eq, r1_hbmPts_eq]
  unfold Dat.owesAt Pipeline.owesWithin
  rw [show (dat1 V c).owed t.castSucc = 0 from rfl, show (dat1 V c).owed t.succ = 0 from rfl]
  rcases fin_N1 t with rfl | rfl
  · -- point 0: the forward direction's matrices

    rw [r1_wih0, r1_whh0]
    iintro ⟨⟨⟨R1, R2, R3, R4, R5, R6, R7, R8, R9, R10, HSA, HSB, R13, R14, R15, R16, R17, R18, R19⟩, Hg, ⟨Hq0, Hq1⟩, ⟨Hh9, Hh10, Hh13, Hh14⟩⟩, ⟨%W, -, HW⟩, ⟨%d0, H0⟩, ⟨%d1, H1⟩, ⟨%d2, H2⟩, ⟨%d3, H3⟩, ⟨%d4, H4⟩⟩
    iapply (run1_A c (grid1.coords t1_0) (by decide) _ _ _ _ _ _ _ _ _ _ (iblk1 V c 0 t1_0) (iblk1 V c 1 t1_0) (iblk1 V c 2 t1_0) (iblk1 V c 3 t1_0)
      (V c main_arg9) (V c main_arg10) (V c main_arg13) (V c main_arg14) W _)
    isplitl [H0]; · iexact H0
    isplitl [H1]; · iexact H1
    isplitl [H2]; · iexact H2
    isplitl [H3]; · iexact H3
    isplitl [H4]; · iexists _; iexact H4
    isplitl [HSA]
    · icases HSA with ⟨%fA, HSA⟩; iexists fA
      iapply (Entails.of_eq (owns_whole (c : Thread nD τ) cc1_scratch0 fullShare fA).symm); iexact HSA
    isplitl [HSB]
    · icases HSB with ⟨%fB, HSB⟩; iexists fB
      iapply (Entails.of_eq (owns_whole (c : Thread nD τ) cc1_scratch1 fullShare fB).symm); iexact HSB
    isplitl [Hq0]; · iexact Hq0
    isplitl [Hq1]; · iexact Hq1
    isplitl [Hh9]; · iexact Hh9
    isplitl [Hh10]; · iexact Hh10
    isplitl [Hh13]; · iexact Hh13
    isplitl [Hh14]; · iexact Hh14
    isplitl [HW]; · iexact HW
    iintro ⟨H0, H1, H2, H3, H4, HSA, HSB, Hq0, Hq1, Hh9, Hh10, Hh13, Hh14, ⟨%W', HW'⟩⟩
    isplitl [R1 R2 R3 R4 R5 R6 R7 R8 R9 R10 HSA HSB R13 R14 R15 R16 R17 R18 R19 Hg Hq0 Hq1 Hh9 Hh10 Hh13 Hh14]
    · isplitl [R1 R2 R3 R4 R5 R6 R7 R8 R9 R10 HSA HSB R13 R14 R15 R16 R17 R18 R19]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HSA]
        · icases HSA with ⟨%dA, HSA⟩; iexists dA
          iapply (Entails.of_eq (owns_whole (c : Thread nD τ) cc1_scratch0 fullShare dA)); iexact HSA
        isplitl [HSB]
        · icases HSB with ⟨%dB, HSB⟩; iexists dB
          iapply (Entails.of_eq (owns_whole (c : Thread nD τ) cc1_scratch1 fullShare dB)); iexact HSB
        isplitl [R13]; · iexact R13
        isplitl [R14]; · iexact R14
        isplitl [R15]; · iexact R15
        isplitl [R16]; · iexact R16
        isplitl [R17]; · iexact R17
        isplitl [R18]; · iexact R18
        iexact R19
      isplitl [Hg]; · iexact Hg
      isplitl [Hq0 Hq1]
      · isplitl [Hq0]; · iexact Hq0
        iexact Hq1
      isplitl [Hh9]; · iexact Hh9
      isplitl [Hh10]; · iexact Hh10
      isplitl [Hh13]; · iexact Hh13
      iexact Hh14
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · -- point 1: the backward direction's matrices

    rw [r1_wih1, r1_whh1]
    iintro ⟨⟨⟨R1, R2, R3, R4, R5, R6, R7, R8, R9, R10, HSA, HSB, R13, R14, R15, R16, R17, R18, R19⟩, Hg, ⟨Hq0, Hq1⟩, ⟨Hh9, Hh10, Hh13, Hh14⟩⟩, ⟨%W, -, HW⟩, ⟨%d0, H0⟩, ⟨%d1, H1⟩, ⟨%d2, H2⟩, ⟨%d3, H3⟩, ⟨%d4, H4⟩⟩
    iapply (run1_B c (grid1.coords t1_1) (by decide) _ _ _ _ _ _ _ _ _ _ (iblk1 V c 0 t1_1) (iblk1 V c 1 t1_1) (iblk1 V c 2 t1_1) (iblk1 V c 3 t1_1)
      (V c main_arg9) (V c main_arg10) (V c main_arg13) (V c main_arg14) W _)
    isplitl [H0]; · iexact H0
    isplitl [H1]; · iexact H1
    isplitl [H2]; · iexact H2
    isplitl [H3]; · iexact H3
    isplitl [H4]; · iexists _; iexact H4
    isplitl [HSA]
    · icases HSA with ⟨%fA, HSA⟩; iexists fA
      iapply (Entails.of_eq (owns_whole (c : Thread nD τ) cc1_scratch0 fullShare fA).symm); iexact HSA
    isplitl [HSB]
    · icases HSB with ⟨%fB, HSB⟩; iexists fB
      iapply (Entails.of_eq (owns_whole (c : Thread nD τ) cc1_scratch1 fullShare fB).symm); iexact HSB
    isplitl [Hq0]; · iexact Hq0
    isplitl [Hq1]; · iexact Hq1
    isplitl [Hh9]; · iexact Hh9
    isplitl [Hh10]; · iexact Hh10
    isplitl [Hh13]; · iexact Hh13
    isplitl [Hh14]; · iexact Hh14
    isplitl [HW]; · iexact HW
    iintro ⟨H0, H1, H2, H3, H4, HSA, HSB, Hq0, Hq1, Hh9, Hh10, Hh13, Hh14, ⟨%W', HW'⟩⟩
    isplitl [R1 R2 R3 R4 R5 R6 R7 R8 R9 R10 HSA HSB R13 R14 R15 R16 R17 R18 R19 Hg Hq0 Hq1 Hh9 Hh10 Hh13 Hh14]
    · isplitl [R1 R2 R3 R4 R5 R6 R7 R8 R9 R10 HSA HSB R13 R14 R15 R16 R17 R18 R19]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HSA]
        · icases HSA with ⟨%dA, HSA⟩; iexists dA
          iapply (Entails.of_eq (owns_whole (c : Thread nD τ) cc1_scratch0 fullShare dA)); iexact HSA
        isplitl [HSB]
        · icases HSB with ⟨%dB, HSB⟩; iexists dB
          iapply (Entails.of_eq (owns_whole (c : Thread nD τ) cc1_scratch1 fullShare dB)); iexact HSB
        isplitl [R13]; · iexact R13
        isplitl [R14]; · iexact R14
        isplitl [R15]; · iexact R15
        isplitl [R16]; · iexact R16
        isplitl [R17]; · iexact R17
        isplitl [R18]; · iexact R18
        iexact R19
      isplitl [Hg]; · iexact Hg
      isplitl [Hq0 Hq1]
      · isplitl [Hq0]; · iexact Hq0
        iexact Hq1
      isplitl [Hh9]; · iexact Hh9
      isplitl [Hh10]; · iexact Hh10
      isplitl [Hh13]; · iexact Hh13
      iexact Hh14
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

/-- The library's body obligation for region 1, at both points, for the proof data `dat1 V c`. -/
theorem body_obligation1 (V : Valn F) (c : Dev nD) :
    BodyObligation (dat1 (F := F) V c) (defs₀ (F := F)) Variants.none () Set.univ := fun t => by
  rw [bigSep_W1, bigSep_W1]
  exact r1_sound_body V c t

end Cert.KernelIdeal.Hand

end
-- ==== Proof.KI.RunI.lean ====
/-
  The whole program's run at the exact proof data: the three pallas_calls among the four host stretches, launched once.
  Every weakly fair execution terminates, faults nowhere, and ends with every unscoped buffer of every core at the
  fold's last valuation `W7`. Regions 0 and 2 are pipelines with no semaphore of their own; region 1 brings its two
  DMA semaphores (handed to its invariant at zero and taken back at zero), its two scratch buffers (among the scoped
  rest) and the four weight matrices it reads from HBM (split out of the unscoped rest at entry, put back at exit).
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Fold
import proofs.«412461_j6141803233582_3_alg».proof.Proof.KI.Reg0
import proofs.«412461_j6141803233582_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents in the fold. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding
    along; it is left with those references at `StableHlo.after ops (W c)`, the next boundary of the fold. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- The last thread state without the `owes`: every unscoped buffer at the last boundary's contents `W7`, the
    generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the invariant
    and comes out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Besides its arrays,
    the four weight matrices it reads from HBM are split out of the unscoped rest and handed to its invariant whole
    at the contents found, with the generator register and its two semaphores at zero; they come back unchanged and
    are joined to the bypassing rest before the arrays are put back. Nothing owed. -/
def reg1 : Pipeline.RegionSeg (pcfgs (F := F)) adm (pdats m) () defs₀ 𝒱₀ L lv 1 where
  win := launch1.win.to₀
  block_pos := launch1.block_pos
  stage_whole := launch1.stage_whole
  K := Fin 2
  osem := osem1
  ho := ownSemFacts1
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ bigSep H1 fun b => ((c : Thread nD τ).loc b) ↦{fullShare} V3 m c b)
  Y c := iprop((∃ r, prngReg c r) ∗ bigSep H1 fun b => ((c : Thread nD τ).loc b) ↦{fullShare} V3 m c b)
  Z c := bigSep (Pipeline.restRefs sig spec1 \ H1) fun b => ((c : Thread nD τ).loc b) ↦{fullShare} V3 m c b
  hentry c := by
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    have hsd := Pipeline.unscopedRest_sdiff (Val := Elt F) spec1 H1 H1_sub c (V3 m c)
    iintro ⟨⟨Hub, Hp, HO⟩, Ho, -⟩
    ihave H := hsplit $$ Hub
    icases H with ⟨Ha, Hrest⟩
    ihave Hrest' := (Entails.of_eq hsd) $$ Hrest
    icases Hrest' with ⟨HH, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Ho]; · iexact Ho
      iexact HH
    iexact HZ
  hin c := by
    rw [show (pdats m 1 c).Φ 0 = Pipeline.ΦD osem1 spec1 H1 (V3 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m 1 c).Φ (Fin.last _) = Pipeline.ΦD osem1 spec1 H1 (V3 m) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    have hsd := Pipeline.unscopedRest_sdiff (Val := Elt F) spec1 H1 H1_sub c (V3 m c)
    iintro ⟨Ha, HO, ⟨Hp, HH⟩, HZ⟩
    ihave Hrest := (Entails.of_eq hsd.symm) $$ [HH HZ]
    · isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

variable (h2 : ∀ c : Dev nD, BodyObligationLoose (dat2 (F := F) (V5 m) c) (defs₀ (F := F)) Variants.none () Set.univ)

set_option backward.isDefEq.respectTransparency.types false in
/-- REGION 2 over the thread state: entered from every unscoped buffer at `W5`, left at `W6`; as region 0, its
    body obligation the one given. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := h2 c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order: a host segment per stretch from its boundary's contents, a region per
    pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m h2),
    .host (hseg hostOps3 hostOps3_sub hostOps3_fresh (W6 m)) ]
/-- The program is the run of the segments: it is the chain of its items, and the segments' run is that chain. -/
theorem main_run (c : Dev nD) : main (F := F) c = Pipeline.Seg.run (segs m h2) := (main_chain c).trans (by chain_rfl)

set_option backward.isDefEq.respectTransparency.types false in
/-- THE RUN, given region 2's loose body obligation at the fold's entry contents: from any memory with zero counters
    every weakly fair execution of the program terminates, nothing faulting, and every unscoped buffer ends at
    `W7 m c`. The launch over the segments; the last thread state is read against the final state. -/
theorem run_all (h2 : ∀ c : Dev nD, BodyObligationLoose (dat2 (F := F) (V5 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj (embL : Emb (UR sig nD τ) 𝕄) defs₀ 𝒱₀ L lv m ρ main (segs m h2)
    (fun c Q => by rw [main_run m h2 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m c) ∗ R c)
        ⊢ iprop(Tₙ m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Reg2.lean ====
/-
  Region 2's body over the extended reals, with its output stated on the lanes inside the array: lane j of
  g·Wᵀ + b reads only row j of the weight tile and lane j of the bias tile, so whatever fills the tile past the
  array's end does not reach a lane that is written back.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic
open Idealize.ShloMosaic.ValueIdx
local notation "𝕄" => MT nD τ sig Unit (Elt Ideal) ℕ (Pipeline.UD sig nD τ) ℕ

namespace Reg2

/-- Lane `y` of the product reads the weight tile only on the row of that lane's number. -/
theorem rhsIdx_row (y : S1x1536.Idx) (k : dot_S1x2048_S1536x2048_S1x1536_1_1_0_0_n_n.contr.Idx) :
    ((dot_S1x2048_S1536x2048_S1x1536_1_1_0_0_n_n.rhsIdx y k) 0).val = (y 1).val := by
  simp [DotDims.rhsIdx, dot_S1x2048_S1536x2048_S1x1536_1_1_0_0_n_n]; rfl

end Reg2

/-- Lane `y` of g·Wᵀ + b is a sum over row `y 1` of the weight tile plus lane `y` of the bias tile: two weight
    tiles that agree on that row and two bias tiles that agree on that lane give the same lane. -/
theorem projOut_lane (g : Vec Ideal S1x2048 .f32) (w w' : Vec Ideal S1536x2048 .f32) (b b' : Vec Ideal S1x1536 .f32)
    (y : S1x1536.Idx) (hw : ∀ i : S1536x2048.Idx, (i 0).val = (y 1).val → w i = w' i) (hb : b y = b' y) :
    projOut g w b y = projOut g w' b' y := by
  unfold projOut k2_pay1
  simp only [Idealize.ShloMosaic.shapeCast_self, matmul]
  rw [addf_apply, addf_apply, Ideal.matmul_constant_zero_apply, Ideal.matmul_constant_zero_apply, hb]
  congr 1
  refine Finset.sum_congr rfl fun k _ => ?_
  rw [truncf_apply, truncf_apply, truncf_apply]
  rw [hw _ (Reg2.rhsIdx_row y k)]

namespace Reg2

variable (V : Valn Ideal)

/-! ## What the body finds in each staging buffer -/

/-- The row buffer holds the GRU output row at every point, fetched there or not: the window is uncut and never
    idle, its block index never moves, and the body leaves the row in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight buffer, just fetched: the tile's part inside the array on the rows the fetch lands, `d` elsewhere. -/
theorem before2_1 (c : Dev nD) (t : Fin cfg2.N) (d) :
    (dat2 V c).before 1 t d = win2_1.fill (grid2.coords t) d (wblk V c t) := by
  rw [(dat2 V c).before_fetched 1 t (fetch2_1 t) d]
  unfold Dat.fetched Dat.blockOf wblk; rw [A_eq2]

/-- The bias buffer likewise, along its lanes. -/
theorem before2_2 (c : Dev nD) (t : Fin cfg2.N) (d) :
    (dat2 V c).before 2 t d = win2_2.fill (grid2.coords t) d (bblk V c t) := by
  rw [(dat2 V c).before_fetched 2 t (fetch2_2 t) d]
  unfold Dat.fetched Dat.blockOf bblk; rw [A_eq2]

/-- The output buffer holds anything: it is written back at every point, so each point finds it fresh. -/
theorem before2_3 (c : Dev nD) (t : Fin cfg2.N) (d) : (dat2 V c).before 3 t d = d :=
  (dat2 V c).before_out_reset 3 rfl t (by
    by_cases h0 : t.val = 0
    · exact .inl h0
    · exact .inr ⟨h0, flush2_3 _⟩) d

/-! ## The lanes written back read only what the fetches landed -/

/-- At every point the three cut windows are cut alike: the weight tile's rows inside the array are as many as the
    output block's lanes inside it (and all its 2048 columns are), and the bias tile's lanes are the output's. -/
theorem cuts2 : ∀ t : Fin grid2.N,
    win2_1.xsize (grid2.coords t) 0 = win2_3.xsize (grid2.coords t) 1 ∧ win2_1.xsize (grid2.coords t) 1 = 2048
    ∧ win2_2.xsize (grid2.coords t) 0 = win2_3.xsize (grid2.coords t) 0
    ∧ win2_2.xsize (grid2.coords t) 1 = win2_3.xsize (grid2.coords t) 1 := by decide +kernel

/-- On the part a transfer moves, a filled block reads the moved part, whatever fills the rest. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The projection of two fillings of the same tile parts, cut to the lanes inside the array, is one vector: such a
    lane's row of the weight tile and its lane of the bias tile lie in the parts the fetches landed (`projOut_lane`). -/
theorem cut_projOut (t : Fin cfg2.N) (g : Vec Ideal S1x2048 .f32) (d1 d1' : Vec Ideal S1536x2048 .f32) (d2 d2' : Vec Ideal S1x1536 .f32)
    (wb : (win2_1.xblock (grid2.coords t)).Idx → Elt Ideal .f32) (bb : (win2_2.xblock (grid2.coords t)).Idx → Elt Ideal .f32) :
    win2_3.cut (grid2.coords t) (projOut g (win2_1.fill (grid2.coords t) d1 wb) (win2_2.fill (grid2.coords t) d2 bb))
    = win2_3.cut (grid2.coords t) (projOut g (win2_1.fill (grid2.coords t) d1' wb) (win2_2.fill (grid2.coords t) d2' bb)) := by
  funext j
  obtain ⟨h10, h11, h20, h21⟩ := cuts2 t
  have hj0 : (j 0).val < win2_3.xsize (grid2.coords t) 0 := (j 0).isLt
  have hj1 : (j 1).val < win2_3.xsize (grid2.coords t) 1 := (j 1).isLt
  show projOut g _ _ (win2_3.xinj (grid2.coords t) j) = projOut g _ _ (win2_3.xinj (grid2.coords t) j)
  apply projOut_lane
  · intro i hi
    have hi' : (i 0).val = (j 1).val := hi
    have hi1 : (i 1).val < 2048 := idx2_lt1 i
    refine fill_indep win2_1 _ _ _ _ i ((win2_1.moved_iff _ _).mpr fun a => ?_)
    match a with
    | ⟨0, _⟩ =>
      change (i 0).val < win2_1.xsize (grid2.coords t) 0
      rw [h10]; omega
    | ⟨1, _⟩ =>
      change (i 1).val < win2_1.xsize (grid2.coords t) 1
      rw [h11]; exact hi1
  · refine fill_indep win2_2 _ _ _ _ _ ((win2_2.moved_iff _ _).mpr fun a => ?_)
    match a with
    | ⟨0, _⟩ =>
      change (j 0).val < win2_2.xsize (grid2.coords t) 0
      rw [h20]; exact hj0
    | ⟨1, _⟩ =>
      change (j 1).val < win2_2.xsize (grid2.coords t) 1
      rw [h21]; exact hj1

/-! ## The body's triple -/

/-- The offsets of every access are zero. -/
theorem zeros : (![0, 0] : Fin 2 → Nat) = fun _ => 0 := by
  funext i; fin_cases i <;> rfl

abbrev r_g : Rect S1x2048 := Rect.unit (s := S1x2048) ![0, 0] S1x2048.size inb_S1x2048_S1x2048_0_0
abbrev r_w : Rect S1536x2048 := Rect.unit (s := S1536x2048) ![0, 0] S1536x2048.size inb_S1536x2048_S1536x2048_0_0
abbrev r_b : Rect S1x1536 := Rect.unit (s := S1x1536) ![0, 0] S1x1536.size inb_S1x1536_S1x1536_0_0

/-- The output buffer after the body: its one whole store, the payload of the three loaded buffers. -/
def out3 (x0 : Vec Ideal S1x2048 .f32) (x1 : Vec Ideal S1536x2048 .f32) (x2 : Vec Ideal S1x1536 .f32) : Vec Ideal S1x1536 .f32 :=
  View.canon [⟨r_b, k2_pay1 (View.ld x0 r_g) (View.ld x1 r_w) (View.ld x2 r_b)⟩]

/-- A load through the whole buffer reads its contents and one whole store leaves its payload. -/
theorem out3_eq (x0 : Vec Ideal S1x2048 .f32) (x1 : Vec Ideal S1536x2048 .f32) (x2 : Vec Ideal S1x1536 .f32) :
    out3 x0 x1 x2 = projOut x0 x1 x2 := by
  unfold out3 projOut
  rw [View.canon_unit_zero zeros]
  simp only [View.ld_unit_zero (S := S1x2048) zeros, View.ld_unit_zero (S := S1536x2048) zeros,
    View.ld_unit_zero (S := S1x1536) zeros]

/-- The one store is through the whole buffer, so it covers it. -/
theorem cover3 (p0 : Vec Ideal S1x1536 .f32) (y : S1x1536.Idx) :
    ∃ pc ∈ ([⟨r_b, p0⟩] : List (View.Piece (Elt Ideal) S1x1536 .f32)), y ∈ pc.1.set :=
  ⟨_, List.mem_singleton_self _, View.mem_set_unit_zero zeros inb_S1x1536_S1x1536_0_0 y⟩

set_option maxHeartbeats 1000000 in
/-- The body on whole staging memrefs, the three inputs' at contents `x0`, `x1`, `x2` and the output's at anything,
    runs to the continuation holding the inputs' as they were and the output's at `projOut` of them. -/
theorem sound_kernel2 (c : Dev nD) (E : Set ℕ) (i : grid2.Coords)
    (arg1 : Memref sig .tc .vmem S1x2048 .f32) (harg1 : arg1.IsWhole) (arg2 : Memref sig .tc .vmem S1536x2048 .f32) (harg2 : arg2.IsWhole)
    (arg3 : Memref sig .tc .vmem S1x1536 .f32) (harg3 : arg3.IsWhole) (arg4 : Memref sig .tc .vmem S1x1536 .f32) (harg4 : arg4.IsWhole)
    (x0 : Vec Ideal S1x2048 .f32) (x1 : Vec Ideal S1536x2048 .f32) (x2 : Vec Ideal S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := Ideal)) Variants.none c none) E (cc2__out_kernel i arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [← out3_eq]
  exact View.read_writes_eq_canon _ _ _ (cover3 _)

end Reg2

open Reg2 in
/-- The loose body obligation of region 2 at the ideal instance, every window stated: the row buffer comes back at
    the row; the weight and bias buffers at what the fetches landed, filled out with what was there (on the part
    inside the arrays, the zero-filled tiles' part); the output buffer at the projection of what the body was
    handed, which on the lanes inside the array is the projection of the zero-filled tiles (`cut_projOut`). -/
theorem body_obligation2 (V : Valn Ideal) (c : Dev nD) :
    BodyObligationLoose (dat2 (F := Ideal) V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2, before2_3 V c t d3,
    after2_0, after2_1, after2_2, after2_3]
  first
    | iapply (sound_kernel2 c Set.univ (grid2.coords t)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (win2_3.stage (cfg2.slots t 3)) (hstage2_3 ((cfg2.slots t 3).cast nbuf2_3)) (iblk2 V c 0 t)
        (win2_1.fill (grid2.coords t) d1 (wblk V c t)) (win2_2.fill (grid2.coords t) d2 (bblk V c t)) _)
    | fail "iapply sound_kernel2"
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (stage2_1 (cfg2.slots t 1)) fullShare
      (win2_1.fill (grid2.coords t) d1 (win2_1.cut (grid2.coords t) (wfill V c t)))
    unfold wfill; rw [Window.cut_fill]
  isplitl [H2]
  · iexists d2
    change _ ⊢ owns (c : Thread nD τ) (stage2_2 (cfg2.slots t 2)) fullShare
      (win2_2.fill (grid2.coords t) d2 (win2_2.cut (grid2.coords t) (bfill V c t)))
    unfold bfill; rw [Window.cut_fill]
  · iexists projOut (iblk2 V c 0 t) (win2_1.fill (grid2.coords t) d1 (wblk V c t)) (win2_2.fill (grid2.coords t) d2 (bblk V c t))
    change _ ⊢ owns (c : Thread nD τ) (stage2_3 (cfg2.slots t 3)) fullShare
      (win2_3.fill (grid2.coords t)
        (projOut (iblk2 V c 0 t) (win2_1.fill (grid2.coords t) d1 (wblk V c t)) (win2_2.fill (grid2.coords t) d2 (bblk V c t)))
        (win2_3.cut (grid2.coords t) (projOut (iblk2 V c 0 t) (wfill V c t) (bfill V c t))))
    unfold wfill bfill
    rw [win2_3.fill_congr_cut (grid2.coords t) (cut_projOut t (iblk2 V c 0 t) d1 _ d2 _ (wblk V c t) (bblk V c t))]

end Cert.KernelIdeal.Hand
end
-- ==== Proof.KI.FoldArgs.lean ====
/-
  Every argument array reaches the end as launched: no host operation writes one, and a pallas_call either reads it
  through an input window (whose array the pipeline never writes), receives it left in HBM and only reads it, or
  bypasses it. So the fold at an argument's buffer walks back to the launch memory.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Fold
import proofs.«412461_j6141803233582_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- A host stretch leaves a buffer it does not write as it found it: the four stretches, one step each. -/
theorem W7_step (c : Dev nD) (r : Ref sig .tc) (h : r ∉ hostOps3_W) :
    W7 m c (Proc.devRef .tc r) = W6 m c (Proc.devRef .tc r) :=
  StableHlo.after_of_writes_sub hostOps3 _ hostOps3_writes h
theorem W5_step (c : Dev nD) (r : Ref sig .tc) (h : r ∉ hostOps2_W) :
    W5 m c (Proc.devRef .tc r) = W4 m c (Proc.devRef .tc r) :=
  StableHlo.after_of_writes_sub hostOps2 _ hostOps2_writes h
theorem W3_step (c : Dev nD) (r : Ref sig .tc) (h : r ∉ hostOps1_W) :
    W3 m c (Proc.devRef .tc r) = W2 m c (Proc.devRef .tc r) :=
  StableHlo.after_of_writes_sub hostOps1 _ hostOps1_writes h
theorem W1_step (c : Dev nD) (r : Ref sig .tc) (h : r ∉ hostOps0_W) :
    W1 m c (Proc.devRef .tc r) = W0 m c (Proc.devRef .tc r) :=
  StableHlo.after_of_writes_sub hostOps0 _ hostOps0_writes h

/-- A region leaves an input window's array as entered: the pipeline never writes it back. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_step m c main_arg0 (by decide)
    _ = W5 m c (Proc.devRef .tc main_arg0) := W6_of_ne m c main_arg0 (by decide)
    _ = W4 m c (Proc.devRef .tc main_arg0) := W5_step m c main_arg0 (by decide)
    _ = W3 m c (Proc.devRef .tc main_arg0) := W4_of_ne m c main_arg0 (by decide)
    _ = W2 m c (Proc.devRef .tc main_arg0) := W3_step m c main_arg0 (by decide)
    _ = W1 m c (Proc.devRef .tc main_arg0) := W2_of_ne m c main_arg0 (by decide)
    _ = W0 m c (Proc.devRef .tc main_arg0) := W1_step m c main_arg0 (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_step m c main_arg1 (by decide)
    _ = W5 m c (Proc.devRef .tc main_arg1) := W6_of_ne m c main_arg1 (by decide)
    _ = W4 m c (Proc.devRef .tc main_arg1) := W5_step m c main_arg1 (by decide)
    _ = W3 m c (Proc.devRef .tc main_arg1) := W4_in m c 1 rfl
    _ = W2 m c (Proc.devRef .tc main_arg1) := W3_step m c main_arg1 (by decide)
    _ = W1 m c (Proc.devRef .tc main_arg1) := W2_of_ne m c main_arg1 (by decide)
    _ = W0 m c (Proc.devRef .tc main_arg1) := W1_step m c main_arg1 (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_step m c main_arg2 (by decide)
    _ = W5 m c (Proc.devRef .tc main_arg2) := W6_of_ne m c main_arg2 (by decide)
    _ = W4 m c (Proc.devRef .tc main_arg2) := W5_step m c main_arg2 (by decide)
    _ = W3 m c (Proc.devRef .tc main_arg2) := W4_of_ne m c main_arg2 (by decide)
    _ = W2 m c (Proc.devRef .tc main_arg2) := W3_step m c main_arg2 (by decide)
    _ = W1 m c (Proc.devRef .tc main_arg2) := W2_of_ne m c main_arg2 (by decide)
    _ = W0 m c (Proc.devRef .tc main_arg2) := W1_step m c main_arg2 (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_step m c main_arg3 (by decide)
    _ = W5 m c (Proc.devRef .tc main_arg3) := W6_of_ne m c main_arg3 (by decide)
    _ = W4 m c (Proc.devRef .tc main_arg3) := W5_step m c main_arg3 (by decide)
    _ = W3 m c (Proc.devRef .tc main_arg3) := W4_of_ne m c main_arg3 (by decide)
    _ = W2 m c (Proc.devRef .tc main_arg3) := W3_step m c main_arg3 (by decide)
    _ = W1 m c (Proc.devRef .tc main_arg3) := W2_in m c 5 rfl
    _ = W0 m c (Proc.devRef .tc main_arg3) := W1_step m c main_arg3 (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_step m c main_arg4 (by decide)
    _ = W5 m c (Proc.devRef .tc main_arg4) := W6_of_ne m c main_arg4 (by decide)
    _ = W4 m c (Proc.devRef .tc main_arg4) := W5_step m c main_arg4 (by decide)
    _ = W3 m c (Proc.devRef .tc main_arg4) := W4_of_ne m c main_arg4 (by decide)
    _ = W2 m c (Proc.devRef .tc main_arg4) := W3_step m c main_arg4 (by decide)
    _ = W1 m c (Proc.devRef .tc main_arg4) := W2_of_ne m c main_arg4 (by decide)
    _ = W0 m c (Proc.devRef .tc main_arg4) := W1_step m c main_arg4 (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_step m c main_arg5 (by decide)
    _ = W5 m c (Proc.devRef .tc main_arg5) := W6_of_ne m c main_arg5 (by decide)
    _ = W4 m c (Proc.devRef .tc main_arg5) := W5_step m c main_arg5 (by decide)
    _ = W3 m c (Proc.devRef .tc main_arg5) := W4_of_ne m c main_arg5 (by decide)
    _ = W2 m c (Proc.devRef .tc main_arg5) := W3_step m c main_arg5 (by decide)
    _ = W1 m c (Proc.devRef .tc main_arg5) := W2_in m c 3 rfl
    _ = W0 m c (Proc.devRef .tc main_arg5) := W1_step m c main_arg5 (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_step m c main_arg6 (by decide)
    _ = W5 m c (Proc.devRef .tc main_arg6) := W6_of_ne m c main_arg6 (by decide)
    _ = W4 m c (Proc.devRef .tc main_arg6) := W5_step m c main_arg6 (by decide)
    _ = W3 m c (Proc.devRef .tc main_arg6) := W4_of_ne m c main_arg6 (by decide)
    _ = W2 m c (Proc.devRef .tc main_arg6) := W3_step m c main_arg6 (by decide)
    _ = W1 m c (Proc.devRef .tc main_arg6) := W2_of_ne m c main_arg6 (by decide)
    _ = W0 m c (Proc.devRef .tc main_arg6) := W1_step m c main_arg6 (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_step m c main_arg7 (by decide)
    _ = W5 m c (Proc.devRef .tc main_arg7) := W6_of_ne m c main_arg7 (by decide)
    _ = W4 m c (Proc.devRef .tc main_arg7) := W5_step m c main_arg7 (by decide)
    _ = W3 m c (Proc.devRef .tc main_arg7) := W4_of_ne m c main_arg7 (by decide)
    _ = W2 m c (Proc.devRef .tc main_arg7) := W3_step m c main_arg7 (by decide)
    _ = W1 m c (Proc.devRef .tc main_arg7) := W2_in m c 6 rfl
    _ = W0 m c (Proc.devRef .tc main_arg7) := W1_step m c main_arg7 (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_step m c main_arg8 (by decide)
    _ = W5 m c (Proc.devRef .tc main_arg8) := W6_of_ne m c main_arg8 (by decide)
    _ = W4 m c (Proc.devRef .tc main_arg8) := W5_step m c main_arg8 (by decide)
    _ = W3 m c (Proc.devRef .tc main_arg8) := W4_of_ne m c main_arg8 (by decide)
    _ = W2 m c (Proc.devRef .tc main_arg8) := W3_step m c main_arg8 (by decide)
    _ = W1 m c (Proc.devRef .tc main_arg8) := W2_of_ne m c main_arg8 (by decide)
    _ = W0 m c (Proc.devRef .tc main_arg8) := W1_step m c main_arg8 (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_step m c main_arg9 (by decide)
    _ = W5 m c (Proc.devRef .tc main_arg9) := W6_of_ne m c main_arg9 (by decide)
    _ = W4 m c (Proc.devRef .tc main_arg9) := W5_step m c main_arg9 (by decide)
    _ = W3 m c (Proc.devRef .tc main_arg9) := W4_of_ne m c main_arg9 (by decide)
    _ = W2 m c (Proc.devRef .tc main_arg9) := W3_step m c main_arg9 (by decide)
    _ = W1 m c (Proc.devRef .tc main_arg9) := W2_of_ne m c main_arg9 (by decide)
    _ = W0 m c (Proc.devRef .tc main_arg9) := W1_step m c main_arg9 (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_step m c main_arg10 (by decide)
    _ = W5 m c (Proc.devRef .tc main_arg10) := W6_of_ne m c main_arg10 (by decide)
    _ = W4 m c (Proc.devRef .tc main_arg10) := W5_step m c main_arg10 (by decide)
    _ = W3 m c (Proc.devRef .tc main_arg10) := W4_of_ne m c main_arg10 (by decide)
    _ = W2 m c (Proc.devRef .tc main_arg10) := W3_step m c main_arg10 (by decide)
    _ = W1 m c (Proc.devRef .tc main_arg10) := W2_of_ne m c main_arg10 (by decide)
    _ = W0 m c (Proc.devRef .tc main_arg10) := W1_step m c main_arg10 (by decide)
    _ = m ((c : Thread nD τ).loc main_arg10) := rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := W7_step m c main_arg11 (by decide)
    _ = W5 m c (Proc.devRef .tc main_arg11) := W6_of_ne m c main_arg11 (by decide)
    _ = W4 m c (Proc.devRef .tc main_arg11) := W5_step m c main_arg11 (by decide)
    _ = W3 m c (Proc.devRef .tc main_arg11) := W4_of_ne m c main_arg11 (by decide)
    _ = W2 m c (Proc.devRef .tc main_arg11) := W3_step m c main_arg11 (by decide)
    _ = W1 m c (Proc.devRef .tc main_arg11) := W2_of_ne m c main_arg11 (by decide)
    _ = W0 m c (Proc.devRef .tc main_arg11) := W1_step m c main_arg11 (by decide)
    _ = m ((c : Thread nD τ).loc main_arg11) := rfl

theorem W7_main_arg12 (c : Dev nD) : W7 m c (Proc.devRef .tc main_arg12) = m ((c : Thread nD τ).loc main_arg12) :=
  calc W7 m c (Proc.devRef .tc main_arg12)
    _ = W6 m c (Proc.devRef .tc main_arg12) := W7_step m c main_arg12 (by decide)
    _ = W5 m c (Proc.devRef .tc main_arg12) := W6_of_ne m c main_arg12 (by decide)
    _ = W4 m c (Proc.devRef .tc main_arg12) := W5_step m c main_arg12 (by decide)
    _ = W3 m c (Proc.devRef .tc main_arg12) := W4_of_ne m c main_arg12 (by decide)
    _ = W2 m c (Proc.devRef .tc main_arg12) := W3_step m c main_arg12 (by decide)
    _ = W1 m c (Proc.devRef .tc main_arg12) := W2_of_ne m c main_arg12 (by decide)
    _ = W0 m c (Proc.devRef .tc main_arg12) := W1_step m c main_arg12 (by decide)
    _ = m ((c : Thread nD τ).loc main_arg12) := rfl

theorem W7_main_arg13 (c : Dev nD) : W7 m c (Proc.devRef .tc main_arg13) = m ((c : Thread nD τ).loc main_arg13) :=
  calc W7 m c (Proc.devRef .tc main_arg13)
    _ = W6 m c (Proc.devRef .tc main_arg13) := W7_step m c main_arg13 (by decide)
    _ = W5 m c (Proc.devRef .tc main_arg13) := W6_of_ne m c main_arg13 (by decide)
    _ = W4 m c (Proc.devRef .tc main_arg13) := W5_step m c main_arg13 (by decide)
    _ = W3 m c (Proc.devRef .tc main_arg13) := W4_of_ne m c main_arg13 (by decide)
    _ = W2 m c (Proc.devRef .tc main_arg13) := W3_step m c main_arg13 (by decide)
    _ = W1 m c (Proc.devRef .tc main_arg13) := W2_of_ne m c main_arg13 (by decide)
    _ = W0 m c (Proc.devRef .tc main_arg13) := W1_step m c main_arg13 (by decide)
    _ = m ((c : Thread nD τ).loc main_arg13) := rfl

theorem W7_main_arg14 (c : Dev nD) : W7 m c (Proc.devRef .tc main_arg14) = m ((c : Thread nD τ).loc main_arg14) :=
  calc W7 m c (Proc.devRef .tc main_arg14)
    _ = W6 m c (Proc.devRef .tc main_arg14) := W7_step m c main_arg14 (by decide)
    _ = W5 m c (Proc.devRef .tc main_arg14) := W6_of_ne m c main_arg14 (by decide)
    _ = W4 m c (Proc.devRef .tc main_arg14) := W5_step m c main_arg14 (by decide)
    _ = W3 m c (Proc.devRef .tc main_arg14) := W4_of_ne m c main_arg14 (by decide)
    _ = W2 m c (Proc.devRef .tc main_arg14) := W3_step m c main_arg14 (by decide)
    _ = W1 m c (Proc.devRef .tc main_arg14) := W2_of_ne m c main_arg14 (by decide)
    _ = W0 m c (Proc.devRef .tc main_arg14) := W1_step m c main_arg14 (by decide)
    _ = m ((c : Thread nD τ).loc main_arg14) := rfl

theorem W7_main_arg15 (c : Dev nD) : W7 m c (Proc.devRef .tc main_arg15) = m ((c : Thread nD τ).loc main_arg15) :=
  calc W7 m c (Proc.devRef .tc main_arg15)
    _ = W6 m c (Proc.devRef .tc main_arg15) := W7_step m c main_arg15 (by decide)
    _ = W5 m c (Proc.devRef .tc main_arg15) := W6_of_ne m c main_arg15 (by decide)
    _ = W4 m c (Proc.devRef .tc main_arg15) := W5_step m c main_arg15 (by decide)
    _ = W3 m c (Proc.devRef .tc main_arg15) := W4_of_ne m c main_arg15 (by decide)
    _ = W2 m c (Proc.devRef .tc main_arg15) := W3_step m c main_arg15 (by decide)
    _ = W1 m c (Proc.devRef .tc main_arg15) := W2_of_ne m c main_arg15 (by decide)
    _ = W0 m c (Proc.devRef .tc main_arg15) := W1_step m c main_arg15 (by decide)
    _ = m ((c : Thread nD τ).loc main_arg15) := rfl

theorem W7_main_arg16 (c : Dev nD) : W7 m c (Proc.devRef .tc main_arg16) = m ((c : Thread nD τ).loc main_arg16) :=
  calc W7 m c (Proc.devRef .tc main_arg16)
    _ = W6 m c (Proc.devRef .tc main_arg16) := W7_step m c main_arg16 (by decide)
    _ = W5 m c (Proc.devRef .tc main_arg16) := W6_of_ne m c main_arg16 (by decide)
    _ = W4 m c (Proc.devRef .tc main_arg16) := W5_step m c main_arg16 (by decide)
    _ = W3 m c (Proc.devRef .tc main_arg16) := W4_of_ne m c main_arg16 (by decide)
    _ = W2 m c (Proc.devRef .tc main_arg16) := W3_step m c main_arg16 (by decide)
    _ = W1 m c (Proc.devRef .tc main_arg16) := W2_of_ne m c main_arg16 (by decide)
    _ = W0 m c (Proc.devRef .tc main_arg16) := W1_step m c main_arg16 (by decide)
    _ = m ((c : Thread nD τ).loc main_arg16) := rfl

theorem W7_main_arg17 (c : Dev nD) : W7 m c (Proc.devRef .tc main_arg17) = m ((c : Thread nD τ).loc main_arg17) :=
  calc W7 m c (Proc.devRef .tc main_arg17)
    _ = W6 m c (Proc.devRef .tc main_arg17) := W7_step m c main_arg17 (by decide)
    _ = W5 m c (Proc.devRef .tc main_arg17) := W6_in m c 1 rfl
    _ = W4 m c (Proc.devRef .tc main_arg17) := W5_step m c main_arg17 (by decide)
    _ = W3 m c (Proc.devRef .tc main_arg17) := W4_of_ne m c main_arg17 (by decide)
    _ = W2 m c (Proc.devRef .tc main_arg17) := W3_step m c main_arg17 (by decide)
    _ = W1 m c (Proc.devRef .tc main_arg17) := W2_of_ne m c main_arg17 (by decide)
    _ = W0 m c (Proc.devRef .tc main_arg17) := W1_step m c main_arg17 (by decide)
    _ = m ((c : Thread nD τ).loc main_arg17) := rfl

theorem W7_main_arg18 (c : Dev nD) : W7 m c (Proc.devRef .tc main_arg18) = m ((c : Thread nD τ).loc main_arg18) :=
  calc W7 m c (Proc.devRef .tc main_arg18)
    _ = W6 m c (Proc.devRef .tc main_arg18) := W7_step m c main_arg18 (by decide)
    _ = W5 m c (Proc.devRef .tc main_arg18) := W6_of_ne m c main_arg18 (by decide)
    _ = W4 m c (Proc.devRef .tc main_arg18) := W5_step m c main_arg18 (by decide)
    _ = W3 m c (Proc.devRef .tc main_arg18) := W4_of_ne m c main_arg18 (by decide)
    _ = W2 m c (Proc.devRef .tc main_arg18) := W3_step m c main_arg18 (by decide)
    _ = W1 m c (Proc.devRef .tc main_arg18) := W2_of_ne m c main_arg18 (by decide)
    _ = W0 m c (Proc.devRef .tc main_arg18) := W1_step m c main_arg18 (by decide)
    _ = m ((c : Thread nD τ).loc main_arg18) := rfl

end Cert.KernelIdeal.Hand

end
-- ==== Proof.KI.HostVals.lean ====
/-
  What the fold of valuations holds at the buffers the three pallas_calls enter with and at the three results, read
  through the four host stretches: a buffer a stretch writes holds its operation's function of the operands' contents;
  a buffer it does not write is as it was; a pallas_call leaves its windows' arrays at what the write-backs leave and
  every other buffer as entered. The host-side values are written as functions of the argument arrays: the embedding
  row (the index wrapped below zero, then a gather), the two hidden rows (a slice and a reshape each), and the
  log-softmax of the logits row (the row minus its maximum, minus the logarithm of the sum of its exponentials).
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.Gen.KernelIdeal.Regions
import proofs.«412461_j6141803233582_3_alg».proof.Proof.KI.Dats
import proofs.«412461_j6141803233582_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo

variable {F : FTy → Type} [FloatOps F]

variable (m : (ℓ : Loc nD τ sig) → Buf (Elt F) ℓ)

/-! ## A host stretch leaves a buffer it does not write as it found it -/

theorem host0_keeps (c : Dev nD) (r : Ref sig .tc) (h : r ∉ hostOps0_W) :
    V1 m c r = m ((c : Thread nD τ).loc r) :=
  StableHlo.after_of_writes_sub hostOps0 _ hostOps0_writes h
theorem host1_keeps (c : Dev nD) (r : Ref sig .tc) (h : r ∉ hostOps1_W) :
    V3 m c r = W2 m c (Proc.devRef .tc r) :=
  StableHlo.after_of_writes_sub hostOps1 _ hostOps1_writes h
theorem host2_keeps (c : Dev nD) (r : Ref sig .tc) (h : r ∉ hostOps2_W) :
    V5 m c r = W4 m c (Proc.devRef .tc r) :=
  StableHlo.after_of_writes_sub hostOps2 _ hostOps2_writes h
theorem host3_keeps (c : Dev nD) (r : Ref sig .tc) (h : r ∉ hostOps3_W) :
    W7 m c (Proc.devRef .tc r) = W6 m c (Proc.devRef .tc r) :=
  StableHlo.after_of_writes_sub hostOps3 _ hostOps3_writes h

/-- A buffer that no stretch up to region 1's entry writes and that is no window's array of region 0 is as launched. -/
theorem V3_launch (c : Dev nD) (r : Ref sig .tc) (h1 : r ∉ hostOps1_W) (h0 : ∀ w, Pipeline.arrRef spec0 w ≠ r)
    (hh : r ∉ hostOps0_W) : V3 m c r = m ((c : Thread nD τ).loc r) :=
  (host1_keeps m c r h1).trans ((W2_of_ne m c r h0).trans (host0_keeps m c r hh))

/-- Likewise up to region 2's entry, for a buffer that is no window's array of regions 0 and 1. -/
theorem V5_launch (c : Dev nD) (r : Ref sig .tc) (h2 : r ∉ hostOps2_W) (h1' : ∀ w, Pipeline.arrRef spec1 w ≠ r)
    (h1 : r ∉ hostOps1_W) (h0 : ∀ w, Pipeline.arrRef spec0 w ≠ r) (hh : r ∉ hostOps0_W) :
    V5 m c r = m ((c : Thread nD τ).loc r) :=
  (host2_keeps m c r h2).trans ((W4_of_ne m c r h1').trans (V3_launch m c r h1 h0 hh))

/-! ## Region 0's entry -/

theorem V1_arg5 (c : Dev nD) : V1 m c main_arg5 = m ((c : Thread nD τ).loc main_arg5) := host0_keeps m c _ (by decide)
theorem V1_arg3 (c : Dev nD) : V1 m c main_arg3 = m ((c : Thread nD τ).loc main_arg3) := host0_keeps m c _ (by decide)
theorem V1_arg7 (c : Dev nD) : V1 m c main_arg7 = m ((c : Thread nD τ).loc main_arg7) := host0_keeps m c _ (by decide)

/-! ## Region 1's entry -/

theorem V3_v13_1 (c : Dev nD) : V3 m c main_v13_1 = (dat0 (V1 m) c).arrAt 9 cfg0.N :=
  (host1_keeps m c main_v13_1 (by decide)).trans (W2_arr m c 9)
theorem V3_arg1 (c : Dev nD) : V3 m c main_arg1 = m ((c : Thread nD τ).loc main_arg1) :=
  V3_launch m c _ (by decide) (by decide) (by decide)
theorem V3_arg9 (c : Dev nD) : V3 m c main_arg9 = m ((c : Thread nD τ).loc main_arg9) :=
  V3_launch m c _ (by decide) (by decide) (by decide)
theorem V3_arg10 (c : Dev nD) : V3 m c main_arg10 = m ((c : Thread nD τ).loc main_arg10) :=
  V3_launch m c _ (by decide) (by decide) (by decide)
theorem V3_arg13 (c : Dev nD) : V3 m c main_arg13 = m ((c : Thread nD τ).loc main_arg13) :=
  V3_launch m c _ (by decide) (by decide) (by decide)
theorem V3_arg14 (c : Dev nD) : V3 m c main_arg14 = m ((c : Thread nD τ).loc main_arg14) :=
  V3_launch m c _ (by decide) (by decide) (by decide)

/-! ## Region 2's entry -/

theorem V5_arg17 (c : Dev nD) : V5 m c main_arg17 = m ((c : Thread nD τ).loc main_arg17) :=
  V5_launch m c _ (by decide) (by decide) (by decide) (by decide) (by decide)

/-! ## The results -/

theorem W7_v13_0 (c : Dev nD) : W7 m c (Proc.devRef .tc main_v13_0) = (dat0 (V1 m) c).arrAt 8 cfg0.N :=
  (host3_keeps m c main_v13_0 (by decide)).trans ((W6_of_ne m c main_v13_0 (by decide)).trans
    ((host2_keeps m c main_v13_0 (by decide)).trans ((W4_of_ne m c main_v13_0 (by decide)).trans
      ((host1_keeps m c main_v13_0 (by decide)).trans (W2_arr m c 8)))))
theorem W7_v24 (c : Dev nD) : W7 m c (Proc.devRef .tc main_v24) = (dat1 (V3 m) c).arrAt 4 cfg1.N :=
  (host3_keeps m c main_v24 (by decide)).trans ((W6_of_ne m c main_v24 (by decide)).trans
    ((host2_keeps m c main_v24 (by decide)).trans (W4_arr m c 4)))

/-! ## The host-side values, as functions of the argument arrays -/

/-- The embedding row: the token index, wrapped by the vocabulary size when negative, broadcast to 1×1, gathers one
    row of the embedding table. -/
def kEmb (a0 : (⟨S1, .i32⟩ : BufTy).Contents (Elt F)) (a4 : (⟨S50257x1024, .f32⟩ : BufTy).Contents (Elt F)) :
    (⟨S1x1024, .f32⟩ : BufTy).Contents (Elt F) :=
  Host.gather gather_S50257x1024_S1x1_S1x1024_1_0_n_n_0_1_11024 a4
    (broadcastInDim S1x1 ![0] bcast_S1_S1x1_0
      (select (cmpi .slt a0 (broadcastInDim S1 ![] bcast_S_S1 (constantI S_ 32 0#32)))
        (addi a0 (broadcastInDim S1 ![] bcast_S_S1 (constantI S_ 32 50257#32))) a0))

/-- Row 0 of the hidden state, as a 1×1024 row. -/
def kH0 (a1 : (⟨S2x1x1024, .f32⟩ : BufTy).Contents (Elt F)) : (⟨S1x1024, .f32⟩ : BufTy).Contents (Elt F) :=
  shapeCast _ (extractStridedSlice S1x1x1024 ![0, 0, 0] a1 slices_S2x1x1024_S1x1x1024_0_0_0) shapeCasts_S1x1x1024_S1x1024
/-- Row 1 of the hidden state, as a 1×1024 row. -/
def kH1 (a1 : (⟨S2x1x1024, .f32⟩ : BufTy).Contents (Elt F)) : (⟨S1x1024, .f32⟩ : BufTy).Contents (Elt F) :=
  shapeCast _ (extractStridedSlice S1x1x1024 ![1, 0, 0] a1 slices_S2x1x1024_S1x1x1024_1_0_0) shapeCasts_S1x1x1024_S1x1024

/-- The logits row minus its maximum (the maximum taken from −∞, then against −∞ once more, broadcast back over the
    row). -/
def kShift (z : (⟨S1x50257, .f32⟩ : BufTy).Contents (Elt F)) : (⟨S1x50257, .f32⟩ : BufTy).Contents (Elt F) :=
  subf z (broadcastInDim S1x50257 ![0, 1] bcast_S1x1_S1x50257_0_1
    (broadcastInDim S1x1 ![0] bcast_S1_S1x1_0
      (maximumf (broadcastInDim S1 ![] bcast_S_S1 (constant S_ .f32 0xFF800000#32))
        (Host.reduce FloatOps.maximumf z (constant S_ .f32 0xFF800000#32) reducesTo_S1x50257_S1_d1 h_S_))))

/-- The log-softmax of the logits row: the shifted row minus the logarithm of the sum of its exponentials. -/
def kTail (z : (⟨S1x50257, .f32⟩ : BufTy).Contents (Elt F)) : (⟨S1x50257, .f32⟩ : BufTy).Contents (Elt F) :=
  subf (kShift z) (broadcastInDim S1x50257 ![0, 1] bcast_S1x1_S1x50257_0_1
    (Host.log (broadcastInDim S1x1 ![0] bcast_S1_S1x1_0
      (Host.reduceAdd (Host.exp (kShift z)) (constant S_ .f32 0x00000000#32) reducesTo_S1x50257_S1_d1 h_S_))))

/-! ## Region 0's entry: what the first stretch wrote -/

theorem V1_v10 (c : Dev nD) :
    V1 m c main_v10 = kEmb (m ((c : Thread nD τ).loc main_arg0)) (m ((c : Thread nD τ).loc main_arg4)) := by
  show StableHlo.after hostOps0 (W0 m c) (Proc.devRef .tc main_v10) = _
  after_results
  rfl
theorem V1_v1 (c : Dev nD) : V1 m c main_v1 = kH0 (m ((c : Thread nD τ).loc main_arg1)) := by
  show StableHlo.after hostOps0 (W0 m c) (Proc.devRef .tc main_v1) = _
  after_results
  rfl
theorem V1_v3 (c : Dev nD) : V1 m c main_v3 = kH1 (m ((c : Thread nD τ).loc main_arg1)) := by
  show StableHlo.after hostOps0 (W0 m c) (Proc.devRef .tc main_v3) = _
  after_results
  rfl
theorem V1_v11 (c : Dev nD) :
    V1 m c main_v11 = shapeCast S1x64 (m ((c : Thread nD τ).loc main_arg6)) shapeCasts_S64_S1x64 := by
  show StableHlo.after hostOps0 (W0 m c) (Proc.devRef .tc main_v11) = _
  after_results
  rfl
theorem V1_v12 (c : Dev nD) :
    V1 m c main_v12 = shapeCast S1x1024 (m ((c : Thread nD τ).loc main_arg8)) shapeCasts_S1024_S1x1024 := by
  show StableHlo.after hostOps0 (W0 m c) (Proc.devRef .tc main_v12) = _
  after_results
  rfl

/-! ## Region 1's entry: the two bias pairs, each direction's row stacked on the other's -/

theorem V3_v18 (c : Dev nD) :
    V3 m c main_v18 = concatenate S2x1x3072 0
      [⟨S1x1x3072, broadcastInDim S1x1x3072 ![1, 2] bcast_S1x3072_S1x1x3072_1_2
          (shapeCast S1x3072 (m ((c : Thread nD τ).loc main_arg11)) shapeCasts_S3072_S1x3072)⟩,
       ⟨S1x1x3072, broadcastInDim S1x1x3072 ![1, 2] bcast_S1x3072_S1x1x3072_1_2
          (shapeCast S1x3072 (m ((c : Thread nD τ).loc main_arg15)) shapeCasts_S3072_S1x3072)⟩]
      concatenates_S1x1x3072_S1x1x3072_S2x1x3072_d0 := by
  show StableHlo.after hostOps1 (W2 m c) (Proc.devRef .tc main_v18) = _
  after_results
  rw [W2_of_ne m c main_arg11 (by decide), W2_of_ne m c main_arg15 (by decide),
    show W1 m c (Proc.devRef .tc main_arg11) = m ((c : Thread nD τ).loc main_arg11) from host0_keeps m c _ (by decide),
    show W1 m c (Proc.devRef .tc main_arg15) = m ((c : Thread nD τ).loc main_arg15) from host0_keeps m c _ (by decide)]
  rfl
theorem V3_v23 (c : Dev nD) :
    V3 m c main_v23 = concatenate S2x1x3072 0
      [⟨S1x1x3072, broadcastInDim S1x1x3072 ![1, 2] bcast_S1x3072_S1x1x3072_1_2
          (shapeCast S1x3072 (m ((c : Thread nD τ).loc main_arg12)) shapeCasts_S3072_S1x3072)⟩,
       ⟨S1x1x3072, broadcastInDim S1x1x3072 ![1, 2] bcast_S1x3072_S1x1x3072_1_2
          (shapeCast S1x3072 (m ((c : Thread nD τ).loc main_arg16)) shapeCasts_S3072_S1x3072)⟩]
      concatenates_S1x1x3072_S1x1x3072_S2x1x3072_d0 := by
  show StableHlo.after hostOps1 (W2 m c) (Proc.devRef .tc main_v23) = _
  after_results
  rw [W2_of_ne m c main_arg12 (by decide), W2_of_ne m c main_arg16 (by decide),
    show W1 m c (Proc.devRef .tc main_arg12) = m ((c : Thread nD τ).loc main_arg12) from host0_keeps m c _ (by decide),
    show W1 m c (Proc.devRef .tc main_arg16) = m ((c : Thread nD τ).loc main_arg16) from host0_keeps m c _ (by decide)]
  rfl

/-! ## Region 2's entry: the two new hidden rows side by side, and the bias row -/

theorem V5_v29 (c : Dev nD) :
    V5 m c main_v29 = concatenate S1x2048 1
      [⟨S1x1024, shapeCast S1x1024 (extractStridedSlice S1x1x1024 ![0, 0, 0] ((dat1 (V3 m) c).arrAt 4 cfg1.N)
          slices_S2x1x1024_S1x1x1024_0_0_0) shapeCasts_S1x1x1024_S1x1024⟩,
       ⟨S1x1024, shapeCast S1x1024 (extractStridedSlice S1x1x1024 ![1, 0, 0] ((dat1 (V3 m) c).arrAt 4 cfg1.N)
          slices_S2x1x1024_S1x1x1024_1_0_0) shapeCasts_S1x1x1024_S1x1024⟩]
      concatenates_S1x1024_S1x1024_S1x2048_d1 := by
  show StableHlo.after hostOps2 (W4 m c) (Proc.devRef .tc main_v29) = _
  after_results
  rw [show W4 m c (Proc.devRef .tc main_v24) = (dat1 (V3 m) c).arrAt 4 cfg1.N from W4_arr m c 4]
  rfl
theorem V5_v30 (c : Dev nD) :
    V5 m c main_v30 = shapeCast S1x50257 (m ((c : Thread nD τ).loc main_arg18)) shapeCasts_S50257_S1x50257 := by
  show StableHlo.after hostOps2 (W4 m c) (Proc.devRef .tc main_v30) = _
  after_results
  rw [W4_of_ne m c main_arg18 (by decide),
    show W3 m c (Proc.devRef .tc main_arg18) = m ((c : Thread nD τ).loc main_arg18) from
      V3_launch m c _ (by decide) (by decide) (by decide)]
  rfl

/-! ## The last result: the log-softmax of region 2's output row -/

/-- A value carried to another type along an equation and back is itself. -/
private theorem cast_round {α β : Type} (h1 : β = α) (h2 : α = β) (v : α) : cast h1 (cast h2 v) = v := by
  subst h2; exact cast_eq _ _

set_option maxHeartbeats 4000000 in
theorem W7_v32 (c : Dev nD) : W7 m c (Proc.devRef .tc main_v32) = kTail ((dat2 (V5 m) c).arrAt 3 cfg2.N) := by
  show StableHlo.after hostOps3 (W6 m c) (Proc.devRef .tc main_v32) = _
  after_results
  rw [show W6 m c (Proc.devRef .tc main_v31) = (dat2 (V5 m) c).arrAt 3 cfg2.N from W6_arr m c 3]
  -- each intermediate value is carried to its buffer's type and straight back
  simp only [TRef.ofBuf, TRef.toBuf, cast_round]
  rfl

end Cert.KernelIdeal.Hand

end
-- ==== Proof.KI.Val0.lean ====
/-
  Region 0 has one grid point and every window's block is its whole array, so after the run each output array IS
  what the body left in its buffer: the attention distribution and the combined input row of the entry arrays.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open ValueIdx

variable {F : FTy → Type} [FloatOps F]

/-! ## Every window's block at the one point is its whole array

Each window's block has its array's shape and its index map is constantly (0, 0): the element of the block at
coordinates j sits in the array at 0 * size + j = j, so reading an array through the block gives the array. -/

/-- Window 0's block index at the one point is (0, 0). -/
theorem idx0_0 : ∀ (t : Fin cfg0.N) (a : Fin 2), win0_0.index t a = 0 :=
  (by decide +kernel : ∀ (t : Fin grid0.N) (a : Fin 2), win0_0.index t a = 0)

/-- An element of window 0's block sits in the array at its own coordinates. -/
theorem emb_blk0_0 (t : Fin cfg0.N) (j : ((cfg0.win 0).xblock (cfg0.grid.coords t)).Idx) :
    ((cfg0.win 0).blk t).view.emb j = j :=
  funext fun a => Fin.ext (win0_0.rect_emb_val_of_index_zero t a (idx0_0 t a) j)

/-- So an array of window 0's shape, read through the block, is the array. -/
theorem read_blk0_0 (t : Fin cfg0.N) (X : Vec F S1x1024 .f32) :
    ((cfg0.win 0).blk t).view.read (Elt F) X = X := by
  funext j
  show X (((cfg0.win 0).blk t).view.emb j) = X j
  rw [emb_blk0_0]

/-- Window 1's block index at the one point is (0, 0). -/
theorem idx0_1 : ∀ (t : Fin cfg0.N) (a : Fin 2), win0_1.index t a = 0 :=
  (by decide +kernel : ∀ (t : Fin grid0.N) (a : Fin 2), win0_1.index t a = 0)

/-- An element of window 1's block sits in the array at its own coordinates. -/
theorem emb_blk0_1 (t : Fin cfg0.N) (j : ((cfg0.win 1).xblock (cfg0.grid.coords t)).Idx) :
    ((cfg0.win 1).blk t).view.emb j = j :=
  funext fun a => Fin.ext (win0_1.rect_emb_val_of_index_zero t a (idx0_1 t a) j)

/-- So an array of window 1's shape, read through the block, is the array. -/
theorem read_blk0_1 (t : Fin cfg0.N) (X : Vec F S1x1024 .f32) :
    ((cfg0.win 1).blk t).view.read (Elt F) X = X := by
  funext j
  show X (((cfg0.win 1).blk t).view.emb j) = X j
  rw [emb_blk0_1]

/-- Window 2's block index at the one point is (0, 0). -/
theorem idx0_2 : ∀ (t : Fin cfg0.N) (a : Fin 2), win0_2.index t a = 0 :=
  (by decide +kernel : ∀ (t : Fin grid0.N) (a : Fin 2), win0_2.index t a = 0)

/-- An element of window 2's block sits in the array at its own coordinates. -/
theorem emb_blk0_2 (t : Fin cfg0.N) (j : ((cfg0.win 2).xblock (cfg0.grid.coords t)).Idx) :
    ((cfg0.win 2).blk t).view.emb j = j :=
  funext fun a => Fin.ext (win0_2.rect_emb_val_of_index_zero t a (idx0_2 t a) j)

/-- So an array of window 2's shape, read through the block, is the array. -/
theorem read_blk0_2 (t : Fin cfg0.N) (X : Vec F S1x1024 .f32) :
    ((cfg0.win 2).blk t).view.read (Elt F) X = X := by
  funext j
  show X (((cfg0.win 2).blk t).view.emb j) = X j
  rw [emb_blk0_2]

/-- Window 3's block index at the one point is (0, 0). -/
theorem idx0_3 : ∀ (t : Fin cfg0.N) (a : Fin 2), win0_3.index t a = 0 :=
  (by decide +kernel : ∀ (t : Fin grid0.N) (a : Fin 2), win0_3.index t a = 0)

/-- An element of window 3's block sits in the array at its own coordinates. -/
theorem emb_blk0_3 (t : Fin cfg0.N) (j : ((cfg0.win 3).xblock (cfg0.grid.coords t)).Idx) :
    ((cfg0.win 3).blk t).view.emb j = j :=
  funext fun a => Fin.ext (win0_3.rect_emb_val_of_index_zero t a (idx0_3 t a) j)

/-- So an array of window 3's shape, read through the block, is the array. -/
theorem read_blk0_3 (t : Fin cfg0.N) (X : Vec F S64x3072 .f32) :
    ((cfg0.win 3).blk t).view.read (Elt F) X = X := by
  funext j
  show X (((cfg0.win 3).blk t).view.emb j) = X j
  rw [emb_blk0_3]

/-- Window 4's block index at the one point is (0, 0). -/
theorem idx0_4 : ∀ (t : Fin cfg0.N) (a : Fin 2), win0_4.index t a = 0 :=
  (by decide +kernel : ∀ (t : Fin grid0.N) (a : Fin 2), win0_4.index t a = 0)

/-- An element of window 4's block sits in the array at its own coordinates. -/
theorem emb_blk0_4 (t : Fin cfg0.N) (j : ((cfg0.win 4).xblock (cfg0.grid.coords t)).Idx) :
    ((cfg0.win 4).blk t).view.emb j = j :=
  funext fun a => Fin.ext (win0_4.rect_emb_val_of_index_zero t a (idx0_4 t a) j)

/-- So an array of window 4's shape, read through the block, is the array. -/
theorem read_blk0_4 (t : Fin cfg0.N) (X : Vec F S1x64 .f32) :
    ((cfg0.win 4).blk t).view.read (Elt F) X = X := by
  funext j
  show X (((cfg0.win 4).blk t).view.emb j) = X j
  rw [emb_blk0_4]

/-- Window 5's block index at the one point is (0, 0). -/
theorem idx0_5 : ∀ (t : Fin cfg0.N) (a : Fin 2), win0_5.index t a = 0 :=
  (by decide +kernel : ∀ (t : Fin grid0.N) (a : Fin 2), win0_5.index t a = 0)

/-- An element of window 5's block sits in the array at its own coordinates. -/
theorem emb_blk0_5 (t : Fin cfg0.N) (j : ((cfg0.win 5).xblock (cfg0.grid.coords t)).Idx) :
    ((cfg0.win 5).blk t).view.emb j = j :=
  funext fun a => Fin.ext (win0_5.rect_emb_val_of_index_zero t a (idx0_5 t a) j)

/-- So an array of window 5's shape, read through the block, is the array. -/
theorem read_blk0_5 (t : Fin cfg0.N) (X : Vec F S64x2048 .f32) :
    ((cfg0.win 5).blk t).view.read (Elt F) X = X := by
  funext j
  show X (((cfg0.win 5).blk t).view.emb j) = X j
  rw [emb_blk0_5]

/-- Window 6's block index at the one point is (0, 0). -/
theorem idx0_6 : ∀ (t : Fin cfg0.N) (a : Fin 2), win0_6.index t a = 0 :=
  (by decide +kernel : ∀ (t : Fin grid0.N) (a : Fin 2), win0_6.index t a = 0)

/-- An element of window 6's block sits in the array at its own coordinates. -/
theorem emb_blk0_6 (t : Fin cfg0.N) (j : ((cfg0.win 6).xblock (cfg0.grid.coords t)).Idx) :
    ((cfg0.win 6).blk t).view.emb j = j :=
  funext fun a => Fin.ext (win0_6.rect_emb_val_of_index_zero t a (idx0_6 t a) j)

/-- So an array of window 6's shape, read through the block, is the array. -/
theorem read_blk0_6 (t : Fin cfg0.N) (X : Vec F S1024x3072 .f32) :
    ((cfg0.win 6).blk t).view.read (Elt F) X = X := by
  funext j
  show X (((cfg0.win 6).blk t).view.emb j) = X j
  rw [emb_blk0_6]

/-- Window 7's block index at the one point is (0, 0). -/
theorem idx0_7 : ∀ (t : Fin cfg0.N) (a : Fin 2), win0_7.index t a = 0 :=
  (by decide +kernel : ∀ (t : Fin grid0.N) (a : Fin 2), win0_7.index t a = 0)

/-- An element of window 7's block sits in the array at its own coordinates. -/
theorem emb_blk0_7 (t : Fin cfg0.N) (j : ((cfg0.win 7).xblock (cfg0.grid.coords t)).Idx) :
    ((cfg0.win 7).blk t).view.emb j = j :=
  funext fun a => Fin.ext (win0_7.rect_emb_val_of_index_zero t a (idx0_7 t a) j)

/-- So an array of window 7's shape, read through the block, is the array. -/
theorem read_blk0_7 (t : Fin cfg0.N) (X : Vec F S1x1024 .f32) :
    ((cfg0.win 7).blk t).view.read (Elt F) X = X := by
  funext j
  show X (((cfg0.win 7).blk t).view.emb j) = X j
  rw [emb_blk0_7]

/-- Window 8's block index at the one point is (0, 0). -/
theorem idx0_8 : ∀ (t : Fin cfg0.N) (a : Fin 2), win0_8.index t a = 0 :=
  (by decide +kernel : ∀ (t : Fin grid0.N) (a : Fin 2), win0_8.index t a = 0)

/-- An element of window 8's block sits in the array at its own coordinates. -/
theorem emb_blk0_8 (t : Fin cfg0.N) (j : ((cfg0.win 8).xblock (cfg0.grid.coords t)).Idx) :
    ((cfg0.win 8).blk t).view.emb j = j :=
  funext fun a => Fin.ext (win0_8.rect_emb_val_of_index_zero t a (idx0_8 t a) j)

/-- So an array of window 8's shape, read through the block, is the array. -/
theorem read_blk0_8 (t : Fin cfg0.N) (X : Vec F S1x64 .f32) :
    ((cfg0.win 8).blk t).view.read (Elt F) X = X := by
  funext j
  show X (((cfg0.win 8).blk t).view.emb j) = X j
  rw [emb_blk0_8]

/-- Window 9's block index at the one point is (0, 0). -/
theorem idx0_9 : ∀ (t : Fin cfg0.N) (a : Fin 2), win0_9.index t a = 0 :=
  (by decide +kernel : ∀ (t : Fin grid0.N) (a : Fin 2), win0_9.index t a = 0)

/-- An element of window 9's block sits in the array at its own coordinates. -/
theorem emb_blk0_9 (t : Fin cfg0.N) (j : ((cfg0.win 9).xblock (cfg0.grid.coords t)).Idx) :
    ((cfg0.win 9).blk t).view.emb j = j :=
  funext fun a => Fin.ext (win0_9.rect_emb_val_of_index_zero t a (idx0_9 t a) j)

/-- So an array of window 9's shape, read through the block, is the array. -/
theorem read_blk0_9 (t : Fin cfg0.N) (X : Vec F S1x1024 .f32) :
    ((cfg0.win 9).blk t).view.read (Elt F) X = X := by
  funext j
  show X (((cfg0.win 9).blk t).view.emb j) = X j
  rw [emb_blk0_9]

/-! ## The input blocks are the entry arrays -/

theorem iblk0_0 (V : Valn F) (c : Dev nD) (t : Fin cfg0.N) : iblk0 V c 0 t = V c main_v10 :=
  read_blk0_0 t _

theorem iblk0_1 (V : Valn F) (c : Dev nD) (t : Fin cfg0.N) : iblk0 V c 1 t = V c main_v1 :=
  read_blk0_1 t _

theorem iblk0_2 (V : Valn F) (c : Dev nD) (t : Fin cfg0.N) : iblk0 V c 2 t = V c main_v3 :=
  read_blk0_2 t _

theorem iblk0_3 (V : Valn F) (c : Dev nD) (t : Fin cfg0.N) : iblk0 V c 3 t = V c main_arg5 :=
  read_blk0_3 t _

theorem iblk0_4 (V : Valn F) (c : Dev nD) (t : Fin cfg0.N) : iblk0 V c 4 t = V c main_v11 :=
  read_blk0_4 t _

theorem iblk0_5 (V : Valn F) (c : Dev nD) (t : Fin cfg0.N) : iblk0 V c 5 t = V c main_arg3 :=
  read_blk0_5 t _

theorem iblk0_6 (V : Valn F) (c : Dev nD) (t : Fin cfg0.N) : iblk0 V c 6 t = V c main_arg7 :=
  read_blk0_6 t _

theorem iblk0_7 (V : Valn F) (c : Dev nD) (t : Fin cfg0.N) : iblk0 V c 7 t = V c main_v12 :=
  read_blk0_7 t _

/-! ## The output arrays after the run -/

/-- Every index of a whole-array block's array is in the block. -/
theorem mem_blk0_8 (t : Fin cfg0.N) (i : S1x64.Idx) : i ∈ ((cfg0.win 8).blk t).view.set := by
  have h := ((cfg0.win 8).blk t).view.emb_mem_set i
  rwa [emb_blk0_8] at h

theorem mem_blk0_9 (t : Fin cfg0.N) (i : S1x1024.Idx) : i ∈ ((cfg0.win 9).blk t).view.set := by
  have h := ((cfg0.win 9).blk t).view.emb_mem_set i
  rwa [emb_blk0_9] at h

theorem arrAt0_8 (V : Valn F) (c : Dev nD) :
    (dat0 V c).arrAt 8 cfg0.N
      = attnOut (V c main_v10) (V c main_v1) (V c main_v3) (V c main_arg5) (V c main_v11) := by
  refine (dat0 V c).arrAt_eq_of_cover 8 _ (fun t _ => ?_) (fun i => ⟨t0_0, flush0_8 _, mem_blk0_8 _ i⟩)
  show (cfg0.win 8).cut (cfg0.grid.coords t) ((dat0 V c).after 8 t) = _
  rw [after0_8, iblk0_0, iblk0_1, iblk0_2, iblk0_3, iblk0_4, read_blk0_8]
  rfl

theorem arrAt0_9 (V : Valn F) (c : Dev nD) :
    (dat0 V c).arrAt 9 cfg0.N
      = combOut (V c main_v10) (V c main_v1) (V c main_v3) (V c main_arg5) (V c main_v11) (V c main_arg3) (V c main_arg7) (V c main_v12) := by
  refine (dat0 V c).arrAt_eq_of_cover 9 _ (fun t _ => ?_) (fun i => ⟨t0_0, flush0_9 _, mem_blk0_9 _ i⟩)
  show (cfg0.win 9).cut (cfg0.grid.coords t) ((dat0 V c).after 9 t) = _
  rw [after0_9, iblk0_0, iblk0_1, iblk0_2, iblk0_3, iblk0_4, iblk0_5, iblk0_6, iblk0_7, read_blk0_9]
  rfl

end Cert.KernelIdeal.Hand

end
-- ==== Proof.KI.Val1.lean ====
/-
  Region 1 has two grid points, one per GRU direction; point d reads row d of the stacked hidden rows and of the two
  stacked bias rows, copies direction d's weight matrices, and writes row d of the new hidden rows. The two blocks
  cover the output array, so row d of it is direction d's GRU cell of the entry arrays.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open ValueIdx

variable {F : FTy → Type} [FloatOps F]

/-- Row `d` of the stacked hidden rows (2×1×1024) as a 1×1×1024 block. -/
def hidRow (a : Vec F S2x1x1024 .f32) (d : Fin 2) : Vec F S1x1x1024 .f32 := fun j => a (ix3 d (0 : Fin 1) (j 2 : Fin 1024))
/-- Row `d` of a stacked bias (2×1×3072) as a 1×1×3072 block. -/
def biasRow (a : Vec F S2x1x3072 .f32) (d : Fin 2) : Vec F S1x1x3072 .f32 := fun j => a (ix3 d (0 : Fin 1) (j 2 : Fin 3072))
/-- Direction `d`'s input-to-hidden and hidden-to-hidden weights as the region finds them in HBM. -/
def wihDir (V : Valn F) (c : Dev nD) (d : Fin 2) : Vec F S3072x1024 .f32 :=
  if d.val = 0 then (V c main_arg9 : Vec F S3072x1024 .f32) else (V c main_arg13 : Vec F S3072x1024 .f32)
def whhDir (V : Valn F) (c : Dev nD) (d : Fin 2) : Vec F S3072x1024 .f32 :=
  if d.val = 0 then (V c main_arg10 : Vec F S3072x1024 .f32) else (V c main_arg14 : Vec F S3072x1024 .f32)

/-- The printed index maps over the two points: the row windows sit at block (t,0,0), the input row at block (0,0). -/
theorem idx_facts1 : ∀ t : Fin cfg1.N,
    win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- The output window's block index tells the two points apart. -/
theorem idx_inj1_4 : ∀ t t' : Fin cfg1.N, win1_4.index t = win1_4.index t' → t = t' :=
  (by decide +kernel : ∀ t t' : Fin grid1.N, win1_4.index t = win1_4.index t' → t = t')

/-- So the two points' output blocks share no index of the array. -/
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (idx_inj1_4 t t' h)

/-- An element of the output array under point `t`'s block ends at what point `t` left in the output buffer: the
    other point's write-back does not touch it. -/
theorem blk1_4_read (V : Valn F) (c : Dev nD) (t : Fin cfg1.N) (y : S1x1x1024.Idx) :
    (dat1 V c).arrAt 4 cfg1.N (((cfg1.win 4).blk t).view.emb y) = (dat1 V c).after 4 t y := by
  exact (dat1 V c).arrAt_emb_eq_flushed 4 disjoint1_4 t (flush1_4 t) y

/-- Window 0's block at either point is the whole input row. -/
theorem iblk1_0 (V : Valn F) (c : Dev nD) (t : Fin cfg1.N) :
    iblk1 V c 0 t = (V c main_v13_1 : Vec F S1x1024 .f32) := by
  obtain ⟨e0, e1, -⟩ := idx_facts1 t
  funext j
  unfold iblk1
  rw [View.read_apply]
  show V c main_v13_1 _ = V c main_v13_1 _
  congr 1
  funext a
  apply Fin.ext
  match a with
  | ⟨0, _⟩ => show win1_0.index t (0 : Fin 2) * 1 + 1 * (j 0).val = (j 0).val; rw [e0]; omega
  | ⟨1, _⟩ => show win1_0.index t (1 : Fin 2) * 1024 + 1 * (j 1).val = (j 1).val; rw [e1]; omega

/-- Window 1's block at point `t` is row `t` of the stacked hidden rows. -/
theorem iblk1_1 (V : Valn F) (c : Dev nD) (t : Fin cfg1.N) (d : Fin 2) (hd : t.val = d.val) :
    iblk1 V c 1 t = hidRow (V c main_arg1) d := by
  obtain ⟨-, -, e0, e1, e2, -⟩ := idx_facts1 t
  funext j
  unfold iblk1 hidRow
  rw [View.read_apply]
  show V c main_arg1 _ = V c main_arg1 _
  congr 1
  funext a
  apply Fin.ext
  have h0 : (j 0).val < 1 := (j 0).isLt
  have h1 : (j 1).val < 1 := (j 1).isLt
  match a with
  | ⟨0, _⟩ => show win1_1.index t (0 : Fin 3) * 1 + 1 * (j 0).val = d.val; rw [e0]; omega
  | ⟨1, _⟩ => show win1_1.index t (1 : Fin 3) * 1 + 1 * (j 1).val = 0; rw [e1]; omega
  | ⟨2, _⟩ => show win1_1.index t (2 : Fin 3) * 1024 + 1 * (j 2).val = (j 2).val; rw [e2]; omega

/-- Windows 2 and 3's blocks at point `t` are row `t` of the two stacked biases. -/
theorem iblk1_2 (V : Valn F) (c : Dev nD) (t : Fin cfg1.N) (d : Fin 2) (hd : t.val = d.val) :
    iblk1 V c 2 t = biasRow (V c main_v18) d := by
  obtain ⟨-, -, -, -, -, e0, e1, e2, -⟩ := idx_facts1 t
  funext j
  unfold iblk1 biasRow
  rw [View.read_apply]
  show V c main_v18 _ = V c main_v18 _
  congr 1
  funext a
  apply Fin.ext
  have h0 : (j 0).val < 1 := (j 0).isLt
  have h1 : (j 1).val < 1 := (j 1).isLt
  match a with
  | ⟨0, _⟩ => show win1_2.index t (0 : Fin 3) * 1 + 1 * (j 0).val = d.val; rw [e0]; omega
  | ⟨1, _⟩ => show win1_2.index t (1 : Fin 3) * 1 + 1 * (j 1).val = 0; rw [e1]; omega
  | ⟨2, _⟩ => show win1_2.index t (2 : Fin 3) * 3072 + 1 * (j 2).val = (j 2).val; rw [e2]; omega

theorem iblk1_3 (V : Valn F) (c : Dev nD) (t : Fin cfg1.N) (d : Fin 2) (hd : t.val = d.val) :
    iblk1 V c 3 t = biasRow (V c main_v23) d := by
  obtain ⟨-, -, -, -, -, -, -, -, e0, e1, e2, -⟩ := idx_facts1 t
  funext j
  unfold iblk1 biasRow
  rw [View.read_apply]
  show V c main_v23 _ = V c main_v23 _
  congr 1
  funext a
  apply Fin.ext
  have h0 : (j 0).val < 1 := (j 0).isLt
  have h1 : (j 1).val < 1 := (j 1).isLt
  match a with
  | ⟨0, _⟩ => show win1_3.index t (0 : Fin 3) * 1 + 1 * (j 0).val = d.val; rw [e0]; omega
  | ⟨1, _⟩ => show win1_3.index t (1 : Fin 3) * 1 + 1 * (j 1).val = 0; rw [e1]; omega
  | ⟨2, _⟩ => show win1_3.index t (2 : Fin 3) * 3072 + 1 * (j 2).val = (j 2).val; rw [e2]; omega

/-- The weights point `t` copies are direction `t`'s. -/
theorem wihAt_eq (V : Valn F) (c : Dev nD) (t : Fin cfg1.N) (d : Fin 2) (hd : t.val = d.val) :
    wihAt V c t = wihDir V c d := by
  unfold wihAt wihDir; rw [hd]
theorem whhAt_eq (V : Valn F) (c : Dev nD) (t : Fin cfg1.N) (d : Fin 2) (hd : t.val = d.val) :
    whhAt V c t = whhDir V c d := by
  unfold whhAt whhDir; rw [hd]

/-- Element (0,0,q) of the output window's block at point `t` sits at (t,0,q) of the array. -/
theorem emb1_4 (t : Fin cfg1.N) (d : Fin 2) (hd : t.val = d.val) (q : Fin 1024) :
    ((cfg1.win 4).blk t).view.emb (ix3 (0 : Fin 1) (0 : Fin 1) q) = ix3 d (0 : Fin 1) q := by
  obtain ⟨-, -, -, -, -, -, -, -, -, -, -, e0, e1, e2⟩ := idx_facts1 t
  funext a
  apply Fin.ext
  match a with
  | ⟨0, _⟩ => show win1_4.index t (0 : Fin 3) * 1 + 1 * 0 = d.val; rw [e0]; omega
  | ⟨1, _⟩ => show win1_4.index t (1 : Fin 3) * 1 + 1 * 0 = 0; rw [e1]
  | ⟨2, _⟩ => show win1_4.index t (2 : Fin 3) * 1024 + 1 * q.val = q.val; rw [e2]; omega

/-- Row `d` of the output array after the run is direction `d`'s GRU cell of the entry arrays: it lies under point
    `d`'s block alone, and that point's blocks are row `d` of the stacked rows and direction `d`'s weights. -/
theorem arrAt1_4 (V : Valn F) (c : Dev nD) (d : Fin 2) (q : Fin 1024) :
    ((dat1 V c).arrAt 4 cfg1.N : Vec F S2x1x1024 .f32) (ix3 d (0 : Fin 1) q)
      = gruOut (V c main_v13_1) (hidRow (V c main_arg1) d) (wihDir V c d) (whhDir V c d)
          (biasRow (V c main_v18) d) (biasRow (V c main_v23) d) (ix3 (0 : Fin 1) (0 : Fin 1) q) := by
  have ht : d.val < cfg1.N := by rw [show cfg1.N = 2 from N_1]; exact d.isLt
  have hd : (⟨d.val, ht⟩ : Fin cfg1.N).val = d.val := rfl
  have e := blk1_4_read V c ⟨d.val, ht⟩ (ix3 (0 : Fin 1) (0 : Fin 1) q)
  rw [emb1_4 ⟨d.val, ht⟩ d hd q] at e
  rw [e, after1_4, iblk1_0, iblk1_1 V c ⟨d.val, ht⟩ d hd, iblk1_2 V c ⟨d.val, ht⟩ d hd, iblk1_3 V c ⟨d.val, ht⟩ d hd,
    wihAt_eq V c ⟨d.val, ht⟩ d hd, whhAt_eq V c ⟨d.val, ht⟩ d hd]

end Cert.KernelIdeal.Hand

end
-- ==== Proof.Bridge.Attn.lean ====
/-
  The attention stage and the combine stage of the reference, read through the kernel's region-0 arithmetic: with
  the embedding row, the two hidden rows and the reshaped biases as the reference computes them, the reference's
  attention distribution is the kernel's `attnOut` and its rectified combined row the kernel's `combOut`.
-/
import proofs.«412461_j6141803233582_3_alg».proof.Proof.KI.Dats
import proofs.«412461_j6141803233582_3_alg».proof.Proof.RefRead
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx

open Cert.ReferenceIdeal.Read (val_main_v6 val_main_v8 val_main_v10 val_main_v26 val_main_v33)
open Cert.ReferenceIdeal.Read (val_main_v11 val_main_v12 val_main_v13 val_main_v14 val_main_v15 val_main_v16 val_main_v17
  val_main_v18 val_main_v19 val_main_v20 val_main_v21 val_main_v22 val_main_v23 val_main_v24 val_main_v25 val_main_v27
  val_main_v28 val_main_v29 val_main_v30 val_main_v31 val_main_v32 val_main_cst val_main_cst_1 val_main_cst_2
  val_main_call0_cst val_main_call0_v0
  val_main_v12_apply val_main_v13_apply val_main_v14_apply val_main_v15_apply val_main_v17_apply val_main_cst_1_apply
  val_main_v18_apply val_main_v19_apply val_main_v20_apply val_main_v21_apply val_main_v22_apply val_main_v23_apply
  val_main_cst_2_apply val_main_v24_apply val_main_v25_apply val_main_v26_apply val_main_v27_apply val_main_v29_apply
  val_main_v30_apply val_main_v31_apply val_main_v32_apply val_main_v33_apply val_main_call0_v0_apply val_main_call0_cst_apply
  idx_main_v12 lidx_main_v13 ridx_main_v13 idx_main_v14 idx_main_v17 idx_main_v19 idx_main_v20 idx_main_v23 idx_main_v24 idx_main_v25
  lidx_main_v27 ridx_main_v27 idx_main_v29 lidx_main_v30 ridx_main_v30 idx_main_v31 idx_main_call0_v0)

namespace Attn

/-! ## The kernel's three products read at an index -/

theorem lhs_attn_0 (i : S1x64.Idx) (q : dot_S1x3072_S64x3072_S1x64_1_1_0_0_n_n.contr.Idx) :
    (dot_S1x3072_S64x3072_S1x64_1_1_0_0_n_n.lhsIdx i q 0).val = (i 0).val := by
  unfold DotDims.lhsIdx
  rw [dif_neg (show ¬(0 : Fin S1x3072.rank) ∈ dot_S1x3072_S64x3072_S1x64_1_1_0_0_n_n.lhsBatch by decide), dif_pos (show (0 : Fin S1x3072.rank) ∈ dot_S1x3072_S64x3072_S1x64_1_1_0_0_n_n.lhsNonContracting by decide)]
  rfl
theorem lhs_attn_1 (i : S1x64.Idx) (q : dot_S1x3072_S64x3072_S1x64_1_1_0_0_n_n.contr.Idx) :
    (dot_S1x3072_S64x3072_S1x64_1_1_0_0_n_n.lhsIdx i q 1).val = (q ⟨0, by decide⟩).val :=
  dot_S1x3072_S64x3072_S1x64_1_1_0_0_n_n.lhsIdx_val_of_single rfl i q
theorem rhs_attn_0 (i : S1x64.Idx) (q : dot_S1x3072_S64x3072_S1x64_1_1_0_0_n_n.contr.Idx) :
    (dot_S1x3072_S64x3072_S1x64_1_1_0_0_n_n.rhsIdx i q 0).val = (i 1).val := by
  unfold DotDims.rhsIdx
  rw [dif_neg (show ¬(0 : Fin S64x3072.rank) ∈ dot_S1x3072_S64x3072_S1x64_1_1_0_0_n_n.rhsBatch by decide), dif_pos (show (0 : Fin S64x3072.rank) ∈ dot_S1x3072_S64x3072_S1x64_1_1_0_0_n_n.rhsNonContracting by decide)]
  rfl
theorem rhs_attn_1 (i : S1x64.Idx) (q : dot_S1x3072_S64x3072_S1x64_1_1_0_0_n_n.contr.Idx) :
    (dot_S1x3072_S64x3072_S1x64_1_1_0_0_n_n.rhsIdx i q 1).val = (q ⟨0, by decide⟩).val :=
  dot_S1x3072_S64x3072_S1x64_1_1_0_0_n_n.rhsIdx_val_of_single rfl i q

/-- The row times the attention weights' transpose, into the zero splat: lane `q` is the sum over the 3072 inputs of
    the row's entry times row `q` of the weights. -/
theorem kdot_attn (A : FVec Ideal S1x3072 .f32) (W : FVec Ideal S64x3072 .f32) (p : Fin 1) (q : Fin 64) :
    matmul dot_S1x3072_S64x3072_S1x64_1_1_0_0_n_n none (truncf .bf16 A bitsLt_bf16_f32) (truncf .bf16 W bitsLt_bf16_f32)
        (constant (F := Ideal) S1x64 .f32 0x00000000#32) (ix2 p q)
      = ∑ k : Fin 3072, A (ix2 p k) * W (ix2 q k) := by
  simp only [matmul]
  rw [Ideal.matmul_constant_zero_apply, ← Equiv.sum_comp (contrEquiv1 dot_S1x3072_S64x3072_S1x64_1_1_0_0_n_n 3072 rfl rfl).symm]
  refine Finset.sum_congr rfl fun k _ => ?_
  have hk := contrEquiv1_symm_val dot_S1x3072_S64x3072_S1x64_1_1_0_0_n_n 3072 rfl rfl k
  have el : dot_S1x3072_S64x3072_S1x64_1_1_0_0_n_n.lhsIdx (ix2 p q) ((contrEquiv1 dot_S1x3072_S64x3072_S1x64_1_1_0_0_n_n 3072 rfl rfl).symm k) = ix2 p k := funext fun a => Fin.ext (by
    match a with
    | ⟨0, _⟩ => exact lhs_attn_0 _ _
    | ⟨1, _⟩ => exact (lhs_attn_1 _ _).trans hk)
  have er : dot_S1x3072_S64x3072_S1x64_1_1_0_0_n_n.rhsIdx (ix2 p q) ((contrEquiv1 dot_S1x3072_S64x3072_S1x64_1_1_0_0_n_n 3072 rfl rfl).symm k) = ix2 q k := funext fun a => Fin.ext (by
    match a with
    | ⟨0, _⟩ => exact rhs_attn_0 _ _
    | ⟨1, _⟩ => exact (rhs_attn_1 _ _).trans hk)
  rw [truncf_apply, truncf_apply, el, er]

theorem lhs_ctx_0 (i : S1x2048.Idx) (q : dot_S1x64_S64x2048_S1x2048_1_0_0_1_n_n.contr.Idx) :
    (dot_S1x64_S64x2048_S1x2048_1_0_0_1_n_n.lhsIdx i q 0).val = (i 0).val := by
  unfold DotDims.lhsIdx
  rw [dif_neg (show ¬(0 : Fin S1x64.rank) ∈ dot_S1x64_S64x2048_S1x2048_1_0_0_1_n_n.lhsBatch by decide), dif_pos (show (0 : Fin S1x64.rank) ∈ dot_S1x64_S64x2048_S1x2048_1_0_0_1_n_n.lhsNonContracting by decide)]
  rfl
theorem lhs_ctx_1 (i : S1x2048.Idx) (q : dot_S1x64_S64x2048_S1x2048_1_0_0_1_n_n.contr.Idx) :
    (dot_S1x64_S64x2048_S1x2048_1_0_0_1_n_n.lhsIdx i q 1).val = (q ⟨0, by decide⟩).val :=
  dot_S1x64_S64x2048_S1x2048_1_0_0_1_n_n.lhsIdx_val_of_single rfl i q
theorem rhs_ctx_0 (i : S1x2048.Idx) (q : dot_S1x64_S64x2048_S1x2048_1_0_0_1_n_n.contr.Idx) :
    (dot_S1x64_S64x2048_S1x2048_1_0_0_1_n_n.rhsIdx i q 0).val = (q ⟨0, by decide⟩).val :=
  dot_S1x64_S64x2048_S1x2048_1_0_0_1_n_n.rhsIdx_val_of_single rfl i q
theorem rhs_ctx_1 (i : S1x2048.Idx) (q : dot_S1x64_S64x2048_S1x2048_1_0_0_1_n_n.contr.Idx) :
    (dot_S1x64_S64x2048_S1x2048_1_0_0_1_n_n.rhsIdx i q 1).val = (i 1).val := by
  unfold DotDims.rhsIdx
  rw [dif_neg (show ¬(1 : Fin S64x2048.rank) ∈ dot_S1x64_S64x2048_S1x2048_1_0_0_1_n_n.rhsBatch by decide), dif_pos (show (1 : Fin S64x2048.rank) ∈ dot_S1x64_S64x2048_S1x2048_1_0_0_1_n_n.rhsNonContracting by decide)]
  rfl

/-- The attention row times the encoder outputs: lane `q` is the sum over the 64 positions of the weight times that
    position's entry `q`. -/
theorem kdot_ctx (A : FVec Ideal S1x64 .f32) (W : FVec Ideal S64x2048 .f32) (p : Fin 1) (q : Fin 2048) :
    matmul dot_S1x64_S64x2048_S1x2048_1_0_0_1_n_n none (truncf .bf16 A bitsLt_bf16_f32) (truncf .bf16 W bitsLt_bf16_f32)
        (constant (F := Ideal) S1x2048 .f32 0x00000000#32) (ix2 p q)
      = ∑ k : Fin 64, A (ix2 p k) * W (ix2 k q) := by
  simp only [matmul]
  rw [Ideal.matmul_constant_zero_apply, ← Equiv.sum_comp (contrEquiv1 dot_S1x64_S64x2048_S1x2048_1_0_0_1_n_n 64 rfl rfl).symm]
  refine Finset.sum_congr rfl fun k _ => ?_
  have hk := contrEquiv1_symm_val dot_S1x64_S64x2048_S1x2048_1_0_0_1_n_n 64 rfl rfl k
  have el : dot_S1x64_S64x2048_S1x2048_1_0_0_1_n_n.lhsIdx (ix2 p q) ((contrEquiv1 dot_S1x64_S64x2048_S1x2048_1_0_0_1_n_n 64 rfl rfl).symm k) = ix2 p k := funext fun a => Fin.ext (by
    match a with
    | ⟨0, _⟩ => exact lhs_ctx_0 _ _
    | ⟨1, _⟩ => exact (lhs_ctx_1 _ _).trans hk)
  have er : dot_S1x64_S64x2048_S1x2048_1_0_0_1_n_n.rhsIdx (ix2 p q) ((contrEquiv1 dot_S1x64_S64x2048_S1x2048_1_0_0_1_n_n 64 rfl rfl).symm k) = ix2 k q := funext fun a => Fin.ext (by
    match a with
    | ⟨0, _⟩ => exact (rhs_ctx_0 _ _).trans hk
    | ⟨1, _⟩ => exact rhs_ctx_1 _ _)
  rw [truncf_apply, truncf_apply, el, er]

theorem lhs_comb_0 (i : S1x1024.Idx) (q : dot_S1x3072_S1024x3072_S1x1024_1_1_0_0_n_n.contr.Idx) :
    (dot_S1x3072_S1024x3072_S1x1024_1_1_0_0_n_n.lhsIdx i q 0).val = (i 0).val := by
  unfold DotDims.lhsIdx
  rw [dif_neg (show ¬(0 : Fin S1x3072.rank) ∈ dot_S1x3072_S1024x3072_S1x1024_1_1_0_0_n_n.lhsBatch by decide), dif_pos (show (0 : Fin S1x3072.rank) ∈ dot_S1x3072_S1024x3072_S1x1024_1_1_0_0_n_n.lhsNonContracting by decide)]
  rfl
theorem lhs_comb_1 (i : S1x1024.Idx) (q : dot_S1x3072_S1024x3072_S1x1024_1_1_0_0_n_n.contr.Idx) :
    (dot_S1x3072_S1024x3072_S1x1024_1_1_0_0_n_n.lhsIdx i q 1).val = (q ⟨0, by decide⟩).val :=
  dot_S1x3072_S1024x3072_S1x1024_1_1_0_0_n_n.lhsIdx_val_of_single rfl i q
theorem rhs_comb_0 (i : S1x1024.Idx) (q : dot_S1x3072_S1024x3072_S1x1024_1_1_0_0_n_n.contr.Idx) :
    (dot_S1x3072_S1024x3072_S1x1024_1_1_0_0_n_n.rhsIdx i q 0).val = (i 1).val := by
  unfold DotDims.rhsIdx
  rw [dif_neg (show ¬(0 : Fin S1024x3072.rank) ∈ dot_S1x3072_S1024x3072_S1x1024_1_1_0_0_n_n.rhsBatch by decide), dif_pos (show (0 : Fin S1024x3072.rank) ∈ dot_S1x3072_S1024x3072_S1x1024_1_1_0_0_n_n.rhsNonContracting by decide)]
  rfl
theorem rhs_comb_1 (i : S1x1024.Idx) (q : dot_S1x3072_S1024x3072_S1x1024_1_1_0_0_n_n.contr.Idx) :
    (dot_S1x3072_S1024x3072_S1x1024_1_1_0_0_n_n.rhsIdx i q 1).val = (q ⟨0, by decide⟩).val :=
  dot_S1x3072_S1024x3072_S1x1024_1_1_0_0_n_n.rhsIdx_val_of_single rfl i q

/-- The joined row times the combine weights' transpose: lane `q` is the sum over the 3072 inputs of the row's entry
    times row `q` of the weights. -/
theorem kdot_comb (A : FVec Ideal S1x3072 .f32) (W : FVec Ideal S1024x3072 .f32) (p : Fin 1) (q : Fin 1024) :
    matmul dot_S1x3072_S1024x3072_S1x1024_1_1_0_0_n_n none (truncf .bf16 A bitsLt_bf16_f32) (truncf .bf16 W bitsLt_bf16_f32)
        (constant (F := Ideal) S1x1024 .f32 0x00000000#32) (ix2 p q)
      = ∑ k : Fin 3072, A (ix2 p k) * W (ix2 q k) := by
  simp only [matmul]
  rw [Ideal.matmul_constant_zero_apply, ← Equiv.sum_comp (contrEquiv1 dot_S1x3072_S1024x3072_S1x1024_1_1_0_0_n_n 3072 rfl rfl).symm]
  refine Finset.sum_congr rfl fun k _ => ?_
  have hk := contrEquiv1_symm_val dot_S1x3072_S1024x3072_S1x1024_1_1_0_0_n_n 3072 rfl rfl k
  have el : dot_S1x3072_S1024x3072_S1x1024_1_1_0_0_n_n.lhsIdx (ix2 p q) ((contrEquiv1 dot_S1x3072_S1024x3072_S1x1024_1_1_0_0_n_n 3072 rfl rfl).symm k) = ix2 p k := funext fun a => Fin.ext (by
    match a with
    | ⟨0, _⟩ => exact lhs_comb_0 _ _
    | ⟨1, _⟩ => exact (lhs_comb_1 _ _).trans hk)
  have er : dot_S1x3072_S1024x3072_S1x1024_1_1_0_0_n_n.rhsIdx (ix2 p q) ((contrEquiv1 dot_S1x3072_S1024x3072_S1x1024_1_1_0_0_n_n 3072 rfl rfl).symm k) = ix2 q k := funext fun a => Fin.ext (by
    match a with
    | ⟨0, _⟩ => exact rhs_comb_0 _ _
    | ⟨1, _⟩ => exact (rhs_comb_1 _ _).trans hk)
  rw [truncf_apply, truncf_apply, el, er]

/-! ## One row of 64: its one reduced index, a column broadcast, the reduced index put back -/

/-- A shape of one entry has one index. -/
theorem S1_idx (j : S1.Idx) : j = ix1 (0 : Fin 1) := by
  funext a
  match a with
  | ⟨0, _⟩ => exact Fin.ext (by have h : (j 0).val < 1 := (j 0).isLt; show (j 0).val = 0; omega)

/-- One value cast to a 1×1 block and broadcast along the row reads that value at every lane. -/
theorem colBcast (z : FVec Ideal S1 .f32) (p : Fin 1) (q : Fin 64) :
    broadcastTo S1x64 (shapeCast S1x1 z shapeCasts_S1_S1x1) broadcasts_S1x1_S1x64 (ix2 p q) = z (ix1 (0 : Fin 1)) := by
  refine (broadcastTo_apply _ broadcasts_S1x1_S1x64 (ix2 p q) (ix2 (0 : Fin 1) (0 : Fin 1)) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
  · exact shapeCast_apply z shapeCasts_S1_S1x1 (ix2 (0 : Fin 1) (0 : Fin 1)) (ix1 (0 : Fin 1))
      (by rewrite [Shape.rowMajor_val_one, Shape.rowMajor_val_two]; rfl)

/-- The reduced index with lane `k` put back on the reduced axis. -/
theorem lift_row (k : Fin 64) : reduces_S1x64_S1.lift (ix1 (0 : Fin 1)) k = ix2 (0 : Fin 1) k :=
  funext fun a => Fin.ext (by match a with | ⟨0, _⟩ => rfl | ⟨1, _⟩ => rfl)

/-! ## The softmax of a row of 64 logits, as the kernel spells it and as the reference does -/

/-- The maximum of the row, folded from −∞ and joined with −∞ once more: both programs take it so. -/
def rowMax (L : FVec Ideal S1x64 .f32) : Ideal .f32 :=
  max (Ideal.ofBits .f32 0xFF800000#32)
    ((Finset.univ : Finset (Fin 64)).fold max (Ideal.ofBits .f32 0xFF800000#32) fun k => L (ix2 (0 : Fin 1) k))

/-- The kernel's logits: the joined row times the attention weights' transpose, plus the bias row. -/
def kLogits (e h0 h1 : Vec Ideal S1x1024 .f32) (aw : Vec Ideal S64x3072 .f32) (ab : Vec Ideal S1x64 .f32) : FVec Ideal S1x64 .f32 :=
  addf (matmul dot_S1x3072_S64x3072_S1x64_1_1_0_0_n_n none
      (truncf .bf16 (concatenate S1x3072 1 [⟨S1x1024, e⟩, ⟨S1x1024, h0⟩, ⟨S1x1024, h1⟩] concatenates_S1x1024_S1x1024_S1x1024_S1x3072_d1) bitsLt_bf16_f32)
      (truncf .bf16 aw bitsLt_bf16_f32) (constant S1x64 .f32 0x00000000#32)) ab

/-- The kernel's row maximum, -/
def kMax (L : FVec Ideal S1x64 .f32) : FVec Ideal S1 .f32 :=
  maximumf (broadcast S1 (Scalar.ofBits .f32 0xFF800000#32))
    (multiReduction .maximumf [1] S1 L 0xFF800000#32 reduces_S1x64_S1 (.inl rfl) rfl)
/-- its exponentials of the logits less the maximum, -/
def kExp (L : FVec Ideal S1x64 .f32) : FVec Ideal S1x64 .f32 :=
  exp (subf L (broadcastTo S1x64 (shapeCast S1x1 (kMax L) shapeCasts_S1_S1x1) broadcasts_S1x1_S1x64))
/-- and those divided by their sum. -/
def kSoftmax (L : FVec Ideal S1x64 .f32) : FVec Ideal S1x64 .f32 :=
  divf (kExp L) (broadcastTo S1x64 (shapeCast S1x1
    (multiReduction .add [1] S1 (kExp L) 0x00000000#32 reduces_S1x64_S1 (.inl rfl) rfl) shapeCasts_S1_S1x1) broadcasts_S1x1_S1x64)

/-- The attention payload is the softmax of its logits. -/
theorem k0_pay2_eq (e h0 h1 : Vec Ideal S1x1024 .f32) (aw : Vec Ideal S64x3072 .f32) (ab : Vec Ideal S1x64 .f32) :
    k0_pay2 e h0 h1 aw ab = kSoftmax (kLogits e h0 h1 aw ab) := by
  unfold k0_pay2 kSoftmax kExp kMax kLogits
  simp only [Idealize.ShloMosaic.shapeCast_self]
  rw [Idealize.ShloMosaic.shapeCast_self e, Idealize.ShloMosaic.shapeCast_self h0, Idealize.ShloMosaic.shapeCast_self h1]

theorem kMax_apply (L : FVec Ideal S1x64 .f32) : kMax L (ix1 (0 : Fin 1)) = rowMax L := by
  unfold kMax rowMax
  rw [maximumf_apply, broadcast_apply]
  exact congrArg (max (Ideal.ofBits .f32 0xFF800000#32))
    ((Ideal.multiReduction_maximumf_single L _ reduces_S1x64_S1 _ _ (ix1 (0 : Fin 1))).trans
      (congrArg (fun f => Finset.fold max (Ideal.ofBits .f32 0xFF800000#32) f (Finset.univ : Finset (Fin 64)))
        (funext fun k => congrArg L (lift_row k))))

theorem kExp_apply (L : FVec Ideal S1x64 .f32) (p : Fin 1) (q : Fin 64) :
    kExp L (ix2 p q) = Ideal.exp (L (ix2 p q) - rowMax L) := by
  unfold kExp
  show Ideal.exp (L (ix2 p q) - broadcastTo S1x64 (shapeCast S1x1 (kMax L) shapeCasts_S1_S1x1) broadcasts_S1x1_S1x64 (ix2 p q)) = _
  rw [colBcast, kMax_apply]

theorem kSoftmax_apply (L : FVec Ideal S1x64 .f32) (p : Fin 1) (q : Fin 64) :
    kSoftmax L (ix2 p q)
      = Ideal.div (Ideal.exp (L (ix2 p q) - rowMax L)) (∑ k : Fin 64, Ideal.exp (L (ix2 (0 : Fin 1) k) - rowMax L)) := by
  unfold kSoftmax
  rw [divf_apply, colBcast, kExp_apply]
  refine congrArg (Ideal.div _) ?_
  exact (Ideal.multiReduction_add_single (kExp L) _ reduces_S1x64_S1 _ _ (ix1 (0 : Fin 1))).trans
    (Finset.sum_congr rfl fun k _ => (congrArg (kExp L) (lift_row k)).trans (kExp_apply L 0 k))

/-! ## The reference's stages read through the same row -/

section Ref
variable (x0 : (⟨S1, .i32⟩ : BufTy).Contents (Elt Ideal)) (x1 : (⟨S2x1x1024, .f32⟩ : BufTy).Contents (Elt Ideal))
  (x4 : (⟨S50257x1024, .f32⟩ : BufTy).Contents (Elt Ideal)) (x5 : (⟨S64x3072, .f32⟩ : BufTy).Contents (Elt Ideal))
  (x6 : (⟨S64, .f32⟩ : BufTy).Contents (Elt Ideal))

/-- The reference's row maximum (a reduce from −∞, then joined with −∞) is the row's maximum. -/
theorem rMax_apply (j : S1.Idx) :
    val_main_v18 (F := Ideal) x0 x1 x4 x5 x6 j = rowMax (val_main_v15 (F := Ideal) x0 x1 x4 x5 x6) := by
  rw [S1_idx j, val_main_v18_apply, val_main_v17_apply, val_main_cst_1_apply]
  unfold val_main_v16 rowMax
  rw [Host.reduce_eq_fold_single (FloatOps.maximumf (F := Ideal) (φ := .f32)) _ _ _ reduces_S1x64_S1 _ (ix1 (0 : Fin 1))]
  exact congrArg (max (Ideal.ofBits .f32 0xFF800000#32))
    (congrArg (fun f => Finset.fold max (Ideal.ofBits .f32 0xFF800000#32) f (Finset.univ : Finset (Fin 64)))
      (funext fun k => congrArg (val_main_v15 (F := Ideal) x0 x1 x4 x5 x6) (lift_row k)))

/-- Its exponentials of the logits less the maximum. -/
theorem rExp_apply (p : Fin 1) (q : Fin 64) :
    val_main_v22 (F := Ideal) x0 x1 x4 x5 x6 (ix2 p q)
      = Ideal.exp (val_main_v15 (F := Ideal) x0 x1 x4 x5 x6 (ix2 p q) - rowMax (val_main_v15 (F := Ideal) x0 x1 x4 x5 x6)) := by
  rw [val_main_v22_apply, val_main_v21_apply, val_main_v20_apply, val_main_v19_apply, rMax_apply]
  rfl

/-- Their sum over the row, from the zero word. -/
theorem rSum_apply (j : S1.Idx) :
    val_main_v23 (F := Ideal) x0 x1 x4 x5 x6 j
      = ∑ k : Fin 64, Ideal.exp (val_main_v15 (F := Ideal) x0 x1 x4 x5 x6 (ix2 (0 : Fin 1) k) - rowMax (val_main_v15 (F := Ideal) x0 x1 x4 x5 x6)) := by
  rw [S1_idx j, val_main_v23_apply, val_main_cst_2_apply]
  show Ideal.ofBits .f32 0x00000000#32 + _ = _
  rw [Ideal.ofBits_zero_f32, zero_add]
  refine Finset.sum_congr rfl fun k _ => ?_
  have e : idx_main_v23 (ix1 (0 : Fin 1)) k = ix2 (0 : Fin 1) k :=
    funext fun a => Fin.ext (by match a with | ⟨0, _⟩ => rfl | ⟨1, _⟩ => rfl)
  rw [e, rExp_apply]

/-- The reference's attention distribution at a lane. -/
theorem rSoftmax_apply (p : Fin 1) (q : Fin 64) :
    val_main_v26 (F := Ideal) x0 x1 x4 x5 x6 (ix2 p q)
      = Ideal.div (Ideal.exp (val_main_v15 (F := Ideal) x0 x1 x4 x5 x6 (ix2 p q) - rowMax (val_main_v15 (F := Ideal) x0 x1 x4 x5 x6)))
          (∑ k : Fin 64, Ideal.exp (val_main_v15 (F := Ideal) x0 x1 x4 x5 x6 (ix2 (0 : Fin 1) k) - rowMax (val_main_v15 (F := Ideal) x0 x1 x4 x5 x6))) := by
  rw [val_main_v26_apply, val_main_v25_apply, val_main_v24_apply, rSum_apply, rExp_apply]
  rfl

/-- The reference's logits are the kernel's: the same joined row, the weights read transposed, the bias as a row. -/
theorem logits_bridge (ab : (⟨S1x64, .f32⟩ : BufTy).Contents (Elt Ideal)) (hab : ∀ j : Fin 64, ab (ix2 (0 : Fin 1) j) = x6 (ix1 j)) :
    val_main_v15 (F := Ideal) x0 x1 x4 x5 x6
      = kLogits (val_main_v6 (F := Ideal) x0 x4) (val_main_v8 (F := Ideal) x1) (val_main_v10 (F := Ideal) x1) x5 ab := by
  funext i
  obtain ⟨p, q, rfl⟩ : ∃ (p : Fin 1) (q : Fin 64), i = ix2 p q := ⟨i 0, i 1, eq_ix2 i⟩
  obtain rfl : p = 0 := Subsingleton.elim _ _
  unfold kLogits
  rw [val_main_v15_apply, val_main_v13_apply, val_main_v14_apply, addf_apply, kdot_attn]
  have e14 : idx_main_v14 (ix2 (0 : Fin 1) q) = ix1 q := funext fun a => Fin.ext (by match a with | ⟨0, _⟩ => rfl)
  rw [e14, ← hab q]
  show _ + _ = _ + _
  refine congrArg (· + ab (ix2 (0 : Fin 1) q)) (Finset.sum_congr rfl fun k _ => ?_)
  have el : lidx_main_v13 (ix2 (0 : Fin 1) q) k = ix2 (0 : Fin 1) k :=
    funext fun a => Fin.ext (by match a with | ⟨0, _⟩ => rfl | ⟨1, _⟩ => rfl)
  have er : idx_main_v12 (ridx_main_v13 (ix2 (0 : Fin 1) q) k) = ix2 q k :=
    funext fun a => Fin.ext (by match a with | ⟨0, _⟩ => rfl | ⟨1, _⟩ => rfl)
  rw [val_main_v12_apply, el, er]
  rfl

end Ref

end Attn

/-! ## The attention distribution -/

open Attn in
/-- The reference's attention distribution is the kernel's attention payload of the embedding row, the two hidden rows,
    the attention weights and the bias row: the same logits (`logits_bridge`), and of one row of logits the same softmax. -/
theorem attn_bridge (x0 : (⟨S1, .i32⟩ : BufTy).Contents (Elt Ideal)) (x1 : (⟨S2x1x1024, .f32⟩ : BufTy).Contents (Elt Ideal))
    (x4 : (⟨S50257x1024, .f32⟩ : BufTy).Contents (Elt Ideal)) (x5 : (⟨S64x3072, .f32⟩ : BufTy).Contents (Elt Ideal))
    (x6 : (⟨S64, .f32⟩ : BufTy).Contents (Elt Ideal))
    (ab : (⟨S1x64, .f32⟩ : BufTy).Contents (Elt Ideal)) (hab : ∀ j : Fin 64, ab (ix2 (0 : Fin 1) j) = x6 (ix1 j)) :
    val_main_v26 (F := Ideal) x0 x1 x4 x5 x6
      = attnOut (val_main_v6 (F := Ideal) x0 x4) (val_main_v8 (F := Ideal) x1) (val_main_v10 (F := Ideal) x1) x5 ab := by
  funext i
  obtain ⟨p, q, rfl⟩ : ∃ (p : Fin 1) (q : Fin 64), i = ix2 p q := ⟨i 0, i 1, eq_ix2 i⟩
  unfold attnOut
  rw [k0_pay2_eq, ← logits_bridge x0 x1 x4 x5 x6 ab hab, kSoftmax_apply, rSoftmax_apply]

namespace Attn

/-! ## The combined, rectified row -/

/-- The kernel's context row: the attention row times the encoder outputs. -/
def kContext (a : FVec Ideal S1x64 .f32) (enc : Vec Ideal S64x2048 .f32) : FVec Ideal S1x2048 .f32 :=
  matmul dot_S1x64_S64x2048_S1x2048_1_0_0_1_n_n none (truncf .bf16 a bitsLt_bf16_f32) (truncf .bf16 enc bitsLt_bf16_f32)
    (constant S1x2048 .f32 0x00000000#32)

/-- The combine payload: the embedding row joined with the context row, times the combine weights' transpose. -/
theorem k0_pay3_eq (e h0 h1 : Vec Ideal S1x1024 .f32) (aw : Vec Ideal S64x3072 .f32) (ab : Vec Ideal S1x64 .f32)
    (enc : Vec Ideal S64x2048 .f32) (cw : Vec Ideal S1024x3072 .f32) :
    k0_pay3 e h0 h1 aw ab enc e cw
      = matmul dot_S1x3072_S1024x3072_S1x1024_1_1_0_0_n_n none
          (truncf .bf16 (concatenate S1x3072 1 [⟨S1x1024, e⟩, ⟨S1x2048, kContext (k0_pay2 e h0 h1 aw ab) enc⟩]
            concatenates_S1x1024_S1x2048_S1x3072_d1) bitsLt_bf16_f32)
          (truncf .bf16 cw bitsLt_bf16_f32) (constant S1x1024 .f32 0x00000000#32) := by
  unfold k0_pay3 kContext
  simp only []
  rw [Idealize.ShloMosaic.shapeCast_self e]

section Ref
variable (x0 : (⟨S1, .i32⟩ : BufTy).Contents (Elt Ideal)) (x1 : (⟨S2x1x1024, .f32⟩ : BufTy).Contents (Elt Ideal))
  (x3 : (⟨S64x2048, .f32⟩ : BufTy).Contents (Elt Ideal))
  (x4 : (⟨S50257x1024, .f32⟩ : BufTy).Contents (Elt Ideal)) (x5 : (⟨S64x3072, .f32⟩ : BufTy).Contents (Elt Ideal))
  (x6 : (⟨S64, .f32⟩ : BufTy).Contents (Elt Ideal))

/-- The reference's context row is the kernel's, of the same attention row. -/
theorem context_bridge (ab : (⟨S1x64, .f32⟩ : BufTy).Contents (Elt Ideal)) (hab : ∀ j : Fin 64, ab (ix2 (0 : Fin 1) j) = x6 (ix1 j)) :
    val_main_v27 (F := Ideal) x0 x1 x3 x4 x5 x6
      = kContext (k0_pay2 (val_main_v6 (F := Ideal) x0 x4) (val_main_v8 (F := Ideal) x1) (val_main_v10 (F := Ideal) x1) x5 ab) x3 := by
  funext i
  obtain ⟨p, q, rfl⟩ : ∃ (p : Fin 1) (q : Fin 2048), i = ix2 p q := ⟨i 0, i 1, eq_ix2 i⟩
  unfold kContext
  rw [val_main_v27_apply, kdot_ctx]
  refine Finset.sum_congr rfl fun k _ => ?_
  have el : lidx_main_v27 (ix2 p q) k = ix2 p k :=
    funext fun a => Fin.ext (by match a with | ⟨0, _⟩ => rfl | ⟨1, _⟩ => rfl)
  have er : ridx_main_v27 (ix2 p q) k = ix2 k q :=
    funext fun a => Fin.ext (by match a with | ⟨0, _⟩ => rfl | ⟨1, _⟩ => rfl)
  rw [el, er, attn_bridge x0 x1 x4 x5 x6 ab hab]
  rfl

end Ref

end Attn

open Attn in
/-- The reference's rectified combined row is the kernel's combine payload: the same context row (`context_bridge`),
    joined with the same embedding row, times the same weights read transposed, plus the bias row, rectified. -/
theorem comb_bridge (x0 : (⟨S1, .i32⟩ : BufTy).Contents (Elt Ideal)) (x1 : (⟨S2x1x1024, .f32⟩ : BufTy).Contents (Elt Ideal))
    (x3 : (⟨S64x2048, .f32⟩ : BufTy).Contents (Elt Ideal))
    (x4 : (⟨S50257x1024, .f32⟩ : BufTy).Contents (Elt Ideal)) (x5 : (⟨S64x3072, .f32⟩ : BufTy).Contents (Elt Ideal))
    (x6 : (⟨S64, .f32⟩ : BufTy).Contents (Elt Ideal)) (x7 : (⟨S1024x3072, .f32⟩ : BufTy).Contents (Elt Ideal))
    (x8 : (⟨S1024, .f32⟩ : BufTy).Contents (Elt Ideal))
    (ab : (⟨S1x64, .f32⟩ : BufTy).Contents (Elt Ideal)) (hab : ∀ j : Fin 64, ab (ix2 (0 : Fin 1) j) = x6 (ix1 j))
    (cb : (⟨S1x1024, .f32⟩ : BufTy).Contents (Elt Ideal)) (hcb : ∀ q : Fin 1024, cb (ix2 (0 : Fin 1) q) = x8 (ix1 q)) :
    val_main_v33 (F := Ideal) x0 x1 x3 x4 x5 x6 x7 x8
      = combOut (val_main_v6 (F := Ideal) x0 x4) (val_main_v8 (F := Ideal) x1) (val_main_v10 (F := Ideal) x1) x5 ab x3 x7 cb := by
  funext i
  obtain ⟨p, q, rfl⟩ : ∃ (p : Fin 1) (q : Fin 1024), i = ix2 p q := ⟨i 0, i 1, eq_ix2 i⟩
  obtain rfl : p = 0 := Subsingleton.elim _ _
  unfold combOut k0_pay1
  simp only [Idealize.ShloMosaic.shapeCast_self]
  rw [maximumf_apply, addf_apply, broadcast_apply, k0_pay3_eq, kdot_comb,
    ← context_bridge x0 x1 x3 x4 x5 x6 ab hab,
    val_main_v33_apply, val_main_v32_apply, val_main_v31_apply, val_main_call0_v0_apply, val_main_call0_cst_apply,
    val_main_v30_apply]
  have e31 : idx_main_v31 (ix2 (0 : Fin 1) q) = ix1 q := funext fun a => Fin.ext (by match a with | ⟨0, _⟩ => rfl)
  rw [e31, ← hcb q]
  show max (_ + _) _ = max (_ + _) _
  refine congrArg (fun s => max (s + cb (ix2 (0 : Fin 1) q)) _) (Finset.sum_congr rfl fun k _ => ?_)
  have el : lidx_main_v30 (ix2 (0 : Fin 1) q) k = ix2 (0 : Fin 1) k :=
    funext fun a => Fin.ext (by match a with | ⟨0, _⟩ => rfl | ⟨1, _⟩ => rfl)
  have er : idx_main_v29 (ridx_main_v30 (ix2 (0 : Fin 1) q) k) = ix2 q k :=
    funext fun a => Fin.ext (by match a with | ⟨0, _⟩ => rfl | ⟨1, _⟩ => rfl)
  rw [val_main_v29_apply, el, er]
  rfl

end Cert.Bridge
end
-- ==== Proof.Bridge.Gru.lean ====
/-
  One GRU cell of the reference, read through the kernel's region-1 arithmetic: from the same input row, the same
  hidden row and the same weights and biases, lane q of the kernel's `gruOut` is lane q of the reference's new hidden
  row — for the forward direction (weights Wih_f, Whh_f, hidden row 0) and for the backward one (Wih_b, Whh_b, hidden
  row 1). The kernel's logistic is the reference's 1 / (1 + exp(−x)) by definition on the extended reals.
-/
import proofs.«412461_j6141803233582_3_alg».proof.Proof.KI.Dats
import proofs.«412461_j6141803233582_3_alg».proof.Proof.RefRead
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384
noncomputable section

namespace Cert.Bridge

open Cert.KernelIdeal Cert.KernelIdeal.Gen Cert.KernelIdeal.Hand
open Idealize.ShloMosaic Idealize.ShloMosaic.TcCoe Idealize.ShloMosaic.ValueIdx

open Cert.ReferenceIdeal.Read (val_main_v33 val_main_v69 val_main_v105)

/-- The word of 1.0 denotes the extended real 1. -/
theorem one_f32 : Ideal.ofBits .f32 0x3F800000#32 = 1 := by
  simp [Ideal.ofBits, Ideal.ieee, -EReal.coe_mul]; norm_num
/-- The same word as the host's constant spells it. -/
theorem one_f32' : FloatOps.ofBits (F := Ideal) .f32 0x3F800000#32 = (1 : EReal) := one_f32

/-! ## The gates' product x·Wᵀ read at a lane -/

theorem lhs_gates_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl
theorem lhs_gates_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q
theorem rhs_gates_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl
theorem rhs_gates_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

/-- Lane k of row·Wᵀ into the zero splat is the sum over the 1024 columns of the row's entry times W's (k, l) entry. -/
theorem gates_matmul_apply (a : FVec Ideal S1x1024 .bf16) (w : FVec Ideal S3072x1024 .bf16) (k : Fin 3072) :
    matmul dot_S1x1024_S3072x1024_S1x3072_1_1_0_0_n_n none a w (constant (F := Ideal) S1x3072 .f32 0x00000000#32) (ix2 (0 : Fin 1) k)
      = ∑ l : Fin 1024, a (ix2 (0 : Fin 1) l) * w (ix2 k l) := by
  simp only [matmul]
  rw [Ideal.matmul_constant_zero_apply, ← Equiv.sum_comp (contrEquiv1 dot_S1x1024_S3072x1024_S1x3072_1_1_0_0_n_n 1024 rfl rfl).symm]
  refine Finset.sum_congr rfl fun l _ => ?_
  have hk := contrEquiv1_symm_val dot_S1x1024_S3072x1024_S1x3072_1_1_0_0_n_n 1024 rfl rfl l
  have el : dot_S1x1024_S3072x1024_S1x3072_1_1_0_0_n_n.lhsIdx (ix2 (0 : Fin 1) k) ((contrEquiv1 dot_S1x1024_S3072x1024_S1x3072_1_1_0_0_n_n 1024 rfl rfl).symm l) = ix2 (0 : Fin 1) l := funext fun a => Fin.ext (by
    match a with
    | ⟨0, _⟩ => exact lhs_gates_0 _ _
    | ⟨1, _⟩ => exact (lhs_gates_1 _ _).trans hk)
  have er : dot_S1x1024_S3072x1024_S1x3072_1_1_0_0_n_n.rhsIdx (ix2 (0 : Fin 1) k) ((contrEquiv1 dot_S1x1024_S3072x1024_S1x3072_1_1_0_0_n_n 1024 rfl rfl).symm l) = ix2 k l := funext fun a => Fin.ext (by
    match a with
    | ⟨0, _⟩ => exact rhs_gates_0 _ _
    | ⟨1, _⟩ => exact (rhs_gates_1 _ _).trans hk)
  rw [el, er]

/-! ## The unit-axis casts read at a lane -/

theorem cast3to2_1024 {α : Type} (v : S1x1x1024.Idx → α) (h : S1x1x1024.ShapeCasts S1x1024) (q : Fin 1024) :
    shapeCast S1x1024 v h (ix2 (0 : Fin 1) q) = v (ix3 (0 : Fin 1) (0 : Fin 1) q) :=
  shapeCast_apply v h _ _ (by rewrite [Shape.rowMajor_val_three, Shape.rowMajor_val_two]; show (0 * 1 + 0) * 1024 + q.val = 0 * 1024 + q.val; omega)
theorem cast3to2_3072 {α : Type} (v : S1x1x3072.Idx → α) (h : S1x1x3072.ShapeCasts S1x3072) (k : Fin 3072) :
    shapeCast S1x3072 v h (ix2 (0 : Fin 1) k) = v (ix3 (0 : Fin 1) (0 : Fin 1) k) :=
  shapeCast_apply v h _ _ (by rewrite [Shape.rowMajor_val_three, Shape.rowMajor_val_two]; show (0 * 1 + 0) * 3072 + k.val = 0 * 3072 + k.val; omega)
theorem cast2to3_1024 {α : Type} (v : S1x1024.Idx → α) (h : S1x1024.ShapeCasts S1x1x1024) (q : Fin 1024) :
    shapeCast S1x1x1024 v h (ix3 (0 : Fin 1) (0 : Fin 1) q) = v (ix2 (0 : Fin 1) q) :=
  shapeCast_apply v h _ _ (by rewrite [Shape.rowMajor_val_three, Shape.rowMajor_val_two]; show 0 * 1024 + q.val = (0 * 1 + 0) * 1024 + q.val; omega)

/-! ## The two affine gate rows of the kernel at a lane -/

/-- Lane k of the input gates: (x·Wihᵀ)ₖ + bihₖ. -/
theorem pay2_apply (x : Vec Ideal S1x1024 .f32) (w : Vec Ideal S3072x1024 .f32) (b : Vec Ideal S1x1x3072 .f32) (k : Fin 3072) :
    k1_pay2 x w b (ix2 (0 : Fin 1) k) = (∑ l : Fin 1024, x (ix2 (0 : Fin 1) l) * w (ix2 k l)) + b (ix3 (0 : Fin 1) (0 : Fin 1) k) := by
  unfold k1_pay2
  simp only [addf_apply, gates_matmul_apply, truncf_apply, shapeCast_self, cast3to2_3072]

/-- Lane k of the hidden gates: (h·Whhᵀ)ₖ + bhhₖ. -/
theorem pay3_apply (h : Vec Ideal S1x1x1024 .f32) (w : Vec Ideal S3072x1024 .f32) (b : Vec Ideal S1x1x3072 .f32) (k : Fin 3072) :
    k1_pay3 h w b (ix2 (0 : Fin 1) k) = (∑ l : Fin 1024, h (ix3 (0 : Fin 1) (0 : Fin 1) l) * w (ix2 k l)) + b (ix3 (0 : Fin 1) (0 : Fin 1) k) := by
  unfold k1_pay3
  simp only [addf_apply, gates_matmul_apply, truncf_apply, cast3to2_1024, cast3to2_3072]

/-! ## The pointwise operations the body uses, at a lane -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The three thirds of a gate row -/

/-- Lane q of the first third (the reset gate's), of the second (the update gate's), of the last (the candidate's). -/
abbrev lane0 (q : Fin 1024) : Fin 3072 := ⟨q.val, by have := q.isLt; omega⟩
abbrev lane1 (q : Fin 1024) : Fin 3072 := ⟨1024 + q.val, by have := q.isLt; omega⟩
abbrev lane2 (q : Fin 1024) : Fin 3072 := ⟨2048 + q.val, by have := q.isLt; omega⟩

theorem slice0_apply {α : Type} (v : S1x3072.Idx → α) (h : S1x3072.Slices ![0, 0] S1x1024) (q : Fin 1024) :
    extractStridedSlice S1x1024 ![0, 0] v h (ix2 (0 : Fin 1) q) = v (ix2 (0 : Fin 1) (lane0 q)) :=
  extractStridedSlice_apply ![0, 0] v h _ _ (fun a => match a with
    | ⟨0, _⟩ => by show (0 : ℕ) = 0 + 0; omega
    | ⟨1, _⟩ => by show q.val = 0 + q.val; omega)
theorem slice1_apply {α : Type} (v : S1x3072.Idx → α) (h : S1x3072.Slices ![0, 1024] S1x1024) (q : Fin 1024) :
    extractStridedSlice S1x1024 ![0, 1024] v h (ix2 (0 : Fin 1) q) = v (ix2 (0 : Fin 1) (lane1 q)) :=
  extractStridedSlice_apply ![0, 1024] v h _ _ (fun a => match a with
    | ⟨0, _⟩ => by show (0 : ℕ) = 0 + 0; omega
    | ⟨1, _⟩ => by show 1024 + q.val = 1024 + q.val; omega)
theorem slice2_apply {α : Type} (v : S1x3072.Idx → α) (h : S1x3072.Slices ![0, 2048] S1x1024) (q : Fin 1024) :
    extractStridedSlice S1x1024 ![0, 2048] v h (ix2 (0 : Fin 1) q) = v (ix2 (0 : Fin 1) (lane2 q)) :=
  extractStridedSlice_apply ![0, 2048] v h _ _ (fun a => match a with
    | ⟨0, _⟩ => by show (0 : ℕ) = 0 + 0; omega
    | ⟨1, _⟩ => by show 2048 + q.val = 2048 + q.val; omega)

/-! ## One GRU lane as a function of the two gate rows -/

/-- A gate row at lane k: the row vector against row k of the weights, plus the bias. -/
def gateRow (r : Fin 1024 → EReal) (w : Vec Ideal S3072x1024 .f32) (b : Fin 3072 → EReal) (k : Fin 3072) : EReal :=
  (∑ l : Fin 1024, r l * w (ix2 k l)) + b k

/-- The new hidden lane: (1 − z)·n + z·h with r, z the logistic of the summed first and second thirds and n the
    tanh of the input's last third plus r times the hidden's last third. -/
def gruLane (one : EReal) (gi gh : Fin 3072 → EReal) (hq : EReal) (q : Fin 1024) : EReal :=
  (one - Ideal.logistic (gi (lane1 q) + gh (lane1 q)))
      * Ideal.tanh (gi (lane2 q) + Ideal.logistic (gi (lane0 q) + gh (lane0 q)) * gh (lane2 q))
    + Ideal.logistic (gi (lane1 q) + gh (lane1 q)) * hq

/-- The kernel's last stage at a lane, from the gate rows' thirds. -/
theorem pay1_apply (gh : FVec Ideal S1x3072 .f32) (g0 g1 g2 h0 : FVec Ideal S1x1024 .f32) (h : Vec Ideal S1x1x1024 .f32) (q : Fin 1024) :
    k1_pay1 gh g0 g1 g2 h0 h (ix3 (0 : Fin 1) (0 : Fin 1) q)
      = (Ideal.ofBits .f32 0x3F800000#32 - Ideal.logistic (g1 (ix2 (0 : Fin 1) q) + gh (ix2 (0 : Fin 1) (lane1 q))))
          * Ideal.tanh (g2 (ix2 (0 : Fin 1) q) + Ideal.logistic (g0 (ix2 (0 : Fin 1) q) + h0 (ix2 (0 : Fin 1) q)) * gh (ix2 (0 : Fin 1) (lane2 q)))
        + Ideal.logistic (g1 (ix2 (0 : Fin 1) q) + gh (ix2 (0 : Fin 1) (lane1 q))) * h (ix3 (0 : Fin 1) (0 : Fin 1) q) := by
  unfold k1_pay1
  simp only [cast2to3_1024, addf_apply, mulf_apply, subf_apply, logistic_apply, tanh_apply, broadcast_apply, cast3to2_1024,
    slice1_apply, slice2_apply]
  rfl

/-- The kernel's GRU cell at a lane. -/
theorem gruOut_apply (x : Vec Ideal S1x1024 .f32) (h : Vec Ideal S1x1x1024 .f32) (wih whh : Vec Ideal S3072x1024 .f32)
    (bih bhh : Vec Ideal S1x1x3072 .f32) (q : Fin 1024) :
    gruOut x h wih whh bih bhh (ix3 (0 : Fin 1) (0 : Fin 1) q)
      = gruLane (Ideal.ofBits .f32 0x3F800000#32)
          (gateRow (fun l => x (ix2 (0 : Fin 1) l)) wih (fun k => bih (ix3 (0 : Fin 1) (0 : Fin 1) k)))
          (gateRow (fun l => h (ix3 (0 : Fin 1) (0 : Fin 1) l)) whh (fun k => bhh (ix3 (0 : Fin 1) (0 : Fin 1) k)))
          (h (ix3 (0 : Fin 1) (0 : Fin 1) q)) q := by
  unfold gruOut
  rw [pay1_apply]
  unfold k1_pay4 k1_pay5 k1_pay6 k1_pay7
  simp only [slice0_apply, slice1_apply, slice2_apply, pay2_apply, pay3_apply]
  rfl

/-! ## The reference's f cell, stage by stage -/

/-- The reference's hidden row 0 at a lane. -/
theorem ref_h_f (x1 : (⟨S2x1x1024, .f32⟩ : BufTy).Contents (Elt Ideal)) (q : Fin 1024) :
    Cert.ReferenceIdeal.Read.val_main_v8 (F := Ideal) x1 (ix2 (0 : Fin 1) q) = x1 (ix3 (0 : Fin 2) (0 : Fin 1) q) := by
  rw [Cert.ReferenceIdeal.Read.val_main_v8_apply, Cert.ReferenceIdeal.Read.val_main_v7_apply]
  exact congrArg x1 (funext fun a => Fin.ext (by
    match a with
    | ⟨0, _⟩ => rfl
    | ⟨1, _⟩ => rfl
    | ⟨2, _⟩ => show (0 * 1024 + q.val) % 1024 = q.val; have := q.isLt; omega))

/-- The reference's input gates at lane k: the input row against row k of the input weights (the transpose read
    back), plus the broadcast bias. -/
theorem ref_gi_f (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 : (⟨S3072x1024, .f32⟩ : BufTy).Contents (Elt Ideal)) (x11 : (⟨S3072, .f32⟩ : BufTy).Contents (Elt Ideal)) (k : Fin 3072) :
    Cert.ReferenceIdeal.Read.val_main_v37 (F := Ideal) x0 x1 x3 x4 x5 x6 x7 x8 x9 x11 (ix2 (0 : Fin 1) k)
      = gateRow (fun l => Cert.ReferenceIdeal.Read.val_main_v33 (F := Ideal) x0 x1 x3 x4 x5 x6 x7 x8 (ix2 (0 : Fin 1) l)) x9 (fun k => x11 (ix1 k)) k := by
  rw [Cert.ReferenceIdeal.Read.val_main_v37_apply, Cert.ReferenceIdeal.Read.val_main_v35_apply, Cert.ReferenceIdeal.Read.val_main_v36_apply]
  unfold gateRow
  simp only [Cert.ReferenceIdeal.Read.val_main_v34_apply]
  have e1 : ∀ l : Fin 1024, Cert.ReferenceIdeal.Read.lidx_main_v35 (ix2 (0 : Fin 1) k) l = ix2 (0 : Fin 1) l := fun l =>
    funext fun a => Fin.ext (by match a with | ⟨0, _⟩ => rfl | ⟨1, _⟩ => rfl)
  have e2 : ∀ l : Fin 1024, Cert.ReferenceIdeal.Read.idx_main_v34 (Cert.ReferenceIdeal.Read.ridx_main_v35 (ix2 (0 : Fin 1) k) l) = ix2 k l := fun l =>
    funext fun a => Fin.ext (by match a with | ⟨0, _⟩ => rfl | ⟨1, _⟩ => rfl)
  have e3 : Cert.ReferenceIdeal.Read.idx_main_v36 (ix2 (0 : Fin 1) k) = ix1 k :=
    funext fun a => Fin.ext (by match a with | ⟨0, _⟩ => rfl)
  simp only [e1, e2, e3]
  rfl

/-- The reference's hidden gates at lane k likewise, from hidden row 0. -/
theorem ref_gh_f (x1 : (⟨S2x1x1024, .f32⟩ : BufTy).Contents (Elt Ideal))
    (x10 : (⟨S3072x1024, .f32⟩ : BufTy).Contents (Elt Ideal)) (x12 : (⟨S3072, .f32⟩ : BufTy).Contents (Elt Ideal)) (k : Fin 3072) :
    Cert.ReferenceIdeal.Read.val_main_v41 (F := Ideal) x1 x10 x12 (ix2 (0 : Fin 1) k)
      = gateRow (fun l => x1 (ix3 (0 : Fin 2) (0 : Fin 1) l)) x10 (fun k => x12 (ix1 k)) k := by
  rw [Cert.ReferenceIdeal.Read.val_main_v41_apply, Cert.ReferenceIdeal.Read.val_main_v39_apply, Cert.ReferenceIdeal.Read.val_main_v40_apply]
  unfold gateRow
  simp only [Cert.ReferenceIdeal.Read.val_main_v38_apply]
  have e1 : ∀ l : Fin 1024, Cert.ReferenceIdeal.Read.lidx_main_v39 (ix2 (0 : Fin 1) k) l = ix2 (0 : Fin 1) l := fun l =>
    funext fun a => Fin.ext (by match a with | ⟨0, _⟩ => rfl | ⟨1, _⟩ => rfl)
  have e2 : ∀ l : Fin 1024, Cert.ReferenceIdeal.Read.idx_main_v38 (Cert.ReferenceIdeal.Read.ridx_main_v39 (ix2 (0 : Fin 1) k) l) = ix2 k l := fun l =>
    funext fun a => Fin.ext (by match a with | ⟨0, _⟩ => rfl | ⟨1, _⟩ => rfl)
  have e3 : Cert.ReferenceIdeal.Read.idx_main_v40 (ix2 (0 : Fin 1) k) = ix1 k :=
    funext fun a => Fin.ext (by match a with | ⟨0, _⟩ => rfl)
  simp only [e1, e2, e3, ref_h_f]
  rfl

/-- The reference's new hidden lane is the GRU lane of its two gate rows: its logistic is spelt 1 / (1 + exp(−x)),
    which is the logistic of the extended reals by definition, and its literal 1.0 is 1. -/
theorem ref_out_f (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal)) (q : Fin 1024) :
    Cert.ReferenceIdeal.Read.val_main_v69 (F := Ideal) x0 x1 x3 x4 x5 x6 x7 x8 x9 x10 x11 x12 (ix2 (0 : Fin 1) q)
      = gruLane 1 (fun k => Cert.ReferenceIdeal.Read.val_main_v37 (F := Ideal) x0 x1 x3 x4 x5 x6 x7 x8 x9 x11 (ix2 (0 : Fin 1) k))
          (fun k => Cert.ReferenceIdeal.Read.val_main_v41 (F := Ideal) x1 x10 x12 (ix2 (0 : Fin 1) k))
          (Cert.ReferenceIdeal.Read.val_main_v8 (F := Ideal) x1 (ix2 (0 : Fin 1) q)) q := by
  rw [Cert.ReferenceIdeal.Read.val_main_v69_apply,
    Cert.ReferenceIdeal.Read.val_main_v67_apply,
    Cert.ReferenceIdeal.Read.val_main_v68_apply,
    Cert.ReferenceIdeal.Read.val_main_v66_apply,
    Cert.ReferenceIdeal.Read.val_main_v65_apply,
    Cert.ReferenceIdeal.Read.val_main_cst_7_apply,
    Cert.ReferenceIdeal.Read.val_main_v64_apply,
    Cert.ReferenceIdeal.Read.val_main_v63_apply,
    Cert.ReferenceIdeal.Read.val_main_v62_apply,
    Cert.ReferenceIdeal.Read.val_main_v61_apply,
    Cert.ReferenceIdeal.Read.val_main_v60_apply,
    Cert.ReferenceIdeal.Read.val_main_cst_6_apply,
    Cert.ReferenceIdeal.Read.val_main_v59_apply,
    Cert.ReferenceIdeal.Read.val_main_v58_apply,
    Cert.ReferenceIdeal.Read.val_main_cst_5_apply,
    Cert.ReferenceIdeal.Read.val_main_v57_apply,
    Cert.ReferenceIdeal.Read.val_main_v56_apply,
    Cert.ReferenceIdeal.Read.val_main_v55_apply,
    Cert.ReferenceIdeal.Read.val_main_v54_apply,
    Cert.ReferenceIdeal.Read.val_main_v53_apply,
    Cert.ReferenceIdeal.Read.val_main_cst_4_apply,
    Cert.ReferenceIdeal.Read.val_main_v52_apply,
    Cert.ReferenceIdeal.Read.val_main_v51_apply,
    Cert.ReferenceIdeal.Read.val_main_cst_3_apply,
    Cert.ReferenceIdeal.Read.val_main_v50_apply,
    Cert.ReferenceIdeal.Read.val_main_v49_apply,
    Cert.ReferenceIdeal.Read.val_main_v48_apply,
    Cert.ReferenceIdeal.Read.val_main_v47_apply,
    Cert.ReferenceIdeal.Read.val_main_v46_apply,
    Cert.ReferenceIdeal.Read.val_main_v45_apply,
    Cert.ReferenceIdeal.Read.val_main_v44_apply,
    Cert.ReferenceIdeal.Read.val_main_v43_apply,
    Cert.ReferenceIdeal.Read.val_main_v42_apply]
  have i0 : Cert.ReferenceIdeal.Read.idx_main_v42 (ix2 (0 : Fin 1) q) = ix2 (0 : Fin 1) (lane0 q) :=
    funext fun a => Fin.ext (by match a with | ⟨0, _⟩ => rfl | ⟨1, _⟩ => rfl)
  have i1 : Cert.ReferenceIdeal.Read.idx_main_v43 (ix2 (0 : Fin 1) q) = ix2 (0 : Fin 1) (lane1 q) :=
    funext fun a => Fin.ext (by match a with | ⟨0, _⟩ => rfl | ⟨1, _⟩ => rfl)
  have i2 : Cert.ReferenceIdeal.Read.idx_main_v44 (ix2 (0 : Fin 1) q) = ix2 (0 : Fin 1) (lane2 q) :=
    funext fun a => Fin.ext (by match a with | ⟨0, _⟩ => rfl | ⟨1, _⟩ => rfl)
  have i3 : Cert.ReferenceIdeal.Read.idx_main_v45 (ix2 (0 : Fin 1) q) = ix2 (0 : Fin 1) (lane0 q) :=
    funext fun a => Fin.ext (by match a with | ⟨0, _⟩ => rfl | ⟨1, _⟩ => rfl)
  have i4 : Cert.ReferenceIdeal.Read.idx_main_v46 (ix2 (0 : Fin 1) q) = ix2 (0 : Fin 1) (lane1 q) :=
    funext fun a => Fin.ext (by match a with | ⟨0, _⟩ => rfl | ⟨1, _⟩ => rfl)
  have i5 : Cert.ReferenceIdeal.Read.idx_main_v47 (ix2 (0 : Fin 1) q) = ix2 (0 : Fin 1) (lane2 q) :=
    funext fun a => Fin.ext (by match a with | ⟨0, _⟩ => rfl | ⟨1, _⟩ => rfl)
  simp only [i0, i1, i2, i3, i4, i5, one_f32']
  rfl

/-- Lane q of the kernel's forward cell is lane q of the reference's: both are the GRU lane of the same two gate rows. -/
theorem gru_bridge_f (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (h : (⟨S1x1x1024, .f32⟩ : BufTy).Contents (Elt Ideal))
    (hh : ∀ q : Fin 1024, h (ix3 (0 : Fin 1) (0 : Fin 1) q) = x1 (ix3 (0 : Fin 2) (0 : Fin 1) q))
    (bih bhh : (⟨S1x1x3072, .f32⟩ : BufTy).Contents (Elt Ideal))
    (hbih : ∀ k : Fin 3072, bih (ix3 (0 : Fin 1) (0 : Fin 1) k) = x11 (ix1 k))
    (hbhh : ∀ k : Fin 3072, bhh (ix3 (0 : Fin 1) (0 : Fin 1) k) = x12 (ix1 k)) (q : Fin 1024) :
    gruOut (val_main_v33 (F := Ideal) x0 x1 x3 x4 x5 x6 x7 x8) h x9 x10 bih bhh (ix3 (0 : Fin 1) (0 : Fin 1) q)
      = val_main_v69 (F := Ideal) x0 x1 x3 x4 x5 x6 x7 x8 x9 x10 x11 x12 (ix2 (0 : Fin 1) q) := by
  have hb1 : (fun k => bih (ix3 (0 : Fin 1) (0 : Fin 1) k)) = fun k => x11 (ix1 k) := funext hbih
  have hb2 : (fun k => bhh (ix3 (0 : Fin 1) (0 : Fin 1) k)) = fun k => x12 (ix1 k) := funext hbhh
  have hh' : (fun l => h (ix3 (0 : Fin 1) (0 : Fin 1) l)) = fun l => x1 (ix3 (0 : Fin 2) (0 : Fin 1) l) := funext hh
  have eg1 : (fun k => Cert.ReferenceIdeal.Read.val_main_v37 (F := Ideal) x0 x1 x3 x4 x5 x6 x7 x8 x9 x11 (ix2 (0 : Fin 1) k))
      = gateRow (fun l => val_main_v33 (F := Ideal) x0 x1 x3 x4 x5 x6 x7 x8 (ix2 (0 : Fin 1) l)) x9 (fun k => x11 (ix1 k)) :=
    funext fun k => ref_gi_f x0 x1 x3 x4 x5 x6 x7 x8 x9 x11 k
  have eg2 : (fun k => Cert.ReferenceIdeal.Read.val_main_v41 (F := Ideal) x1 x10 x12 (ix2 (0 : Fin 1) k))
      = gateRow (fun l => x1 (ix3 (0 : Fin 2) (0 : Fin 1) l)) x10 (fun k => x12 (ix1 k)) :=
    funext fun k => ref_gh_f x1 x10 x12 k
  rw [gruOut_apply, ref_out_f, one_f32, hb1, hb2, hh', hh q, eg1, eg2, ref_h_f]

/-! ## The reference's b cell, stage by stage -/

/-- The reference's hidden row 1 at a lane. -/
theorem ref_h_b (x1 : (⟨S2x1x1024, .f32⟩ : BufTy).Contents (Elt Ideal)) (q : Fin 1024) :
    Cert.ReferenceIdeal.Read.val_main_v10 (F := Ideal) x1 (ix2 (0 : Fin 1) q) = x1 (ix3 (1 : Fin 2) (0 : Fin 1) q) := by
  rw [Cert.ReferenceIdeal.Read.val_main_v10_apply, Cert.ReferenceIdeal.Read.val_main_v9_apply]
  exact congrArg x1 (funext fun a => Fin.ext (by
    match a with
    | ⟨0, _⟩ => rfl
    | ⟨1, _⟩ => rfl
    | ⟨2, _⟩ => show (0 * 1024 + q.val) % 1024 = q.val; have := q.isLt; omega))

/-- The reference's input gates at lane k: the input row against row k of the input weights (the transpose read
    back), plus the broadcast bias. -/
theorem ref_gi_b (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x13 : (⟨S3072x1024, .f32⟩ : BufTy).Contents (Elt Ideal)) (x15 : (⟨S3072, .f32⟩ : BufTy).Contents (Elt Ideal)) (k : Fin 3072) :
    Cert.ReferenceIdeal.Read.val_main_v73 (F := Ideal) x0 x1 x3 x4 x5 x6 x7 x8 x13 x15 (ix2 (0 : Fin 1) k)
      = gateRow (fun l => Cert.ReferenceIdeal.Read.val_main_v33 (F := Ideal) x0 x1 x3 x4 x5 x6 x7 x8 (ix2 (0 : Fin 1) l)) x13 (fun k => x15 (ix1 k)) k := by
  rw [Cert.ReferenceIdeal.Read.val_main_v73_apply, Cert.ReferenceIdeal.Read.val_main_v71_apply, Cert.ReferenceIdeal.Read.val_main_v72_apply]
  unfold gateRow
  simp only [Cert.ReferenceIdeal.Read.val_main_v70_apply]
  have e1 : ∀ l : Fin 1024, Cert.ReferenceIdeal.Read.lidx_main_v71 (ix2 (0 : Fin 1) k) l = ix2 (0 : Fin 1) l := fun l =>
    funext fun a => Fin.ext (by match a with | ⟨0, _⟩ => rfl | ⟨1, _⟩ => rfl)
  have e2 : ∀ l : Fin 1024, Cert.ReferenceIdeal.Read.idx_main_v70 (Cert.ReferenceIdeal.Read.ridx_main_v71 (ix2 (0 : Fin 1) k) l) = ix2 k l := fun l =>
    funext fun a => Fin.ext (by match a with | ⟨0, _⟩ => rfl | ⟨1, _⟩ => rfl)
  have e3 : Cert.ReferenceIdeal.Read.idx_main_v72 (ix2 (0 : Fin 1) k) = ix1 k :=
    funext fun a => Fin.ext (by match a with | ⟨0, _⟩ => rfl)
  simp only [e1, e2, e3]
  rfl

/-- The reference's hidden gates at lane k likewise, from hidden row 1. -/
theorem ref_gh_b (x1 : (⟨S2x1x1024, .f32⟩ : BufTy).Contents (Elt Ideal))
    (x14 : (⟨S3072x1024, .f32⟩ : BufTy).Contents (Elt Ideal)) (x16 : (⟨S3072, .f32⟩ : BufTy).Contents (Elt Ideal)) (k : Fin 3072) :
    Cert.ReferenceIdeal.Read.val_main_v77 (F := Ideal) x1 x14 x16 (ix2 (0 : Fin 1) k)
      = gateRow (fun l => x1 (ix3 (1 : Fin 2) (0 : Fin 1) l)) x14 (fun k => x16 (ix1 k)) k := by
  rw [Cert.ReferenceIdeal.Read.val_main_v77_apply, Cert.ReferenceIdeal.Read.val_main_v75_apply, Cert.ReferenceIdeal.Read.val_main_v76_apply]
  unfold gateRow
  simp only [Cert.ReferenceIdeal.Read.val_main_v74_apply]
  have e1 : ∀ l : Fin 1024, Cert.ReferenceIdeal.Read.lidx_main_v75 (ix2 (0 : Fin 1) k) l = ix2 (0 : Fin 1) l := fun l =>
    funext fun a => Fin.ext (by match a with | ⟨0, _⟩ => rfl | ⟨1, _⟩ => rfl)
  have e2 : ∀ l : Fin 1024, Cert.ReferenceIdeal.Read.idx_main_v74 (Cert.ReferenceIdeal.Read.ridx_main_v75 (ix2 (0 : Fin 1) k) l) = ix2 k l := fun l =>
    funext fun a => Fin.ext (by match a with | ⟨0, _⟩ => rfl | ⟨1, _⟩ => rfl)
  have e3 : Cert.ReferenceIdeal.Read.idx_main_v76 (ix2 (0 : Fin 1) k) = ix1 k :=
    funext fun a => Fin.ext (by match a with | ⟨0, _⟩ => rfl)
  simp only [e1, e2, e3, ref_h_b]
  rfl

/-- The reference's new hidden lane is the GRU lane of its two gate rows: its logistic is spelt 1 / (1 + exp(−x)),
    which is the logistic of the extended reals by definition, and its literal 1.0 is 1. -/
theorem ref_out_b (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x13 x14 : (⟨S3072x1024, .f32⟩ : BufTy).Contents (Elt Ideal)) (x15 x16 : (⟨S3072, .f32⟩ : BufTy).Contents (Elt Ideal)) (q : Fin 1024) :
    Cert.ReferenceIdeal.Read.val_main_v105 (F := Ideal) x0 x1 x3 x4 x5 x6 x7 x8 x13 x14 x15 x16 (ix2 (0 : Fin 1) q)
      = gruLane 1 (fun k => Cert.ReferenceIdeal.Read.val_main_v73 (F := Ideal) x0 x1 x3 x4 x5 x6 x7 x8 x13 x15 (ix2 (0 : Fin 1) k))
          (fun k => Cert.ReferenceIdeal.Read.val_main_v77 (F := Ideal) x1 x14 x16 (ix2 (0 : Fin 1) k))
          (Cert.ReferenceIdeal.Read.val_main_v10 (F := Ideal) x1 (ix2 (0 : Fin 1) q)) q := by
  rw [Cert.ReferenceIdeal.Read.val_main_v105_apply,
    Cert.ReferenceIdeal.Read.val_main_v103_apply,
    Cert.ReferenceIdeal.Read.val_main_v104_apply,
    Cert.ReferenceIdeal.Read.val_main_v102_apply,
    Cert.ReferenceIdeal.Read.val_main_v101_apply,
    Cert.ReferenceIdeal.Read.val_main_cst_12_apply,
    Cert.ReferenceIdeal.Read.val_main_v100_apply,
    Cert.ReferenceIdeal.Read.val_main_v99_apply,
    Cert.ReferenceIdeal.Read.val_main_v98_apply,
    Cert.ReferenceIdeal.Read.val_main_v97_apply,
    Cert.ReferenceIdeal.Read.val_main_v96_apply,
    Cert.ReferenceIdeal.Read.val_main_cst_11_apply,
    Cert.ReferenceIdeal.Read.val_main_v95_apply,
    Cert.ReferenceIdeal.Read.val_main_v94_apply,
    Cert.ReferenceIdeal.Read.val_main_cst_10_apply,
    Cert.ReferenceIdeal.Read.val_main_v93_apply,
    Cert.ReferenceIdeal.Read.val_main_v92_apply,
    Cert.ReferenceIdeal.Read.val_main_v91_apply,
    Cert.ReferenceIdeal.Read.val_main_v90_apply,
    Cert.ReferenceIdeal.Read.val_main_v89_apply,
    Cert.ReferenceIdeal.Read.val_main_cst_9_apply,
    Cert.ReferenceIdeal.Read.val_main_v88_apply,
    Cert.ReferenceIdeal.Read.val_main_v87_apply,
    Cert.ReferenceIdeal.Read.val_main_cst_8_apply,
    Cert.ReferenceIdeal.Read.val_main_v86_apply,
    Cert.ReferenceIdeal.Read.val_main_v85_apply,
    Cert.ReferenceIdeal.Read.val_main_v84_apply,
    Cert.ReferenceIdeal.Read.val_main_v83_apply,
    Cert.ReferenceIdeal.Read.val_main_v82_apply,
    Cert.ReferenceIdeal.Read.val_main_v81_apply,
    Cert.ReferenceIdeal.Read.val_main_v80_apply,
    Cert.ReferenceIdeal.Read.val_main_v79_apply,
    Cert.ReferenceIdeal.Read.val_main_v78_apply]
  have i0 : Cert.ReferenceIdeal.Read.idx_main_v78 (ix2 (0 : Fin 1) q) = ix2 (0 : Fin 1) (lane0 q) :=
    funext fun a => Fin.ext (by match a with | ⟨0, _⟩ => rfl | ⟨1, _⟩ => rfl)
  have i1 : Cert.ReferenceIdeal.Read.idx_main_v79 (ix2 (0 : Fin 1) q) = ix2 (0 : Fin 1) (lane1 q) :=
    funext fun a => Fin.ext (by match a with | ⟨0, _⟩ => rfl | ⟨1, _⟩ => rfl)
  have i2 : Cert.ReferenceIdeal.Read.idx_main_v80 (ix2 (0 : Fin 1) q) = ix2 (0 : Fin 1) (lane2 q) :=
    funext fun a => Fin.ext (by match a with | ⟨0, _⟩ => rfl | ⟨1, _⟩ => rfl)
  have i3 : Cert.ReferenceIdeal.Read.idx_main_v81 (ix2 (0 : Fin 1) q) = ix2 (0 : Fin 1) (lane0 q) :=
    funext fun a => Fin.ext (by match a with | ⟨0, _⟩ => rfl | ⟨1, _⟩ => rfl)
  have i4 : Cert.ReferenceIdeal.Read.idx_main_v82 (ix2 (0 : Fin 1) q) = ix2 (0 : Fin 1) (lane1 q) :=
    funext fun a => Fin.ext (by match a with | ⟨0, _⟩ => rfl | ⟨1, _⟩ => rfl)
  have i5 : Cert.ReferenceIdeal.Read.idx_main_v83 (ix2 (0 : Fin 1) q) = ix2 (0 : Fin 1) (lane2 q) :=
    funext fun a => Fin.ext (by match a with | ⟨0, _⟩ => rfl | ⟨1, _⟩ => rfl)
  simp only [i0, i1, i2, i3, i4, i5, one_f32']
  rfl

/-- Lane q of the kernel's backward cell is lane q of the reference's: both are the GRU lane of the same two gate rows. -/
theorem gru_bridge_b (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x13 x14 : (⟨S3072x1024, .f32⟩ : BufTy).Contents (Elt Ideal)) (x15 x16 : (⟨S3072, .f32⟩ : BufTy).Contents (Elt Ideal))
    (h : (⟨S1x1x1024, .f32⟩ : BufTy).Contents (Elt Ideal))
    (hh : ∀ q : Fin 1024, h (ix3 (0 : Fin 1) (0 : Fin 1) q) = x1 (ix3 (1 : Fin 2) (0 : Fin 1) q))
    (bih bhh : (⟨S1x1x3072, .f32⟩ : BufTy).Contents (Elt Ideal))
    (hbih : ∀ k : Fin 3072, bih (ix3 (0 : Fin 1) (0 : Fin 1) k) = x15 (ix1 k))
    (hbhh : ∀ k : Fin 3072, bhh (ix3 (0 : Fin 1) (0 : Fin 1) k) = x16 (ix1 k)) (q : Fin 1024) :
    gruOut (val_main_v33 (F := Ideal) x0 x1 x3 x4 x5 x6 x7 x8) h x13 x14 bih bhh (ix3 (0 : Fin 1) (0 : Fin 1) q)
      = val_main_v105 (F := Ideal) x0 x1 x3 x4 x5 x6 x7 x8 x13 x14 x15 x16 (ix2 (0 : Fin 1) q) := by
  have hb1 : (fun k => bih (ix3 (0 : Fin 1) (0 : Fin 1) k)) = fun k => x15 (ix1 k) := funext hbih
  have hb2 : (fun k => bhh (ix3 (0 : Fin 1) (0 : Fin 1) k)) = fun k => x16 (ix1 k) := funext hbhh
  have hh' : (fun l => h (ix3 (0 : Fin 1) (0 : Fin 1) l)) = fun l => x1 (ix3 (1 : Fin 2) (0 : Fin 1) l) := funext hh
  have eg1 : (fun k => Cert.ReferenceIdeal.Read.val_main_v73 (F := Ideal) x0 x1 x3 x4 x5 x6 x7 x8 x13 x15 (ix2 (0 : Fin 1) k))
      = gateRow (fun l => val_main_v33 (F := Ideal) x0 x1 x3 x4 x5 x6 x7 x8 (ix2 (0 : Fin 1) l)) x13 (fun k => x15 (ix1 k)) :=
    funext fun k => ref_gi_b x0 x1 x3 x4 x5 x6 x7 x8 x13 x15 k
  have eg2 : (fun k => Cert.ReferenceIdeal.Read.val_main_v77 (F := Ideal) x1 x14 x16 (ix2 (0 : Fin 1) k))
      = gateRow (fun l => x1 (ix3 (1 : Fin 2) (0 : Fin 1) l)) x14 (fun k => x16 (ix1 k)) :=
    funext fun k => ref_gh_b x1 x14 x16 k
  rw [gruOut_apply, ref_out_b, one_f32, hb1, hb2, hh', hh q, eg1, eg2, ref_h_b]

end Cert.Bridge

end
-- ==== Proof.Bridge.Tail.lean ====
/-
  The reference's last stages read at an index: the GRU output row is the two new hidden rows side by side, the new
  hidden state the same two rows stacked, lane j of the logits is that row times row j of out_W plus lane j of out_b,
  and the returned log-probabilities are the log-softmax chain of the logits.
-/
import proofs.«412461_j6141803233582_3_alg».proof.Proof.KI.Dats
import proofs.«412461_j6141803233582_3_alg».proof.Proof.RefRead
import proofs.«412461_j6141803233582_3_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx

open Cert.ReferenceIdeal.Read (val_main_v69 val_main_v105 val_main_v106 val_main_v107 val_main_v108 val_main_v109
  val_main_v110 val_main_v111 val_main_v112 val_main_v113 val_main_v114
  val_main_v107_apply val_main_v108_apply val_main_v110_apply val_main_v111_apply val_main_v112_apply val_main_v113_apply
  idx_main_v107 idx_main_v108 idx_main_v110 lidx_main_v111 ridx_main_v111 idx_main_v112
  val_main_call1_cst val_main_call1_v0 val_main_call1_cst_0 val_main_call1_v1 val_main_call1_v2 val_main_call1_v3
  val_main_call1_v4 val_main_call1_v5 val_main_call1_v6 val_main_call1_cst_1 val_main_call1_v7 val_main_call1_v8
  val_main_call1_v9 val_main_call1_v10)

/-! ## Two rows side by side, two rows stacked: a two-piece concatenation read in either piece -/

section Pieces
variable {α : Type}

/-- Two rows of 1024 lanes side by side: a lane below 1024 is the first row's. -/
theorem cat_row_lo (h : Shape.Concatenates [S1x1024, S1x1024] S1x2048 1) (a b : S1x1024.Idx → α) (q : Fin 1024) :
    concatenate S1x2048 1 [⟨S1x1024, a⟩, ⟨S1x1024, b⟩] h (ix2 (0 : Fin 1) (⟨q.val, by omega⟩ : Fin 2048)) = a (ix2 (0 : Fin 1) q) :=
  concatenate_pair_apply_left (t := S1x2048) (s₁ := S1x1024) (s₂ := S1x1024) (1 : Fin 2) a b h _ rfl (ix2 (0 : Fin 1) q) (fun c => by
    match c with
    | ⟨0, _⟩ => rfl
    | ⟨1, _⟩ => rfl)

/-- Lane 1024 + q is the second row's lane q. -/
theorem cat_row_hi (h : Shape.Concatenates [S1x1024, S1x1024] S1x2048 1) (a b : S1x1024.Idx → α) (q : Fin 1024) :
    concatenate S1x2048 1 [⟨S1x1024, a⟩, ⟨S1x1024, b⟩] h (ix2 (0 : Fin 1) (⟨1024 + q.val, by omega⟩ : Fin 2048)) = b (ix2 (0 : Fin 1) q) :=
  concatenate_pair_apply_right (t := S1x2048) (s₁ := S1x1024) (s₂ := S1x1024) (1 : Fin 2) a b h _ rfl rfl (ix2 (0 : Fin 1) q)
    (fun c hc => by
      match c with
      | ⟨0, _⟩ => rfl
      | ⟨1, _⟩ => exact absurd rfl hc)
    (by show q.val + 1024 = 1024 + q.val; omega)

/-- Two [1, 1, 1024] blocks stacked along the leading axis: block 0 is the first, -/
theorem cat_stack_0 (h : Shape.Concatenates [S1x1x1024, S1x1x1024] S2x1x1024 0) (a b : S1x1x1024.Idx → α) (q : Fin 1024) :
    concatenate S2x1x1024 0 [⟨S1x1x1024, a⟩, ⟨S1x1x1024, b⟩] h (ix3 (0 : Fin 2) (0 : Fin 1) q) = a (ix3 (0 : Fin 1) (0 : Fin 1) q) :=
  concatenate_pair_apply_left (t := S2x1x1024) (s₁ := S1x1x1024) (s₂ := S1x1x1024) (0 : Fin 3) a b h _ rfl (ix3 (0 : Fin 1) (0 : Fin 1) q) (fun c => by
    match c with
    | ⟨0, _⟩ => rfl
    | ⟨1, _⟩ => rfl
    | ⟨2, _⟩ => rfl)

/-- block 1 the second. -/
theorem cat_stack_1 (h : Shape.Concatenates [S1x1x1024, S1x1x1024] S2x1x1024 0) (a b : S1x1x1024.Idx → α) (q : Fin 1024) :
    concatenate S2x1x1024 0 [⟨S1x1x1024, a⟩, ⟨S1x1x1024, b⟩] h (ix3 (1 : Fin 2) (0 : Fin 1) q) = b (ix3 (0 : Fin 1) (0 : Fin 1) q) :=
  concatenate_pair_apply_right (t := S2x1x1024) (s₁ := S1x1x1024) (s₂ := S1x1x1024) (0 : Fin 3) a b h _ rfl rfl (ix3 (0 : Fin 1) (0 : Fin 1) q)
    (fun c hc => by
      match c with
      | ⟨0, _⟩ => exact absurd rfl hc
      | ⟨1, _⟩ => rfl
      | ⟨2, _⟩ => rfl)
    (by show 0 + 1 = 1; rfl)

end Pieces

/-! ## The GRU output row and the new hidden state -/

/-- The first 1024 lanes of the GRU output row are the forward direction's new hidden row, -/
theorem gout_lo (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal)) (q : Fin 1024) :
    val_main_v106 (F := Ideal) x0 x1 x3 x4 x5 x6 x7 x8 x9 x10 x11 x12 x13 x14 x15 x16 (ix2 (0 : Fin 1) (⟨q.val, by omega⟩ : Fin 2048))
      = val_main_v69 (F := Ideal) x0 x1 x3 x4 x5 x6 x7 x8 x9 x10 x11 x12 (ix2 (0 : Fin 1) q) := by
  unfold val_main_v106
  exact cat_row_lo _ _ _ q
/-- the last 1024 the backward direction's. -/
theorem gout_hi (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal)) (q : Fin 1024) :
    val_main_v106 (F := Ideal) x0 x1 x3 x4 x5 x6 x7 x8 x9 x10 x11 x12 x13 x14 x15 x16 (ix2 (0 : Fin 1) (⟨1024 + q.val, by omega⟩ : Fin 2048))
      = val_main_v105 (F := Ideal) x0 x1 x3 x4 x5 x6 x7 x8 x13 x14 x15 x16 (ix2 (0 : Fin 1) q) := by
  unfold val_main_v106
  exact cat_row_hi _ _ _ q

/-- A [1, 1024] row viewed as a [1, 1, 1024] block: block entry (0, 0, q) is row entry (0, q). -/
theorem idx_v107_ix (q : Fin 1024) : idx_main_v107 (ix3 (0 : Fin 1) (0 : Fin 1) q) = ix2 (0 : Fin 1) q :=
  funext fun a => Fin.ext (by
    match a with
    | ⟨0, _⟩ => rfl
    | ⟨1, _⟩ => rfl)
theorem idx_v108_ix (q : Fin 1024) : idx_main_v108 (ix3 (0 : Fin 1) (0 : Fin 1) q) = ix2 (0 : Fin 1) q :=
  funext fun a => Fin.ext (by
    match a with
    | ⟨0, _⟩ => rfl
    | ⟨1, _⟩ => rfl)

/-- Row 0 of the new hidden state is the forward direction's new hidden row, row 1 the backward direction's. -/
theorem hid_row0 (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal)) (q : Fin 1024) :
    val_main_v109 (F := Ideal) x0 x1 x3 x4 x5 x6 x7 x8 x9 x10 x11 x12 x13 x14 x15 x16 (ix3 (0 : Fin 2) (0 : Fin 1) q) = val_main_v69 (F := Ideal) x0 x1 x3 x4 x5 x6 x7 x8 x9 x10 x11 x12 (ix2 (0 : Fin 1) q) := by
  unfold val_main_v109
  rw [cat_stack_0 _ _ _ q, val_main_v107_apply, idx_v107_ix]
theorem hid_row1 (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal)) (q : Fin 1024) :
    val_main_v109 (F := Ideal) x0 x1 x3 x4 x5 x6 x7 x8 x9 x10 x11 x12 x13 x14 x15 x16 (ix3 (1 : Fin 2) (0 : Fin 1) q) = val_main_v105 (F := Ideal) x0 x1 x3 x4 x5 x6 x7 x8 x13 x14 x15 x16 (ix2 (0 : Fin 1) q) := by
  unfold val_main_v109
  rw [cat_stack_1 _ _ _ q, val_main_v108_apply, idx_v108_ix]

/-! ## The logits -/

/-- The operands of the output projection's contraction at lane j, step k: the GRU output row at k, -/
theorem lidx_v111_ix (j : Fin 50257) (k : Fin 2048) : lidx_main_v111 (ix2 (0 : Fin 1) j) k = ix2 (0 : Fin 1) k :=
  funext fun a => Fin.ext (by
    match a with
    | ⟨0, _⟩ => rfl
    | ⟨1, _⟩ => rfl)
/-- and, through the transposition, out_W at (j, k); -/
theorem ridx_v111_ix (j : Fin 50257) (k : Fin 2048) : idx_main_v110 (ridx_main_v111 (ix2 (0 : Fin 1) j) k) = ix2 j k :=
  funext fun a => Fin.ext (by
    match a with
    | ⟨0, _⟩ => rfl
    | ⟨1, _⟩ => rfl)
/-- the bias row broadcast along the leading axis reads out_b at j. -/
theorem idx_v112_ix (j : Fin 50257) : idx_main_v112 (ix2 (0 : Fin 1) j) = ix1 j :=
  funext fun a => Fin.ext (by
    match a with
    | ⟨0, _⟩ => rfl)

/-- Lane j of the logits: the GRU output row times row j of out_W, plus lane j of out_b. -/
theorem logits_lane (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal))
    (x17 : (⟨S50257x2048, .f32⟩ : BufTy).Contents (Elt Ideal)) (x18 : (⟨S50257, .f32⟩ : BufTy).Contents (Elt Ideal)) (j : Fin 50257) :
    val_main_v113 (F := Ideal) x0 x1 x3 x4 x5 x6 x7 x8 x9 x10 x11 x12 x13 x14 x15 x16 x17 x18 (ix2 (0 : Fin 1) j)
      = (∑ k : Fin 2048, val_main_v106 (F := Ideal) x0 x1 x3 x4 x5 x6 x7 x8 x9 x10 x11 x12 x13 x14 x15 x16 (ix2 (0 : Fin 1) k) * x17 (ix2 j k)) + x18 (ix1 j) := by
  rw [val_main_v113_apply, val_main_v111_apply, val_main_v112_apply, idx_v112_ix, Ideal.addf_def]
  refine congrArg (· + _) (Finset.sum_congr rfl fun k _ => ?_)
  rw [val_main_v110_apply, lidx_v111_ix, ridx_v111_ix]

/-! ## The log-softmax chain -/

/-- The row's maximum, from −∞: the fold of the maximum over the row, then the maximum with −∞ once more. -/
def rMax (z : (⟨S1x50257, .f32⟩ : BufTy).Contents (Elt Ideal)) : (⟨S1, .f32⟩ : BufTy).Contents (Elt Ideal) :=
  maximumf (F := Ideal) (φ := .f32)
    (broadcastInDim S1 ![] Cert.ReferenceIdeal.Gen.bcast_S_S1 (constant (F := Ideal) S_ .f32 0xFF800000#32))
    (Host.reduce (FloatOps.maximumf (F := Ideal) (φ := .f32)) z (constant (F := Ideal) S_ .f32 0xFF800000#32)
      Cert.ReferenceIdeal.Gen.reducesTo_S1x50257_S1_d1 Cert.ReferenceIdeal.Gen.h_S_)

/-- The row less its maximum (the maximum spread back over the row in two steps). -/
def rShift (z : (⟨S1x50257, .f32⟩ : BufTy).Contents (Elt Ideal)) : (⟨S1x50257, .f32⟩ : BufTy).Contents (Elt Ideal) :=
  subf (F := Ideal) (φ := .f32) z
    (broadcastInDim S1x50257 ![0, 1] Cert.ReferenceIdeal.Gen.bcast_S1x1_S1x50257_0_1
      (broadcastInDim S1x1 ![0] Cert.ReferenceIdeal.Gen.bcast_S1_S1x1_0 (rMax z)))

/-- The log-softmax chain as one function of the logits row: maximum over the row, subtract, exponential, sum, log,
    subtract — the reference's last fifteen operations, operands in program order. -/
def rTail (z : (⟨S1x50257, .f32⟩ : BufTy).Contents (Elt Ideal)) : (⟨S1x50257, .f32⟩ : BufTy).Contents (Elt Ideal) :=
  subf (F := Ideal) (φ := .f32) (rShift z)
    (broadcastInDim S1x50257 ![0, 1] Cert.ReferenceIdeal.Gen.bcast_S1x1_S1x50257_0_1
      (Host.log (F := Ideal) (φ := .f32)
        (broadcastInDim S1x1 ![0] Cert.ReferenceIdeal.Gen.bcast_S1_S1x1_0
          (Host.reduceAdd (F := Ideal) (φ := .f32) (Host.exp (F := Ideal) (φ := .f32) (rShift z)) (constant (F := Ideal) S_ .f32 0x00000000#32)
            Cert.ReferenceIdeal.Gen.reducesTo_S1x50257_S1_d1 Cert.ReferenceIdeal.Gen.h_S_))))

/-- The reference's returned log-probabilities are that chain of its logits. -/
theorem tail_eq (x0 : (⟨S1, .i32⟩ : BufTy).Contents (Elt Ideal)) (x1 : (⟨S2x1x1024, .f32⟩ : BufTy).Contents (Elt Ideal))
    (x3 : (⟨S64x2048, .f32⟩ : BufTy).Contents (Elt Ideal)) (x4 : (⟨S50257x1024, .f32⟩ : BufTy).Contents (Elt Ideal))
    (x5 : (⟨S64x3072, .f32⟩ : BufTy).Contents (Elt Ideal)) (x6 : (⟨S64, .f32⟩ : BufTy).Contents (Elt Ideal))
    (x7 : (⟨S1024x3072, .f32⟩ : BufTy).Contents (Elt Ideal)) (x8 : (⟨S1024, .f32⟩ : BufTy).Contents (Elt Ideal))
    (x9 x10 : (⟨S3072x1024, .f32⟩ : BufTy).Contents (Elt Ideal)) (x11 x12 : (⟨S3072, .f32⟩ : BufTy).Contents (Elt Ideal))
    (x13 x14 : (⟨S3072x1024, .f32⟩ : BufTy).Contents (Elt Ideal)) (x15 x16 : (⟨S3072, .f32⟩ : BufTy).Contents (Elt Ideal))
    (x17 : (⟨S50257x2048, .f32⟩ : BufTy).Contents (Elt Ideal)) (x18 : (⟨S50257, .f32⟩ : BufTy).Contents (Elt Ideal)) :
    val_main_v114 (F := Ideal) x0 x1 x3 x4 x5 x6 x7 x8 x9 x10 x11 x12 x13 x14 x15 x16 x17 x18 = rTail (val_main_v113 (F := Ideal) x0 x1 x3 x4 x5 x6 x7 x8 x9 x10 x11 x12 x13 x14 x15 x16 x17 x18) := by
  unfold val_main_v114 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst rTail rShift rMax
  generalize val_main_v113 (F := Ideal) x0 x1 x3 x4 x5 x6 x7 x8 x9 x10 x11 x12 x13 x14 x15 x16 x17 x18 = z
  rfl

end Cert.Bridge

end
-- ==== Proof.Bridge.KV.lean ====
/-
  The kernel program's results as the reference's stage functions of the same argument arrays. The attention
  distribution: region 0's first output array is the kernel's attention arithmetic of the embedding row, the two hidden
  rows, the attention weights and the reshaped bias, which are the reference's own stage values, and the reference's
  attention stage is that arithmetic. The new hidden state: row d of region 1's output array is direction d's GRU cell
  of the combined input row (region 0's second output, the reference's rectified combined row), row d of the hidden
  state, direction d's two weight matrices and row d of the two stacked biases (lane k of a stacked bias row is lane k
  of the bias vector it was built from), which is the reference's new hidden row of that direction; the reference's
  new hidden state is the two rows stacked.
-/
import proofs.«412461_j6141803233582_3_alg».proof.Proof.KI.Fold
import proofs.«412461_j6141803233582_3_alg».proof.Proof.KI.HostVals
import proofs.«412461_j6141803233582_3_alg».proof.Proof.KI.Val0
import proofs.«412461_j6141803233582_3_alg».proof.Proof.KI.Val1
import proofs.«412461_j6141803233582_3_alg».proof.Proof.Bridge.Attn
import proofs.«412461_j6141803233582_3_alg».proof.Proof.Bridge.Gru
import proofs.«412461_j6141803233582_3_alg».proof.Proof.Bridge.Tail
import proofs.«412461_j6141803233582_3_alg».proof.Proof.RefRead
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.Bridge
open Cert.KernelIdeal Cert.KernelIdeal.Gen Cert.KernelIdeal.Hand
open Idealize.ShloMosaic Idealize.ShloMosaic.TcCoe Idealize.ShloMosaic.ValueIdx Idealize.SL.Sem
open Cert.ReferenceIdeal.Read (val_main_v6 val_main_v8 val_main_v10 val_main_v26 val_main_v33 val_main_v69 val_main_v105 val_main_v109)

variable (m : (ℓ : Loc nD τ sig) → Buf (Elt Ideal) ℓ)

/-- The kernel program's embedding row and two hidden rows are the reference's: the same operations of the same arguments. -/
theorem kv_emb_eq (a0 : (⟨S1, .i32⟩ : BufTy).Contents (Elt Ideal)) (a4 : (⟨S50257x1024, .f32⟩ : BufTy).Contents (Elt Ideal)) :
    kEmb a0 a4 = val_main_v6 (F := Ideal) a0 a4 := rfl
theorem kv_h0_eq (a1 : (⟨S2x1x1024, .f32⟩ : BufTy).Contents (Elt Ideal)) : kH0 a1 = val_main_v8 (F := Ideal) a1 := rfl
theorem kv_h1_eq (a1 : (⟨S2x1x1024, .f32⟩ : BufTy).Contents (Elt Ideal)) : kH1 a1 = val_main_v10 (F := Ideal) a1 := rfl

/-- A vector of n lanes reshaped to one row of n lanes reads the vector's lane. -/
theorem kv_row64 (x : (⟨S64, .f32⟩ : BufTy).Contents (Elt Ideal)) (j : Fin 64) :
    (shapeCast S1x64 x shapeCasts_S64_S1x64) (ix2 (0 : Fin 1) j) = x (ix1 j) :=
  shapeCast_apply _ shapeCasts_S64_S1x64 _ _ (by rw [Shape.rowMajor_val_two, Shape.rowMajor_val_one]; show j.val = 0 * 64 + j.val; omega)
theorem kv_row1024 (x : (⟨S1024, .f32⟩ : BufTy).Contents (Elt Ideal)) (j : Fin 1024) :
    (shapeCast S1x1024 x shapeCasts_S1024_S1x1024) (ix2 (0 : Fin 1) j) = x (ix1 j) :=
  shapeCast_apply _ shapeCasts_S1024_S1x1024 _ _ (by rw [Shape.rowMajor_val_two, Shape.rowMajor_val_one]; show j.val = 0 * 1024 + j.val; omega)
theorem kv_row3072 (x : (⟨S3072, .f32⟩ : BufTy).Contents (Elt Ideal)) (j : Fin 3072) :
    (shapeCast S1x3072 x shapeCasts_S3072_S1x3072) (ix2 (0 : Fin 1) j) = x (ix1 j) :=
  shapeCast_apply _ shapeCasts_S3072_S1x3072 _ _ (by rw [Shape.rowMajor_val_two, Shape.rowMajor_val_one]; show j.val = 0 * 3072 + j.val; omega)

/-- THE ATTENTION DISTRIBUTION the kernel program returns is the reference's. -/
theorem kv_attn (c : Dev nD) :
    W7 m c (Proc.devRef .tc main_v13_0)
      = val_main_v26 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  rw [W7_v13_0, arrAt0_8, V1_v10, V1_v1, V1_v3, V1_arg5, V1_v11, kv_emb_eq, kv_h0_eq, kv_h1_eq]
  exact (attn_bridge _ _ _ _ _ _ (fun j => kv_row64 _ j)).symm

/-- The GRU's input row as region 1 finds it is the reference's rectified combined row. -/
theorem kv_x_row (c : Dev nD) : V3 m c main_v13_1 = val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [V3_v13_1, arrAt0_9, V1_v10, V1_v1, V1_v3, V1_arg5, V1_v11, V1_arg3, V1_arg7, V1_v12, kv_emb_eq, kv_h0_eq, kv_h1_eq]
  exact (comb_bridge _ _ _ _ _ _ _ _ _ (fun j => kv_row64 _ j) _ (fun q => kv_row1024 _ q)).symm

/-- The two bias vectors, each reshaped to a row, broadcast to a 1×1×3072 block and stacked: row d of the stack at lane k
    is lane k of the d-th vector. -/
theorem kv_bias0 (x y : (⟨S3072, .f32⟩ : BufTy).Contents (Elt Ideal)) (k : Fin 3072) :
    (concatenate S2x1x3072 0 [⟨S1x1x3072, broadcastInDim S1x1x3072 ![1, 2] bcast_S1x3072_S1x1x3072_1_2 (shapeCast _ x shapeCasts_S3072_S1x3072)⟩,
        ⟨S1x1x3072, broadcastInDim S1x1x3072 ![1, 2] bcast_S1x3072_S1x1x3072_1_2 (shapeCast _ y shapeCasts_S3072_S1x3072)⟩]
        concatenates_S1x1x3072_S1x1x3072_S2x1x3072_d0 : (⟨S2x1x3072, .f32⟩ : BufTy).Contents (Elt Ideal)) (ix3 (0 : Fin 2) (0 : Fin 1) k) = x (ix1 k) := by
  refine (concatenate_pair_apply_left (t := S2x1x3072) (s₁ := S1x1x3072) (s₂ := S1x1x3072) (0 : Fin 3) _ _ concatenates_S1x1x3072_S1x1x3072_S2x1x3072_d0
      (ix3 (0 : Fin 2) (0 : Fin 1) k) rfl (ix3 (0 : Fin 1) (0 : Fin 1) k)
      (fun b => by match b with | ⟨0, _⟩ => rfl | ⟨1, _⟩ => rfl | ⟨2, _⟩ => rfl)).trans ?_
  refine (broadcastInDim_apply (s := S1x3072) (t := S1x1x3072) ![1, 2] bcast_S1x3072_S1x1x3072_1_2 _ (ix3 (0 : Fin 1) (0 : Fin 1) k) (ix2 (0 : Fin 1) k)
      (fun b => by match b with | ⟨0, _⟩ => rfl | ⟨1, _⟩ => rfl)).trans ?_
  exact kv_row3072 x k
theorem kv_bias1 (x y : (⟨S3072, .f32⟩ : BufTy).Contents (Elt Ideal)) (k : Fin 3072) :
    (concatenate S2x1x3072 0 [⟨S1x1x3072, broadcastInDim S1x1x3072 ![1, 2] bcast_S1x3072_S1x1x3072_1_2 (shapeCast _ x shapeCasts_S3072_S1x3072)⟩,
        ⟨S1x1x3072, broadcastInDim S1x1x3072 ![1, 2] bcast_S1x3072_S1x1x3072_1_2 (shapeCast _ y shapeCasts_S3072_S1x3072)⟩]
        concatenates_S1x1x3072_S1x1x3072_S2x1x3072_d0 : (⟨S2x1x3072, .f32⟩ : BufTy).Contents (Elt Ideal)) (ix3 (1 : Fin 2) (0 : Fin 1) k) = y (ix1 k) := by
  refine (concatenate_pair_apply_right (t := S2x1x3072) (s₁ := S1x1x3072) (s₂ := S1x1x3072) (0 : Fin 3) _ _ concatenates_S1x1x3072_S1x1x3072_S2x1x3072_d0
      (ix3 (1 : Fin 2) (0 : Fin 1) k) rfl rfl (ix3 (0 : Fin 1) (0 : Fin 1) k)
      (fun b hb => by match b, hb with | ⟨0, _⟩, hb => exact absurd rfl hb | ⟨1, _⟩, _ => rfl | ⟨2, _⟩, _ => rfl) rfl).trans ?_
  refine (broadcastInDim_apply (s := S1x3072) (t := S1x1x3072) ![1, 2] bcast_S1x3072_S1x1x3072_1_2 _ (ix3 (0 : Fin 1) (0 : Fin 1) k) (ix2 (0 : Fin 1) k)
      (fun b => by match b with | ⟨0, _⟩ => rfl | ⟨1, _⟩ => rfl)).trans ?_
  exact kv_row3072 y k

/-- REGION 1'S OUTPUT ARRAY, ROW BY ROW, is the reference's two new hidden rows. -/
theorem hid_rows (c : Dev nD) (q : Fin 1024) :
    (((dat1 (V3 m) c).arrAt 4 cfg1.N : (⟨S2x1x1024, .f32⟩ : BufTy).Contents (Elt Ideal)) (ix3 (0 : Fin 2) (0 : Fin 1) q)
        = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 (0 : Fin 1) q))
    ∧ (((dat1 (V3 m) c).arrAt 4 cfg1.N : (⟨S2x1x1024, .f32⟩ : BufTy).Contents (Elt Ideal)) (ix3 (1 : Fin 2) (0 : Fin 1) q)
        = val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (ix2 (0 : Fin 1) q)) := by
  constructor
  · have hw : wihDir (V3 m) c (0 : Fin 2) = (m ((c : Thread nD τ).loc main_arg9)) := by unfold wihDir; exact (if_pos rfl).trans (V3_arg9 m c)
    have hu : whhDir (V3 m) c (0 : Fin 2) = (m ((c : Thread nD τ).loc main_arg10)) := by unfold whhDir; exact (if_pos rfl).trans (V3_arg10 m c)
    rw [arrAt1_4 (V3 m) c (0 : Fin 2) q, kv_x_row, hw, hu, V3_arg1, V3_v18, V3_v23]
    exact gru_bridge_f _ _ _ _ _ _ _ _ _ _ _ _ _ (fun _ => rfl) _ _ (fun k => kv_bias0 _ _ k) (fun k => kv_bias0 _ _ k) q
  · have hw : wihDir (V3 m) c (1 : Fin 2) = (m ((c : Thread nD τ).loc main_arg13)) := by unfold wihDir; exact (if_neg (by decide)).trans (V3_arg13 m c)
    have hu : whhDir (V3 m) c (1 : Fin 2) = (m ((c : Thread nD τ).loc main_arg14)) := by unfold whhDir; exact (if_neg (by decide)).trans (V3_arg14 m c)
    rw [arrAt1_4 (V3 m) c (1 : Fin 2) q, kv_x_row, hw, hu, V3_arg1, V3_v18, V3_v23]
    exact gru_bridge_b _ _ _ _ _ _ _ _ _ _ _ _ _ (fun _ => rfl) _ _ (fun k => kv_bias1 _ _ k) (fun k => kv_bias1 _ _ k) q

/-- THE NEW HIDDEN STATE the kernel program returns is the reference's. -/
theorem kv_hid (c : Dev nD) :
    W7 m c (Proc.devRef .tc main_v24) = val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W7_v24]
  funext i
  obtain ⟨d, z, q, rfl⟩ : ∃ (d : Fin 2) (z : Fin 1) (q : Fin 1024), i = ix3 d z q := ⟨i 0, i 1, i 2, eq_ix3 i⟩
  obtain rfl : z = 0 := Subsingleton.elim _ _
  match d with
  | ⟨0, _⟩ => exact ((hid_rows m c q).1).trans (hid_row0 _ _ _ _ _ _ _ _ _ _ _ _ _ _ _ _ q).symm
  | ⟨1, _⟩ => exact ((hid_rows m c q).2).trans (hid_row1 _ _ _ _ _ _ _ _ _ _ _ _ _ _ _ _ q).symm
end Cert.Bridge

end
-- ==== Proof.KI.Val2.lean ====
/-
  Region 2 over the extended reals: its 33 tiles, the last cut at the array's end, cover the 50257 lanes of the
  logits row, and lane j of the row is the GRU output row times row j of out_W, plus lane j of the bias row.
-/
import proofs.«412461_j6141803233582_3_alg».proof.Proof.Gen.KernelIdeal.Launch
import proofs.«412461_j6141803233582_3_alg».proof.Proof.Gen.KernelIdeal.Skeleton
import proofs.«412461_j6141803233582_3_alg».proof.Proof.Gen.KernelIdeal.Points
import proofs.«412461_j6141803233582_3_alg».proof.Proof.KI.Dats
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open ValueIdx

/-- The three entry arrays of region 2 at their literal types: the GRU output row, out_W, and the bias row. -/
abbrev gRow (V : Valn Ideal) (c : Dev nD) : (⟨S1x2048, .f32⟩ : BufTy).Contents (Elt Ideal) := V c main_v29
abbrev outW (V : Valn Ideal) (c : Dev nD) : (⟨S50257x2048, .f32⟩ : BufTy).Contents (Elt Ideal) := V c main_arg17
abbrev outB (V : Valn Ideal) (c : Dev nD) : (⟨S1x50257, .f32⟩ : BufTy).Contents (Elt Ideal) := V c main_v30
/-- Region 2's output array at its literal type. -/
abbrev logitsArr (V : Valn Ideal) (c : Dev nD) : (⟨S1x50257, .f32⟩ : BufTy).Contents (Elt Ideal) := (dat2 V c).arrAt 3 cfg2.N

/-! ## One lane of one tile: the row times a row of the tile, plus the bias lane -/

theorem lhs_proj_0 (i : S1x1536.Idx) (q : dot_S1x2048_S1536x2048_S1x1536_1_1_0_0_n_n.contr.Idx) :
    (dot_S1x2048_S1536x2048_S1x1536_1_1_0_0_n_n.lhsIdx i q 0).val = (i 0).val := by
  unfold DotDims.lhsIdx
  rw [dif_neg (show ¬(0 : Fin S1x2048.rank) ∈ dot_S1x2048_S1536x2048_S1x1536_1_1_0_0_n_n.lhsBatch by decide), dif_pos (show (0 : Fin S1x2048.rank) ∈ dot_S1x2048_S1536x2048_S1x1536_1_1_0_0_n_n.lhsNonContracting by decide)]
  rfl
theorem lhs_proj_1 (i : S1x1536.Idx) (q : dot_S1x2048_S1536x2048_S1x1536_1_1_0_0_n_n.contr.Idx) :
    (dot_S1x2048_S1536x2048_S1x1536_1_1_0_0_n_n.lhsIdx i q 1).val = (q ⟨0, by decide⟩).val :=
  dot_S1x2048_S1536x2048_S1x1536_1_1_0_0_n_n.lhsIdx_val_of_single rfl i q
theorem rhs_proj_0 (i : S1x1536.Idx) (q : dot_S1x2048_S1536x2048_S1x1536_1_1_0_0_n_n.contr.Idx) :
    (dot_S1x2048_S1536x2048_S1x1536_1_1_0_0_n_n.rhsIdx i q 0).val = (i 1).val := by
  unfold DotDims.rhsIdx
  rw [dif_neg (show ¬(0 : Fin S1536x2048.rank) ∈ dot_S1x2048_S1536x2048_S1x1536_1_1_0_0_n_n.rhsBatch by decide), dif_pos (show (0 : Fin S1536x2048.rank) ∈ dot_S1x2048_S1536x2048_S1x1536_1_1_0_0_n_n.rhsNonContracting by decide)]
  rfl
theorem rhs_proj_1 (i : S1x1536.Idx) (q : dot_S1x2048_S1536x2048_S1x1536_1_1_0_0_n_n.contr.Idx) :
    (dot_S1x2048_S1536x2048_S1x1536_1_1_0_0_n_n.rhsIdx i q 1).val = (q ⟨0, by decide⟩).val :=
  dot_S1x2048_S1536x2048_S1x1536_1_1_0_0_n_n.rhsIdx_val_of_single rfl i q

/-- Lane q of a tile's projection: the sum over the 2048 features of the row's entry times the tile's entry in row q,
    plus the bias at lane q. The format changes are the identity on extended reals, the two shape casts keep the
    shape, and the product accumulates into the zero splat. -/
theorem projOut_apply (g : Vec Ideal S1x2048 .f32) (w : Vec Ideal S1536x2048 .f32) (b : Vec Ideal S1x1536 .f32) (q : Fin 1536) :
    projOut g w b (ix2 (0 : Fin 1) q)
      = (∑ k : Fin 2048, g (ix2 (0 : Fin 1) k) * w (ix2 q k)) + b (ix2 (0 : Fin 1) q) := by
  unfold projOut k2_pay1
  rw [shapeCast_self, shapeCast_self]
  rw [addf_apply]
  simp only [matmul]
  rw [Ideal.matmul_constant_zero_apply, ← Equiv.sum_comp (contrEquiv1 dot_S1x2048_S1536x2048_S1x1536_1_1_0_0_n_n 2048 rfl rfl).symm]
  refine congrArg (· + b (ix2 (0 : Fin 1) q)) (Finset.sum_congr rfl fun k _ => ?_)
  have hk := contrEquiv1_symm_val dot_S1x2048_S1536x2048_S1x1536_1_1_0_0_n_n 2048 rfl rfl k
  have el : dot_S1x2048_S1536x2048_S1x1536_1_1_0_0_n_n.lhsIdx (ix2 (0 : Fin 1) q) ((contrEquiv1 dot_S1x2048_S1536x2048_S1x1536_1_1_0_0_n_n 2048 rfl rfl).symm k) = ix2 (0 : Fin 1) k := funext fun a => Fin.ext (by
    match a with
    | ⟨0, _⟩ => exact lhs_proj_0 _ _
    | ⟨1, _⟩ => exact (lhs_proj_1 _ _).trans hk)
  have er : dot_S1x2048_S1536x2048_S1x1536_1_1_0_0_n_n.rhsIdx (ix2 (0 : Fin 1) q) ((contrEquiv1 dot_S1x2048_S1536x2048_S1x1536_1_1_0_0_n_n 2048 rfl rfl).symm k) = ix2 q k := funext fun a => Fin.ext (by
    match a with
    | ⟨0, _⟩ => exact rhs_proj_0 _ _
    | ⟨1, _⟩ => exact (rhs_proj_1 _ _).trans hk)
  show g _ * w _ = _
  rw [el, er]

/-! ## The printed index maps over the 33 tiles -/

/-- Over the grid: the row's window stays at block 0; tile t of out_W starts at row 1536·t, tile t of the bias and of
    the logits at lane 1536·t; each is cut to the lanes inside the vocabulary (1536, or 1105 at the last tile). -/
theorem grid_facts2 : ∀ t : Fin cfg2.N, t.val < 33
    ∧ win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = min 1536 (50257 - 1536 * t.val) ∧ win2_1.xsize (grid2.coords t) (1 : Fin 2) = 2048
    ∧ win2_2.xsize (grid2.coords t) (0 : Fin 2) = 1 ∧ win2_2.xsize (grid2.coords t) (1 : Fin 2) = min 1536 (50257 - 1536 * t.val)
    ∧ win2_3.xsize (grid2.coords t) (0 : Fin 2) = 1 ∧ win2_3.xsize (grid2.coords t) (1 : Fin 2) = min 1536 (50257 - 1536 * t.val) :=
  (by decide +kernel : ∀ t : Fin grid2.N, _)

/-! ## What the staged blocks read, lane by lane -/

/-- The row's window holds the whole GRU output row at every tile. -/
theorem row_blk_apply (V : Valn Ideal) (c : Dev nD) (t : Fin cfg2.N) (k : Fin 2048) :
    iblk2 V c 0 t (ix2 (0 : Fin 1) k) = gRow V c (ix2 (0 : Fin 1) k) := by
  obtain ⟨ht, a0, a1, -⟩ := grid_facts2 t
  show V c main_v29 ((win2_0.blk t).view.emb (ix2 (0 : Fin 1) k)) = V c main_v29 (ix2 (0 : Fin 1) k)
  congr 1
  funext a; apply Fin.ext
  match a with
  | ⟨0, _⟩ => show win2_0.index t (0 : Fin 2) * 1 + 1 * 0 = 0; omega
  | ⟨1, _⟩ => show win2_0.index t (1 : Fin 2) * 2048 + 1 * k.val = k.val; omega

/-- Row q of tile t of out_W, inside the matrix, is row 1536·t + q of out_W. -/
theorem wfill_apply (V : Valn Ideal) (c : Dev nD) (t : Fin cfg2.N) (q : Fin 1536) (k : Fin 2048)
    (h : 1536 * t.val + q.val < 50257) :
    wfill V c t (ix2 q k) = outW V c (ix2 (⟨1536 * t.val + q.val, h⟩ : Fin 50257) k) := by
  obtain ⟨ht, -, -, b0, b1, -, -, -, -, x0, x1, -⟩ := grid_facts2 t
  have hq : q.val < 1536 := q.isLt
  have hk : k.val < 2048 := k.isLt
  have hm : win2_1.moved (grid2.coords t) (ix2 q k) = true := (win2_1.moved_iff _ _).mpr fun a => by
    match a with
    | ⟨0, _⟩ => show q.val < win2_1.xsize (grid2.coords t) (0 : Fin 2); omega
    | ⟨1, _⟩ => show k.val < win2_1.xsize (grid2.coords t) (1 : Fin 2); omega
  unfold wfill Window.fill
  rw [dif_pos hm]
  unfold wblk
  show V c main_arg17 ((win2_1.blk t).view.emb _) = V c main_arg17 _
  congr 1
  funext a; apply Fin.ext
  match a with
  | ⟨0, _⟩ => show win2_1.index t (0 : Fin 2) * 1536 + 1 * q.val = 1536 * t.val + q.val; omega
  | ⟨1, _⟩ => show win2_1.index t (1 : Fin 2) * 2048 + 1 * k.val = k.val; omega

/-- Lane q of tile t of the bias row, inside the row, is lane 1536·t + q of the bias row. -/
theorem bfill_apply (V : Valn Ideal) (c : Dev nD) (t : Fin cfg2.N) (q : Fin 1536)
    (h : 1536 * t.val + q.val < 50257) :
    bfill V c t (ix2 (0 : Fin 1) q) = outB V c (ix2 (0 : Fin 1) (⟨1536 * t.val + q.val, h⟩ : Fin 50257)) := by
  obtain ⟨ht, -, -, -, -, b0, b1, -, -, -, -, x0, x1, -⟩ := grid_facts2 t
  have hq : q.val < 1536 := q.isLt
  have hm : win2_2.moved (grid2.coords t) (ix2 (0 : Fin 1) q) = true := (win2_2.moved_iff _ _).mpr fun a => by
    match a with
    | ⟨0, _⟩ => show 0 < win2_2.xsize (grid2.coords t) (0 : Fin 2); omega
    | ⟨1, _⟩ => show q.val < win2_2.xsize (grid2.coords t) (1 : Fin 2); omega
  unfold bfill Window.fill
  rw [dif_pos hm]
  unfold bblk
  show V c main_v30 ((win2_2.blk t).view.emb _) = V c main_v30 _
  congr 1
  funext a; apply Fin.ext
  match a with
  | ⟨0, _⟩ => show win2_2.index t (0 : Fin 2) * 1 + 1 * 0 = 0; omega
  | ⟨1, _⟩ => show win2_2.index t (1 : Fin 2) * 1536 + 1 * q.val = 1536 * t.val + q.val; omega

/-! ## The logits row as one function of the arrays, and the cover -/

/-- Lane j of the logits: the GRU output row times row j of out_W, plus lane j of the bias row. -/
abbrev logitAt (V : Valn Ideal) (c : Dev nD) (j : Fin 50257) : Elt Ideal .f32 :=
  (∑ k : Fin 2048, gRow V c (ix2 (0 : Fin 1) k) * outW V c (ix2 j k)) + outB V c (ix2 (0 : Fin 1) j)

/-- The whole row, index by index. -/
abbrev logitsFn (V : Valn Ideal) (c : Dev nD) : (⟨S1x50257, .f32⟩ : BufTy).Contents (Elt Ideal) :=
  fun i => logitAt V c (⟨(i 1).val, idx2_lt1 i⟩ : Fin 50257)

/-- An index of the logits row is in tile t's block iff each coordinate is in the block's range, cut at the row's end. -/
theorem mem_blk2_3 (t : Fin cfg2.N) (i : S1x50257.Idx) :
    i ∈ ((cfg2.win 3).blk t).view.set ↔ ∀ a : Fin 2, win2_3.index t a * S1x1536.size a ≤ (i a).val ∧ (i a).val < win2_3.index t a * S1x1536.size a + win2_3.xsize (grid2.coords t) a := by
  show i ∈ ((View.whole main_v31).slice (win2_3.rect t)).set ↔ _
  rw [View.set_slice_whole, Rect.mem_set_unit]
  exact Iff.rfl

/-- What tile t writes back is its block of the logits row: the lanes 1536·t … inside the row. -/
theorem flushed2_3_eq (V : Valn Ideal) (c : Dev nD) (t : Fin cfg2.N) :
    (dat2 V c).flushed 3 t = ((cfg2.win 3).blk t).view.read (Elt Ideal) (logitsFn V c) := by
  obtain ⟨ht, -, -, -, -, -, -, d0, d1, -, -, -, -, x0, x1⟩ := grid_facts2 t
  funext y
  have hy0 : (y 0).val < 1 := (show (y 0).val < win2_3.xsize (grid2.coords t) (0 : Fin 2) from (y 0).isLt).trans_eq x0
  have hy1 : (y 1).val < min 1536 (50257 - 1536 * t.val) := (show (y 1).val < win2_3.xsize (grid2.coords t) (1 : Fin 2) from (y 1).isLt).trans_eq x1
  have hq : (y 1).val < 1536 := by omega
  have hin : 1536 * t.val + (y 1).val < 50257 := by omega
  have ex : win2_3.xinj (grid2.coords t) y = ix2 (0 : Fin 1) (⟨(y 1).val, hq⟩ : Fin 1536) := funext fun a => Fin.ext (by
    match a with
    | ⟨0, _⟩ => show (y 0).val = 0; omega
    | ⟨1, _⟩ => rfl)
  have ej : (⟨((((cfg2.win 3).blk t).view.emb y) 1).val, idx2_lt1 _⟩ : Fin 50257) = ⟨1536 * t.val + (y 1).val, hin⟩ := Fin.ext (by
    show win2_3.index t (1 : Fin 2) * 1536 + 1 * (y 1).val = 1536 * t.val + (y 1).val; omega)
  show projOut (iblk2 V c 0 t) (wfill V c t) (bfill V c t) (win2_3.xinj (grid2.coords t) y) = logitAt V c (⟨((((cfg2.win 3).blk t).view.emb y) 1).val, idx2_lt1 _⟩ : Fin 50257)
  rw [ex, ej, projOut_apply, bfill_apply V c t _ hin]
  refine congrArg (· + _) (Finset.sum_congr rfl fun k _ => ?_)
  rw [row_blk_apply, wfill_apply V c t _ k hin]

theorem arrAt2_3 (V : Valn Ideal) (c : Dev nD) (j : Fin 50257) :
    logitsArr V c (ix2 (0 : Fin 1) j)
      = (∑ k : Fin 2048, gRow V c (ix2 (0 : Fin 1) k) * outW V c (ix2 j k)) + outB V c (ix2 (0 : Fin 1) j) := by
  have hj : j.val < 50257 := j.isLt
  have htN : j.val / 1536 < cfg2.N := by rw [show cfg2.N = 33 from N_2]; omega
  obtain ⟨ht, -, -, -, -, -, -, d0, d1, -, -, -, -, x0, x1⟩ := grid_facts2 ⟨j.val / 1536, htN⟩
  simp only [Fin.val_mk] at d1 x1
  have hmem : ix2 (0 : Fin 1) j ∈ ((cfg2.win 3).blk ⟨j.val / 1536, htN⟩).view.set := by
    rw [mem_blk2_3]
    intro a
    match a with
    | ⟨0, _⟩ =>
      show win2_3.index ⟨j.val / 1536, htN⟩ (0 : Fin 2) * 1 ≤ 0 ∧ 0 < win2_3.index ⟨j.val / 1536, htN⟩ (0 : Fin 2) * 1 + win2_3.xsize (grid2.coords ⟨j.val / 1536, htN⟩) (0 : Fin 2); omega
    | ⟨1, _⟩ =>
      show win2_3.index ⟨j.val / 1536, htN⟩ (1 : Fin 2) * 1536 ≤ j.val ∧ j.val < win2_3.index ⟨j.val / 1536, htN⟩ (1 : Fin 2) * 1536 + win2_3.xsize (grid2.coords ⟨j.val / 1536, htN⟩) (1 : Fin 2); omega
  exact (dat2 V c).arrAt_apply_of_mem 3 (logitsFn V c) (fun t _ => flushed2_3_eq V c t) cfg2.N ⟨j.val / 1536, htN⟩
    (ix2 (0 : Fin 1) j) htN (flush2_3 _) hmem

end Cert.KernelIdeal.Hand

end
-- ==== Proof.Bridge.KVLogp.lean ====
/-
  The program's returned log-probabilities are the reference's. The last host stretch applies to region 2's output
  row the same log-softmax chain the reference applies to its logits row, so it is enough that the two rows agree lane
  by lane. Lane j of either is a row of 2048 lanes times row j of out_W plus lane j of out_b; the row region 2 enters
  with is the two rows of region 1's output array side by side, which are the reference's two new hidden rows, and
  those side by side are the reference's GRU output row.
-/
import proofs.«412461_j6141803233582_3_alg».proof.Proof.KI.HostVals
import proofs.«412461_j6141803233582_3_alg».proof.Proof.KI.Val2
import proofs.«412461_j6141803233582_3_alg».proof.Proof.Bridge.Tail
import proofs.«412461_j6141803233582_3_alg».proof.Proof.Bridge.KV
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx

open Cert.ReferenceIdeal.Read (val_main_v69 val_main_v105 val_main_v106 val_main_v113 val_main_v114)

namespace Logp

variable (m : (ℓ : Loc nD τ sig) → Buf (Elt Ideal) ℓ)

/-- Region 1's output array at its literal type. -/
abbrev hidArr (c : Dev nD) : (⟨S2x1x1024, .f32⟩ : BufTy).Contents (Elt Ideal) := (dat1 (V3 m) c).arrAt 4 cfg1.N

/-- A row of a [2, 1, 1024] array, sliced out and viewed as a [1, 1024] row, reads the array's row. -/
theorem row0_apply (A : (⟨S2x1x1024, .f32⟩ : BufTy).Contents (Elt Ideal)) (q : Fin 1024) :
    shapeCast S1x1024 (extractStridedSlice S1x1x1024 ![0, 0, 0] A slices_S2x1x1024_S1x1x1024_0_0_0)
        shapeCasts_S1x1x1024_S1x1024 (ix2 (0 : Fin 1) q) = A (ix3 (0 : Fin 2) (0 : Fin 1) q) := by
  refine (shapeCast_1ab_ab_apply _ _ (0 : Fin 1) q).trans ?_
  refine extractStridedSlice_apply _ _ _ _ _ fun a => ?_
  match a with
  | ⟨0, _⟩ => rfl
  | ⟨1, _⟩ => rfl
  | ⟨2, _⟩ => show q.val = 0 + q.val; omega
theorem row1_apply (A : (⟨S2x1x1024, .f32⟩ : BufTy).Contents (Elt Ideal)) (q : Fin 1024) :
    shapeCast S1x1024 (extractStridedSlice S1x1x1024 ![1, 0, 0] A slices_S2x1x1024_S1x1x1024_1_0_0)
        shapeCasts_S1x1x1024_S1x1024 (ix2 (0 : Fin 1) q) = A (ix3 (1 : Fin 2) (0 : Fin 1) q) := by
  refine (shapeCast_1ab_ab_apply _ _ (0 : Fin 1) q).trans ?_
  refine extractStridedSlice_apply _ _ _ _ _ fun a => ?_
  match a with
  | ⟨0, _⟩ => rfl
  | ⟨1, _⟩ => rfl
  | ⟨2, _⟩ => show q.val = 0 + q.val; omega

/-- The row region 2 enters with: its first 1024 lanes are row 0 of region 1's output array, its last 1024 row 1. -/
theorem gRow_lo (c : Dev nD) (q : Fin 1024) :
    gRow (V5 m) c (ix2 (0 : Fin 1) (⟨q.val, by omega⟩ : Fin 2048)) = hidArr m c (ix3 (0 : Fin 2) (0 : Fin 1) q) := by
  show (V5 m c main_v29 : (⟨S1x2048, .f32⟩ : BufTy).Contents (Elt Ideal)) _ = _
  rw [V5_v29, cat_row_lo, row0_apply]
theorem gRow_hi (c : Dev nD) (q : Fin 1024) :
    gRow (V5 m) c (ix2 (0 : Fin 1) (⟨1024 + q.val, by omega⟩ : Fin 2048)) = hidArr m c (ix3 (1 : Fin 2) (0 : Fin 1) q) := by
  show (V5 m c main_v29 : (⟨S1x2048, .f32⟩ : BufTy).Contents (Elt Ideal)) _ = _
  rw [V5_v29, cat_row_hi, row1_apply]

/-- The bias row region 2 enters with is out_b viewed as a row. -/
theorem outB_apply (c : Dev nD) (j : Fin 50257) :
    outB (V5 m) c (ix2 (0 : Fin 1) j) = (m ((c : Thread nD τ).loc main_arg18) : (⟨S50257, .f32⟩ : BufTy).Contents (Elt Ideal)) (ix1 j) := by
  show (V5 m c main_v30 : (⟨S1x50257, .f32⟩ : BufTy).Contents (Elt Ideal)) _ = _
  rw [V5_v30]
  exact shapeCast_a_1a_apply _ _ (0 : Fin 1) j
theorem outW_apply (c : Dev nD) (j : Fin 50257) (k : Fin 2048) :
    outW (V5 m) c (ix2 j k) = (m ((c : Thread nD τ).loc main_arg17) : (⟨S50257x2048, .f32⟩ : BufTy).Contents (Elt Ideal)) (ix2 j k) := by
  show (V5 m c main_arg17 : (⟨S50257x2048, .f32⟩ : BufTy).Contents (Elt Ideal)) _ = _
  rw [V5_arg17]

/-- The program's last host stretch and the reference's last fifteen operations are one chain of the logits row. -/
theorem kTail_eq (z : (⟨S1x50257, .f32⟩ : BufTy).Contents (Elt Ideal)) : kTail (F := Ideal) z = rTail z := by
  unfold kTail kShift rTail rShift rMax
  rfl

/-- Lane k of the row region 2 enters with is lane k of the reference's GRU output row. -/
theorem gRow_eq (c : Dev nD) (k : Fin 2048) :
    gRow (V5 m) c (ix2 (0 : Fin 1) k)
      = val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 (0 : Fin 1) k) := by
  obtain ⟨kv, hkv⟩ := k
  by_cases hk : kv < 1024
  · exact (gRow_lo m c ⟨kv, hk⟩).trans ((hid_rows m c ⟨kv, hk⟩).1.trans (gout_lo _ _ _ _ _ _ _ _ _ _ _ _ _ _ _ _ ⟨kv, hk⟩).symm)
  · have e : (⟨kv, hkv⟩ : Fin 2048) = ⟨1024 + (⟨kv - 1024, by omega⟩ : Fin 1024).val, by show 1024 + (kv - 1024) < 2048; omega⟩ :=
      Fin.ext (by show kv = 1024 + (kv - 1024); omega)
    rw [e]
    exact (gRow_hi m c ⟨kv - 1024, by omega⟩).trans ((hid_rows m c ⟨kv - 1024, by omega⟩).2.trans (gout_hi _ _ _ _ _ _ _ _ _ _ _ _ _ _ _ _ ⟨kv - 1024, by omega⟩).symm)

/-- Region 2's output array is the reference's logits row. -/
theorem logits_eq (c : Dev nD) :
    logitsArr (V5 m) c = val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  obtain ⟨i0, j, rfl⟩ : ∃ (i0 : Fin 1) (j : Fin 50257), i = ix2 i0 j := ⟨i 0, i 1, eq_ix2 i⟩
  obtain rfl : i0 = 0 := Subsingleton.elim _ _
  rw [arrAt2_3, logits_lane, outB_apply]
  refine congrArg (· + _) (Finset.sum_congr rfl fun k _ => ?_)
  rw [gRow_eq, outW_apply]

end Logp

variable (m : (ℓ : Loc nD τ sig) → Buf (Elt Ideal) ℓ)

/-- The program's returned log-probabilities are the reference's. -/
theorem kv_logp (c : Dev nD) :
    W7 m c (Proc.devRef .tc main_v32)
      = val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W7_v32 m c).trans ((Logp.kTail_eq _).trans ((congrArg rTail (Logp.logits_eq m c)).trans (tail_eq _ _ _ _ _ _ _ _ _ _ _ _ _ _ _ _ _ _).symm))

end Cert.Bridge

end
-- ==== Proof.lean ====
/-
  The certificate of one decoder step of an attention GRU: embedding gather, attention softmax over 64 positions,
  the rectified combine, a two-direction GRU cell, the vocabulary projection and log-softmax — three pallas_calls
  among four stretches of host operations — against its jnp reference, over the extended reals.
  The word-level program's frame is the launch of the three pallas_calls over their exact proof data read
  relationally, the last one's output left unnamed (its last vocabulary tile overhangs the array). The idealized
  program's run names every buffer at the end; its three results are the reference's three stage functions of the
  same arguments: each pallas_call's output array is its body's arithmetic of the arrays it enters with, the host
  stretches are read operation by operation, the reference's own 146 host operations are read chunk by chunk into
  its stage functions, and stage by stage the reference's operations are the kernel's
  (a matrix product as one sum over the contraction index, the kernel's logistic as 1 / (1 + exp(−x)), the shared
  softmax and log-softmax chains). No law used needs the inputs finite: only reindexing of finite sums.
-/
import proofs.«412461_j6141803233582_3_alg».proof.Defs
import proofs.«412461_j6141803233582_3_alg».proof.Proof.Gen.Kernel
import proofs.«412461_j6141803233582_3_alg».proof.Proof.Gen.KernelIdeal
import proofs.«412461_j6141803233582_3_alg».proof.Proof.Gen.ReferenceIdeal
import proofs.«412461_j6141803233582_3_alg».proof.Proof.Gen.Pre_finite_inputs
import proofs.«412461_j6141803233582_3_alg».proof.Proof.RefRead
import proofs.«412461_j6141803233582_3_alg».proof.Proof.RefStages
import proofs.«412461_j6141803233582_3_alg».proof.Proof.K.RunB
import proofs.«412461_j6141803233582_3_alg».proof.Proof.KI.RunI
import proofs.«412461_j6141803233582_3_alg».proof.Proof.KI.Reg2
import proofs.«412461_j6141803233582_3_alg».proof.Proof.KI.FoldArgs
import proofs.«412461_j6141803233582_3_alg».proof.Proof.Bridge.KV
import proofs.«412461_j6141803233582_3_alg».proof.Proof.Bridge.KVLogp
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel program's run, its results named -/

section KernelIdealRun

open Cert.KernelIdeal Cert.KernelIdeal.Gen Cert.KernelIdeal.Hand Cert.Bridge
open Cert.ReferenceIdeal.Read (val_main_v26 val_main_v109 val_main_v114)

/-- An unscoped TensorCore reference is among those the last thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution of the idealized kernel program ends with its three results at the reference's three
    stage functions of the launch arguments, and the arguments as launched. -/
theorem ki_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = val_main_v114 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v24) = val_main_v109 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v13_0) = val_main_v26 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v32 (by decide))).trans (kv_logp m c),
      (h c _ (mem_uc main_v24 (by decide))).trans (kv_hid m c),
      (h c _ (mem_uc main_v13_0 (by decide))).trans (kv_attn m c),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c),
      (h c _ (mem_uc main_arg11 (by decide))).trans (W7_main_arg11 m c),
      (h c _ (mem_uc main_arg12 (by decide))).trans (W7_main_arg12 m c),
      (h c _ (mem_uc main_arg13 (by decide))).trans (W7_main_arg13 m c),
      (h c _ (mem_uc main_arg14 (by decide))).trans (W7_main_arg14 m c),
      (h c _ (mem_uc main_arg15 (by decide))).trans (W7_main_arg15 m c),
      (h c _ (mem_uc main_arg16 (by decide))).trans (W7_main_arg16 m c),
      (h c _ (mem_uc main_arg17 (by decide))).trans (W7_main_arg17 m c),
      (h c _ (mem_uc main_arg18 (by decide))).trans (W7_main_arg18 m c)⟩)
    (run_all m ρ (fun c => body_obligation2 (V5 m) c))

end KernelIdealRun

/-! ## The claims -/

theorem frame_k : Cert.frame_Kernel := fun m ρ _ => Cert.Kernel.Hand.frame_all (F := Bits) m ρ

theorem frame_ki : Cert.frame_KernelIdeal := fun m ρ _ =>
  (θ_run Cert.KernelIdeal.defs _ _).mono (fun _ h c => (h c).2.2.2) (ki_run m ρ)

theorem frame_ri : Cert.frame_ReferenceIdeal := fun m ρ _ =>
  (θ_run Cert.ReferenceIdeal.defs _ _).mono (fun _ h c => (h c).2.2.2) (Cert.ReferenceIdeal.ValueP.ref_run m ρ)

/-- The ideal pass rewrote no operation. -/
theorem preserves : Cert.preserves_Kernel_KernelIdeal := trivial

/-- Both idealized programs end with the reference's three stage functions of the (agreeing) arguments. -/
theorem algebraic : Cert.algebraic_KernelIdeal_ReferenceIdeal := by
  intro m ρ m' ρ' _ hagree
  refine ⟨_, _, _, ki_run m ρ, ?_⟩
  refine (θ_run Cert.ReferenceIdeal.defs _ _).mono (fun r h c => ?_) (Cert.ReferenceIdeal.ValueP.ref_run m' ρ')
  obtain ⟨e0, e1, e2, e3, e4, e5, e6, e7, e8, e9, e10, e11, e12, e13, e14, e15, e16, e17, e18⟩ := hagree c
  obtain ⟨h114, h109, h26, hargs⟩ := h c
  refine ⟨h114.trans ?_, h109.trans ?_, h26.trans ?_, hargs⟩
  · rw [e0, e1, e3, e4, e5, e6, e7, e8, e9, e10, e11, e12, e13, e14, e15, e16, e17, e18]
  · rw [e0, e1, e3, e4, e5, e6, e7, e8, e9, e10, e11, e12, e13, e14, e15, e16]
  · rw [e0, e1, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
